-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v117) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x3 : Shape := ⟨2, ![100000, 3]⟩
abbrev S2x640000 : Shape := ⟨2, ![2, 640000]⟩
abbrev S100000 : Shape := ⟨1, ![100000]⟩
abbrev S3x128 : Shape := ⟨2, ![3, 128]⟩
abbrev S128 : Shape := ⟨1, ![128]⟩
abbrev S128x128 : Shape := ⟨2, ![128, 128]⟩
abbrev S128x4 : Shape := ⟨2, ![128, 4]⟩
abbrev S4 : Shape := ⟨1, ![4]⟩
abbrev S_ : Shape := ⟨0, ![]⟩

class Facts : Prop where
  bcast_S_S100000x3 : S_.BroadcastsInDim S100000x3 (![] : Fin 0 → Fin S100000x3.rank)
  reducesTo_S100000x3_S_d0_1 : S100000x3.ReducesTo [0, 1] S_
  h_S_ : 0 < S_.numel
  bcast_S_S3x128 : S_.BroadcastsInDim S3x128 (![] : Fin 0 → Fin S3x128.rank)
  reducesTo_S3x128_S_d0_1 : S3x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x4 : S_.BroadcastsInDim S128x4 (![] : Fin 0 → Fin S128x4.rank)
  reducesTo_S128x4_S_d0_1 : S128x4.ReducesTo [0, 1] S_
  bcast_S_S4 : S_.BroadcastsInDim S4 (![] : Fin 0 → Fin S4.rank)
  reducesTo_S4_S_d0 : S4.ReducesTo [0] S_

variable [Facts]

def fn_part3 {F : FTy → Type} [FloatOps F] (main_v48 : IVec S_ 1) (main_v49 : FVec F S4 .f32) (main_v50 : FVec F S4 .f32) : IVec S_ 1 :=
  let main_v51 : IVec S4 1 := cmpf .olt main_v49 main_v50
  let main_c_19 : IVec S_ 1 := constantI S_ 1 1#1
  let main_v52 : IVec S_ 1 := (fun x v => Host.reduce IntOp.andi x v reducesTo_S4_S_d0 h_S_) main_v51 main_c_19
  let main_v53 : IVec S_ 1 := andi main_v48 main_v52
  main_v53

def fn_part2 {F : FTy → Type} [FloatOps F] (main_arg9 : FVec F S128x128 .f32) (main_arg10 : FVec F S128 .f32) (main_arg11 : FVec F S128x4 .f32) (main_arg12 : FVec F S4 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x4 .f32 := Host.absf main_arg11
  let main_cst_16 : FVec F S_ .f32 := constant S_ .f32 0x7F800000#32
  let main_v45 : FVec F S128x4 .f32 := broadcastInDim S128x4 ![] bcast_S_S128x4 main_cst_16
  let main_v46 : IVec S128x4 1 := cmpf .olt main_v44 main_v45
  let main_c_17 : IVec S_ 1 := constantI S_ 1 1#1
  let main_v47 : IVec S_ 1 := (fun x v => Host.reduce IntOp.andi x v reducesTo_S128x4_S_d0_1 h_S_) main_v46 main_c_17
  let main_v48 : IVec S_ 1 := andi main_v43 main_v47
  let main_v49 : FVec F S4 .f32 := Host.absf main_arg12
  let main_cst_18 : FVec F S_ .f32 := constant S_ .f32 0x7F800000#32
  let main_v50 : FVec F S4 .f32 := broadcastInDim S4 ![] bcast_S_S4 main_cst_18
  fn_part3 (F := F) main_v48 main_v49 main_v50

def fn_part1 {F : FTy → Type} [FloatOps F] (main_arg6 : FVec F S128 .f32) (main_arg7 : FVec F S128x128 .f32) (main_arg8 : FVec F S128 .f32) (main_arg9 : FVec F S128x128 .f32) (main_arg10 : FVec F S128 .f32) (main_arg11 : FVec F S128x4 .f32) (main_arg12 : FVec F S4 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x3 .f32) (main_arg1 : IVec S2x640000 32) (main_arg2 : IVec S100000 32) (main_arg3 : FVec F S3x128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x4 .f32) (main_arg12 : FVec F S4 .f32) : IVec S_ 1 :=
  let main_v0 : FVec F S100000x3 .f32 := Host.absf main_arg0
  let main_cst : FVec F S_ .f32 := constant S_ .f32 0x7F800000#32
  let main_v1 : FVec F S100000x3 .f32 := broadcastInDim S100000x3 ![] bcast_S_S100000x3 main_cst
  let main_v2 : IVec S100000x3 1 := cmpf .olt main_v0 main_v1
  let main_c : IVec S_ 1 := constantI S_ 1 1#1
  let main_v3 : IVec S_ 1 := (fun x v => Host.reduce IntOp.andi x v reducesTo_S100000x3_S_d0_1 h_S_) main_v2 main_c
  let main_v4 : FVec F S3x128 .f32 := Host.absf main_arg3
  let main_cst_0 : FVec F S_ .f32 := constant S_ .f32 0x7F800000#32
  let main_v5 : FVec F S3x128 .f32 := broadcastInDim S3x128 ![] bcast_S_S3x128 main_cst_0
  let main_v6 : IVec S3x128 1 := cmpf .olt main_v4 main_v5
  let main_c_1 : IVec S_ 1 := constantI S_ 1 1#1
  let main_v7 : IVec S_ 1 := (fun x v => Host.reduce IntOp.andi x v reducesTo_S3x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_v13 main_v16
-- ==== Kernel.lean ====
abbrev S100000x3 : Shape := ⟨2, ![100000, 3]⟩
abbrev S2x640000 : Shape := ⟨2, ![2, 640000]⟩
abbrev S100000 : Shape := ⟨1, ![100000]⟩
abbrev S3x128 : Shape := ⟨2, ![3, 128]⟩
abbrev S128 : Shape := ⟨1, ![128]⟩
abbrev S128x128 : Shape := ⟨2, ![128, 128]⟩
abbrev S128x4 : Shape := ⟨2, ![128, 4]⟩
abbrev S4 : Shape := ⟨1, ![4]⟩
abbrev S1x640000 : Shape := ⟨2, ![1, 640000]⟩
abbrev S640000 : Shape := ⟨1, ![640000]⟩
abbrev S740000 : Shape := ⟨1, ![740000]⟩
abbrev S_ : Shape := ⟨0, ![]⟩
abbrev S740000x1 : Shape := ⟨2, ![740000, 1]⟩
abbrev S100000x1 : Shape := ⟨2, ![100000, 1]⟩
abbrev S100000x128 : Shape := ⟨2, ![100000, 128]⟩
abbrev S5000x3 : Shape := ⟨2, ![5000, 3]⟩
abbrev S5000x1 : Shape := ⟨2, ![5000, 1]⟩
abbrev S5000x128 : Shape := ⟨2, ![5000, 128]⟩
abbrev S740000x128 : Shape := ⟨2, ![740000, 128]⟩
abbrev S1x128 : Shape := ⟨2, ![1, 128]⟩
abbrev S1x4 : Shape := ⟨2, ![1, 4]⟩
abbrev S2048x4 : Shape := ⟨2, ![2048, 4]⟩
abbrev S1000x128 : Shape := ⟨2, ![1000, 128]⟩
abbrev S1000x1 : Shape := ⟨2, ![1000, 1]⟩
abbrev S2048x128 : Shape := ⟨2, ![2048, 128]⟩
abbrev S2048x1 : Shape := ⟨2, ![2048, 1]⟩
abbrev S1x2048 : Shape := ⟨2, ![1, 2048]⟩
abbrev S1000x2048 : Shape := ⟨2, ![1000, 2048]⟩

abbrev nBuf : Space → Nat
  | .hbm => 98
  | .vmem => 43
  | .smem => 0
  | _ => 0

abbrev bufTy : (tb : Table) → Fin (tcTables nBuf tb) → BufTy
  | .hbm, ⟨0, _⟩ => ⟨S100000x3, .f32⟩
  | .hbm, ⟨1, _⟩ => ⟨S2x640000, .i32⟩
  | .hbm, ⟨2, _⟩ => ⟨S100000, .i32⟩
  | .hbm, ⟨3, _⟩ => ⟨S3x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x4, .f32⟩
  | .hbm, ⟨12, _⟩ => ⟨S4, .f32⟩
  | .hbm, ⟨13, _⟩ => ⟨S100000, .i32⟩
  | .hbm, ⟨14, _⟩ => ⟨S1x640000, .i32⟩
  | .hbm, ⟨15, _⟩ => ⟨S640000, .i32⟩
  | .hbm, ⟨16, _⟩ => ⟨S740000, .i32⟩
  | .hbm, ⟨17, _⟩ => ⟨S1x640000, .i32⟩
  | .hbm, ⟨18, _⟩ => ⟨S640000, .i32⟩
  | .hbm, ⟨19, _⟩ => ⟨S740000, .i32⟩
  | .hbm, ⟨20, _⟩ => ⟨S_, .f32⟩
  | .hbm, ⟨21, _⟩ => ⟨S740000, .f32⟩
  | .hbm, ⟨22, _⟩ => ⟨S_, .f32⟩
  | .hbm, ⟨23, _⟩ => ⟨S100000, .f32⟩
  | .hbm, ⟨24, _⟩ => ⟨S740000x1, .i32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .i1⟩
  | .hbm, ⟨29, _⟩ => ⟨S100000, .f32⟩
  | .hbm, ⟨30, _⟩ => ⟨S_, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S_, .i32⟩
  | .hbm, ⟨37, _⟩ => ⟨S740000, .i32⟩
  | .hbm, ⟨38, _⟩ => ⟨S740000, .i1⟩
  | .hbm, ⟨39, _⟩ => ⟨S_, .i32⟩
  | .hbm, ⟨40, _⟩ => ⟨S740000, .i32⟩
  | .hbm, ⟨41, _⟩ => ⟨S740000, .i32⟩
  | .hbm, ⟨42, _⟩ => ⟨S740000, .i32⟩
  | .hbm, ⟨43, _⟩ => ⟨S740000x1, .i32⟩
  | .hbm, ⟨44, _⟩ => ⟨S740000x128, .f32⟩
  | .hbm, ⟨45, _⟩ => ⟨S_, .f32⟩
  | .hbm, ⟨46, _⟩ => ⟨S100000x128, .f32⟩
  | .hbm, ⟨47, _⟩ => ⟨S740000x1, .i32⟩
  | .hbm, ⟨48, _⟩ => ⟨S100000x128, .f32⟩
  | .hbm, ⟨49, _⟩ => ⟨S1x128, .f32⟩
  | .hbm, ⟨50, _⟩ => ⟨S100000x128, .f32⟩
  | .hbm, ⟨51, _⟩ => ⟨S_, .i32⟩
  | .hbm, ⟨52, _⟩ => ⟨S740000, .i32⟩
  | .hbm, ⟨53, _⟩ => ⟨S740000, .i1⟩
  | .hbm, ⟨54, _⟩ => ⟨S_, .i32⟩
  | .hbm, ⟨55, _⟩ => ⟨S740000, .i32⟩
  | .hbm, ⟨56, _⟩ => ⟨S740000, .i32⟩
  | .hbm, ⟨57, _⟩ => ⟨S740000, .i32⟩
  | .hbm, ⟨58, _⟩ => ⟨S740000x1, .i32⟩
  | .hbm, ⟨59, _⟩ => ⟨S740000x128, .f32⟩
  | .hbm, ⟨60, _⟩ => ⟨S_, .f32⟩
  | .hbm, ⟨61, _⟩ => ⟨S100000x128, .f32⟩
  | .hbm, ⟨62, _⟩ => ⟨S740000x1, .i32⟩
  | .hbm, ⟨63, _⟩ => ⟨S100000x128, .f32⟩
  | .hbm, ⟨64, _⟩ => ⟨S1x128, .f32⟩
  | .hbm, ⟨65, _⟩ => ⟨S100000x128, .f32⟩
  | .hbm, ⟨66, _⟩ => ⟨S_, .i32⟩
  | .hbm, ⟨67, _⟩ => ⟨S740000, .i32⟩
  | .hbm, ⟨68, _⟩ => ⟨S740000, .i1⟩
  | .hbm, ⟨69, _⟩ => ⟨S_, .i32⟩
  | .hbm, ⟨70, _⟩ => ⟨S740000, .i32⟩
  | .hbm, ⟨71, _⟩ => ⟨S740000, .i32⟩
  | .hbm, ⟨72, _⟩ => ⟨S740000, .i32⟩
  | .hbm, ⟨73, _⟩ => ⟨S740000x1, .i32⟩
  | .hbm, ⟨74, _⟩ => ⟨S740000x128, .f32⟩
  | .hbm, ⟨75, _⟩ => ⟨S_, .f32⟩
  | .hbm, ⟨76, _⟩ => ⟨S100000x128, .f32⟩
  | .hbm, ⟨77, _⟩ => ⟨S740000x1, .i32⟩
  | .hbm, ⟨78, _⟩ => ⟨S100000x128, .f32⟩
  | .hbm, ⟨79, _⟩ => ⟨S1x128, .f32⟩
  | .hbm, ⟨80, _⟩ => ⟨S100000x128, .f32⟩
  | .hbm, ⟨81, _⟩ => ⟨S_, .i32⟩
  | .hbm, ⟨82, _⟩ => ⟨S740000, .i32⟩
  | .hbm, ⟨83, _⟩ => ⟨S740000, .i1⟩
  | .hbm, ⟨84, _⟩ => ⟨S_, .i32⟩
  | .hbm, ⟨85, _⟩ => ⟨S740000, .i32⟩
  | .hbm, ⟨86, _⟩ => ⟨S740000, .i32⟩
  | .hbm, ⟨87, _⟩ => ⟨S740000, .i32⟩
  | .hbm, ⟨88, _⟩ => ⟨S740000x1, .i32⟩
  | .hbm, ⟨89, _⟩ => ⟨S740000x128, .f32⟩
  | .hbm, ⟨90, _⟩ => ⟨S_, .f32⟩
  | .hbm, ⟨91, _⟩ => ⟨S100000x128, .f32⟩
  | .hbm, ⟨92, _⟩ => ⟨S740000x1, .i32⟩
  | .hbm, ⟨93, _⟩ => ⟨S100000x128, .f32⟩
  | .hbm, ⟨94, _⟩ => ⟨S100000x1, .i32⟩
  | .hbm, ⟨95, _⟩ => ⟨S1x128, .f32⟩
  | .hbm, ⟨96, _⟩ => ⟨S1x4, .f32⟩
  | .hbm, ⟨97, _⟩ => ⟨S2048x4, .f32⟩
  | .local _ .vmem, ⟨0, _⟩ => ⟨S5000x3, .f32⟩
  | .local _ .vmem, ⟨1, _⟩ => ⟨S5000x3, .f32⟩
  | .local _ .vmem, ⟨2, _⟩ => ⟨S3x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x1, .f32⟩
  | .local _ .vmem, ⟨18, _⟩ => ⟨S5000x1, .f32⟩
  | .local _ .vmem, ⟨19, _⟩ => ⟨S1x128, .f32⟩
  | .local _ .vmem, ⟨20, _⟩ => ⟨S128x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x1, .f32⟩
  | .local _ .vmem, ⟨26, _⟩ => ⟨S5000x1, .f32⟩
  | .local _ .vmem, ⟨27, _⟩ => ⟨S1x128, .f32⟩
  | .local _ .vmem, ⟨28, _⟩ => ⟨S128x128, .f32⟩
  | .local _ .vmem, ⟨29, _⟩ => ⟨S5000x128, .f32⟩
  | .local _ .vmem, ⟨30, _⟩ => ⟨S5000x128, .f32⟩
  | .local _ .vmem, ⟨31, _⟩ => ⟨S1000x128, .f32⟩
  | .local _ .vmem, ⟨32, _⟩ => ⟨S1000x128, .f32⟩
  | .local _ .vmem, ⟨33, _⟩ => ⟨S1000x1, .f32⟩
  | .local _ .vmem, ⟨34, _⟩ => ⟨S1000x1, .f32⟩
  | .local _ .vmem, ⟨35, _⟩ => ⟨S1x128, .f32⟩
  | .local _ .vmem, ⟨36, _⟩ => ⟨S1000x1, .i32⟩
  | .local _ .vmem, ⟨37, _⟩ => ⟨S1000x1, .i32⟩
  | .local _ .vmem, ⟨38, _⟩ => ⟨S128x4, .f32⟩
  | .local _ .vmem, ⟨39, _⟩ => ⟨S1x4, .f32⟩
  | .local _ .vmem, ⟨40, _⟩ => ⟨S2048x4, .f32⟩
  | .local _ .vmem, ⟨41, _⟩ => ⟨S2048x128, .f32⟩
  | .local _ .vmem, ⟨42, _⟩ => ⟨S2048x1, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_c : Ref sig .tc := ⟨.hbm, 36, rfl⟩
abbrev main_v17 : Ref sig .tc := ⟨.hbm, 37, rfl⟩
abbrev main_v18 : Ref sig .tc := ⟨.hbm, 38, rfl⟩
abbrev main_c_3 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_cst_4 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_c_5 : Ref sig .tc := ⟨.hbm, 51, rfl⟩
abbrev main_v29 : Ref sig .tc := ⟨.hbm, 52, rfl⟩
abbrev main_v30 : Ref sig .tc := ⟨.hbm, 53, rfl⟩
abbrev main_c_6 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_7 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_c_8 : Ref sig .tc := ⟨.hbm, 66, rfl⟩
abbrev main_v41 : Ref sig .tc := ⟨.hbm, 67, rfl⟩
abbrev main_v42 : Ref sig .tc := ⟨.hbm, 68, rfl⟩
abbrev main_c_9 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_cst_10 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_c_11 : Ref sig .tc := ⟨.hbm, 81, rfl⟩
abbrev main_v53 : Ref sig .tc := ⟨.hbm, 82, rfl⟩
abbrev main_v54 : Ref sig .tc := ⟨.hbm, 83, rfl⟩
abbrev main_c_12 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_cst_13 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg4_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg4_1 : Ref sig .tc := ⟨.vmem, 30, rfl⟩
abbrev cc4_stg0_0 : Ref sig .tc := ⟨.vmem, 31, rfl⟩
abbrev cc4_stg0_1 : Ref sig .tc := ⟨.vmem, 32, rfl⟩
abbrev cc4_stg1_0 : Ref sig .tc := ⟨.vmem, 33, rfl⟩
abbrev cc4_stg1_1 : Ref sig .tc := ⟨.vmem, 34, rfl⟩
abbrev cc4_stg2_0 : Ref sig .tc := ⟨.vmem, 35, rfl⟩
abbrev cc4_stg3_0 : Ref sig .tc := ⟨.vmem, 36, rfl⟩
abbrev cc4_stg3_1 : Ref sig .tc := ⟨.vmem, 37, rfl⟩
abbrev cc4_stg4_0 : Ref sig .tc := ⟨.vmem, 38, rfl⟩
abbrev cc4_stg5_0 : Ref sig .tc := ⟨.vmem, 39, rfl⟩
abbrev cc4_stg6_0 : Ref sig .tc := ⟨.vmem, 40, rfl⟩
abbrev cc4_scratch0 : Ref sig .tc := ⟨.vmem, 41, rfl⟩
abbrev cc4_scratch1 : Ref sig .tc := ⟨.vmem, 42, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem4_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem3_0 : DmaSem sig := 28
abbrev cc3_sem4_0 : DmaSem sig := 29
abbrev cc3_sem4_1 : DmaSem sig := 30
abbrev cc4_sem0_0 : DmaSem sig := 31
abbrev cc4_sem0_1 : DmaSem sig := 32
abbrev cc4_sem1_0 : DmaSem sig := 33
abbrev cc4_sem1_1 : DmaSem sig := 34
abbrev cc4_sem2_0 : DmaSem sig := 35
abbrev cc4_sem3_0 : DmaSem sig := 36
abbrev cc4_sem3_1 : DmaSem sig := 37
abbrev cc4_sem4_0 : DmaSem sig := 38
abbrev cc4_sem5_0 : DmaSem sig := 39
abbrev cc4_sem6_0 : DmaSem sig := 40

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![100], ![false]⟩

def k4_cond2 (i : grid4.Coords) : BitVec 1 :=
  let arg0 : BitVec 32 := BitVec.ofNat 32 (i 0).val
  let c99_i32 : BitVec 32 := 99#32
  let v38 : BitVec 1 := Scalar.cmpi .eq arg0 c99_i32
  let v39 : BitVec 32 := Scalar.extui v38
  let c0_i32_19 : BitVec 32 := 0#32
  let v40 : BitVec 1 := Scalar.cmpi .ne v39 c0_i32_19
  v40

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S1000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S1000x1 .i32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 1 → Memref sig .tc .vmem S128x4 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x4 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S2048x4 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

class Facts₀ : Prop where
  slices_S2x640000_S1x640000_0_0 : S2x640000.Slices ![0, 0] S1x640000
  shapeCasts_S1x640000_S640000 : S1x640000.ShapeCasts S640000
  concatenates_S640000_S100000_S740000_d0 : Shape.Concatenates [S640000, S100000] S740000 0
  slices_S2x640000_S1x640000_1_0 : S2x640000.Slices ![1, 0] S1x640000
  bcast_S_S740000 : S_.BroadcastsInDim S740000 (![] : Fin 0 → Fin S740000.rank)
  bcast_S_S100000 : S_.BroadcastsInDim S100000 (![] : Fin 0 → Fin S100000.rank)
  bcast_S740000_S740000x1_0 : S740000.BroadcastsInDim S740000x1 (![0] : Fin 1 → Fin S740000x1.rank)
  shapeCasts_S100000_S100000x1 : S100000.ShapeCasts S100000x1
  inb_S5000x3_S5000x3_0_0 : ∀ a, (![0, 0] : Fin 2 → Nat) a + S5000x3.size a ≤ S5000x3.size a
  h_S5000x3 : 0 < S5000x3.numel
  bitsLt_bf16_f32 : FTy.bits .bf16 < FTy.bits .f32
  inb_S3x128_S3x128_0_0 : ∀ a, (![0, 0] : Fin 2 → Nat) a + S3x128.size a ≤ S3x128.size a
  h_S3x128 : 0 < S3x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S5000x128_S5000x128_0_0 : ∀ a, (![0, 0] : Fin 2 → Nat) a + S5000x128.size a ≤ S5000x128.size a
  h_S5000x128 : 0 < S5000x128.numel
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  shapeCasts_S4_S1x4 : S4.ShapeCasts S1x4
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  broadcasts_S1000x1_S1000x128 : S1000x1.Broadcasts S1000x128
  broadcasts_S1x128_S1000x128 : S1x128.Broadcasts S1000x128
  iota_S1x2048_d1_w32 : S1x2048.Iotas .tc 32 [1]
  broadcasts_S1000x1_S1000x2048 : S1000x1.Broadcasts S1000x2048
  broadcasts_S1x2048_S1000x2048 : S1x2048.Broadcasts S1000x2048
  natLt_1_32 : 1 < 32
  broadcasts_S2048x1_S2048x128 : S2048x1.Broadcasts S2048x128
  inb_S128x4_S128x4_0_0 : ∀ a, (![0, 0] : Fin 2 → Nat) a + S128x4.size a ≤ S128x4.size a
  h_S128x4 : 0 < S128x4.numel
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S2048x4 : S1x4.Broadcasts S2048x4
  inb_S2048x4_S2048x4_0_0 : ∀ a, (![0, 0] : Fin 2 → Nat) a + S2048x4.size a ≤ S2048x4.size a
  h_S2048x4 : 0 < S2048x4.numel
  scatter_S100000_S740000x1_S740000_n_0_0_1_wf : ScatterDims.WF S100000 S740000x1 S740000 [] [0] [0] 1
  dot_S5000x3_S3x128_S5000x128_1_0_0_1_n_n_wf : DotDims.WF S5000x3 S3x128 S5000x128 [1] [0] [0] [1] [] []
  gather_S100000x128_S740000x1_S740000x128_1_0_n_n_0_1_1128_wf : GatherDims.WF S100000x128 S740000x1 S740000x128 [1] [0] [] [0] [] 1 ![1, 128]
  scatter_S100000x128_S740000x1_S740000x128_1_0_0_1_wf : ScatterDims.WF S100000x128 S740000x1 S740000x128 [1] [0] [0] 1
  dot_S5000x128_S128x128_S5000x128_1_0_0_1_n_n_wf : DotDims.WF S5000x128 S128x128 S5000x128 [1] [0] [0] [1] [] []
  dot_S1000x2048_S1000x128_S2048x128_0_0_1_1_n_n_wf : DotDims.WF S1000x2048 S1000x128 S2048x128 [0] [0] [1] [1] [] []
  dot_S1000x2048_S1000x1_S2048x1_0_0_1_1_n_n_wf : DotDims.WF S1000x2048 S1000x1 S2048x1 [0] [0] [1] [1] [] []
  dot_S2048x128_S128x4_S2048x4_1_0_0_1_n_n_wf : DotDims.WF S2048x128 S128x4 S2048x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x3.size a ≤ S100000x3.size a
  hwx0_0 : ∀ i : grid0.Coords, EltTy.bits .f32 = 32 ∨ (Rect.block (s := S100000x3) S5000x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x128.size a ≤ S3x128.size a
  hwx0_1 : ∀ i : grid0.Coords, EltTy.bits .f32 = 32 ∨ (Rect.block (s := S3x128) S3x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S100000x128.size a
  hwx2_4 : ∀ i : grid2.Coords, EltTy.bits .f32 = 32 ∨ (Rect.block (s := S100000x128) S5000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .f32 = 32 ∨ (Rect.block (s := S100000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S100000x128.size a
  hwx3_4 : ∀ i : grid3.Coords, EltTy.bits .f32 = 32 ∨ (Rect.block (s := S100000x128) S5000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1000x128.size a ≤ S100000x128.size a
  hwx4_0 : ∀ i : grid4.Coords, EltTy.bits .f32 = 32 ∨ (Rect.block (s := S100000x128) S1000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1000x1.size a ≤ S100000x1.size a
  hwx4_1 : ∀ i : grid4.Coords, EltTy.bits .f32 = 32 ∨ (Rect.block (s := S100000x1) S1000x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1000x1.size a ≤ S100000x1.size a
  hwx4_3 : ∀ i : grid4.Coords, EltTy.bits .i32 = 32 ∨ (Rect.block (s := S100000x1) S1000x1.size (cc4_transform_3 i) (hinb4_3 i)).WholeWords (EltTy.packing .i32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x4.size a ≤ S128x4.size a
  hwx4_4 : ∀ i : grid4.Coords, EltTy.bits .f32 = 32 ∨ (Rect.block (s := S128x4) S128x4.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x4.size a ≤ S1x4.size a
  hwx4_5 : ∀ i : grid4.Coords, EltTy.bits .f32 = 32 ∨ (Rect.block (s := S1x4) S1x4.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S2048x4.size a ≤ S2048x4.size a
  hwx4_6 : ∀ i : grid4.Coords, EltTy.bits .f32 = 32 ∨ (Rect.block (s := S2048x4) S2048x4.size (cc4_transform_6 i) (hinb4_6 i)).WholeWords (EltTy.packing .f32)

variable [Facts₀]

def scatter_S100000_S740000x1_S740000_n_0_0_1 : ScatterDims S100000 S740000x1 S740000 where
  updateWindowDims := []
  insertedWindowDims := [0]
  scatterDimsToOperandDims := [0]
  indexVectorDim := 1
  wf := scatter_S100000_S740000x1_S740000_n_0_0_1_wf
def dot_S5000x3_S3x128_S5000x128_1_0_0_1_n_n : DotDims S5000x3 S3x128 S5000x128 where
  lhsContracting := [1]
  rhsContracting := [0]
  lhsNonContracting := [0]
  rhsNonContracting := [1]
  lhsBatch := []
  rhsBatch := []
  wf := dot_S5000x3_S3x128_S5000x128_1_0_0_1_n_n_wf
def gather_S100000x128_S740000x1_S740000x128_1_0_n_n_0_1_1128 : GatherDims S100000x128 S740000x1 S740000x128 where
  offsetDims := [1]
  collapsedSliceDims := [0]
  operandBatchingDims := []
  startIndicesBatchingDims := []
  startIndexMap := [0]
  indexVectorDim := 1
  sliceSizes := ![1, 128]
  wf := gather_S100000x128_S740000x1_S740000x128_1_0_n_n_0_1_1128_wf
def scatter_S100000x128_S740000x1_S740000x128_1_0_0_1 : ScatterDims S100000x128 S740000x1 S740000x128 where
  updateWindowDims := [1]
  insertedWindowDims := [0]
  scatterDimsToOperandDims := [0]
  indexVectorDim := 1
  wf := scatter_S100000x128_S740000x1_S740000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S1000x2048_S1000x128_S2048x128_0_0_1_1_n_n : DotDims S1000x2048 S1000x128 S2048x128 where
  lhsContracting := [0]
  rhsContracting := [0]
  lhsNonContracting := [1]
  rhsNonContracting := [1]
  lhsBatch := []
  rhsBatch := []
  wf := dot_S1000x2048_S1000x128_S2048x128_0_0_1_1_n_n_wf
def dot_S1000x2048_S1000x1_S2048x1_0_0_1_1_n_n : DotDims S1000x2048 S1000x1 S2048x1 where
  lhsContracting := [0]
  rhsContracting := [0]
  lhsNonContracting := [1]
  rhsNonContracting := [1]
  lhsBatch := []
  rhsBatch := []
  wf := dot_S1000x2048_S1000x1_S2048x1_0_0_1_1_n_n_wf
def dot_S2048x128_S128x4_S2048x4_1_0_0_1_n_n : DotDims S2048x128 S128x4 S2048x4 where
  lhsContracting := [1]
  rhsContracting := [0]
  lhsNonContracting := [0]
  rhsNonContracting := [1]
  lhsBatch := []
  rhsBatch := []
  wf := dot_S2048x128_S128x4_S2048x4_1_0_0_1_n_n_wf

abbrev win0_0 : Pipeline.Window sig grid0 :=
  Pipeline.Window.ofSpec (Memref.whole main_arg0) S5000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S3x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v38) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v39) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg7) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v40) S5000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v50) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v15) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v51) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg9) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v52) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v62) S1000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v15) S1000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v64) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v63) S1000x1.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_arg11) S128x4.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v65) S1x4.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v66) S2048x4.size cc4_transform_6 reads4_6 true true 1 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev idle4 : Fin 7 → grid4.Coords → Bool := fun | 0 => fun _ => false | 1 => fun _ => false | 2 => fun _ => false | 3 => fun _ => false | 4 => fun _ => false | 5 => fun _ => false | 6 => fun i => !(k4_cond2 i == 1#1) | ⟨_ + 7, h⟩ => absurd h (Nat.not_lt.2 (Nat.le_add_left _ _))

class Facts : Prop extends Facts₀ where

variable [Facts]
-- ==== ReferenceIdeal.lean ====
abbrev S100000x3 : Shape := ⟨2, ![100000, 3]⟩
abbrev S2x640000 : Shape := ⟨2, ![2, 640000]⟩
abbrev S100000 : Shape := ⟨1, ![100000]⟩
abbrev S3x128 : Shape := ⟨2, ![3, 128]⟩
abbrev S128 : Shape := ⟨1, ![128]⟩
abbrev S128x128 : Shape := ⟨2, ![128, 128]⟩
abbrev S128x4 : Shape := ⟨2, ![128, 4]⟩
abbrev S4 : Shape := ⟨1, ![4]⟩
abbrev S1x640000 : Shape := ⟨2, ![1, 640000]⟩
abbrev S640000 : Shape := ⟨1, ![640000]⟩
abbrev S740000 : Shape := ⟨1, ![740000]⟩
abbrev S_ : Shape := ⟨0, ![]⟩
abbrev S740000x1 : Shape := ⟨2, ![740000, 1]⟩
abbrev S100000x128 : Shape := ⟨2, ![100000, 128]⟩
abbrev S740000x128 : Shape := ⟨2, ![740000, 128]⟩
abbrev S1x128 : Shape := ⟨2, ![1, 128]⟩
abbrev S2048x128 : Shape := ⟨2, ![2048, 128]⟩
abbrev S100000x1 : Shape := ⟨2, ![100000, 1]⟩
abbrev S2048 : Shape := ⟨1, ![2048]⟩
abbrev S2048x1 : Shape := ⟨2, ![2048, 1]⟩
abbrev S2048x4 : Shape := ⟨2, ![2048, 4]⟩
abbrev S1x4 : Shape := ⟨2, ![1, 4]⟩

abbrev nBuf : Space → Nat
  | .hbm => 165
  | .vmem => 0
  | .smem => 0
  | _ => 0

abbrev hbmTy0_0 (i : Nat) : BufTy := match i % 128 with
  | 0 => ⟨S100000x3, .f32⟩
  | 1 => ⟨S2x640000, .i32⟩
  | 2 => ⟨S100000, .i32⟩
  | 3 => ⟨S3x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128x4, .f32⟩
  | 12 => ⟨S4, .f32⟩
  | 13 => ⟨S100000, .i32⟩
  | 14 => ⟨S1x640000, .i32⟩
  | 15 => ⟨S640000, .i32⟩
  | 16 => ⟨S740000, .i32⟩
  | 17 => ⟨S1x640000, .i32⟩
  | 18 => ⟨S640000, .i32⟩
  | 19 => ⟨S740000, .i32⟩
  | 20 => ⟨S_, .f32⟩
  | 21 => ⟨S740000, .f32⟩
  | 22 => ⟨S_, .f32⟩
  | 23 => ⟨S100000, .f32⟩
  | 24 => ⟨S740000x1, .i32⟩
  | 25 => ⟨S100000, .f32⟩
  | 26 => ⟨S_, .f32⟩
  | 27 => ⟨S100000, .f32⟩
  | 28 => ⟨S100000, .i1⟩
  | 29 => ⟨S100000, .f32⟩
  | 30 => ⟨S_, .f32⟩
  | 31 => ⟨S_, .f32⟩
  | 32 => ⟨S100000, .f32⟩
  | 33 => ⟨S100000, .f32⟩
  | 34 => ⟨S_, .i32⟩
  | 35 => ⟨S740000, .i32⟩
  | 36 => ⟨S740000, .i1⟩
  | 37 => ⟨S_, .i32⟩
  | 38 => ⟨S740000, .i32⟩
  | 39 => ⟨S740000, .i32⟩
  | 40 => ⟨S740000, .i32⟩
  | 41 => ⟨S740000x1, .i32⟩
  | 42 => ⟨S740000, .f32⟩
  | 43 => ⟨S_, .i32⟩
  | 44 => ⟨S740000, .i32⟩
  | 45 => ⟨S740000, .i1⟩
  | 46 => ⟨S_, .i32⟩
  | 47 => ⟨S740000, .i32⟩
  | 48 => ⟨S740000, .i32⟩
  | 49 => ⟨S740000, .i32⟩
  | 50 => ⟨S740000x1, .i32⟩
  | 51 => ⟨S740000, .f32⟩
  | 52 => ⟨S740000, .f32⟩
  | 53 => ⟨S100000x128, .f32⟩
  | 54 => ⟨S_, .i32⟩
  | 55 => ⟨S740000, .i32⟩
  | 56 => ⟨S740000, .i1⟩
  | 57 => ⟨S_, .i32⟩
  | 58 => ⟨S740000, .i32⟩
  | 59 => ⟨S740000, .i32⟩
  | 60 => ⟨S740000, .i32⟩
  | 61 => ⟨S740000x1, .i32⟩
  | 62 => ⟨S740000x128, .f32⟩
  | 63 => ⟨S740000x1, .f32⟩
  | 64 => ⟨S740000x128, .f32⟩
  | 65 => ⟨S740000x128, .f32⟩
  | 66 => ⟨S_, .f32⟩
  | 67 => ⟨S100000x128, .f32⟩
  | 68 => ⟨S740000x1, .i32⟩
  | 69 => ⟨S100000x128, .f32⟩
  | 70 => ⟨S1x128, .f32⟩
  | 71 => ⟨S100000x128, .f32⟩
  | 72 => ⟨S100000x128, .f32⟩
  | 73 => ⟨S_, .f32⟩
  | 74 => ⟨S100000x128, .f32⟩
  | 75 => ⟨S100000x128, .f32⟩
  | 76 => ⟨S100000x128, .f32⟩
  | 77 => ⟨S_, .i32⟩
  | 78 => ⟨S740000, .i32⟩
  | 79 => ⟨S740000, .i1⟩
  | 80 => ⟨S_, .i32⟩
  | 81 => ⟨S740000, .i32⟩
  | 82 => ⟨S740000, .i32⟩
  | 83 => ⟨S740000, .i32⟩
  | 84 => ⟨S740000x1, .i32⟩
  | 85 => ⟨S740000x128, .f32⟩
  | 86 => ⟨S740000x1, .f32⟩
  | 87 => ⟨S740000x128, .f32⟩
  | 88 => ⟨S740000x128, .f32⟩
  | 89 => ⟨S_, .f32⟩
  | 90 => ⟨S100000x128, .f32⟩
  | 91 => ⟨S740000x1, .i32⟩
  | 92 => ⟨S100000x128, .f32⟩
  | 93 => ⟨S1x128, .f32⟩
  | 94 => ⟨S100000x128, .f32⟩
  | 95 => ⟨S100000x128, .f32⟩
  | 96 => ⟨S_, .f32⟩
  | 97 => ⟨S100000x128, .f32⟩
  | 98 => ⟨S100000x128, .f32⟩
  | 99 => ⟨S100000x128, .f32⟩
  | 100 => ⟨S_, .i32⟩
  | 101 => ⟨S740000, .i32⟩
  | 102 => ⟨S740000, .i1⟩
  | 103 => ⟨S_, .i32⟩
  | 104 => ⟨S740000, .i32⟩
  | 105 => ⟨S740000, .i32⟩
  | 106 => ⟨S740000, .i32⟩
  | 107 => ⟨S740000x1, .i32⟩
  | 108 => ⟨S740000x128, .f32⟩
  | 109 => ⟨S740000x1, .f32⟩
  | 110 => ⟨S740000x128, .f32⟩
  | 111 => ⟨S740000x128, .f32⟩
  | 112 => ⟨S_, .f32⟩
  | 113 => ⟨S100000x128, .f32⟩
  | 114 => ⟨S740000x1, .i32⟩
  | 115 => ⟨S100000x128, .f32⟩
  | 116 => ⟨S1x128, .f32⟩
  | 117 => ⟨S100000x128, .f32⟩
  | 118 => ⟨S100000x128, .f32⟩
  | 119 => ⟨S_, .f32⟩
  | 120 => ⟨S100000x128, .f32⟩
  | 121 => ⟨S100000x128, .f32⟩
  | 122 => ⟨S100000x128, .f32⟩
  | 123 => ⟨S_, .i32⟩
  | 124 => ⟨S740000, .i32⟩
  | 125 => ⟨S740000, .i1⟩
  | 126 => ⟨S_, .i32⟩
  | 127 => ⟨S740000, .i32⟩
  | _ => ⟨S100000x3, .f32⟩

abbrev hbmTy0_1 (i : Nat) : BufTy := match i % 128 with
  | 0 => ⟨S740000, .i32⟩
  | 1 => ⟨S740000, .i32⟩
  | 2 => ⟨S740000x1, .i32⟩
  | 3 => ⟨S740000x128, .f32⟩
  | 4 => ⟨S740000x1, .f32⟩
  | 5 => ⟨S740000x128, .f32⟩
  | 6 => ⟨S740000x128, .f32⟩
  | 7 => ⟨S_, .f32⟩
  | 8 => ⟨S100000x128, .f32⟩
  | 9 => ⟨S740000x1, .i32⟩
  | 10 => ⟨S100000x128, .f32⟩
  | 11 => ⟨S1x128, .f32⟩
  | 12 => ⟨S100000x128, .f32⟩
  | 13 => ⟨S100000x128, .f32⟩
  | 14 => ⟨S_, .f32⟩
  | 15 => ⟨S100000x128, .f32⟩
  | 16 => ⟨S100000x128, .f32⟩
  | 17 => ⟨S_, .f32⟩
  | 18 => ⟨S2048x128, .f32⟩
  | 19 => ⟨S100000x1, .i32⟩
  | 20 => ⟨S2048x128, .f32⟩
  | 21 => ⟨S_, .f32⟩
  | 22 => ⟨S100000, .f32⟩
  | 23 => ⟨S_, .f32⟩
  | 24 => ⟨S2048, .f32⟩
  | 25 => ⟨S100000x1, .i32⟩
  | 26 => ⟨S2048, .f32⟩
  | 27 => ⟨S_, .f32⟩
  | 28 => ⟨S2048, .f32⟩
  | 29 => ⟨S2048, .f32⟩
  | 30 => ⟨S2048x1, .f32⟩
  | 31 => ⟨S2048x128, .f32⟩
  | 32 => ⟨S2048x128, .f32⟩
  | 33 => ⟨S2048x4, .f32⟩
  | 34 => ⟨S1x4, .f32⟩
  | 35 => ⟨S2048x4, .f32⟩
  | 36 => ⟨S2048x4, .f32⟩
  | _ => ⟨S100000x3, .f32⟩

abbrev hbmTy (i : Nat) : BufTy := match i / 128 with
  | 0 => hbmTy0_0 i
  | 1 => hbmTy0_1 i
  | _ => ⟨S100000x3, .f32⟩

abbrev bufTy : (tb : Table) → Fin (tcTables nBuf tb) → BufTy
  | .hbm, ⟨i, _⟩ => hbmTy i
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v14 : Ref sig .tc := ⟨.hbm, 33, rfl⟩
abbrev main_c : Ref sig .tc := ⟨.hbm, 34, rfl⟩
abbrev main_v15 : Ref sig .tc := ⟨.hbm, 35, rfl⟩
abbrev main_v16 : Ref sig .tc := ⟨.hbm, 36, rfl⟩
abbrev main_c_3 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c_4 : Ref sig .tc := ⟨.hbm, 43, rfl⟩
abbrev main_v22 : Ref sig .tc := ⟨.hbm, 44, rfl⟩
abbrev main_v23 : Ref sig .tc := ⟨.hbm, 45, rfl⟩
abbrev main_c_5 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_c_6 : Ref sig .tc := ⟨.hbm, 54, rfl⟩
abbrev main_v31 : Ref sig .tc := ⟨.hbm, 55, rfl⟩
abbrev main_v32 : Ref sig .tc := ⟨.hbm, 56, rfl⟩
abbrev main_c_7 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_8 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_call1_cst : Ref sig .tc := ⟨.hbm, 73, rfl⟩
abbrev main_call1_v0 : Ref sig .tc := ⟨.hbm, 74, rfl⟩
abbrev main_v47 : Ref sig .tc := ⟨.hbm, 75, rfl⟩
abbrev main_v48 : Ref sig .tc := ⟨.hbm, 76, rfl⟩
abbrev main_c_9 : Ref sig .tc := ⟨.hbm, 77, rfl⟩
abbrev main_v49 : Ref sig .tc := ⟨.hbm, 78, rfl⟩
abbrev main_v50 : Ref sig .tc := ⟨.hbm, 79, rfl⟩
abbrev main_c_10 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_11 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_call2_cst : Ref sig .tc := ⟨.hbm, 96, rfl⟩
abbrev main_call2_v0 : Ref sig .tc := ⟨.hbm, 97, rfl⟩
abbrev main_v65 : Ref sig .tc := ⟨.hbm, 98, rfl⟩
abbrev main_v66 : Ref sig .tc := ⟨.hbm, 99, rfl⟩
abbrev main_c_12 : Ref sig .tc := ⟨.hbm, 100, rfl⟩
abbrev main_v67 : Ref sig .tc := ⟨.hbm, 101, rfl⟩
abbrev main_v68 : Ref sig .tc := ⟨.hbm, 102, rfl⟩
abbrev main_c_13 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_cst_14 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_call3_cst : Ref sig .tc := ⟨.hbm, 119, rfl⟩
abbrev main_call3_v0 : Ref sig .tc := ⟨.hbm, 120, rfl⟩
abbrev main_v83 : Ref sig .tc := ⟨.hbm, 121, rfl⟩
abbrev main_v84 : Ref sig .tc := ⟨.hbm, 122, rfl⟩
abbrev main_c_15 : Ref sig .tc := ⟨.hbm, 123, rfl⟩
abbrev main_v85 : Ref sig .tc := ⟨.hbm, 124, rfl⟩
abbrev main_v86 : Ref sig .tc := ⟨.hbm, 125, rfl⟩
abbrev main_c_16 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_cst_17 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_call4_cst : Ref sig .tc := ⟨.hbm, 142, rfl⟩
abbrev main_call4_v0 : Ref sig .tc := ⟨.hbm, 143, rfl⟩
abbrev main_v101 : Ref sig .tc := ⟨.hbm, 144, rfl⟩
abbrev main_cst_18 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_cst_19 : Ref sig .tc := ⟨.hbm, 149, rfl⟩
abbrev main_v105 : Ref sig .tc := ⟨.hbm, 150, rfl⟩
abbrev main_cst_20 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_cst_21 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  concatenates_S640000_S100000_S740000_d0 : Shape.Concatenates [S640000, S100000] S740000 0
  slices_S2x640000_S1x640000_1_0 : S2x640000.Slices ![1, 0] S1x640000
  bcast_S_S740000 : S_.BroadcastsInDim S740000 (![] : Fin 0 → Fin S740000.rank)
  bcast_S_S100000 : S_.BroadcastsInDim S100000 (![] : Fin 0 → Fin S100000.rank)
  bcast_S740000_S740000x1_0 : S740000.BroadcastsInDim S740000x1 (![0] : Fin 1 → Fin S740000x1.rank)
  bcast_S740000x1_S740000x128_0_1 : S740000x1.BroadcastsInDim S740000x128 (![0, 1] : Fin 2 → Fin S740000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S2048x128 : S_.BroadcastsInDim S2048x128 (![] : Fin 0 → Fin S2048x128.rank)
  bcast_S100000_S100000x1_0 : S100000.BroadcastsInDim S100000x1 (![0] : Fin 1 → Fin S100000x1.rank)
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x128_0_1 : S2048x1.BroadcastsInDim S2048x128 (![0, 1] : Fin 2 → Fin S2048x128.rank)
  bcast_S4_S1x4_1 : S4.BroadcastsInDim S1x4 (![1] : Fin 1 → Fin S1x4.rank)
  bcast_S1x4_S2048x4_0_1 : S1x4.BroadcastsInDim S2048x4 (![0, 1] : Fin 2 → Fin S2048x4.rank)
  scatter_S100000_S740000x1_S740000_n_0_0_1_wf : ScatterDims.WF S100000 S740000x1 S740000 [] [0] [0] 1
  gather_S100000_S740000x1_S740000_n_0_n_n_0_1_1_wf : GatherDims.WF S100000 S740000x1 S740000 [] [0] [] [0] [] 1 ![1]
  dot_S100000x3_S3x128_S100000x128_1_0_0_1_n_n_wf : DotDims.WF S100000x3 S3x128 S100000x128 [1] [0] [0] [1] [] []
  gather_S100000x128_S740000x1_S740000x128_1_0_n_n_0_1_1128_wf : GatherDims.WF S100000x128 S740000x1 S740000x128 [1] [0] [] [0] [] 1 ![1, 128]
  scatter_S100000x128_S740000x1_S740000x128_1_0_0_1_wf : ScatterDims.WF S100000x128 S740000x1 S740000x128 [1] [0] [0] 1
  dot_S100000x128_S128x128_S100000x128_1_0_0_1_n_n_wf : DotDims.WF S100000x128 S128x128 S100000x128 [1] [0] [0] [1] [] []
  scatter_S2048x128_S100000x1_S100000x128_1_0_0_1_wf : ScatterDims.WF S2048x128 S100000x1 S100000x128 [1] [0] [0] 1
  scatter_S2048_S100000x1_S100000_n_0_0_1_wf : ScatterDims.WF S2048 S100000x1 S100000 [] [0] [0] 1
  dot_S2048x128_S128x4_S2048x4_1_0_0_1_n_n_wf : DotDims.WF S2048x128 S128x4 S2048x4 [1] [0] [0] [1] [] []

variable [Facts₀]

def scatter_S100000_S740000x1_S740000_n_0_0_1 : ScatterDims S100000 S740000x1 S740000 where
  updateWindowDims := []
  insertedWindowDims := [0]
  scatterDimsToOperandDims := [0]
  indexVectorDim := 1
  wf := scatter_S100000_S740000x1_S740000_n_0_0_1_wf
def gather_S100000_S740000x1_S740000_n_0_n_n_0_1_1 : GatherDims S100000 S740000x1 S740000 where
  offsetDims := []
  collapsedSliceDims := [0]
  operandBatchingDims := []
  startIndicesBatchingDims := []
  startIndexMap := [0]
  indexVectorDim := 1
  sliceSizes := ![1]
  wf := gather_S100000_S740000x1_S740000_n_0_n_n_0_1_1_wf
def dot_S100000x3_S3x128_S100000x128_1_0_0_1_n_n : DotDims S100000x3 S3x128 S100000x128 where
  lhsContracting := [1]
  rhsContracting := [0]
  lhsNonContracting := [0]
  rhsNonContracting := [1]
  lhsBatch := []
  rhsBatch := []
  wf := dot_S100000x3_S3x128_S100000x128_1_0_0_1_n_n_wf
def gather_S100000x128_S740000x1_S740000x128_1_0_n_n_0_1_1128 : GatherDims S100000x128 S740000x1 S740000x128 where
  offsetDims := [1]
  collapsedSliceDims := [0]
  operandBatchingDims := []
  startIndicesBatchingDims := []
  startIndexMap := [0]
  indexVectorDim := 1
  sliceSizes := ![1, 128]
  wf := gather_S100000x128_S740000x1_S740000x128_1_0_n_n_0_1_1128_wf
def scatter_S100000x128_S740000x1_S740000x128_1_0_0_1 : ScatterDims S100000x128 S740000x1 S740000x128 where
  updateWindowDims := [1]
  insertedWindowDims := [0]
  scatterDimsToOperandDims := [0]
  indexVectorDim := 1
  wf := scatter_S100000x128_S740000x1_S740000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S2048x128_S100000x1_S100000x128_1_0_0_1 : ScatterDims S2048x128 S100000x1 S100000x128 where
  updateWindowDims := [1]
  insertedWindowDims := [0]
  scatterDimsToOperandDims := [0]
  indexVectorDim := 1
  wf := scatter_S2048x128_S100000x1_S100000x128_1_0_0_1_wf
def scatter_S2048_S100000x1_S100000_n_0_0_1 : ScatterDims S2048 S100000x1 S100000 where
  updateWindowDims := []
  insertedWindowDims := [0]
  scatterDimsToOperandDims := [0]
  indexVectorDim := 1
  wf := scatter_S2048_S100000x1_S100000_n_0_0_1_wf
def dot_S2048x128_S128x4_S2048x4_1_0_0_1_n_n : DotDims S2048x128 S128x4 S2048x4 where
  lhsContracting := [1]
  rhsContracting := [0]
  lhsNonContracting := [0]
  rhsNonContracting := [1]
  lhsBatch := []
  rhsBatch := []
  wf := dot_S2048x128_S128x4_S2048x4_1_0_0_1_n_n_wf

class Facts : Prop extends Facts₀ where

variable [Facts]
-- ==== Proof.KI.Reg0.lean ====
import proofs.«419651_j51711406244070_2_alg».proof.Proof.Gen.KernelIdeal.Launch
import proofs.«419651_j51711406244070_2_alg».proof.Proof.Gen.KernelIdeal.Skeleton
import proofs.«419651_j51711406244070_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_x : Rect S5000x3 := Rect.unit (s := S5000x3) ![0, 0] S5000x3.size inb_S5000x3_S5000x3_0_0
abbrev r0_w : Rect S3x128 := Rect.unit (s := S3x128) ![0, 0] S3x128.size inb_S3x128_S3x128_0_0
abbrev r0_d : Rect S5000x1 := Rect.unit (s := S5000x1) ![0, 0] S5000x1.size inb_S5000x1_S5000x1_0_0
abbrev r0_o : Rect S5000x128 := Rect.unit (s := S5000x128) ![0, 0] S5000x128.size inb_S5000x128_S5000x128_0_0

/-- The output block after the body: the one whole-block store, over the payload of the three input blocks. -/
def out0_3 (x0 : Vec F S5000x3 .f32) (x1 : Vec F S3x128 .f32) (x2 : Vec F S5000x1 .f32) : Vec F S5000x128 .f32 :=
  View.canon [⟨r0_o, k0_pay1 (View.ld x0 r0_x) (View.ld x1 r0_w) (View.ld x2 r0_d)⟩]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-! ## The input windows at a point -/

/-- Input window 0's current staging buffer holds its block at every point, fetched there or not, for any proof data
    whose array is the entry contents' and whose body leaves the block in place: unfetched, the block index has not
    moved, so the block of the point before is this point's. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the weights, one block for the whole grid, fetched at the first point only): the same. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 (the scale column): the same. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The output block's one store covers it -/

/-- The one store is of the whole block, so it covers it. -/
theorem cover0_3 (p0 : Vec F S5000x128 .f32) (y : S5000x128.Idx) :
    ∃ pc ∈ ([⟨r0_o, p0⟩] : List (View.Piece (Elt F) S5000x128 .f32)), y ∈ pc.1.set :=
  View.cover_of_tiled [⟨r0_o, p0⟩] S5000x128.size (by rfl) y

/-! ## The body's triple -/

set_option maxHeartbeats 1000000 in
/-- The kernel body on whole staging memrefs, the three inputs' at read contents and the output's at anything, runs to
    the continuation holding the inputs' as they were and the output's at the one store's payload over them. The body
    also loads the output block before storing it; the loaded value is not used. -/
theorem sound_kernel0 (c : Dev nD) (E : Set ℕ) (i : grid0.Coords)
    (arg1 : Memref sig .tc .vmem S5000x3 .f32) (harg1 : arg1.IsWhole) (arg2 : Memref sig .tc .vmem S3x128 .f32) (harg2 : arg2.IsWhole)
    (arg3 : Memref sig .tc .vmem S5000x1 .f32) (harg3 : arg3.IsWhole) (arg4 : Memref sig .tc .vmem S5000x128 .f32) (harg4 : arg4.IsWhole)
    (x0 : Vec F S5000x3 .f32) (x1 : Vec F S3x128 .f32) (x2 : Vec F S5000x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__lin_kernel i arg1 harg1 arg2 harg2 arg3 harg3 arg4 harg4) K := by
  simp only [cc0__lin_kernel_eq_skeleton]; unfold cc0__lin_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1.lean ====
import proofs.«419651_j51711406244070_2_alg».proof.Proof.Gen.KernelIdeal.Launch
import proofs.«419651_j51711406244070_2_alg».proof.Proof.Gen.KernelIdeal.Skeleton
import proofs.«419651_j51711406244070_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place: an unfetched point has the block index of
    the point before it, so the buffer still holds this point's block. The window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s and whose body leaves the block in place: an unfetched point has the block index of
    the point before it, so the buffer still holds this point's block. The window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s and whose body leaves the block in place: an unfetched point has the block index of
    the point before it, so the buffer still holds this point's block. The window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s and whose body leaves the block in place: an unfetched point has the block index of
    the point before it, so the buffer still holds this point's block. The window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

abbrev r1_a : Rect S5000x128 := Rect.unit (s := S5000x128) ![0, 0] S5000x128.size inb_S5000x128_S5000x128_0_0
abbrev r1_d : Rect S5000x1 := Rect.unit (s := S5000x1) ![0, 0] S5000x1.size inb_S5000x1_S5000x1_0_0
abbrev r1_b : Rect S1x128 := Rect.unit (s := S1x128) ![0, 0] S1x128.size inb_S1x128_S1x128_0_0
abbrev r1_w : Rect S128x128 := Rect.unit (s := S128x128) ![0, 0] S128x128.size inb_S128x128_S128x128_0_0

/-- The output block after the body: the one whole-block store, over the payload of the four input blocks
    (the scale column is loaded twice). -/
def out1_4 (x0 : Vec F S5000x128 .f32) (x1 : Vec F S5000x1 .f32) (x2 : Vec F S1x128 .f32) (x3 : Vec F S128x128 .f32) : Vec F S5000x128 .f32 :=
  View.canon [⟨r1_a, k1_pay1 (View.ld x0 r1_a) (View.ld x1 r1_d) (View.ld x2 r1_b) (View.ld x3 r1_w) (View.ld x1 r1_d)⟩]

/-- The one store is through the whole block, so it covers every index. -/
theorem cover1_4 (p0 : Vec F S5000x128 .f32) (y : S5000x128.Idx) :
    ∃ pc ∈ ([⟨r1_a, p0⟩] : List (View.Piece (Elt F) S5000x128 .f32)), y ∈ pc.1.set :=
  View.cover_of_tiled [⟨r1_a, p0⟩] S5000x128.size (by rfl) y

set_option maxHeartbeats 1000000 in
/-- The kernel body on whole staging memrefs, the four inputs' at read contents `x0 … x3` and the output's at anything,
    runs to the continuation holding the inputs' as they were and the output's at `out1_4` of the inputs'. The scale
    column is loaded twice (the same contents both times); the output block is loaded once before the store, and that
    value goes nowhere. -/
theorem sound_kernel1 (c : Dev nD) (E : Set ℕ) (i : grid1.Coords)
    (arg0 : Memref sig .tc .vmem S5000x128 .f32) (harg0 : arg0.IsWhole) (arg1 : Memref sig .tc .vmem S5000x1 .f32) (harg1 : arg1.IsWhole)
    (arg2 : Memref sig .tc .vmem S1x128 .f32) (harg2 : arg2.IsWhole) (arg3 : Memref sig .tc .vmem S128x128 .f32) (harg3 : arg3.IsWhole)
    (arg4 : Memref sig .tc .vmem S5000x128 .f32) (harg4 : arg4.IsWhole)
    (x0 : Vec F S5000x128 .f32) (x1 : Vec F S5000x1 .f32) (x2 : Vec F S1x128 .f32) (x3 : Vec F S128x128 .f32) (K : PUnit → sProp 𝕄) :
    iprop(owns (c : Thread nD τ) arg0 fullShare x0 ∗ owns (c : Thread nD τ) arg1 fullShare x1
        ∗ owns (c : Thread nD τ) arg2 fullShare x2 ∗ owns (c : Thread nD τ) arg3 fullShare x3
        ∗ (∃ d, owns (c : Thread nD τ) arg4 fullShare d)
        ∗ (iprop(owns (c : Thread nD τ) arg0 fullShare x0 ∗ owns (c : Thread nD τ) arg1 fullShare x1
            ∗ owns (c : Thread nD τ) arg2 fullShare x2 ∗ owns (c : Thread nD τ) arg3 fullShare x3
            ∗ owns (c : Thread nD τ) arg4 fullShare (out1_4 x0 x1 x2 x3)) -∗ K ⟨⟩))
      ⊢ wp frame (wpE (defs₀ (F := F)) Variants.none c none) E (cc1__fused_kernel i arg0 harg0 arg1 harg1 arg2 harg2 arg3 harg3 arg4 harg4) K := by
  simp only [cc1__fused_kernel_eq_skeleton]; unfold cc1__fused_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is called with at point `t`: the invariant, the core's debts, and the five windows' current staging
    buffers at what the pipeline left in them, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so the body's triple applies; the invariant and
    the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Reg2.lean ====
import proofs.«419651_j51711406244070_2_alg».proof.Proof.Gen.KernelIdeal.Launch
import proofs.«419651_j51711406244070_2_alg».proof.Proof.Gen.KernelIdeal.Skeleton
import proofs.«419651_j51711406244070_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s and whose body leaves the block in place: an unfetched point has the block index of
    the point before it, so the buffer still holds this point's block. The window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is `V`'s and whose body leaves the block in place: an unfetched point has the block index of
    the point before it, so the buffer still holds this point's block. The window is uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof
    data whose array is `V`'s and whose body leaves the block in place: an unfetched point has the block index of
    the point before it, so the buffer still holds this point's block. The window is uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof
    data whose array is `V`'s and whose body leaves the block in place: an unfetched point has the block index of
    the point before it, so the buffer still holds this point's block. The window is uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

abbrev r2_a : Rect S5000x128 := Rect.unit (s := S5000x128) ![0, 0] S5000x128.size inb_S5000x128_S5000x128_0_0
abbrev r2_d : Rect S5000x1 := Rect.unit (s := S5000x1) ![0, 0] S5000x1.size inb_S5000x1_S5000x1_0_0
abbrev r2_b : Rect S1x128 := Rect.unit (s := S1x128) ![0, 0] S1x128.size inb_S1x128_S1x128_0_0
abbrev r2_w : Rect S128x128 := Rect.unit (s := S128x128) ![0, 0] S128x128.size inb_S128x128_S128x128_0_0

/-- The output block after the body: the one whole-block store, over the payload of the four input blocks
    (the scale column is loaded twice). -/
def out2_4 (x0 : Vec F S5000x128 .f32) (x1 : Vec F S5000x1 .f32) (x2 : Vec F S1x128 .f32) (x3 : Vec F S128x128 .f32) : Vec F S5000x128 .f32 :=
  View.canon [⟨r2_a, k2_pay1 (View.ld x0 r2_a) (View.ld x1 r2_d) (View.ld x2 r2_b) (View.ld x3 r2_w) (View.ld x1 r2_d)⟩]

/-- The one store is through the whole block, so it covers every index. -/
theorem cover2_4 (p0 : Vec F S5000x128 .f32) (y : S5000x128.Idx) :
    ∃ pc ∈ ([⟨r2_a, p0⟩] : List (View.Piece (Elt F) S5000x128 .f32)), y ∈ pc.1.set :=
  View.cover_of_tiled [⟨r2_a, p0⟩] S5000x128.size (by rfl) y

set_option maxHeartbeats 1000000 in
/-- The kernel body on whole staging memrefs, the four inputs' at read contents `x0 … x3` and the output's at anything,
    runs to the continuation holding the inputs' as they were and the output's at `out2_4` of the inputs'. The scale
    column is loaded twice (the same contents both times); the output block is loaded once before the store, and that
    value goes nowhere. -/
theorem sound_kernel2 (c : Dev nD) (E : Set ℕ) (i : grid2.Coords)
    (arg0 : Memref sig .tc .vmem S5000x128 .f32) (harg0 : arg0.IsWhole) (arg1 : Memref sig .tc .vmem S5000x1 .f32) (harg1 : arg1.IsWhole)
    (arg2 : Memref sig .tc .vmem S1x128 .f32) (harg2 : arg2.IsWhole) (arg3 : Memref sig .tc .vmem S128x128 .f32) (harg3 : arg3.IsWhole)
    (arg4 : Memref sig .tc .vmem S5000x128 .f32) (harg4 : arg4.IsWhole)
    (x0 : Vec F S5000x128 .f32) (x1 : Vec F S5000x1 .f32) (x2 : Vec F S1x128 .f32) (x3 : Vec F S128x128 .f32) (K : PUnit → sProp 𝕄) :
    iprop(owns (c : Thread nD τ) arg0 fullShare x0 ∗ owns (c : Thread nD τ) arg1 fullShare x1
        ∗ owns (c : Thread nD τ) arg2 fullShare x2 ∗ owns (c : Thread nD τ) arg3 fullShare x3
        ∗ (∃ d, owns (c : Thread nD τ) arg4 fullShare d)
        ∗ (iprop(owns (c : Thread nD τ) arg0 fullShare x0 ∗ owns (c : Thread nD τ) arg1 fullShare x1
            ∗ owns (c : Thread nD τ) arg2 fullShare x2 ∗ owns (c : Thread nD τ) arg3 fullShare x3
            ∗ owns (c : Thread nD τ) arg4 fullShare (out2_4 x0 x1 x2 x3)) -∗ K ⟨⟩))
      ⊢ wp frame (wpE (defs₀ (F := F)) Variants.none c none) E (cc2__fused_kernel i arg0 harg0 arg1 harg1 arg2 harg2 arg3 harg3 arg4 harg4) K := by
  simp only [cc2__fused_kernel_eq_skeleton]; unfold cc2__fused_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) :
    (dat2 V c).after 4 t = out2_4 (iblk2 V c 0 t) (iblk2 V c 1 t) (iblk2 V c 2 t) (iblk2 V c 3 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-- What the body is called with at point `t`: the invariant, the core's debts, and the five windows' current staging
    buffers at what the pipeline left in them, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' memrefs hold their blocks, so the body's triple applies; the invariant and
    the core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Reg3.lean ====
import proofs.«419651_j51711406244070_2_alg».proof.Proof.Gen.KernelIdeal.Launch
import proofs.«419651_j51711406244070_2_alg».proof.Proof.Gen.KernelIdeal.Skeleton
import proofs.«419651_j51711406244070_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof
    data whose array is `V`'s and whose body leaves the block in place: an unfetched point has the block index of
    the point before it, so the buffer still holds this point's block. The window is uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not, for any proof
    data whose array is `V`'s and whose body leaves the block in place: an unfetched point has the block index of
    the point before it, so the buffer still holds this point's block. The window is uncut and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not, for any proof
    data whose array is `V`'s and whose body leaves the block in place: an unfetched point has the block index of
    the point before it, so the buffer still holds this point's block. The window is uncut and never idle. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not, for any proof
    data whose array is `V`'s and whose body leaves the block in place: an unfetched point has the block index of
    the point before it, so the buffer still holds this point's block. The window is uncut and never idle. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

abbrev r3_a : Rect S5000x128 := Rect.unit (s := S5000x128) ![0, 0] S5000x128.size inb_S5000x128_S5000x128_0_0
abbrev r3_d : Rect S5000x1 := Rect.unit (s := S5000x1) ![0, 0] S5000x1.size inb_S5000x1_S5000x1_0_0
abbrev r3_b : Rect S1x128 := Rect.unit (s := S1x128) ![0, 0] S1x128.size inb_S1x128_S1x128_0_0
abbrev r3_w : Rect S128x128 := Rect.unit (s := S128x128) ![0, 0] S128x128.size inb_S128x128_S128x128_0_0

/-- The output block after the body: the one whole-block store, over the payload of the four input blocks
    (the scale column is loaded twice). -/
def out3_4 (x0 : Vec F S5000x128 .f32) (x1 : Vec F S5000x1 .f32) (x2 : Vec F S1x128 .f32) (x3 : Vec F S128x128 .f32) : Vec F S5000x128 .f32 :=
  View.canon [⟨r3_a, k3_pay1 (View.ld x0 r3_a) (View.ld x1 r3_d) (View.ld x2 r3_b) (View.ld x3 r3_w) (View.ld x1 r3_d)⟩]

/-- The one store is through the whole block, so it covers every index. -/
theorem cover3_4 (p0 : Vec F S5000x128 .f32) (y : S5000x128.Idx) :
    ∃ pc ∈ ([⟨r3_a, p0⟩] : List (View.Piece (Elt F) S5000x128 .f32)), y ∈ pc.1.set :=
  View.cover_of_tiled [⟨r3_a, p0⟩] S5000x128.size (by rfl) y

set_option maxHeartbeats 1000000 in
/-- The kernel body on whole staging memrefs, the four inputs' at read contents `x0 … x3` and the output's at anything,
    runs to the continuation holding the inputs' as they were and the output's at `out3_4` of the inputs'. The scale
    column is loaded twice (the same contents both times); the output block is loaded once before the store, and that
    value goes nowhere. -/
theorem sound_kernel3 (c : Dev nD) (E : Set ℕ) (i : grid3.Coords)
    (arg0 : Memref sig .tc .vmem S5000x128 .f32) (harg0 : arg0.IsWhole) (arg1 : Memref sig .tc .vmem S5000x1 .f32) (harg1 : arg1.IsWhole)
    (arg2 : Memref sig .tc .vmem S1x128 .f32) (harg2 : arg2.IsWhole) (arg3 : Memref sig .tc .vmem S128x128 .f32) (harg3 : arg3.IsWhole)
    (arg4 : Memref sig .tc .vmem S5000x128 .f32) (harg4 : arg4.IsWhole)
    (x0 : Vec F S5000x128 .f32) (x1 : Vec F S5000x1 .f32) (x2 : Vec F S1x128 .f32) (x3 : Vec F S128x128 .f32) (K : PUnit → sProp 𝕄) :
    iprop(owns (c : Thread nD τ) arg0 fullShare x0 ∗ owns (c : Thread nD τ) arg1 fullShare x1
        ∗ owns (c : Thread nD τ) arg2 fullShare x2 ∗ owns (c : Thread nD τ) arg3 fullShare x3
        ∗ (∃ d, owns (c : Thread nD τ) arg4 fullShare d)
        ∗ (iprop(owns (c : Thread nD τ) arg0 fullShare x0 ∗ owns (c : Thread nD τ) arg1 fullShare x1
            ∗ owns (c : Thread nD τ) arg2 fullShare x2 ∗ owns (c : Thread nD τ) arg3 fullShare x3
            ∗ owns (c : Thread nD τ) arg4 fullShare (out3_4 x0 x1 x2 x3)) -∗ K ⟨⟩))
      ⊢ wp frame (wpE (defs₀ (F := F)) Variants.none c none) E (cc3__fused_kernel i arg0 harg0 arg1 harg1 arg2 harg2 arg3 harg3 arg4 harg4) K := by
  simp only [cc3__fused_kernel_eq_skeleton]; unfold cc3__fused_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3_4 _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) :
    (dat3 V c).after 4 t = out3_4 (iblk3 V c 0 t) (iblk3 V c 1 t) (iblk3 V c 2 t) (iblk3 V c 3 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-- What the body is called with at point `t`: the invariant, the core's debts, and the five windows' current staging
    buffers at what the pipeline left in them, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

/-- The body at any point: the inputs' memrefs hold their blocks, so the body's triple applies; the invariant and
    the core's debts pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Reg4.lean ====
import proofs.«419651_j51711406244070_2_alg».proof.Proof.Gen.KernelIdeal.Launch
import proofs.«419651_j51711406244070_2_alg».proof.Proof.Gen.KernelIdeal.Skeleton
import proofs.«419651_j51711406244070_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The running sum scratch after point `n`: the first point starts from the zero fill, every later one from what the
    point before left. -/
def accAt (c : Dev nD) : (n : ℕ) → n < cfg4.N → Vec F S2048x128 .f32
  | 0, h => k4_pay6 (iblk4 V c 0 ⟨0, h⟩) (iblk4 V c 1 ⟨0, h⟩) (iblk4 V c 2 ⟨0, h⟩) (iblk4 V c 3 ⟨0, h⟩) k4_pay3
  | n + 1, h => k4_pay6 (iblk4 V c 0 ⟨n + 1, h⟩) (iblk4 V c 1 ⟨n + 1, h⟩) (iblk4 V c 2 ⟨n + 1, h⟩) (iblk4 V c 3 ⟨n + 1, h⟩)
      (accAt c n (Nat.lt_of_succ_lt h))

/-- The running count scratch after point `n`, likewise. -/
def cntAt (c : Dev nD) : (n : ℕ) → n < cfg4.N → Vec F S2048x1 .f32
  | 0, h => k4_pay1 (k4_pay7 (iblk4 V c 3 ⟨0, h⟩) k4_pay4)
  | n + 1, h => k4_pay1 (k4_pay7 (iblk4 V c 3 ⟨n + 1, h⟩) (cntAt c n (Nat.lt_of_succ_lt h)))

/-- What the last point stores into the output block: the quotient of the two scratch buffers after that point's
    update, through the final product and bias. (Consulted at the last point only: the output window is idle before.) -/
def out4_6 (c : Dev nD) (t : Fin cfg4.N) : Vec F S2048x4 .f32 :=
  k4_pay2 (accAt V c t.val t.isLt) (cntAt V c t.val t.isLt) (iblk4 V c 4 t) (iblk4 V c 5 t)

/-- The body's invariant between points: before the first point the class-A one (every scoped buffer at anything, the
    generator register); after point `n` the two scratch buffers at the running sum and count, the other scoped
    buffers at anything, the generator register. -/
def Φ4 (c : Dev nD) (t : Fin (cfg4.N + 1)) : sProp 𝕄 :=
  match t with
  | ⟨0, _⟩ => Pipeline.ΦA spec4 c
  | ⟨n + 1, h⟩ => iprop(owns (c : Thread nD τ) (Memref.whole cc4_scratch0) fullShare (accAt V c n (Nat.lt_of_succ_lt_succ h))
      ∗ owns (c : Thread nD τ) (Memref.whole cc4_scratch1) fullShare (cntAt V c n (Nat.lt_of_succ_lt_succ h))
      ∗ Pipeline.scopedRestBut (Ix := Unit) (Name := ℕ) (U := UR sig nD τ) (Lvl := ℕ) (Val := Elt F) spec4 c [cc4_scratch0, cc4_scratch1]
      ∗ ∃ r, prngReg c r)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => out4_6 V c t
  Φ t := Φ4 V c t
  q _ := fullShare
  owed _ := 0

theorem A_eq4 (c : Dev nD) (w : Fin cfg4.W) : (dat4 V c).A w = V c (Pipeline.arrRef spec4 w) := by
  dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = out4_6 V c t := by dsimp only [dat4]

/-! ## The two branch conditions, in closed form over the grid -/

/-- The condition of the first branch as the body computes it from the grid coordinate: "the coordinate is zero". -/
abbrev cond4_first (i : grid4.Coords) : BitVec 1 :=
  let arg0 : BitVec 32 := BitVec.ofNat 32 (i 0).val
  let v0 : BitVec 1 := Scalar.cmpi .eq arg0 0#32
  let v1 : BitVec 32 := Scalar.extui v0
  let v2 : BitVec 1 := Scalar.cmpi .ne v1 0#32
  v2

/-- It holds at the first point only. -/
theorem hcond4_first : ∀ t : Fin cfg4.N, cond4_first (grid4.coords t) = 1#1 ↔ t.val = 0 :=
  (by decide +kernel : ∀ t : Fin grid4.N, cond4_first (grid4.coords t) = 1#1 ↔ t.val = 0)

/-- The second branch's condition, "the coordinate is 99", holds at the last point only. -/
theorem hcond4_last : ∀ t : Fin cfg4.N, k4_cond2 (grid4.coords t) = 1#1 ↔ t.val = 99 :=
  (by decide +kernel : ∀ t : Fin grid4.N, k4_cond2 (grid4.coords t) = 1#1 ↔ t.val = 99)

/-! ## The invariant at the first point, after a point, and after the last -/

/-- Before the first point the invariant is the class-A one. -/
theorem Φ4_zero (c : Dev nD) : (dat4 V c).Φ 0 = Pipeline.ΦA spec4 c := by
  first | rfl | dsimp only [dat4, Φ4] | fail "Φ4_zero"

/-- After point n the invariant holds the two scratch buffers at the running sum and count of that point. -/
theorem Φ4_succ (c : Dev nD) (n : ℕ) (h : n + 1 < cfg4.N + 1) :
    (dat4 V c).Φ ⟨n + 1, h⟩ = iprop(owns (c : Thread nD τ) (Memref.whole cc4_scratch0) fullShare (accAt V c n (Nat.lt_of_succ_lt_succ h))
      ∗ owns (c : Thread nD τ) (Memref.whole cc4_scratch1) fullShare (cntAt V c n (Nat.lt_of_succ_lt_succ h))
      ∗ Pipeline.scopedRestBut (Ix := Unit) (Name := ℕ) (U := UR sig nD τ) (Lvl := ℕ) (Val := Elt F) spec4 c [cc4_scratch0, cc4_scratch1]
      ∗ ∃ r, prngReg c r) := by
  first | rfl | dsimp only [dat4, Φ4] | fail "Φ4_succ"

/-- After the last point it gives the class-A one back: the two scratch buffers rejoin the scoped rest. -/
theorem Φ4_last (c : Dev nD) : (dat4 V c).Φ (Fin.last cfg4.N) ⊢ (Pipeline.ΦA spec4 c : sProp 𝕄) := by
  rw [show Fin.last cfg4.N = ⟨99 + 1, by decide⟩ from Fin.ext (by decide), Φ4_succ]
  unfold Pipeline.ΦA
  rw [scopedRest4_split, owns_whole, owns_whole]
  iintro ⟨H0, H1, Hrest, Hr⟩
  isplitr [Hr]
  · isplitr [Hrest]
    · isplitl [H0]
      · iexists _; iexact H0
      · iexists _; iexact H1
    · iexact Hrest
  · iexact Hr

/-! ## What the body finds in the six input windows' buffers -/

/-- Each input window's current staging buffer holds its block at every point, fetched there or not: an input not
    fetched at a point has the block index of the point before, and the body leaves the block in place. -/
theorem before4_0 (c : Dev nD) (t : Fin cfg4.N) (d) : (dat4 V c).before 0 t d = iblk4 V c 0 t :=
  ((dat4 V c).before_in_eq_fetched 0 rfl (fun _ => rfl) (fun _ _ _ => rfl) (fun t => by rw [after4_0]; unfold Dat.blockOf iblk4; rw [A_eq4]; try rfl) t d).trans
    (by unfold Dat.fetched Dat.blockOf iblk4; rw [A_eq4]; try rfl)
theorem before4_1 (c : Dev nD) (t : Fin cfg4.N) (d) : (dat4 V c).before 1 t d = iblk4 V c 1 t :=
  ((dat4 V c).before_in_eq_fetched 1 rfl (fun _ => rfl) (fun _ _ _ => rfl) (fun t => by rw [after4_1]; unfold Dat.blockOf iblk4; rw [A_eq4]; try rfl) t d).trans
    (by unfold Dat.fetched Dat.blockOf iblk4; rw [A_eq4]; try rfl)
theorem before4_2 (c : Dev nD) (t : Fin cfg4.N) (d) : (dat4 V c).before 2 t d = iblk4 V c 2 t :=
  ((dat4 V c).before_in_eq_fetched 2 rfl (fun _ => rfl) (fun _ _ _ => rfl) (fun t => by rw [after4_2]; unfold Dat.blockOf iblk4; rw [A_eq4]; try rfl) t d).trans
    (by unfold Dat.fetched Dat.blockOf iblk4; rw [A_eq4]; try rfl)
theorem before4_3 (c : Dev nD) (t : Fin cfg4.N) (d) : (dat4 V c).before 3 t d = iblk4 V c 3 t :=
  ((dat4 V c).before_in_eq_fetched 3 rfl (fun _ => rfl) (fun _ _ _ => rfl) (fun t => by rw [after4_3]; unfold Dat.blockOf iblk4; rw [A_eq4]; try rfl) t d).trans
    (by unfold Dat.fetched Dat.blockOf iblk4; rw [A_eq4]; try rfl)
theorem before4_4 (c : Dev nD) (t : Fin cfg4.N) (d) : (dat4 V c).before 4 t d = iblk4 V c 4 t :=
  ((dat4 V c).before_in_eq_fetched 4 rfl (fun _ => rfl) (fun _ _ _ => rfl) (fun t => by rw [after4_4]; unfold Dat.blockOf iblk4; rw [A_eq4]; try rfl) t d).trans
    (by unfold Dat.fetched Dat.blockOf iblk4; rw [A_eq4]; try rfl)
theorem before4_5 (c : Dev nD) (t : Fin cfg4.N) (d) : (dat4 V c).before 5 t d = iblk4 V c 5 t :=
  ((dat4 V c).before_in_eq_fetched 5 rfl (fun _ => rfl) (fun _ _ _ => rfl) (fun t => by rw [after4_5]; unfold Dat.blockOf iblk4; rw [A_eq4]; try rfl) t d).trans
    (by unfold Dat.fetched Dat.blockOf iblk4; rw [A_eq4]; try rfl)

/-! ## The body's triple, case by case

The body on whole staging memrefs and the two scratch memrefs. In every case the six inputs are read and left as
found; the running-sum scratch ends at the update of what it held (after the zero fill, at the first point), the
running-count scratch likewise; the output buffer is stored only at the last point, from the two scratch buffers as
just updated. -/

theorem hz4 : (![0, 0] : Fin 2 → Nat) = fun _ => 0 := funext fun a => by fin_cases a <;> rfl

set_option maxHeartbeats 2000000 in
theorem sound_kernel4_A (c : Dev nD) (E : Set ℕ) (i : grid4.Coords)
    (arg1 : Memref sig .tc .vmem S1000x128 .f32) (harg1 : arg1.IsWhole) (arg2 : Memref sig .tc .vmem S1000x1 .f32) (harg2 : arg2.IsWhole)
    (arg3 : Memref sig .tc .vmem S1x128 .f32) (harg3 : arg3.IsWhole) (arg4 : Memref sig .tc .vmem S1000x1 .i32) (harg4 : arg4.IsWhole)
    (arg5 : Memref sig .tc .vmem S128x4 .f32) (harg5 : arg5.IsWhole) (arg6 : Memref sig .tc .vmem S1x4 .f32) (harg6 : arg6.IsWhole)
    (arg7 : Memref sig .tc .vmem S2048x4 .f32) (harg7 : arg7.IsWhole) (arg8 : Memref sig .tc .vmem S2048x128 .f32) (harg8 : arg8.IsWhole)
    (arg9 : Memref sig .tc .vmem S2048x1 .f32) (harg9 : arg9.IsWhole)
    (hc1 : cond4_first i = 1#1) (hc2 : ¬ k4_cond2 i = 1#1)
    (x0 : Vec F S1000x128 .f32) (x1 : Vec F S1000x1 .f32) (x2 : Vec F S1x128 .f32) (x3 : Vec F S1000x1 .i32)
    (x4 : Vec F S128x4 .f32) (x5 : Vec F S1x4 .f32) (y6 : Vec F S2048x4 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare y6 ∗ (∃ a, owns (c : Thread nD τ) arg8 fullShare a) ∗ (∃ n, owns (c : Thread nD τ) arg9 fullShare n)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare y6 ∗ owns (c : Thread nD τ) arg8 fullShare (k4_pay6 x0 x1 x2 x3 k4_pay3) ∗ owns (c : Thread nD τ) arg9 fullShare (k4_pay1 (k4_pay7 x3 k4_pay4))) -∗ K ⟨⟩))
      ⊢ wp frame (wpE (defs₀ (F := F)) Variants.none c none) E (cc4__pool_kernel i arg1 harg1 arg2 harg2 arg3 harg3 arg4 harg4 arg5 harg5 arg6 harg6 arg7 harg7 arg8 harg8 arg9 harg9) K := by
  simp only [cc4__pool_kernel_eq_skeleton]; unfold cc4__pool_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%a, %f8, -, H8⟩, ⟨%n, %f9, -, H9⟩, Hk⟩
  subst hf1 hf2 hf3 hf4 hf5 hf6 hf7
  sl_exec (disch := first | sl_exact hc1 | sl_exact hc2)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr; swap; · iexact H8
    ipureintro
    try sl_unfold_run_names
    rw [View.read_writes_eq_canon _ _ _ (fun y => ⟨_, List.Mem.head _, View.mem_set_unit_zero hz4 inb_S2048x128_S2048x128_0_0 y⟩), View.canon_cons_unit_zero hz4]
    simp only [View.readAt_eq_ld, View.readCov_cons_toLoadRect, View.ld_unit_zero (S := S1000x128) hz4, View.ld_unit_zero (S := S1000x1) hz4, View.ld_unit_zero (S := S1x128) hz4, View.ld_unit_zero (S := S128x4) hz4, View.ld_unit_zero (S := S1x4) hz4, View.ld_unit_zero (S := S2048x4) hz4, View.ld_unit_zero (S := S2048x128) hz4, View.ld_unit_zero (S := S2048x1) hz4]
  · iexists _; isplitr; swap; · iexact H9
    ipureintro
    try sl_unfold_run_names
    rw [View.read_writes_eq_canon _ _ _ (fun y => ⟨_, List.Mem.head _, View.mem_set_unit_zero hz4 inb_S2048x1_S2048x1_0_0 y⟩), View.canon_cons_unit_zero hz4]
    simp only [View.readAt_eq_ld, View.readCov_cons_toLoadRect, View.ld_unit_zero (S := S1000x128) hz4, View.ld_unit_zero (S := S1000x1) hz4, View.ld_unit_zero (S := S1x128) hz4, View.ld_unit_zero (S := S128x4) hz4, View.ld_unit_zero (S := S1x4) hz4, View.ld_unit_zero (S := S2048x4) hz4, View.ld_unit_zero (S := S2048x128) hz4, View.ld_unit_zero (S := S2048x1) hz4]

set_option maxHeartbeats 2000000 in
theorem sound_kernel4_B (c : Dev nD) (E : Set ℕ) (i : grid4.Coords)
    (arg1 : Memref sig .tc .vmem S1000x128 .f32) (harg1 : arg1.IsWhole) (arg2 : Memref sig .tc .vmem S1000x1 .f32) (harg2 : arg2.IsWhole)
    (arg3 : Memref sig .tc .vmem S1x128 .f32) (harg3 : arg3.IsWhole) (arg4 : Memref sig .tc .vmem S1000x1 .i32) (harg4 : arg4.IsWhole)
    (arg5 : Memref sig .tc .vmem S128x4 .f32) (harg5 : arg5.IsWhole) (arg6 : Memref sig .tc .vmem S1x4 .f32) (harg6 : arg6.IsWhole)
    (arg7 : Memref sig .tc .vmem S2048x4 .f32) (harg7 : arg7.IsWhole) (arg8 : Memref sig .tc .vmem S2048x128 .f32) (harg8 : arg8.IsWhole)
    (arg9 : Memref sig .tc .vmem S2048x1 .f32) (harg9 : arg9.IsWhole)
    (hc1 : ¬ cond4_first i = 1#1) (hc2 : ¬ k4_cond2 i = 1#1)
    (x0 : Vec F S1000x128 .f32) (x1 : Vec F S1000x1 .f32) (x2 : Vec F S1x128 .f32) (x3 : Vec F S1000x1 .i32)
    (x4 : Vec F S128x4 .f32) (x5 : Vec F S1x4 .f32) (y6 : Vec F S2048x4 .f32) (a : Vec F S2048x128 .f32) (n : Vec F S2048x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare y6 ∗ owns (c : Thread nD τ) arg8 fullShare a ∗ owns (c : Thread nD τ) arg9 fullShare n
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare y6 ∗ owns (c : Thread nD τ) arg8 fullShare (k4_pay6 x0 x1 x2 x3 a) ∗ owns (c : Thread nD τ) arg9 fullShare (k4_pay1 (k4_pay7 x3 n))) -∗ K ⟨⟩))
      ⊢ wp frame (wpE (defs₀ (F := F)) Variants.none c none) E (cc4__pool_kernel i arg1 harg1 arg2 harg2 arg3 harg3 arg4 harg4 arg5 harg5 arg6 harg6 arg7 harg7 arg8 harg8 arg9 harg9) K := by
  simp only [cc4__pool_kernel_eq_skeleton]; unfold cc4__pool_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf1 hf2 hf3 hf4 hf5 hf6 hf7 hf8 hf9
  sl_exec (disch := first | sl_exact hc1 | sl_exact hc2)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr; swap; · iexact H8
    ipureintro
    try sl_unfold_run_names
    rw [View.read_writes_eq_canon _ _ _ (fun y => ⟨_, List.Mem.head _, View.mem_set_unit_zero hz4 inb_S2048x128_S2048x128_0_0 y⟩), View.canon_cons_unit_zero hz4]
    simp only [View.readAt_eq_ld, View.readCov_cons_toLoadRect, View.ld_unit_zero (S := S1000x128) hz4, View.ld_unit_zero (S := S1000x1) hz4, View.ld_unit_zero (S := S1x128) hz4, View.ld_unit_zero (S := S128x4) hz4, View.ld_unit_zero (S := S1x4) hz4, View.ld_unit_zero (S := S2048x4) hz4, View.ld_unit_zero (S := S2048x128) hz4, View.ld_unit_zero (S := S2048x1) hz4]
  · iexists _; isplitr; swap; · iexact H9
    ipureintro
    try sl_unfold_run_names
    rw [View.read_writes_eq_canon _ _ _ (fun y => ⟨_, List.Mem.head _, View.mem_set_unit_zero hz4 inb_S2048x1_S2048x1_0_0 y⟩), View.canon_cons_unit_zero hz4]
    simp only [View.readAt_eq_ld, View.readCov_cons_toLoadRect, View.ld_unit_zero (S := S1000x128) hz4, View.ld_unit_zero (S := S1000x1) hz4, View.ld_unit_zero (S := S1x128) hz4, View.ld_unit_zero (S := S128x4) hz4, View.ld_unit_zero (S := S1x4) hz4, View.ld_unit_zero (S := S2048x4) hz4, View.ld_unit_zero (S := S2048x128) hz4, View.ld_unit_zero (S := S2048x1) hz4]

set_option maxHeartbeats 2000000 in
theorem sound_kernel4_C (c : Dev nD) (E : Set ℕ) (i : grid4.Coords)
    (arg1 : Memref sig .tc .vmem S1000x128 .f32) (harg1 : arg1.IsWhole) (arg2 : Memref sig .tc .vmem S1000x1 .f32) (harg2 : arg2.IsWhole)
    (arg3 : Memref sig .tc .vmem S1x128 .f32) (harg3 : arg3.IsWhole) (arg4 : Memref sig .tc .vmem S1000x1 .i32) (harg4 : arg4.IsWhole)
    (arg5 : Memref sig .tc .vmem S128x4 .f32) (harg5 : arg5.IsWhole) (arg6 : Memref sig .tc .vmem S1x4 .f32) (harg6 : arg6.IsWhole)
    (arg7 : Memref sig .tc .vmem S2048x4 .f32) (harg7 : arg7.IsWhole) (arg8 : Memref sig .tc .vmem S2048x128 .f32) (harg8 : arg8.IsWhole)
    (arg9 : Memref sig .tc .vmem S2048x1 .f32) (harg9 : arg9.IsWhole)
    (hc1 : ¬ cond4_first i = 1#1) (hc2 : k4_cond2 i = 1#1)
    (x0 : Vec F S1000x128 .f32) (x1 : Vec F S1000x1 .f32) (x2 : Vec F S1x128 .f32) (x3 : Vec F S1000x1 .i32)
    (x4 : Vec F S128x4 .f32) (x5 : Vec F S1x4 .f32) (a : Vec F S2048x128 .f32) (n : Vec F S2048x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare a ∗ owns (c : Thread nD τ) arg9 fullShare n
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (k4_pay2 (k4_pay6 x0 x1 x2 x3 a) (k4_pay1 (k4_pay7 x3 n)) x4 x5) ∗ owns (c : Thread nD τ) arg8 fullShare (k4_pay6 x0 x1 x2 x3 a) ∗ owns (c : Thread nD τ) arg9 fullShare (k4_pay1 (k4_pay7 x3 n))) -∗ K ⟨⟩))
      ⊢ wp frame (wpE (defs₀ (F := F)) Variants.none c none) E (cc4__pool_kernel i arg1 harg1 arg2 harg2 arg3 harg3 arg4 harg4 arg5 harg5 arg6 harg6 arg7 harg7 arg8 harg8 arg9 harg9) K := by
  simp only [cc4__pool_kernel_eq_skeleton]; unfold cc4__pool_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d, %f7, -, H7⟩, ⟨%f8, %hf8, H8⟩, ⟨%f9, %hf9, H9⟩, Hk⟩
  subst hf1 hf2 hf3 hf4 hf5 hf6 hf8 hf9
  sl_exec (disch := first | sl_exact hc1 | sl_exact hc2)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr; swap; · iexact H7
    ipureintro
    try sl_unfold_run_names
    rw [View.read_writes_eq_canon _ _ _ (fun y => ⟨_, List.Mem.head _, View.mem_set_unit_zero hz4 inb_S2048x4_S2048x4_0_0 y⟩), View.canon_cons_unit_zero hz4]
    simp only [View.readAt_eq_ld, View.readCov_cons_toLoadRect, View.ld_unit_zero (S := S1000x128) hz4, View.ld_unit_zero (S := S1000x1) hz4, View.ld_unit_zero (S := S1x128) hz4, View.ld_unit_zero (S := S128x4) hz4, View.ld_unit_zero (S := S1x4) hz4, View.ld_unit_zero (S := S2048x4) hz4, View.ld_unit_zero (S := S2048x128) hz4, View.ld_unit_zero (S := S2048x1) hz4]
  isplitl [H8]
  · iexists _; isplitr; swap; · iexact H8
    ipureintro
    try sl_unfold_run_names
    rw [View.read_writes_eq_canon _ _ _ (fun y => ⟨_, List.Mem.head _, View.mem_set_unit_zero hz4 inb_S2048x128_S2048x128_0_0 y⟩), View.canon_cons_unit_zero hz4]
    simp only [View.readAt_eq_ld, View.readCov_cons_toLoadRect, View.ld_unit_zero (S := S1000x128) hz4, View.ld_unit_zero (S := S1000x1) hz4, View.ld_unit_zero (S := S1x128) hz4, View.ld_unit_zero (S := S128x4) hz4, View.ld_unit_zero (S := S1x4) hz4, View.ld_unit_zero (S := S2048x4) hz4, View.ld_unit_zero (S := S2048x128) hz4, View.ld_unit_zero (S := S2048x1) hz4]
  · iexists _; isplitr; swap; · iexact H9
    ipureintro
    try sl_unfold_run_names
    rw [View.read_writes_eq_canon _ _ _ (fun y => ⟨_, List.Mem.head _, View.mem_set_unit_zero hz4 inb_S2048x1_S2048x1_0_0 y⟩), View.canon_cons_unit_zero hz4]
    simp only [View.readAt_eq_ld, View.readCov_cons_toLoadRect, View.ld_unit_zero (S := S1000x128) hz4, View.ld_unit_zero (S := S1000x1) hz4, View.ld_unit_zero (S := S1x128) hz4, View.ld_unit_zero (S := S128x4) hz4, View.ld_unit_zero (S := S1x4) hz4, View.ld_unit_zero (S := S2048x4) hz4, View.ld_unit_zero (S := S2048x128) hz4, View.ld_unit_zero (S := S2048x1) hz4]

/-! ## The body obligation

At the first point the two scratch buffers come out of the scoped rest at whatever they hold and are zero-filled; at
every later point they come in at the running sum and count of the point before. They leave at this point's. The
output window's buffer is handed back as found except at the last point, where it leaves at the final product. -/

/-- The running sum and count, one step unfolded. -/
theorem accAt_zero (c : Dev nD) (h : 0 < cfg4.N) :
    accAt V c 0 h = k4_pay6 (iblk4 V c 0 ⟨0, h⟩) (iblk4 V c 1 ⟨0, h⟩) (iblk4 V c 2 ⟨0, h⟩) (iblk4 V c 3 ⟨0, h⟩) k4_pay3 := rfl
theorem accAt_succ (c : Dev nD) (n : ℕ) (h : n + 1 < cfg4.N) :
    accAt V c (n + 1) h = k4_pay6 (iblk4 V c 0 ⟨n + 1, h⟩) (iblk4 V c 1 ⟨n + 1, h⟩) (iblk4 V c 2 ⟨n + 1, h⟩) (iblk4 V c 3 ⟨n + 1, h⟩)
      (accAt V c n (Nat.lt_of_succ_lt h)) := rfl
theorem cntAt_zero (c : Dev nD) (h : 0 < cfg4.N) : cntAt V c 0 h = k4_pay1 (k4_pay7 (iblk4 V c 3 ⟨0, h⟩) k4_pay4) := rfl
theorem cntAt_succ (c : Dev nD) (n : ℕ) (h : n + 1 < cfg4.N) :
    cntAt V c (n + 1) h = k4_pay1 (k4_pay7 (iblk4 V c 3 ⟨n + 1, h⟩) (cntAt V c n (Nat.lt_of_succ_lt h))) := rfl

/-- What the last point stores, over the running sum and count of the point before. -/
theorem out4_6_succ (c : Dev nD) (n : ℕ) (h : n + 1 < cfg4.N) :
    out4_6 V c ⟨n + 1, h⟩ = k4_pay2
      (k4_pay6 (iblk4 V c 0 ⟨n + 1, h⟩) (iblk4 V c 1 ⟨n + 1, h⟩) (iblk4 V c 2 ⟨n + 1, h⟩) (iblk4 V c 3 ⟨n + 1, h⟩) (accAt V c n (Nat.lt_of_succ_lt h)))
      (k4_pay1 (k4_pay7 (iblk4 V c 3 ⟨n + 1, h⟩) (cntAt V c n (Nat.lt_of_succ_lt h))))
      (iblk4 V c 4 ⟨n + 1, h⟩) (iblk4 V c 5 ⟨n + 1, h⟩) := rfl

/-- The output window is idle exactly where the last branch is not taken, -/
theorem idle4_6_of_not (t : Fin cfg4.N) (h : ¬ k4_cond2 (grid4.coords t) = 1#1) : cfg4.idle 6 (cfg4.grid.coords t) = true := by
  show (!(k4_cond2 (grid4.coords t) == 1#1)) = true
  rw [beq_false_of_ne h]; rfl
theorem live4_6_of (t : Fin cfg4.N) (h : k4_cond2 (grid4.coords t) = 1#1) : cfg4.idle 6 (cfg4.grid.coords t) = false := by
  show (!(k4_cond2 (grid4.coords t) == 1#1)) = false
  rw [beq_iff_eq.mpr h]; rfl
/-- and is not written back before the last point. -/
theorem noflush4_6 (t : Fin cfg4.N) (h : t.val ≠ 99) : (cfg4.win 6).flush t = false := by
  have hN : t.val < 100 := lt_of_lt_of_eq t.isLt (show cfg4.N = 100 from N_4)
  exact Bool.eq_false_iff.mpr fun hf => h (by have := (flush4_6 t).mp hf; omega)

/-- What the body is called with at point t, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ (dat4 V c).leavesExact 6 t)

set_option maxHeartbeats 2000000 in
/-- The body at the first point: the zero fill, then the update. -/
theorem sound_body4_first (c : Dev nD) (ht : 0 < cfg4.N) :
    bodyPre4 V c ⟨0, ht⟩ ⊢ wp frame (wpE (defs₀ (F := F)) Variants.none c none) Set.univ (bodyAt4 ⟨0, ht⟩) (fun _ => bodyPost4 V c ⟨0, ht⟩) := by
  have hc1 : cond4_first (grid4.coords ⟨0, ht⟩) = 1#1 := (hcond4_first ⟨0, ht⟩).mpr rfl
  have hc2 : ¬ k4_cond2 (grid4.coords ⟨0, ht⟩) = 1#1 := fun h => absurd ((hcond4_last ⟨0, ht⟩).mp h) (show (0 : ℕ) ≠ 99 by decide)
  unfold bodyPre4 bodyPost4 bodyAt4
  simp only [before4_0, before4_1, before4_2, before4_3, before4_4, before4_5]
  rw [show (dat4 V c).owesAt () (Fin.succ ⟨0, ht⟩) = (dat4 V c).owesAt () (Fin.castSucc ⟨0, ht⟩) from rfl,
    after4_0, after4_1, after4_2, after4_3, after4_4, after4_5,
    Dat.leavesExact_idle (dat4 V c) 6 ⟨0, ht⟩ (idle4_6_of_not ⟨0, ht⟩ hc2) (noflush4_6 ⟨0, ht⟩ (show (0 : ℕ) ≠ 99 by decide)),
    show (dat4 V c).Φ (Fin.castSucc ⟨0, ht⟩) = Pipeline.ΦA spec4 c from rfl,
    show (dat4 V c).Φ (Fin.succ ⟨0, ht⟩) = _ from Φ4_succ V c 0 (Nat.succ_lt_succ ht),
    accAt_zero, cntAt_zero]
  unfold Pipeline.ΦA
  rw [scopedRest4_split]
  have hs0 : ∀ a, (((c : Thread nD τ).loc cc4_scratch0) ↦{fullShare} a : sProp 𝕄) ⊢ owns (c : Thread nD τ) (Memref.whole cc4_scratch0) fullShare a :=
    fun a => Entails.of_eq (owns_whole (c : Thread nD τ) cc4_scratch0 fullShare a).symm
  have hs1 : ∀ n, (((c : Thread nD τ).loc cc4_scratch1) ↦{fullShare} n : sProp 𝕄) ⊢ owns (c : Thread nD τ) (Memref.whole cc4_scratch1) fullShare n :=
    fun n => Entails.of_eq (owns_whole (c : Thread nD τ) cc4_scratch1 fullShare n).symm
  iintro ⟨⟨⟨⟨⟨%a, Hs0⟩, ⟨%n, Hs1⟩⟩, Hrest⟩, Hr⟩, Ho, ⟨%d0, H0⟩, ⟨%d1, H1⟩, ⟨%d2, H2⟩, ⟨%d3, H3⟩, ⟨%d4, H4⟩, ⟨%d5, H5⟩, ⟨%d6, H6⟩⟩
  iapply (sound_kernel4_A c Set.univ (grid4.coords ⟨0, ht⟩) _ _ _ _ _ _ _ _ _ _ _ _ _ _ _ _ _ _ hc1 hc2 (iblk4 V c 0 ⟨0, ht⟩) (iblk4 V c 1 ⟨0, ht⟩) (iblk4 V c 2 ⟨0, ht⟩) (iblk4 V c 3 ⟨0, ht⟩) (iblk4 V c 4 ⟨0, ht⟩) (iblk4 V c 5 ⟨0, ht⟩) ((dat4 V c).before 6 ⟨0, ht⟩ d6) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [Hs0]; · iexists a; iapply hs0; iexact Hs0
  isplitl [Hs1]; · iexists n; iapply hs1; iexact Hs1
  iintro ⟨H0, H1, H2, H3, H4, H5, H6, Hs0, Hs1⟩
  isplitl [Hs0 Hs1 Hrest Hr]
  · isplitl [Hs0]; · iexact Hs0
    isplitl [Hs1]; · iexact Hs1
    isplitl [Hrest]; · iexact Hrest
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists d6; iexact H6

set_option maxHeartbeats 2000000 in
/-- The body at a later point: the update of what the point before left; at the last point also the final product. -/
theorem sound_body4_later (c : Dev nD) (n : ℕ) (ht : n + 1 < cfg4.N) :
    bodyPre4 V c ⟨n + 1, ht⟩ ⊢ wp frame (wpE (defs₀ (F := F)) Variants.none c none) Set.univ (bodyAt4 ⟨n + 1, ht⟩) (fun _ => bodyPost4 V c ⟨n + 1, ht⟩) := by
  have hc1 : ¬ cond4_first (grid4.coords ⟨n + 1, ht⟩) = 1#1 := fun h => absurd ((hcond4_first ⟨n + 1, ht⟩).mp h) (Nat.succ_ne_zero n)
  unfold bodyPre4 bodyPost4 bodyAt4
  simp only [before4_0, before4_1, before4_2, before4_3, before4_4, before4_5]
  by_cases hl : n + 1 = 99
  · have hc2 : k4_cond2 (grid4.coords ⟨n + 1, ht⟩) = 1#1 := (hcond4_last ⟨n + 1, ht⟩).mpr hl
    rw [show (dat4 V c).leavesExact 6 ⟨n + 1, ht⟩ = owns (c : Thread nD τ) (st4_6 ⟨n + 1, ht⟩) fullShare ((dat4 V c).after 6 ⟨n + 1, ht⟩) from by
      unfold Dat.leavesExact; rw [live4_6_of ⟨n + 1, ht⟩ hc2], after4_6, out4_6_succ]
    rw [show (dat4 V c).owesAt () (Fin.succ ⟨n + 1, ht⟩) = (dat4 V c).owesAt () (Fin.castSucc ⟨n + 1, ht⟩) from rfl,
    after4_0, after4_1, after4_2, after4_3, after4_4, after4_5,
    show (dat4 V c).Φ (Fin.castSucc ⟨n + 1, ht⟩) = _ from Φ4_succ V c n (Nat.lt_succ_of_lt ht),
    show (dat4 V c).Φ (Fin.succ ⟨n + 1, ht⟩) = _ from Φ4_succ V c (n + 1) (Nat.succ_lt_succ ht),
    accAt_succ, cntAt_succ]
    iintro ⟨⟨Hs0, Hs1, Hrest, Hr⟩, Ho, ⟨%d0, H0⟩, ⟨%d1, H1⟩, ⟨%d2, H2⟩, ⟨%d3, H3⟩, ⟨%d4, H4⟩, ⟨%d5, H5⟩, ⟨%d6, H6⟩⟩
    iapply (sound_kernel4_C c Set.univ (grid4.coords ⟨n + 1, ht⟩) _ _ _ _ _ _ _ _ _ _ _ _ _ _ _ _ _ _ hc1 hc2 (iblk4 V c 0 ⟨n + 1, ht⟩) (iblk4 V c 1 ⟨n + 1, ht⟩) (iblk4 V c 2 ⟨n + 1, ht⟩) (iblk4 V c 3 ⟨n + 1, ht⟩) (iblk4 V c 4 ⟨n + 1, ht⟩) (iblk4 V c 5 ⟨n + 1, ht⟩) (accAt V c n (Nat.lt_of_succ_lt ht)) (cntAt V c n (Nat.lt_of_succ_lt ht)) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [Hs0]; · iexact Hs0
    isplitl [Hs1]; · iexact Hs1
    iintro ⟨H0, H1, H2, H3, H4, H5, H6, Hs0, Hs1⟩
    isplitl [Hs0 Hs1 Hrest Hr]
    · isplitl [Hs0]; · iexact Hs0
      isplitl [Hs1]; · iexact Hs1
      isplitl [Hrest]; · iexact Hrest
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have hc2 : ¬ k4_cond2 (grid4.coords ⟨n + 1, ht⟩) = 1#1 := fun h => hl ((hcond4_last ⟨n + 1, ht⟩).mp h)
    rw [Dat.leavesExact_idle (dat4 V c) 6 ⟨n + 1, ht⟩ (idle4_6_of_not ⟨n + 1, ht⟩ hc2) (noflush4_6 ⟨n + 1, ht⟩ hl)]
    rw [show (dat4 V c).owesAt () (Fin.succ ⟨n + 1, ht⟩) = (dat4 V c).owesAt () (Fin.castSucc ⟨n + 1, ht⟩) from rfl,
    after4_0, after4_1, after4_2, after4_3, after4_4, after4_5,
    show (dat4 V c).Φ (Fin.castSucc ⟨n + 1, ht⟩) = _ from Φ4_succ V c n (Nat.lt_succ_of_lt ht),
    show (dat4 V c).Φ (Fin.succ ⟨n + 1, ht⟩) = _ from Φ4_succ V c (n + 1) (Nat.succ_lt_succ ht),
    accAt_succ, cntAt_succ]
    iintro ⟨⟨Hs0, Hs1, Hrest, Hr⟩, Ho, ⟨%d0, H0⟩, ⟨%d1, H1⟩, ⟨%d2, H2⟩, ⟨%d3, H3⟩, ⟨%d4, H4⟩, ⟨%d5, H5⟩, ⟨%d6, H6⟩⟩
    iapply (sound_kernel4_B c Set.univ (grid4.coords ⟨n + 1, ht⟩) _ _ _ _ _ _ _ _ _ _ _ _ _ _ _ _ _ _ hc1 hc2 (iblk4 V c 0 ⟨n + 1, ht⟩) (iblk4 V c 1 ⟨n + 1, ht⟩) (iblk4 V c 2 ⟨n + 1, ht⟩) (iblk4 V c 3 ⟨n + 1, ht⟩) (iblk4 V c 4 ⟨n + 1, ht⟩) (iblk4 V c 5 ⟨n + 1, ht⟩) ((dat4 V c).before 6 ⟨n + 1, ht⟩ d6) (accAt V c n (Nat.lt_of_succ_lt ht)) (cntAt V c n (Nat.lt_of_succ_lt ht)) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [Hs0]; · iexact Hs0
    isplitl [Hs1]; · iexact Hs1
    iintro ⟨H0, H1, H2, H3, H4, H5, H6, Hs0, Hs1⟩
    isplitl [Hs0 Hs1 Hrest Hr]
    · isplitl [Hs0]; · iexact Hs0
      isplitl [Hs1]; · iexact Hs1
      isplitl [Hrest]; · iexact Hrest
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists d6; iexact H6

/-- The body at any point. -/
theorem sound_body4 (c : Dev nD) (t : Fin cfg4.N) :
    bodyPre4 V c t ⊢ wp frame (wpE (defs₀ (F := F)) Variants.none c none) Set.univ (bodyAt4 t) (fun _ => bodyPost4 V c t) := by
  obtain ⟨tv, ht⟩ := t
  cases tv with
  | zero => exact sound_body4_first V c ht
  | succ n => exact sound_body4_later V c n ht

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.Run.lean ====
import proofs.«419651_j51711406244070_2_alg».proof.Proof.Gen.KernelIdeal.Launch
import proofs.«419651_j51711406244070_2_alg».proof.Proof.Gen.KernelIdeal.Skeleton
import proofs.«419651_j51711406244070_2_alg».proof.Proof.Gen.KernelIdeal.Points
import proofs.«419651_j51711406244070_2_alg».proof.Proof.Gen.KernelIdeal.Regions
import proofs.«419651_j51711406244070_2_alg».proof.Proof.KI.Reg0
import proofs.«419651_j51711406244070_2_alg».proof.Proof.KI.Reg1
import proofs.«419651_j51711406244070_2_alg».proof.Proof.KI.Reg2
import proofs.«419651_j51711406244070_2_alg».proof.Proof.KI.Reg3
import proofs.«419651_j51711406244070_2_alg».proof.Proof.KI.Reg4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! # The run of @main: five kernel regions among seven host stretches

## The buffers' contents at each boundary between two items: a fold from the launch memory

A host stretch takes the contents `W` to `StableHlo.after ops W`. A region takes them to the same contents except at its
windows' arrays, which hold what the pipeline's write-backs leave (`Dat.arrAt … N`: an input window's array as entered,
an output window's array with every block written back). -/

/-- Core `c`'s buffers at launch. -/
abbrev W0 : Dev nD → Valuation τ sig (Elt F) := fun c b => m (c, b)
/-- After `hostOps0`. -/
abbrev W1 : Dev nD → Valuation τ sig (Elt F) := fun c => StableHlo.after hostOps0 (W0 m c)
/-- After `hostOps0_1`. -/
abbrev W2 : Dev nD → Valuation τ sig (Elt F) := fun c => StableHlo.after hostOps0_1 (W1 m c)
/-- After `hostOps0_2` (region 0's entry). -/
abbrev W3 : Dev nD → Valuation τ sig (Elt F) := fun c => StableHlo.after hostOps0_2 (W2 m c)
/-- The same read at the TensorCore's references (what region 0's proof data take). -/
abbrev V3 : (c : Dev nD) → (b : Ref sig .tc) → Buf (Elt F) ((c : Thread nD τ).loc b) := fun c b => W3 m c b

/-- At region 0's exit: its arrays at what the pipeline leaves, every other buffer as entered. -/
def W4 (c : Dev nD) : Valuation τ sig (Elt F) :=
  Pipeline.withArrays spec0 c (W3 m c) fun w => (dat0 (V3 m) c).arrAt w cfg0.N
theorem W4_arr (c : Dev nD) (w : Fin cfg0.W) :
    W4 m c (Proc.devRef .tc (Pipeline.arrRef spec0 w)) = (dat0 (V3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
/-- The same read at the TensorCore's references (region 0's exit contents). -/
abbrev V4 : (c : Dev nD) → (b : Ref sig .tc) → Buf (Elt F) ((c : Thread nD τ).loc b) := fun c b => W4 m c b
/-- At region 0's exit each of its arrays holds what the pipeline leaves (`hF0`) and every other buffer what it held at
    entry (`hrest0`). -/
theorem hF0 (c : Dev nD) (w : Fin cfg0.W) : (dat0 (V3 m) c).arrAt w cfg0.N = V4 m c (Pipeline.arrRef spec0 w) :=
  (W4_arr m c w).symm
theorem hrest0 (c : Dev nD) : ∀ b, b ∉ Finset.univ.image (Pipeline.arrRef spec0) → V4 m c b = V3 m c b :=
  fun b hb => W4_of_ne m c b fun w e => hb (Finset.mem_image.mpr ⟨w, Finset.mem_univ _, e⟩)

/-- After `hostOps1` (region 1's entry). -/
abbrev W5 : Dev nD → Valuation τ sig (Elt F) := fun c => StableHlo.after hostOps1 (W4 m c)
abbrev V5 : (c : Dev nD) → (b : Ref sig .tc) → Buf (Elt F) ((c : Thread nD τ).loc b) := fun c b => W5 m c b

/-- At region 1's exit: its arrays at what the pipeline leaves, every other buffer as entered. -/
def W6 (c : Dev nD) : Valuation τ sig (Elt F) :=
  Pipeline.withArrays spec1 c (W5 m c) fun w => (dat1 (V5 m) c).arrAt w cfg1.N
theorem W6_arr (c : Dev nD) (w : Fin cfg1.W) :
    W6 m c (Proc.devRef .tc (Pipeline.arrRef spec1 w)) = (dat1 (V5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
abbrev V6 : (c : Dev nD) → (b : Ref sig .tc) → Buf (Elt F) ((c : Thread nD τ).loc b) := fun c b => W6 m c b
theorem hF1 (c : Dev nD) (w : Fin cfg1.W) : (dat1 (V5 m) c).arrAt w cfg1.N = V6 m c (Pipeline.arrRef spec1 w) :=
  (W6_arr m c w).symm
theorem hrest1 (c : Dev nD) : ∀ b, b ∉ Finset.univ.image (Pipeline.arrRef spec1) → V6 m c b = V5 m c b :=
  fun b hb => W6_of_ne m c b fun w e => hb (Finset.mem_image.mpr ⟨w, Finset.mem_univ _, e⟩)

/-- After `hostOps2` (region 2's entry). -/
abbrev W7 : Dev nD → Valuation τ sig (Elt F) := fun c => StableHlo.after hostOps2 (W6 m c)
abbrev V7 : (c : Dev nD) → (b : Ref sig .tc) → Buf (Elt F) ((c : Thread nD τ).loc b) := fun c b => W7 m c b

/-- At region 2's exit: its arrays at what the pipeline leaves, every other buffer as entered. -/
def W8 (c : Dev nD) : Valuation τ sig (Elt F) :=
  Pipeline.withArrays spec2 c (W7 m c) fun w => (dat2 (V7 m) c).arrAt w cfg2.N
theorem W8_arr (c : Dev nD) (w : Fin cfg2.W) :
    W8 m c (Proc.devRef .tc (Pipeline.arrRef spec2 w)) = (dat2 (V7 m) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m c (Proc.devRef .tc b) = W7 m c (Proc.devRef .tc b) := by
  unfold W8; exact Pipeline.withArrays_of_ne spec2 c _ _ b hb
abbrev V8 : (c : Dev nD) → (b : Ref sig .tc) → Buf (Elt F) ((c : Thread nD τ).loc b) := fun c b => W8 m c b
theorem hF2 (c : Dev nD) (w : Fin cfg2.W) : (dat2 (V7 m) c).arrAt w cfg2.N = V8 m c (Pipeline.arrRef spec2 w) :=
  (W8_arr m c w).symm
theorem hrest2 (c : Dev nD) : ∀ b, b ∉ Finset.univ.image (Pipeline.arrRef spec2) → V8 m c b = V7 m c b :=
  fun b hb => W8_of_ne m c b fun w e => hb (Finset.mem_image.mpr ⟨w, Finset.mem_univ _, e⟩)

/-- After `hostOps3` (region 3's entry). -/
abbrev W9 : Dev nD → Valuation τ sig (Elt F) := fun c => StableHlo.after hostOps3 (W8 m c)
abbrev V9 : (c : Dev nD) → (b : Ref sig .tc) → Buf (Elt F) ((c : Thread nD τ).loc b) := fun c b => W9 m c b

/-- At region 3's exit: its arrays at what the pipeline leaves, every other buffer as entered. -/
def W10 (c : Dev nD) : Valuation τ sig (Elt F) :=
  Pipeline.withArrays spec3 c (W9 m c) fun w => (dat3 (V9 m) c).arrAt w cfg3.N
theorem W10_arr (c : Dev nD) (w : Fin cfg3.W) :
    W10 m c (Proc.devRef .tc (Pipeline.arrRef spec3 w)) = (dat3 (V9 m) c).arrAt w cfg3.N := by
  unfold W10; exact Pipeline.withArrays_arr spec3 launch3.win.arr_inj c _ _ w
theorem W10_of_ne (c : Dev nD) (b : Ref sig .tc) (hb : ∀ w, Pipeline.arrRef spec3 w ≠ b) :
    W10 m c (Proc.devRef .tc b) = W9 m c (Proc.devRef .tc b) := by
  unfold W10; exact Pipeline.withArrays_of_ne spec3 c _ _ b hb
abbrev V10 : (c : Dev nD) → (b : Ref sig .tc) → Buf (Elt F) ((c : Thread nD τ).loc b) := fun c b => W10 m c b
theorem hF3 (c : Dev nD) (w : Fin cfg3.W) : (dat3 (V9 m) c).arrAt w cfg3.N = V10 m c (Pipeline.arrRef spec3 w) :=
  (W10_arr m c w).symm
theorem hrest3 (c : Dev nD) : ∀ b, b ∉ Finset.univ.image (Pipeline.arrRef spec3) → V10 m c b = V9 m c b :=
  fun b hb => W10_of_ne m c b fun w e => hb (Finset.mem_image.mpr ⟨w, Finset.mem_univ _, e⟩)

/-- After `hostOps4` (region 4's entry). -/
abbrev W11 : Dev nD → Valuation τ sig (Elt F) := fun c => StableHlo.after hostOps4 (W10 m c)
abbrev V11 : (c : Dev nD) → (b : Ref sig .tc) → Buf (Elt F) ((c : Thread nD τ).loc b) := fun c b => W11 m c b

/-- At region 4's exit, which is the return: its arrays at what the pipeline leaves, every other buffer as entered. -/
def W12 (c : Dev nD) : Valuation τ sig (Elt F) :=
  Pipeline.withArrays spec4 c (W11 m c) fun w => (dat4 (V11 m) c).arrAt w cfg4.N
theorem W12_arr (c : Dev nD) (w : Fin cfg4.W) :
    W12 m c (Proc.devRef .tc (Pipeline.arrRef spec4 w)) = (dat4 (V11 m) c).arrAt w cfg4.N := by
  unfold W12; exact Pipeline.withArrays_arr spec4 launch4.win.arr_inj c _ _ w
theorem W12_of_ne (c : Dev nD) (b : Ref sig .tc) (hb : ∀ w, Pipeline.arrRef spec4 w ≠ b) :
    W12 m c (Proc.devRef .tc b) = W11 m c (Proc.devRef .tc b) := by
  unfold W12; exact Pipeline.withArrays_of_ne spec4 c _ _ b hb
abbrev V12 : (c : Dev nD) → (b : Ref sig .tc) → Buf (Elt F) ((c : Thread nD τ).loc b) := fun c b => W12 m c b
theorem hF4 (c : Dev nD) (w : Fin cfg4.W) : (dat4 (V11 m) c).arrAt w cfg4.N = V12 m c (Pipeline.arrRef spec4 w) :=
  (W12_arr m c w).symm
theorem hrest4 (c : Dev nD) : ∀ b, b ∉ Finset.univ.image (Pipeline.arrRef spec4) → V12 m c b = V11 m c b :=
  fun b hb => W12_of_ne m c b fun w e => hb (Finset.mem_image.mpr ⟨w, Finset.mem_univ _, e⟩)

/-! ## The arguments end as launched

No host stretch writes an argument, and a region either bypasses it or reads it through an input window, whose array
the pipeline leaves as entered. So the fold at an argument's buffer walks back to the launch memory: at a host stretch
because the reference is not among those the stretch writes, at a region because every window on that buffer is an
input window. -/

/-- Region 0 leaves a buffer as entered unless one of its OUTPUT windows is on it. -/
theorem W4_of_in (c : Dev nD) (r : Ref sig .tc) (h : ∀ w, Pipeline.arrRef spec0 w = r → (cfg0.win w).isOut = false) :
    W4 m c (Proc.devRef .tc r) = W3 m c (Proc.devRef .tc r) := by
  by_cases hr : ∃ w, Pipeline.arrRef spec0 w = r
  · obtain ⟨w, rfl⟩ := hr
    exact (W4_arr m c w).trans (((dat0 (V3 m) c).arrAt_in w (h w rfl) _).trans (A_eq0 (V3 m) c w))
  · exact W4_of_ne m c r fun w e => hr ⟨w, e⟩
/-- Region 1 likewise. -/
theorem W6_of_in (c : Dev nD) (r : Ref sig .tc) (h : ∀ w, Pipeline.arrRef spec1 w = r → (cfg1.win w).isOut = false) :
    W6 m c (Proc.devRef .tc r) = W5 m c (Proc.devRef .tc r) := by
  by_cases hr : ∃ w, Pipeline.arrRef spec1 w = r
  · obtain ⟨w, rfl⟩ := hr
    exact (W6_arr m c w).trans (((dat1 (V5 m) c).arrAt_in w (h w rfl) _).trans (A_eq1 (V5 m) c w))
  · exact W6_of_ne m c r fun w e => hr ⟨w, e⟩
/-- Region 2 likewise. -/
theorem W8_of_in (c : Dev nD) (r : Ref sig .tc) (h : ∀ w, Pipeline.arrRef spec2 w = r → (cfg2.win w).isOut = false) :
    W8 m c (Proc.devRef .tc r) = W7 m c (Proc.devRef .tc r) := by
  by_cases hr : ∃ w, Pipeline.arrRef spec2 w = r
  · obtain ⟨w, rfl⟩ := hr
    exact (W8_arr m c w).trans (((dat2 (V7 m) c).arrAt_in w (h w rfl) _).trans (A_eq2 (V7 m) c w))
  · exact W8_of_ne m c r fun w e => hr ⟨w, e⟩
/-- Region 3 likewise. -/
theorem W10_of_in (c : Dev nD) (r : Ref sig .tc) (h : ∀ w, Pipeline.arrRef spec3 w = r → (cfg3.win w).isOut = false) :
    W10 m c (Proc.devRef .tc r) = W9 m c (Proc.devRef .tc r) := by
  by_cases hr : ∃ w, Pipeline.arrRef spec3 w = r
  · obtain ⟨w, rfl⟩ := hr
    exact (W10_arr m c w).trans (((dat3 (V9 m) c).arrAt_in w (h w rfl) _).trans (A_eq3 (V9 m) c w))
  · exact W10_of_ne m c r fun w e => hr ⟨w, e⟩
/-- Region 4 likewise. -/
theorem W12_of_in (c : Dev nD) (r : Ref sig .tc) (h : ∀ w, Pipeline.arrRef spec4 w = r → (cfg4.win w).isOut = false) :
    W12 m c (Proc.devRef .tc r) = W11 m c (Proc.devRef .tc r) := by
  by_cases hr : ∃ w, Pipeline.arrRef spec4 w = r
  · obtain ⟨w, rfl⟩ := hr
    exact (W12_arr m c w).trans (((dat4 (V11 m) c).arrAt_in w (h w rfl) _).trans (A_eq4 (V11 m) c w))
  · exact W12_of_ne m c r fun w e => hr ⟨w, e⟩

/-- A buffer no host stretch writes and no region has an output window on holds at the return what it held at launch:
    the twelve steps of the fold, last first. -/
theorem W12_of_unwritten (c : Dev nD) (r : Ref sig .tc)
    (h0 : r ∉ hostOps0_W) (h1 : r ∉ hostOps0_1_W) (h2 : r ∉ hostOps0_2_W)
    (a0 : ∀ w, Pipeline.arrRef spec0 w = r → (cfg0.win w).isOut = false) (h3 : r ∉ hostOps1_W)
    (a1 : ∀ w, Pipeline.arrRef spec1 w = r → (cfg1.win w).isOut = false) (h4 : r ∉ hostOps2_W)
    (a2 : ∀ w, Pipeline.arrRef spec2 w = r → (cfg2.win w).isOut = false) (h5 : r ∉ hostOps3_W)
    (a3 : ∀ w, Pipeline.arrRef spec3 w = r → (cfg3.win w).isOut = false) (h6 : r ∉ hostOps4_W)
    (a4 : ∀ w, Pipeline.arrRef spec4 w = r → (cfg4.win w).isOut = false) :
    W12 m c (Proc.devRef .tc r) = m ((c : Thread nD τ).loc r) :=
  calc W12 m c (Proc.devRef .tc r)
    _ = W11 m c (Proc.devRef .tc r) := W12_of_in m c r a4
    _ = W10 m c (Proc.devRef .tc r) := StableHlo.after_of_writes_sub hostOps4 _ hostOps4_writes h6
    _ = W9 m c (Proc.devRef .tc r) := W10_of_in m c r a3
    _ = W8 m c (Proc.devRef .tc r) := StableHlo.after_of_writes_sub hostOps3 _ hostOps3_writes h5
    _ = W7 m c (Proc.devRef .tc r) := W8_of_in m c r a2
    _ = W6 m c (Proc.devRef .tc r) := StableHlo.after_of_writes_sub hostOps2 _ hostOps2_writes h4
    _ = W5 m c (Proc.devRef .tc r) := W6_of_in m c r a1
    _ = W4 m c (Proc.devRef .tc r) := StableHlo.after_of_writes_sub hostOps1 _ hostOps1_writes h3
    _ = W3 m c (Proc.devRef .tc r) := W4_of_in m c r a0
    _ = W2 m c (Proc.devRef .tc r) := StableHlo.after_of_writes_sub hostOps0_2 _ hostOps0_2_writes h2
    _ = W1 m c (Proc.devRef .tc r) := StableHlo.after_of_writes_sub hostOps0_1 _ hostOps0_1_writes h1
    _ = W0 m c (Proc.devRef .tc r) := StableHlo.after_of_writes_sub hostOps0 _ hostOps0_writes h0
    _ = m ((c : Thread nD τ).loc r) := rfl

theorem W12_main_arg0 (c : Dev nD) : W12 m c (Proc.devRef .tc main_arg0) = m ((c : Thread nD τ).loc main_arg0) :=
  W12_of_unwritten m c main_arg0 (by decide) (by decide) (by decide) (by decide) (by decide) (by decide) (by decide) (by decide)
    (by decide) (by decide) (by decide) (by decide)
theorem W12_main_arg1 (c : Dev nD) : W12 m c (Proc.devRef .tc main_arg1) = m ((c : Thread nD τ).loc main_arg1) :=
  W12_of_unwritten m c main_arg1 (by decide) (by decide) (by decide) (by decide) (by decide) (by decide) (by decide) (by decide)
    (by decide) (by decide) (by decide) (by decide)
theorem W12_main_arg2 (c : Dev nD) : W12 m c (Proc.devRef .tc main_arg2) = m ((c : Thread nD τ).loc main_arg2) :=
  W12_of_unwritten m c main_arg2 (by decide) (by decide) (by decide) (by decide) (by decide) (by decide) (by decide) (by decide)
    (by decide) (by decide) (by decide) (by decide)
theorem W12_main_arg3 (c : Dev nD) : W12 m c (Proc.devRef .tc main_arg3) = m ((c : Thread nD τ).loc main_arg3) :=
  W12_of_unwritten m c main_arg3 (by decide) (by decide) (by decide) (by decide) (by decide) (by decide) (by decide) (by decide)
    (by decide) (by decide) (by decide) (by decide)
theorem W12_main_arg4 (c : Dev nD) : W12 m c (Proc.devRef .tc main_arg4) = m ((c : Thread nD τ).loc main_arg4) :=
  W12_of_unwritten m c main_arg4 (by decide) (by decide) (by decide) (by decide) (by decide) (by decide) (by decide) (by decide)
    (by decide) (by decide) (by decide) (by decide)
theorem W12_main_arg5 (c : Dev nD) : W12 m c (Proc.devRef .tc main_arg5) = m ((c : Thread nD τ).loc main_arg5) :=
  W12_of_unwritten m c main_arg5 (by decide) (by decide) (by decide) (by decide) (by decide) (by decide) (by decide) (by decide)
    (by decide) (by decide) (by decide) (by decide)
theorem W12_main_arg6 (c : Dev nD) : W12 m c (Proc.devRef .tc main_arg6) = m ((c : Thread nD τ).loc main_arg6) :=
  W12_of_unwritten m c main_arg6 (by decide) (by decide) (by decide) (by decide) (by decide) (by decide) (by decide) (by decide)
    (by decide) (by decide) (by decide) (by decide)
theorem W12_main_arg7 (c : Dev nD) : W12 m c (Proc.devRef .tc main_arg7) = m ((c : Thread nD τ).loc main_arg7) :=
  W12_of_unwritten m c main_arg7 (by decide) (by decide) (by decide) (by decide) (by decide) (by decide) (by decide) (by decide)
    (by decide) (by decide) (by decide) (by decide)
theorem W12_main_arg8 (c : Dev nD) : W12 m c (Proc.devRef .tc main_arg8) = m ((c : Thread nD τ).loc main_arg8) :=
  W12_of_unwritten m c main_arg8 (by decide) (by decide) (by decide) (by decide) (by decide) (by decide) (by decide) (by decide)
    (by decide) (by decide) (by decide) (by decide)
theorem W12_main_arg9 (c : Dev nD) : W12 m c (Proc.devRef .tc main_arg9) = m ((c : Thread nD τ).loc main_arg9) :=
  W12_of_unwritten m c main_arg9 (by decide) (by decide) (by decide) (by decide) (by decide) (by decide) (by decide) (by decide)
    (by decide) (by decide) (by decide) (by decide)
theorem W12_main_arg10 (c : Dev nD) : W12 m c (Proc.devRef .tc main_arg10) = m ((c : Thread nD τ).loc main_arg10) :=
  W12_of_unwritten m c main_arg10 (by decide) (by decide) (by decide) (by decide) (by decide) (by decide) (by decide) (by decide)
    (by decide) (by decide) (by decide) (by decide)
theorem W12_main_arg11 (c : Dev nD) : W12 m c (Proc.devRef .tc main_arg11) = m ((c : Thread nD τ).loc main_arg11) :=
  W12_of_unwritten m c main_arg11 (by decide) (by decide) (by decide) (by decide) (by decide) (by decide) (by decide) (by decide)
    (by decide) (by decide) (by decide) (by decide)
theorem W12_main_arg12 (c : Dev nD) : W12 m c (Proc.devRef .tc main_arg12) = m ((c : Thread nD τ).loc main_arg12) :=
  W12_of_unwritten m c main_arg12 (by decide) (by decide) (by decide) (by decide) (by decide) (by decide) (by decide) (by decide)
    (by decide) (by decide) (by decide) (by decide)

/-! ## The proof data family and the thread state -/

/-- Every pipeline's proof data, each at its region's entry contents — a literal `match`, so that the family at a numeral
    reduces to that region's proof data. -/
def pdats : (p : Fin 5) → (c : Dev nD) → Dat τ (Elt F) Unit ℕ (UR sig nD τ) ℕ (Pipeline.pin (pcfgs (F := F)) adm p) c
  | ⟨0, _⟩ => fun c => dat0 (V3 m) c
  | ⟨1, _⟩ => fun c => dat1 (V5 m) c
  | ⟨2, _⟩ => fun c => dat2 (V7 m) c
  | ⟨3, _⟩ => fun c => dat3 (V9 m) c
  | ⟨4, _⟩ => fun c => dat4 (V11 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's PRNG register at some state and its `owes`, at
    nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it is left at
    `StableHlo.after ops (W c)`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W12`, the PRNG
    register at some state. -/
abbrev Tₙ (c : Dev nD) : sProp 𝕄 := iprop(StableHlo.held (c : Thread nD τ) (Pipeline.ucRefs τ sig) (W12 m c) ∗ ∃ r, prngReg c r)

/-! ## The regions as segments

Each region is entered from every unscoped buffer at its entry contents and left at its exit contents: its arrays split
out of the unscoped buffers and put back at what the pipeline leaves; the PRNG register goes into the region's
invariant and comes out of it; nothing is owed; the kernel has no semaphore of its own. -/

set_option backward.isDefEq.respectTransparency.types false in
/-- REGION 0 (custom_call 0) over the thread state: entered at `W3`, left at `W4`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (V3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V3 m c) (V4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 (custom_call 1) over the thread state: entered at `W5`, left at `W6`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (V5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V5 m c) (V6 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 (custom_call 2) over the thread state: entered at `W7`, left at `W8`. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m) c).loose
  hwaits := Pipeline.hwaits_of_owed_zero _ _ _ _ L lv 2 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec2 c (V7 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V7 m c) (V8 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 3 (custom_call 3) over the thread state: entered at `W9`, left at `W10`. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V9 m) c).loose
  hwaits := Pipeline.hwaits_of_owed_zero _ _ _ _ L lv 3 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec3 c (V9 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V9 m c) (V10 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 4 (custom_call 4) over the thread state: entered at `W11`, left at `W12`, the return. Its invariant is its own
    (two scratch buffers carried from point to point): the class invariant before the first point (`Φ4_zero`) and again
    after the last (`Φ4_last`). -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V11 m) c).loose
  hwaits := Pipeline.hwaits_of_owed_zero _ _ _ _ L lv 4 fun _ _ => rfl
  pre c := iprop(StableHlo.held (c : Thread nD τ) (Pipeline.ucRefs τ sig) (W11 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V11 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (V11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from Φ4_zero (V11 m) c]; unfold Pipeline.ΦA
    iintro ⟨Hp, -, Hr⟩
    isplitl [Hr]; · iexact Hr
    iexact Hp
  hout c := by
    rw [Pipeline.ownSems0_none]
    refine (show (pdats m 4 c).Φ (Fin.last _) ⊢ (Pipeline.ΦA spec4 c : sProp 𝕄) from Φ4_last (V11 m) c).trans ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (V11 m c) (V12 m c) ((pdats m 4 c).arrAt · cfg4.N) (hF4 m c) (hrest4 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 12 segments in order: a host segment per stretch from its boundary's contents, a region per custom_call. -/
abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .region (reg1 m),
    .host (hseg hostOps2 hostOps2_sub hostOps2_fresh (W6 m)),
    .region (reg2 m),
    .host (hseg hostOps3 hostOps3_sub hostOps3_fresh (W8 m)),
    .region (reg3 m),
    .host (hseg hostOps4 hostOps4_sub hostOps4_fresh (W10 m)),
    .region (reg4 m) ]

/-- @main IS the run of the segments: it is the chain of its items (`main_chain`), and the segments' run is the chain of
    their programs, which are those items. -/
theorem main_run (c : Dev nD) : main (F := F) c = Pipeline.Seg.run (segs m) := by
  rewrite [main_chain c, Seg.run_eq_chain,
    show (segs m).map Seg.prog = [
      StableHlo.seq hostOps0,
      StableHlo.seq hostOps0_1,
      StableHlo.seq hostOps0_2,
      Prog.lift (.customCall (Pipeline.entry 0) ()),
      StableHlo.seq hostOps1,
      Prog.lift (.customCall (Pipeline.entry 1) ()),
      StableHlo.seq hostOps2,
      Prog.lift (.customCall (Pipeline.entry 2) ()),
      StableHlo.seq hostOps3,
      Prog.lift (.customCall (Pipeline.entry 3) ()),
      StableHlo.seq hostOps4,
      Prog.lift (.customCall (Pipeline.entry 4) ()) ] from rfl]
  rfl

set_option backward.isDefEq.respectTransparency.types false in
/-- THE RUN: from any memory with zero counters, every weakly fair execution of @main on the TensorCores terminates,
    nothing faulting, and every final state holds every unscoped buffer at the last boundary's contents `W12`: the
    launch over the segments, the last thread state read against the final state. -/
theorem run_all (ρ : Dev nD → PrngReg) : θ_run defs (onTc (τ := τ) (main (F := F))) ⟨m, fun _ => 0, ρ⟩
    (fun r => ∀ c : Dev nD, ∀ b ∈ Pipeline.ucRefs τ sig, r.2.mem (((c : Thread nD τ)).1, b) = W12 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m c b)
    (hfin := fun c s' => by
      iintro ⟨⟨Hh, -⟩, HSI⟩
      unfold StableHlo.held
      imodintro
      iapply (pointsTo_read_all (Pipeline.ucRefs τ sig) (fun b => (((c : Thread nD τ)).1, b)) (W12 m c) s')
      isplitl [Hh] <;> iassumption)
    (hQ := fun s h c => h c)

/-- THE FRAME, at any `F`: every weakly fair execution of @main terminates, nothing faulting, and every final state has
    the argument arrays as launched — each argument is an unscoped buffer, which the run leaves at `W12`, and `W12` at an
    argument is the launch memory (`W12_main_argJ`). -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs (onTc (τ := τ) (main (F := F))) ⟨m, fun _ => 0, ρ⟩).mono (fun r h c =>
    ⟨(h c _ (mem_uc main_arg0 (by decide))).trans (W12_main_arg0 m c),
     (h c _ (mem_uc main_arg1 (by decide))).trans (W12_main_arg1 m c),
     (h c _ (mem_uc main_arg2 (by decide))).trans (W12_main_arg2 m c),
     (h c _ (mem_uc main_arg3 (by decide))).trans (W12_main_arg3 m c),
     (h c _ (mem_uc main_arg4 (by decide))).trans (W12_main_arg4 m c),
     (h c _ (mem_uc main_arg5 (by decide))).trans (W12_main_arg5 m c),
     (h c _ (mem_uc main_arg6 (by decide))).trans (W12_main_arg6 m c),
     (h c _ (mem_uc main_arg7 (by decide))).trans (W12_main_arg7 m c),
     (h c _ (mem_uc main_arg8 (by decide))).trans (W12_main_arg8 m c),
     (h c _ (mem_uc main_arg9 (by decide))).trans (W12_main_arg9 m c),
     (h c _ (mem_uc main_arg10 (by decide))).trans (W12_main_arg10 m c),
     (h c _ (mem_uc main_arg11 (by decide))).trans (W12_main_arg11 m c),
     (h c _ (mem_uc main_arg12 (by decide))).trans (W12_main_arg12 m c)⟩) (run_all m ρ)

end Cert.KernelIdeal.Hand

end
-- ==== Proof.Val.Spec.lean ====
/-
  The two programs as explicit index formulas over the extended reals, and the statement that they agree.

  A graph of 100000 nodes and 740000 messages (640000 edges and one self loop per node): message `k` goes from node
  `src k` to the node numbered `colv k` (an integer: a message whose target number is outside the node range reaches
  no node). `d n` is the inverse square root of node `n`'s in-degree. One layer of the network multiplies the node
  features by a weight, sends them along the messages scaled by `d` at both ends, sums what arrives at each node, adds a
  bias and clips at zero. The first program scales the features by `d` BEFORE they are sent and the sums by `d` AFTER
  they arrive; the second scales every message by the product of the two ends' `d`. After four layers the node
  features are averaged per segment (`ids n` is node `n`'s segment word): the first program sums them through a
  0/1 membership matrix, the second sums over the nodes whose segment number is the row; both divide by the segment's
  count (at least one), multiply by the last weight and add the last bias.
-/
import Idealize.ShloMosaic.PureOps.Ideal

noncomputable section

open scoped BigOperators

namespace Cert.Val

open Idealize.ShloMosaic

/-- The inputs of both programs, read as functions of coordinates. -/
structure Params where
  x : Fin 100000 → Fin 3 → EReal
  W1 : Fin 3 → Fin 128 → EReal
  b1 : Fin 128 → EReal
  W2 : Fin 128 → Fin 128 → EReal
  b2 : Fin 128 → EReal
  W3 : Fin 128 → Fin 128 → EReal
  b3 : Fin 128 → EReal
  W4 : Fin 128 → Fin 128 → EReal
  b4 : Fin 128 → EReal
  Wfc : Fin 128 → Fin 4 → EReal
  bfc : Fin 4 → EReal
  /-- the target node number of each message, as a signed integer -/
  colv : Fin 740000 → ℤ
  /-- the source node of each message (its number wrapped and clamped into the node range) -/
  src : Fin 740000 → Fin 100000
  /-- the target node of each message as the second program's table lookup reads it (wrapped and clamped) -/
  dst : Fin 740000 → Fin 100000
  /-- the inverse square root of each node's in-degree -/
  d : Fin 100000 → EReal
  /-- the segment word of each node -/
  ids : Fin 100000 → BitVec 32

variable (p : Params)

/-- The float 1 of the 32-bit format and of the 16-bit format, as the programs spell them. -/
abbrev one32 : EReal := Ideal.ofBits .f32 0x3F800000#32
abbrev onebf : EReal := Ideal.ofBits .bf16 0x3F80#16

/-- The messages that arrive at node `n`. -/
def hit (n : Fin 100000) : Finset (Fin 740000) := Finset.univ.filter fun k => p.colv k = (n.val : ℤ)

/-- The nodes of segment `g`. -/
def seg (g : Fin 2048) : Finset (Fin 100000) := Finset.univ.filter fun n => (p.ids n).toInt = (g.val : ℤ)

/-- Node `n` is in segment `g`, as 1 or 0. -/
def hot (n : Fin 100000) (g : Fin 2048) : EReal := if p.ids n = BitVec.ofNat 32 g.val then 1 else 0

/-! ## The first program -/

/-- Features times a weight, scaled by `d` at the node. -/
def kLin {a : ℕ} (f : Fin 100000 → Fin a → EReal) (W : Fin a → Fin 128 → EReal) (n : Fin 100000) (c : Fin 128) : EReal :=
  (∑ j : Fin a, f n j * W j c) * p.d n

/-- The sum of what the messages bring to each node (on top of a zero fill). -/
def kAgg (hs : Fin 100000 → Fin 128 → EReal) (n : Fin 100000) (c : Fin 128) : EReal :=
  0 + ∑ k ∈ hit p n, hs (p.src k) c

/-- The sums scaled by `d`, plus the bias, clipped at zero. -/
def kAct (agg : Fin 100000 → Fin 128 → EReal) (b : Fin 128 → EReal) (n : Fin 100000) (c : Fin 128) : EReal :=
  max (agg n c * p.d n + b c) 0

def kH1 := kAct p (kAgg p (kLin p p.x p.W1)) p.b1
def kH2 := kAct p (kAgg p (kLin p (kH1 p) p.W2)) p.b2
def kH3 := kAct p (kAgg p (kLin p (kH2 p) p.W3)) p.b3
def kH4 := kAct p (kAgg p (kLin p (kH3 p) p.W4)) p.b4

/-- Per-segment sums and counts through the membership matrix, the quotient, the last product and bias. -/
def kPool (h : Fin 100000 → Fin 128 → EReal) (g : Fin 2048) (c : Fin 4) : EReal :=
  (∑ j : Fin 128, Ideal.div (∑ n : Fin 100000, hot p n g * h n j) (max (∑ n : Fin 100000, hot p n g * onebf) one32) * p.Wfc j c)
    + p.bfc c

def kOut : Fin 2048 → Fin 4 → EReal := kPool p (kH4 p)

/-! ## The second program -/

def rLin {a : ℕ} (f : Fin 100000 → Fin a → EReal) (W : Fin a → Fin 128 → EReal) (n : Fin 100000) (c : Fin 128) : EReal :=
  ∑ j : Fin a, f n j * W j c

/-- The sum of the messages, each scaled by the product of `d` at its two ends. -/
def rAgg (q : Fin 100000 → Fin 128 → EReal) (n : Fin 100000) (c : Fin 128) : EReal :=
  0 + ∑ k ∈ hit p n, q (p.src k) c * (p.d (p.src k) * p.d (p.dst k))

def rAct (agg : Fin 100000 → Fin 128 → EReal) (b : Fin 128 → EReal) (n : Fin 100000) (c : Fin 128) : EReal :=
  max (agg n c + b c) 0

def rH1 := rAct (rAgg p (rLin p.x p.W1)) p.b1
def rH2 := rAct (rAgg p (rLin (rH1 p) p.W2)) p.b2
def rH3 := rAct (rAgg p (rLin (rH2 p) p.W3)) p.b3
def rH4 := rAct (rAgg p (rLin (rH3 p) p.W4)) p.b4

def rPool (h : Fin 100000 → Fin 128 → EReal) (g : Fin 2048) (c : Fin 4) : EReal :=
  (∑ j : Fin 128, Ideal.div (0 + ∑ n ∈ seg p g, h n j) (max (0 + ∑ n ∈ seg p g, one32) one32) * p.Wfc j c)
    + p.bfc c

def rOut : Fin 2048 → Fin 4 → EReal := rPool p (rH4 p)

end Cert.Val

end
-- ==== Proof.Val.Bridge.lean ====
/-
  The two programs' index formulas agree.

  One layer. At node n the first program forms (sum over the messages k that arrive at n of q (src k) * d (src k)) * d n
  and the second the sum over the same messages of q (src k) * (d (src k) * d (dst k)). Every message that arrives at n
  has dst k = n, multiplication of extended reals is associative, and multiplication by a NONNEGATIVE REAL distributes
  over a finite sum of extended reals whatever the signs and infinities of its terms; so the two agree, and with them the
  bias and the clip. Four layers follow one from the other.

  Pooling. The word test ids n = (g as a 32-bit word) and the number test (ids n read signed) = g are the same test
  for g below 2048, so a sum weighted by the 0/1 membership is the sum over the segment's nodes (0 * a = 0 and
  1 * a = a for every extended real); the two spellings of the float one both denote 1, so the counts agree too.
-/
import proofs.«419651_j51711406244070_2_alg».proof.Proof.Val.Spec
import Mathlib.Data.EReal.Operations
import Mathlib.Algebra.BigOperators.Group.Finset.Basic

noncomputable section

open scoped BigOperators

namespace Cert.Val

open Idealize.ShloMosaic

variable (p : Params)

/-- Multiplication by a nonnegative finite extended real distributes over a finite sum, whatever the signs and
    infinities of the terms. -/
theorem sum_mul_of_nonneg_ne_top {ι : Type*} (s : Finset ι) (g : ι → EReal) {x : EReal} (hx : 0 ≤ x) (hx' : x ≠ ⊤) :
    (∑ i ∈ s, g i) * x = ∑ i ∈ s, g i * x := by
  classical
  induction s using Finset.induction_on with
  | empty => simp
  | insert a s ha ih =>
    rw [Finset.sum_insert ha, Finset.sum_insert ha, EReal.right_distrib_of_nonneg_of_ne_top hx hx', ih]

theorem d_nonneg (hd : ∀ n, ∃ r : ℝ, 0 ≤ r ∧ p.d n = ((r : ℝ) : EReal)) (n : Fin 100000) : 0 ≤ p.d n := by
  obtain ⟨r, hr, h⟩ := hd n
  rw [h]; exact_mod_cast hr

theorem d_ne_top (hd : ∀ n, ∃ r : ℝ, 0 ≤ r ∧ p.d n = ((r : ℝ) : EReal)) (n : Fin 100000) : p.d n ≠ ⊤ := by
  obtain ⟨r, _, h⟩ := hd n
  rw [h]; exact EReal.coe_ne_top r

/-- Messages scaled at the source, summed, then scaled at the target: the same as each message scaled by the product
    of the two factors, because every message that arrives at node n has n as its target. -/
theorem agg_scale (hd : ∀ n, ∃ r : ℝ, 0 ≤ r ∧ p.d n = ((r : ℝ) : EReal))
    (hdst : ∀ (k : Fin 740000) (n : Fin 100000), p.colv k = (n.val : ℤ) → p.dst k = n)
    (q : Fin 100000 → Fin 128 → EReal) (n : Fin 100000) (c : Fin 128) :
    kAgg p (fun m c => q m c * p.d m) n c * p.d n = rAgg p q n c := by
  unfold kAgg rAgg
  rw [zero_add, zero_add, sum_mul_of_nonneg_ne_top _ _ (d_nonneg p hd n) (d_ne_top p hd n)]
  refine Finset.sum_congr rfl ?_
  intro k hk
  have hk2 : k ∈ Finset.univ.filter (fun k => p.colv k = (n.val : ℤ)) := hk
  have hk' : p.colv k = (n.val : ℤ) := (Finset.mem_filter.mp hk2).2
  rw [hdst k n hk', mul_assoc]

/-- One layer: scaling the features before they are sent and the sums after they arrive is scaling each message by
    the product of the two ends' factors. -/
theorem layer (hd : ∀ n, ∃ r : ℝ, 0 ≤ r ∧ p.d n = ((r : ℝ) : EReal))
    (hdst : ∀ (k : Fin 740000) (n : Fin 100000), p.colv k = (n.val : ℤ) → p.dst k = n)
    {a : ℕ} (f : Fin 100000 → Fin a → EReal) (W : Fin a → Fin 128 → EReal) (b : Fin 128 → EReal) :
    kAct p (kAgg p (kLin p f W)) b = rAct (rAgg p (rLin f W)) b := by
  funext n c
  show max (kAgg p (fun m c => rLin f W m c * p.d m) n c * p.d n + b c) 0 = max (rAgg p (rLin f W) n c + b c) 0
  rw [agg_scale p hd hdst]

/-! ## The two spellings of one -/

theorem one32_eq : one32 = 1 := by
  show Ideal.ofBits .f32 0x3F800000#32 = 1
  simp [Ideal.ofBits, Ideal.ieee, -EReal.coe_mul]; norm_num

theorem onebf_eq : onebf = 1 := by
  show Ideal.ofBits .bf16 0x3F80#16 = 1
  simp [Ideal.ofBits, Ideal.ieee, -EReal.coe_mul]; norm_num

/-! ## Membership as a word test and as a number test -/

theorem toInt_ofNat_small (g : Fin 2048) : (BitVec.ofNat 32 g.val).toInt = (g.val : ℤ) := by
  rw [BitVec.toInt_ofNat']
  have := g.isLt
  apply Int.bmod_eq_of_le <;> omega

theorem ids_eq_iff (n : Fin 100000) (g : Fin 2048) :
    p.ids n = BitVec.ofNat 32 g.val ↔ (p.ids n).toInt = (g.val : ℤ) := by
  rw [← BitVec.toInt_inj, toInt_ofNat_small]

/-- A sum weighted by the 0/1 membership of segment g is the sum over the segment's nodes. -/
theorem hot_sum (g : Fin 2048) (φ : Fin 100000 → EReal) :
    ∑ n : Fin 100000, hot p n g * φ n = 0 + ∑ n ∈ seg p g, φ n := by
  rw [zero_add]
  unfold seg hot
  rw [Finset.sum_filter]
  refine Finset.sum_congr rfl ?_
  intro n _
  by_cases h : p.ids n = BitVec.ofNat 32 g.val
  · rw [if_pos h, if_pos ((ids_eq_iff p n g).mp h), one_mul]
  · rw [if_neg h, if_neg (fun h' => h ((ids_eq_iff p n g).mpr h')), zero_mul]

/-- The pooling stage of the two programs agrees on equal node features. -/
theorem pool (h : Fin 100000 → Fin 128 → EReal) : kPool p h = rPool p h := by
  funext g c
  unfold kPool rPool
  have e1 : ∀ j : Fin 128, ∑ n : Fin 100000, hot p n g * h n j = 0 + ∑ n ∈ seg p g, h n j :=
    fun j => hot_sum p g (fun n => h n j)
  have e2 : ∑ n : Fin 100000, hot p n g * onebf = 0 + ∑ n ∈ seg p g, one32 := by
    rw [hot_sum p g (fun _ => onebf), onebf_eq, one32_eq]
  rw [e2]
  simp only [e1]

theorem bridge (p : Params)
    (hd : ∀ n, ∃ r : ℝ, 0 ≤ r ∧ p.d n = ((r : ℝ) : EReal))
    (hdst : ∀ (k : Fin 740000) (n : Fin 100000), p.colv k = (n.val : ℤ) → p.dst k = n) :
    kOut p = rOut p := by
  have h1 : kH1 p = rH1 p := layer p hd hdst _ _ _
  have h2 : kH2 p = rH2 p := by
    unfold kH2 rH2; rw [h1]; exact layer p hd hdst _ _ _
  have h3 : kH3 p = rH3 p := by
    unfold kH3 rH3; rw [h2]; exact layer p hd hdst _ _ _
  have h4 : kH4 p = rH4 p := by
    unfold kH4 rH4; rw [h3]; exact layer p hd hdst _ _ _
  unfold kOut rOut
  rw [h4]
  exact pool p _

end Cert.Val

end
-- ==== Proof.Val.Idx.lean ====
/-
  The host gather and the accumulating scatter of the two programs, READ AT AN INDEX, at the ideal instance
  (a float is an extended real).

  A gather of rows: result row k is the operand's row numbered by the start index idx[k, 0], read as a signed integer and
  clamped into the operand's row range. An accumulating scatter of rows: update row k lands on the operand row numbered
  idx[k, 0], read signed and NOT clamped (a row number outside the range is dropped), so operand element (n, c) receives
  the sum of the update elements (k, c) over the rows k whose index is n. The rank-1 forms are the same with the column
  coordinate gone. Each fact is first proved for arbitrary extents, then read off at the two programs' dimension records.
-/
import proofs.«419651_j51711406244070_2_alg».proof.KernelIdeal
import proofs.«419651_j51711406244070_2_alg».proof.ReferenceIdeal
import Idealize.ShloMosaic.Lib.ValueIdx
import Idealize.ShloMosaic.Lib.ValueIdxRank1

set_option maxRecDepth 16384

noncomputable section

open scoped BigOperators

namespace Cert.Val.Idx

open Idealize.ShloMosaic Idealize.ShloMosaic.ValueIdx

/-! ## Indices by coordinates are equal exactly when the coordinates are -/

theorem ix2_inj {n0 n1 : Nat} {a a' : Fin n0} {b b' : Fin n1} : ix2 a b = ix2 a' b' ↔ a = a' ∧ b = b' := by
  constructor
  · intro h
    exact ⟨congrFun h (0 : Fin 2), congrFun h (1 : Fin 2)⟩
  · rintro ⟨rfl, rfl⟩; rfl

theorem ix1_inj {n : Nat} {a a' : Fin n} : ix1 a = ix1 a' ↔ a = a' := by
  constructor
  · intro h
    exact congrFun h (0 : Fin 1)
  · rintro rfl; rfl

/-- The two axes of a rank-2 shape differ. -/
theorem fin2_one_ne_zero : (1 : Fin 2) ≠ 0 := by decide

/-! ## The gather of rows, at arbitrary extents -/

section Gather
variable {α : Type}

/-- The dimension numbers of a gather of whole rows of an [N, C] operand at a [K, 1] array of row numbers. -/
abbrev rowsGather (N K C : Nat)
    (wf : GatherDims.WF ⟨2, ![N, C]⟩ ⟨2, ![K, 1]⟩ ⟨2, ![K, C]⟩ [1] [0] [] [0] [] 1 ![1, C]) :
    GatherDims ⟨2, ![N, C]⟩ ⟨2, ![K, 1]⟩ ⟨2, ![K, C]⟩ where
  offsetDims := [1]
  collapsedSliceDims := [0]
  operandBatchingDims := []
  startIndicesBatchingDims := []
  startIndexMap := [0]
  indexVectorDim := 1
  sliceSizes := ![1, C]
  wf := wf

/-- RESULT ELEMENT (k, c) OF THE GATHER OF ROWS: the operand's element (idx[k, 0] read signed and clamped, c). -/
theorem rowsGather_apply {N K C w : Nat} (hN : 0 < N)
    (wf : GatherDims.WF ⟨2, ![N, C]⟩ ⟨2, ![K, 1]⟩ ⟨2, ![K, C]⟩ [1] [0] [] [0] [] 1 ![1, C])
    (x : (⟨2, ![N, C]⟩ : Shape).Idx → α) (idx : IVec ⟨2, ![K, 1]⟩ w) (k : Fin K) (c : Fin C) :
    Host.gather (rowsGather N K C wf) x idx (ix2 k c)
      = x (ix2 ⟨min (idx (ix2 k 0)).toInt.toNat (N - 1), by omega⟩ c) := by
  unfold Host.gather
  congr 1
  funext a
  refine Fin.ext ?_
  match a with
  | ⟨0, _⟩ =>
    show (rowsGather N K C wf).start (ix2 k c) idx 0 + (rowsGather N K C wf).batchCoord (ix2 k c) 0
      + (rowsGather N K C wf).offCoord (ix2 k c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsGather N K C wf).startIndexMap from List.mem_singleton.mpr rfl)]
    have hsi : (rowsGather N K C wf).siIdx (ix2 k c) ⟨List.idxOf (0 : Fin 2) (rowsGather N K C wf).startIndexMap,
        List.idxOf_lt_length_iff.2 (List.mem_singleton.mpr rfl)⟩ = ix2 k 0 := by
      funext b; refine Fin.ext ?_
      match b with
      | ⟨0, _⟩ => rfl
      | ⟨1, _⟩ => rfl
    rw [hsi]
    rfl
  | ⟨1, _⟩ =>
    show (rowsGather N K C wf).start (ix2 k c) idx 1 + (rowsGather N K C wf).batchCoord (ix2 k c) 1
      + (rowsGather N K C wf).offCoord (ix2 k c) 1 = _
    rw [GatherDims.batchCoord_eq_zero _ _ _ List.not_mem_nil]
    unfold GatherDims.start
    rw [dif_neg (show (1 : Fin 2) ∉ (rowsGather N K C wf).startIndexMap from
      fun h => fin2_one_ne_zero (List.mem_singleton.mp h))]
    unfold GatherDims.offCoord
    rw [dif_pos (show (1 : Fin 2) ∈ (rowsGather N K C wf).sKept from
      (GatherDims.mem_sKept _ _).mpr ⟨fun h => fin2_one_ne_zero (List.mem_singleton.mp h), List.not_mem_nil⟩)]
    simp only [Nat.add_zero, Nat.zero_add]
    rfl

/-- The dimension numbers of a lookup of a length-N vector at a [K, 1] array of positions. -/
abbrev vecGather (N K : Nat)
    (wf : GatherDims.WF ⟨1, ![N]⟩ ⟨2, ![K, 1]⟩ ⟨1, ![K]⟩ [] [0] [] [0] [] 1 ![1]) :
    GatherDims ⟨1, ![N]⟩ ⟨2, ![K, 1]⟩ ⟨1, ![K]⟩ where
  offsetDims := []
  collapsedSliceDims := [0]
  operandBatchingDims := []
  startIndicesBatchingDims := []
  startIndexMap := [0]
  indexVectorDim := 1
  sliceSizes := ![1]
  wf := wf

/-- RESULT ELEMENT k OF THE LOOKUP: the vector's element at idx[k, 0] read signed and clamped. -/
theorem vecGather_apply {N K w : Nat} (hN : 0 < N)
    (wf : GatherDims.WF ⟨1, ![N]⟩ ⟨2, ![K, 1]⟩ ⟨1, ![K]⟩ [] [0] [] [0] [] 1 ![1])
    (x : (⟨1, ![N]⟩ : Shape).Idx → α) (idx : IVec ⟨2, ![K, 1]⟩ w) (k : Fin K) :
    Host.gather (vecGather N K wf) x idx (ix1 k)
      = x (ix1 ⟨min (idx (ix2 k 0)).toInt.toNat (N - 1), by omega⟩) := by
  unfold Host.gather
  congr 1
  funext a
  obtain rfl : a = 0 := Subsingleton.elim _ _
  refine Fin.ext ?_
  show (vecGather N K wf).start (ix1 k) idx 0 + (vecGather N K wf).batchCoord (ix1 k) 0
    + (vecGather N K wf).offCoord (ix1 k) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGather N K wf).startIndexMap from List.mem_singleton.mpr rfl)]
  have hsi : (vecGather N K wf).siIdx (ix1 k) ⟨List.idxOf (0 : Fin 1) (vecGather N K wf).startIndexMap,
      List.idxOf_lt_length_iff.2 (List.mem_singleton.mpr rfl)⟩ = ix2 k 0 := by
    funext b; refine Fin.ext ?_
    match b with
    | ⟨0, _⟩ => rfl
    | ⟨1, _⟩ => rfl
  rw [hsi]
  rfl

end Gather

/-! ## The accumulating scatter of rows, at arbitrary extents -/

section Scatter

/-- The dimension numbers of a scatter of whole rows into an [N, C] operand at a [K, 1] array of row numbers. -/
abbrev rowsScatter (N K C : Nat) (wf : ScatterDims.WF ⟨2, ![N, C]⟩ ⟨2, ![K, 1]⟩ ⟨2, ![K, C]⟩ [1] [0] [0] 1) :
    ScatterDims ⟨2, ![N, C]⟩ ⟨2, ![K, 1]⟩ ⟨2, ![K, C]⟩ where
  updateWindowDims := [1]
  insertedWindowDims := [0]
  scatterDimsToOperandDims := [0]
  indexVectorDim := 1
  wf := wf

variable {N K C w : Nat} (wf : ScatterDims.WF ⟨2, ![N, C]⟩ ⟨2, ![K, 1]⟩ ⟨2, ![K, C]⟩ [1] [0] [0] 1)
  (idx : IVec ⟨2, ![K, 1]⟩ w) (k : Fin K) (c : Fin C)

/-- On the row axis the window of update (k, c) starts at idx[k, 0], read signed. -/
theorem rowsScatter_start0 : (rowsScatter N K C wf).start (ix2 k c) idx 0 = (idx (ix2 k 0)).toInt := by
  unfold ScatterDims.start
  rw [dif_pos (show (0 : Fin 2) ∈ (rowsScatter N K C wf).scatterDimsToOperandDims from List.mem_singleton.mpr rfl)]
  have hsi : (rowsScatter N K C wf).siIdx (ix2 k c) ⟨List.idxOf (0 : Fin 2) (rowsScatter N K C wf).scatterDimsToOperandDims,
      List.idxOf_lt_length_iff.2 (List.mem_singleton.mpr rfl)⟩ = ix2 k 0 := by
    funext b; refine Fin.ext ?_
    match b with
    | ⟨0, _⟩ => rfl
    | ⟨1, _⟩ => rfl
  rw [hsi]

/-- On the column axis it starts at 0. -/
theorem rowsScatter_start1 : (rowsScatter N K C wf).start (ix2 k c) idx 1 = 0 := by
  unfold ScatterDims.start
  rw [dif_neg (show (1 : Fin 2) ∉ (rowsScatter N K C wf).scatterDimsToOperandDims from fun h => fin2_one_ne_zero (List.mem_singleton.mp h))]

/-- The window coordinate is 0 on the row axis … -/
theorem rowsScatter_window0 : (rowsScatter N K C wf).window (ix2 k c) 0 = 0 := by
  unfold ScatterDims.window
  rw [dif_neg (show (0 : Fin 2) ∉ (rowsScatter N K C wf).sKept by simp [ScatterDims.sKept, Shape.kept])]

/-- … and the update's column on the column axis. -/
theorem rowsScatter_window1 : (rowsScatter N K C wf).window (ix2 k c) 1 = c.val := by
  unfold ScatterDims.window
  rw [dif_pos (show (1 : Fin 2) ∈ (rowsScatter N K C wf).sKept by simp [ScatterDims.sKept, Shape.kept])]
  rfl

/-- WHERE UPDATE (k, c) LANDS: on operand element (idx[k, 0], c) when that row number is in range, nowhere when it is not. -/
theorem rowsScatter_resultIdx :
    (rowsScatter N K C wf).resultIdx? (ix2 k c) idx
      = if h : 0 ≤ (idx (ix2 k 0)).toInt ∧ (idx (ix2 k 0)).toInt < (N : ℤ) then
          some (ix2 ⟨(idx (ix2 k 0)).toInt.toNat, by omega⟩ c)
        else none := by
  unfold ScatterDims.resultIdx?
  by_cases h : 0 ≤ (idx (ix2 k 0)).toInt ∧ (idx (ix2 k 0)).toInt < (N : ℤ)
  · have hall : ∀ a : Fin 2, 0 ≤ (rowsScatter N K C wf).start (ix2 k c) idx a + (rowsScatter N K C wf).window (ix2 k c) a ∧
        (rowsScatter N K C wf).start (ix2 k c) idx a + (rowsScatter N K C wf).window (ix2 k c) a
          < ((⟨2, ![N, C]⟩ : Shape).size a : ℤ) := by
      intro a
      match a with
      | ⟨0, _⟩ =>
        show 0 ≤ (rowsScatter N K C wf).start (ix2 k c) idx 0 + ((rowsScatter N K C wf).window (ix2 k c) 0 : ℤ) ∧
          (rowsScatter N K C wf).start (ix2 k c) idx 0 + ((rowsScatter N K C wf).window (ix2 k c) 0 : ℤ) < (N : ℤ)
        rw [rowsScatter_start0, rowsScatter_window0]
        omega
      | ⟨1, _⟩ =>
        show 0 ≤ (rowsScatter N K C wf).start (ix2 k c) idx 1 + ((rowsScatter N K C wf).window (ix2 k c) 1 : ℤ) ∧
          (rowsScatter N K C wf).start (ix2 k c) idx 1 + ((rowsScatter N K C wf).window (ix2 k c) 1 : ℤ) < (C : ℤ)
        rw [rowsScatter_start1, rowsScatter_window1]
        have := c.isLt
        omega
    rw [dif_pos hall, dif_pos h]
    congr 1
    funext a
    refine Fin.ext ?_
    match a with
    | ⟨0, _⟩ =>
      show ((rowsScatter N K C wf).start (ix2 k c) idx 0 + ((rowsScatter N K C wf).window (ix2 k c) 0 : ℤ)).toNat = _
      rw [rowsScatter_start0, rowsScatter_window0]
      simp
    | ⟨1, _⟩ =>
      show ((rowsScatter N K C wf).start (ix2 k c) idx 1 + ((rowsScatter N K C wf).window (ix2 k c) 1 : ℤ)).toNat = _
      rw [rowsScatter_start1, rowsScatter_window1]
      simp
  · rw [dif_neg h, dif_neg]
    intro hall
    have h0 := hall 0
    rw [rowsScatter_start0, rowsScatter_window0] at h0
    exact h (by simpa using h0)

end Scatter

section ScatterAdd
variable {N K C w : Nat} (wf : ScatterDims.WF ⟨2, ![N, C]⟩ ⟨2, ![K, 1]⟩ ⟨2, ![K, C]⟩ [1] [0] [0] 1)
  (idx : IVec ⟨2, ![K, 1]⟩ w)

/-- Of the updates of row k, the ones that land on operand element (n, c): the one in column c when idx[k, 0] = n, none otherwise. -/
theorem rowsScatter_row_sum (u : (⟨2, ![K, C]⟩ : Shape).Idx → EReal) (k : Fin K) (n : Fin N) (c : Fin C) :
    (∑ b : Fin C, if (rowsScatter N K C wf).resultIdx? (ix2 k b) idx = some (ix2 n c) then u (ix2 k b) else 0)
      = if (idx (ix2 k 0)).toInt = (n.val : ℤ) then u (ix2 k c) else 0 := by
  by_cases hv : (idx (ix2 k 0)).toInt = (n.val : ℤ)
  · rw [if_pos hv]
    have hr : 0 ≤ (idx (ix2 k 0)).toInt ∧ (idx (ix2 k 0)).toInt < (N : ℤ) := by have := n.isLt; omega
    have hn : (⟨(idx (ix2 k 0)).toInt.toNat, by omega⟩ : Fin N) = n := Fin.ext (by simp [hv])
    have : ∀ b : Fin C, ((rowsScatter N K C wf).resultIdx? (ix2 k b) idx = some (ix2 n c)) ↔ b = c := by
      intro b
      rw [rowsScatter_resultIdx, dif_pos hr, hn, Option.some_inj, ix2_inj]
      exact ⟨fun h => h.2, fun h => ⟨rfl, h⟩⟩
    simp only [this]
    rw [Finset.sum_ite_eq' Finset.univ c (fun b => u (ix2 k b)), if_pos (Finset.mem_univ c)]
  · rw [if_neg hv]
    refine Finset.sum_eq_zero fun b _ => ?_
    rw [if_neg]
    rw [rowsScatter_resultIdx]
    split
    · rename_i hr
      rw [Option.some_inj, ix2_inj]
      rintro ⟨h0, -⟩
      apply hv
      have := congrArg Fin.val h0
      simp only at this
      omega
    · exact fun h => nomatch h

/-- OPERAND ELEMENT (n, c) AFTER THE ACCUMULATING SCATTER: what it held plus the update elements (k, c) of the rows k
    whose index idx[k, 0], read signed, is n. -/
theorem rowsScatterAdd_apply {φ : FTy} (x : FVec Ideal ⟨2, ![N, C]⟩ φ) (u : FVec Ideal ⟨2, ![K, C]⟩ φ) (n : Fin N) (c : Fin C) :
    Host.scatterAdd (F := Ideal) (rowsScatter N K C wf) x idx u (ix2 n c)
      = x (ix2 n c) + ∑ k ∈ Finset.univ.filter (fun k : Fin K => (idx (ix2 k 0)).toInt = (n.val : ℤ)), u (ix2 k c) := by
  show x (ix2 n c) + ∑ j ∈ Finset.univ.filter (fun j => (rowsScatter N K C wf).resultIdx? j idx = some (ix2 n c)), u j = _
  congr 1
  rw [Finset.sum_filter, sum_idx2, Finset.sum_filter]
  exact Finset.sum_congr rfl fun k _ => rowsScatter_row_sum wf idx u k n c

end ScatterAdd

/-! ## The accumulating scatter into a vector, at arbitrary extents -/

section VecScatter

/-- The dimension numbers of a scatter of single elements into a length-N vector at a [K, 1] array of positions. -/
abbrev vecScatter (N K : Nat) (wf : ScatterDims.WF ⟨1, ![N]⟩ ⟨2, ![K, 1]⟩ ⟨1, ![K]⟩ [] [0] [0] 1) :
    ScatterDims ⟨1, ![N]⟩ ⟨2, ![K, 1]⟩ ⟨1, ![K]⟩ where
  updateWindowDims := []
  insertedWindowDims := [0]
  scatterDimsToOperandDims := [0]
  indexVectorDim := 1
  wf := wf

variable {N K w : Nat} (wf : ScatterDims.WF ⟨1, ![N]⟩ ⟨2, ![K, 1]⟩ ⟨1, ![K]⟩ [] [0] [0] 1)
  (idx : IVec ⟨2, ![K, 1]⟩ w)

/-- The window of update k starts at idx[k, 0], read signed. -/
theorem vecScatter_start0 (k : Fin K) : (vecScatter N K wf).start (ix1 k) idx 0 = (idx (ix2 k 0)).toInt := by
  unfold ScatterDims.start
  rw [dif_pos (show (0 : Fin 1) ∈ (vecScatter N K wf).scatterDimsToOperandDims from List.mem_singleton.mpr rfl)]
  have hsi : (vecScatter N K wf).siIdx (ix1 k) ⟨List.idxOf (0 : Fin 1) (vecScatter N K wf).scatterDimsToOperandDims,
      List.idxOf_lt_length_iff.2 (List.mem_singleton.mpr rfl)⟩ = ix2 k 0 := by
    funext b; refine Fin.ext ?_
    match b with
    | ⟨0, _⟩ => rfl
    | ⟨1, _⟩ => rfl
  rw [hsi]

/-- Its window coordinate is 0: the one operand axis is inserted. -/
theorem vecScatter_window0 (k : Fin K) : (vecScatter N K wf).window (ix1 k) 0 = 0 := by
  unfold ScatterDims.window
  rw [dif_neg (show (0 : Fin 1) ∉ (vecScatter N K wf).sKept by simp [ScatterDims.sKept, Shape.kept])]

/-- WHERE UPDATE k LANDS: on operand element idx[k, 0] when that position is in range, nowhere when it is not. -/
theorem vecScatter_resultIdx (k : Fin K) :
    (vecScatter N K wf).resultIdx? (ix1 k) idx
      = if h : 0 ≤ (idx (ix2 k 0)).toInt ∧ (idx (ix2 k 0)).toInt < (N : ℤ) then
          some (ix1 ⟨(idx (ix2 k 0)).toInt.toNat, by omega⟩)
        else none := by
  unfold ScatterDims.resultIdx?
  by_cases h : 0 ≤ (idx (ix2 k 0)).toInt ∧ (idx (ix2 k 0)).toInt < (N : ℤ)
  · have hall : ∀ a : Fin 1, 0 ≤ (vecScatter N K wf).start (ix1 k) idx a + (vecScatter N K wf).window (ix1 k) a ∧
        (vecScatter N K wf).start (ix1 k) idx a + (vecScatter N K wf).window (ix1 k) a
          < ((⟨1, ![N]⟩ : Shape).size a : ℤ) := by
      intro a
      obtain rfl : a = 0 := Subsingleton.elim _ _
      show 0 ≤ (vecScatter N K wf).start (ix1 k) idx 0 + ((vecScatter N K wf).window (ix1 k) 0 : ℤ) ∧
        (vecScatter N K wf).start (ix1 k) idx 0 + ((vecScatter N K wf).window (ix1 k) 0 : ℤ) < (N : ℤ)
      rw [vecScatter_start0, vecScatter_window0]
      omega
    rw [dif_pos hall, dif_pos h]
    congr 1
    funext a
    obtain rfl : a = 0 := Subsingleton.elim _ _
    refine Fin.ext ?_
    show ((vecScatter N K wf).start (ix1 k) idx 0 + ((vecScatter N K wf).window (ix1 k) 0 : ℤ)).toNat = _
    rw [vecScatter_start0, vecScatter_window0]
    simp only [Nat.cast_zero, add_zero]
    rfl
  · rw [dif_neg h, dif_neg]
    intro hall
    have h0 := hall 0
    rw [vecScatter_start0, vecScatter_window0] at h0
    exact h (by simpa using h0)

/-- Update k lands on operand element n exactly when idx[k, 0], read signed, is n. -/
theorem vecScatter_lands (k : Fin K) (n : Fin N) :
    (vecScatter N K wf).resultIdx? (ix1 k) idx = some (ix1 n) ↔ (idx (ix2 k 0)).toInt = (n.val : ℤ) := by
  rw [vecScatter_resultIdx]
  constructor
  · intro h
    split at h
    · rename_i hr
      rw [Option.some_inj, ix1_inj] at h
      have := congrArg Fin.val h
      simp only at this
      omega
    · exact nomatch h
  · intro hv
    have hr : 0 ≤ (idx (ix2 k 0)).toInt ∧ (idx (ix2 k 0)).toInt < (N : ℤ) := by have := n.isLt; omega
    rw [dif_pos hr]
    exact congrArg some (congrArg ix1 (Fin.ext (by simp [hv])))

/-- OPERAND ELEMENT n AFTER THE ACCUMULATING SCATTER: what it held plus the update elements k whose index idx[k, 0],
    read signed, is n. -/
theorem vecScatterAdd_apply {φ : FTy} (x : FVec Ideal ⟨1, ![N]⟩ φ) (u : FVec Ideal ⟨1, ![K]⟩ φ) (n : Fin N) :
    Host.scatterAdd (F := Ideal) (vecScatter N K wf) x idx u (ix1 n)
      = x (ix1 n) + ∑ k ∈ Finset.univ.filter (fun k : Fin K => (idx (ix2 k 0)).toInt = (n.val : ℤ)), u (ix1 k) := by
  show x (ix1 n) + ∑ j ∈ Finset.univ.filter (fun j => (vecScatter N K wf).resultIdx? j idx = some (ix1 n)), u j = _
  congr 1
  rw [Finset.sum_filter, Finset.sum_filter, ← Equiv.sum_comp (idxEquiv1 (n := K)).symm]
  refine Finset.sum_congr rfl fun k _ => ?_
  show (if (vecScatter N K wf).resultIdx? (ix1 k) idx = some (ix1 n) then u (ix1 k) else 0) = _
  simp only [vecScatter_lands]

end VecScatter

/-! ## Read off at the two programs' dimension records -/

/-- A start index read signed and clamped into the node range [0, 99999]. -/
def clampN (b : BitVec 32) : Fin 100000 := ⟨min b.toInt.toNat 99999, by omega⟩

/-- Its value. -/
@[simp] theorem clampN_val (b : BitVec 32) : (clampN b).val = min b.toInt.toNat 99999 := rfl

section Printed
variable {α : Type} {φ : FTy}

/-! ### The first program's records -/

section First
variable [Cert.KernelIdeal.Facts₀]

/-- Gathered row k of the first program: the operand's row idx[k, 0], read signed and clamped. -/
theorem gather_rows_KI (x : Cert.KernelIdeal.S100000x128.Idx → α) (idx : IVec Cert.KernelIdeal.S740000x1 32)
    (k : Fin 740000) (c : Fin 128) :
    Host.gather Cert.KernelIdeal.gather_S100000x128_S740000x1_S740000x128_1_0_n_n_0_1_1128 x idx (ix2 k c)
      = x (ix2 (clampN (idx (ix2 k 0))) c) :=
  rowsGather_apply (N := 100000) (K := 740000) (C := 128) (by omega)
    Cert.KernelIdeal.gather_S100000x128_S740000x1_S740000x128_1_0_n_n_0_1_1128.wf x idx k c

/-- Where update (k, c) of the first program's scatter of rows lands. -/
theorem scatter_rows_resultIdx_KI (idx : IVec Cert.KernelIdeal.S740000x1 32) (k : Fin 740000) (c : Fin 128) :
    Cert.KernelIdeal.scatter_S100000x128_S740000x1_S740000x128_1_0_0_1.resultIdx?
        (ix2 k c : Cert.KernelIdeal.S740000x128.Idx) idx
      = if h : 0 ≤ (idx (ix2 k 0)).toInt ∧ (idx (ix2 k 0)).toInt < 100000 then
          some (ix2 ⟨(idx (ix2 k 0)).toInt.toNat, by omega⟩ c)
        else none :=
  rowsScatter_resultIdx (N := 100000) (K := 740000) (C := 128)
    Cert.KernelIdeal.scatter_S100000x128_S740000x1_S740000x128_1_0_0_1.wf idx k c

/-- Element (n, c) after the first program's accumulating scatter of rows. -/
theorem scatterAdd_rows_KI (x : FVec Ideal Cert.KernelIdeal.S100000x128 φ) (idx : IVec Cert.KernelIdeal.S740000x1 32)
    (u : FVec Ideal Cert.KernelIdeal.S740000x128 φ) (n : Fin 100000) (c : Fin 128) :
    Host.scatterAdd (F := Ideal) Cert.KernelIdeal.scatter_S100000x128_S740000x1_S740000x128_1_0_0_1 x idx u (ix2 n c)
      = x (ix2 n c)
        + ∑ k ∈ Finset.univ.filter (fun k : Fin 740000 => (idx (ix2 k 0)).toInt = (n.val : ℤ)), u (ix2 k c) :=
  rowsScatterAdd_apply (N := 100000) (K := 740000) (C := 128)
    Cert.KernelIdeal.scatter_S100000x128_S740000x1_S740000x128_1_0_0_1.wf idx x u n c

/-- Element n after the first program's accumulating scatter into the degree vector. -/
theorem scatterAdd_vec_KI (x : FVec Ideal Cert.KernelIdeal.S100000 φ) (idx : IVec Cert.KernelIdeal.S740000x1 32)
    (u : FVec Ideal Cert.KernelIdeal.S740000 φ) (n : Fin 100000) :
    Host.scatterAdd (F := Ideal) Cert.KernelIdeal.scatter_S100000_S740000x1_S740000_n_0_0_1 x idx u (ix1 n)
      = x (ix1 n) + ∑ k ∈ Finset.univ.filter (fun k : Fin 740000 => (idx (ix2 k 0)).toInt = (n.val : ℤ)), u (ix1 k) :=
  vecScatterAdd_apply (N := 100000) (K := 740000)
    Cert.KernelIdeal.scatter_S100000_S740000x1_S740000_n_0_0_1.wf idx x u n

end First

/-! ### The second program's records -/

section Second
variable [Cert.ReferenceIdeal.Facts₀]

/-- Gathered row k of the second program: the operand's row idx[k, 0], read signed and clamped. -/
theorem gather_rows_RI (x : Cert.ReferenceIdeal.S100000x128.Idx → α) (idx : IVec Cert.ReferenceIdeal.S740000x1 32)
    (k : Fin 740000) (c : Fin 128) :
    Host.gather Cert.ReferenceIdeal.gather_S100000x128_S740000x1_S740000x128_1_0_n_n_0_1_1128 x idx (ix2 k c)
      = x (ix2 (clampN (idx (ix2 k 0))) c) :=
  rowsGather_apply (N := 100000) (K := 740000) (C := 128) (by omega)
    Cert.ReferenceIdeal.gather_S100000x128_S740000x1_S740000x128_1_0_n_n_0_1_1128.wf x idx k c

/-- Looked-up element k of the second program: the vector's element idx[k, 0], read signed and clamped. -/
theorem gather_vec_RI (x : Cert.ReferenceIdeal.S100000.Idx → α) (idx : IVec Cert.ReferenceIdeal.S740000x1 32)
    (k : Fin 740000) :
    Host.gather Cert.ReferenceIdeal.gather_S100000_S740000x1_S740000_n_0_n_n_0_1_1 x idx (ix1 k)
      = x (ix1 (clampN (idx (ix2 k 0)))) :=
  vecGather_apply (N := 100000) (K := 740000) (by omega)
    Cert.ReferenceIdeal.gather_S100000_S740000x1_S740000_n_0_n_n_0_1_1.wf x idx k

/-- Where update (k, c) of the second program's scatter of rows lands. -/
theorem scatter_rows_resultIdx_RI (idx : IVec Cert.ReferenceIdeal.S740000x1 32) (k : Fin 740000) (c : Fin 128) :
    Cert.ReferenceIdeal.scatter_S100000x128_S740000x1_S740000x128_1_0_0_1.resultIdx?
        (ix2 k c : Cert.ReferenceIdeal.S740000x128.Idx) idx
      = if h : 0 ≤ (idx (ix2 k 0)).toInt ∧ (idx (ix2 k 0)).toInt < 100000 then
          some (ix2 ⟨(idx (ix2 k 0)).toInt.toNat, by omega⟩ c)
        else none :=
  rowsScatter_resultIdx (N := 100000) (K := 740000) (C := 128)
    Cert.ReferenceIdeal.scatter_S100000x128_S740000x1_S740000x128_1_0_0_1.wf idx k c

/-- Element (n, c) after the second program's accumulating scatter of rows. -/
theorem scatterAdd_rows_RI (x : FVec Ideal Cert.ReferenceIdeal.S100000x128 φ) (idx : IVec Cert.ReferenceIdeal.S740000x1 32)
    (u : FVec Ideal Cert.ReferenceIdeal.S740000x128 φ) (n : Fin 100000) (c : Fin 128) :
    Host.scatterAdd (F := Ideal) Cert.ReferenceIdeal.scatter_S100000x128_S740000x1_S740000x128_1_0_0_1 x idx u (ix2 n c)
      = x (ix2 n c)
        + ∑ k ∈ Finset.univ.filter (fun k : Fin 740000 => (idx (ix2 k 0)).toInt = (n.val : ℤ)), u (ix2 k c) :=
  rowsScatterAdd_apply (N := 100000) (K := 740000) (C := 128)
    Cert.ReferenceIdeal.scatter_S100000x128_S740000x1_S740000x128_1_0_0_1.wf idx x u n c

/-- Element n after the second program's accumulating scatter into the degree vector. -/
theorem scatterAdd_vec_RI (x : FVec Ideal Cert.ReferenceIdeal.S100000 φ) (idx : IVec Cert.ReferenceIdeal.S740000x1 32)
    (u : FVec Ideal Cert.ReferenceIdeal.S740000 φ) (n : Fin 100000) :
    Host.scatterAdd (F := Ideal) Cert.ReferenceIdeal.scatter_S100000_S740000x1_S740000_n_0_0_1 x idx u (ix1 n)
      = x (ix1 n) + ∑ k ∈ Finset.univ.filter (fun k : Fin 740000 => (idx (ix2 k 0)).toInt = (n.val : ℤ)), u (ix1 k) :=
  vecScatterAdd_apply (N := 100000) (K := 740000)
    Cert.ReferenceIdeal.scatter_S100000_S740000x1_S740000_n_0_0_1.wf idx x u n

/-- Element (g, c) after the second program's per-segment accumulating scatter of rows: what it held plus the rows n
    whose segment word idx[n, 0], read signed, is g. -/
theorem scatterAdd_seg_rows_RI (x : FVec Ideal Cert.ReferenceIdeal.S2048x128 φ) (idx : IVec Cert.ReferenceIdeal.S100000x1 32)
    (u : FVec Ideal Cert.ReferenceIdeal.S100000x128 φ) (g : Fin 2048) (c : Fin 128) :
    Host.scatterAdd (F := Ideal) Cert.ReferenceIdeal.scatter_S2048x128_S100000x1_S100000x128_1_0_0_1 x idx u (ix2 g c)
      = x (ix2 g c)
        + ∑ n ∈ Finset.univ.filter (fun n : Fin 100000 => (idx (ix2 n 0)).toInt = (g.val : ℤ)), u (ix2 n c) :=
  rowsScatterAdd_apply (N := 2048) (K := 100000) (C := 128)
    Cert.ReferenceIdeal.scatter_S2048x128_S100000x1_S100000x128_1_0_0_1.wf idx x u g c

/-- Element g after the second program's per-segment accumulating scatter into the count vector. -/
theorem scatterAdd_seg_vec_RI (x : FVec Ideal Cert.ReferenceIdeal.S2048 φ) (idx : IVec Cert.ReferenceIdeal.S100000x1 32)
    (u : FVec Ideal Cert.ReferenceIdeal.S100000 φ) (g : Fin 2048) :
    Host.scatterAdd (F := Ideal) Cert.ReferenceIdeal.scatter_S2048_S100000x1_S100000_n_0_0_1 x idx u (ix1 g)
      = x (ix1 g) + ∑ n ∈ Finset.univ.filter (fun n : Fin 100000 => (idx (ix2 n 0)).toInt = (g.val : ℤ)), u (ix1 n) :=
  vecScatterAdd_apply (N := 2048) (K := 100000)
    Cert.ReferenceIdeal.scatter_S2048_S100000x1_S100000_n_0_0_1.wf idx x u g

end Second

end Printed

end Cert.Val.Idx

end
-- ==== Proof.Val.Args.lean ====
/-
  The second program's inputs, gathered as the parameters of the index formulas.

  The float arrays are read at their coordinates. The message tables are the program's own integer arrays, as
  functions of the edge array: the target number of message k is the second edge row followed by the node numbers,
  read as a signed integer; its source and target NODES are those numbers with a negative one wrapped by the node count
  and the result clamped into the node range (what a table lookup does with its index); d is the program's
  inverse square root of the in-degree where that is positive, and zero elsewhere.
-/
import proofs.«419651_j51711406244070_2_alg».proof.Proof.Val.Spec
import proofs.«419651_j51711406244070_2_alg».proof.Proof.Val.Idx
import proofs.«419651_j51711406244070_2_alg».proof.Proof.RefRead

noncomputable section

open scoped BigOperators

namespace Cert.Val

open Idealize.ShloMosaic Idealize.ShloMosaic.ValueIdx Cert.ReferenceIdeal Cert.ReferenceIdeal.Gen Cert.ReferenceIdeal.Read Cert.Val.Idx

/-- The second program's inputs as the index formulas' parameters. -/
def refParams (a0 : S100000x3.Idx → EReal) (a1 : S2x640000.Idx → BitVec 32) (a2 : S100000.Idx → BitVec 32)
    (a3 : S3x128.Idx → EReal) (a4 : S128.Idx → EReal) (a5 : S128x128.Idx → EReal) (a6 : S128.Idx → EReal)
    (a7 : S128x128.Idx → EReal) (a8 : S128.Idx → EReal) (a9 : S128x128.Idx → EReal) (a10 : S128.Idx → EReal)
    (a11 : S128x4.Idx → EReal) (a12 : S4.Idx → EReal) : Params where
  x n j := a0 (ix2 n j)
  W1 j c := a3 (ix2 j c)
  b1 c := a4 (ix1 c)
  W2 j c := a5 (ix2 j c)
  b2 c := a6 (ix1 c)
  W3 j c := a7 (ix2 j c)
  b3 c := a8 (ix1 c)
  W4 j c := a9 (ix2 j c)
  b4 c := a10 (ix1 c)
  Wfc j c := a11 (ix2 j c)
  bfc c := a12 (ix1 c)
  colv k := (val_main_v6 (F := Ideal) a1 (ix1 k)).toInt
  src k := clampN (val_main_v20 (F := Ideal) a1 (ix2 k 0))
  dst k := clampN (val_main_v27 (F := Ideal) a1 (ix2 k 0))
  d n := val_main_v14 (F := Ideal) a1 (ix1 n)
  ids n := a2 (ix1 n)

end Cert.Val

end
-- ==== Proof.Val.ArgsFacts.lean ====
/-
  Two facts about the second program's own tables, read off its host operations one element at a time.

  Targets. Message k's looked-up target is its target number, wrapped by the node count when negative and then clamped
  into the node range. When the target number IS a node's number n it is not negative, so it is not wrapped, and it is
  below the node count, so the clamp keeps it: the looked-up target is n.

  Scale factors. A node's in-degree is the zero fill plus the float one for every message that arrives: a natural number
  m. The factor is the inverse square root of m where m is positive and zero otherwise: in both cases a nonnegative real.
-/
import proofs.«419651_j51711406244070_2_alg».proof.Proof.Val.Args
import proofs.«419651_j51711406244070_2_alg».proof.Proof.Val.Idx
import proofs.«419651_j51711406244070_2_alg».proof.Proof.RefRead
import Idealize.ShloMosaic.Lib.ValueIdx
import Idealize.ShloMosaic.Lib.IdealHost
import Idealize.ShloMosaic.PureOps.Ideal.Laws

set_option maxRecDepth 16384

noncomputable section

open scoped BigOperators

namespace Cert.Val

open Idealize.ShloMosaic Idealize.ShloMosaic.ValueIdx Cert.ReferenceIdeal Cert.ReferenceIdeal.Gen Cert.ReferenceIdeal.Read Cert.Val.Idx

variable (a0 : S100000x3.Idx → EReal) (a1 : S2x640000.Idx → BitVec 32) (a2 : S100000.Idx → BitVec 32)
    (a3 : S3x128.Idx → EReal) (a4 : S128.Idx → EReal) (a5 : S128x128.Idx → EReal) (a6 : S128.Idx → EReal)
    (a7 : S128x128.Idx → EReal) (a8 : S128.Idx → EReal) (a9 : S128x128.Idx → EReal) (a10 : S128.Idx → EReal)
    (a11 : S128x4.Idx → EReal) (a12 : S4.Idx → EReal)

/-- A message whose target number is a node's number has that node as its looked-up target: the number is not negative, so
    it is not wrapped, and it is inside the node range, so the clamp keeps it. -/
theorem refParams_hdst : ∀ (k : Fin 740000) (n : Fin 100000),
    (refParams a0 a1 a2 a3 a4 a5 a6 a7 a8 a9 a10 a11 a12).colv k = (n.val : ℤ) →
    (refParams a0 a1 a2 a3 a4 a5 a6 a7 a8 a9 a10 a11 a12).dst k = n := by
  intro k n h
  have h6 : (val_main_v6 (F := Ideal) a1 (ix1 k)).toInt = (n.val : ℤ) := h
  show clampN (val_main_v27 (F := Ideal) a1 (ix2 k 0)) = n
  have e27 : idx_main_v27 (ix2 k (0 : Fin 1)) = ix1 k := by
    funext a; match a with | ⟨0, _⟩ => rfl
  rw [val_main_v27_apply, e27, val_main_v26_apply, val_main_v23_apply, val_main_v22_apply, val_main_c_4_apply]
  have hlt : ¬ ((val_main_v6 (F := Ideal) a1 (ix1 k)).toInt < (0#32 : BitVec 32).toInt) := by
    rw [h6]; simp
  have hns : IntOp.cmpi .slt (val_main_v6 (F := Ideal) a1 (ix1 k)) 0#32 = 0#1 := by
    simp only [IntOp.cmpi, BitVec.slt, decide_eq_false hlt]; rfl
  rw [hns, select_zero]
  apply Fin.ext
  show min (val_main_v6 (F := Ideal) a1 (ix1 k)).toInt.toNat 99999 = n.val
  rw [h6]
  have := n.isLt
  omega

/-- The in-degree of a node, as the program computes it: zero plus one per message that arrives, a natural number. -/
theorem deg_eq (n : Fin 100000) :
    val_main_v10 (F := Ideal) a1 (ix1 n)
      = (((Finset.univ.filter fun k : Fin 740000 => (val_main_v9 (F := Ideal) a1 (ix2 k 0)).toInt = (n.val : ℤ)).card : ℕ) : EReal) := by
  unfold val_main_v10
  rw [scatterAdd_vec_RI]
  have e1 : ∀ k : Fin 740000, val_main_v7 (F := Ideal) (ix1 k) = (1 : EReal) := by
    intro k
    rw [val_main_v7_apply, val_main_cst_apply, Ideal.ofBits_def, Ideal.ofBits_one_f32]
  rw [val_main_v8_apply, val_main_cst_0_apply, Ideal.ofBits_def, Ideal.ofBits_zero_f32, zero_add,
    Finset.sum_congr rfl (fun k _ => e1 k), Finset.sum_const]
  exact nsmul_one _

/-- The inverse square root of the in-degree is a non-negative real: of a positive natural number it is the real
    inverse square root, and a node no message reaches gets zero. -/
theorem invsqrt_deg_real (n : Fin 100000) : ∃ r : ℝ, 0 ≤ r ∧ val_main_v14 (F := Ideal) a1 (ix1 n) = ((r : ℝ) : EReal) := by
  rw [val_main_v14_apply, val_main_v12_apply, val_main_v13_apply, val_main_call0_v1_apply, val_main_call0_v0_apply,
    val_main_cst_2_apply, val_main_v11_apply, val_main_cst_1_apply, deg_eq]
  generalize (Finset.univ.filter fun k : Fin 740000 => (val_main_v9 (F := Ideal) a1 (ix2 k 0)).toInt = (n.val : ℤ)).card = m
  rw [Ideal.ofBits_def, Ideal.ofBits_zero_f32, Ideal.cmpf_def, Ideal.hostUnary_rsqrt_def]
  rcases Nat.eq_zero_or_pos m with h0 | hpos
  · refine ⟨0, le_refl _, ?_⟩
    subst h0
    have hc : Ideal.cmp .ogt (((0 : ℕ) : EReal)) 0 = 0#1 := by simp [Ideal.cmp]
    rw [hc, select_zero]; simp
  · refine ⟨(Real.sqrt m)⁻¹, by positivity, ?_⟩
    have hc : Ideal.cmp .ogt ((m : ℕ) : EReal) 0 = 1#1 := by
      have : (0 : EReal) < ((m : ℕ) : EReal) := by exact_mod_cast hpos
      simp [Ideal.cmp, this]
    have hm0 : ¬ ((m : ℝ) < 0) := not_lt.mpr (Nat.cast_nonneg m)
    have hm1 : ¬ ((m : ℝ) = 0) := Nat.cast_ne_zero.mpr hpos.ne'
    rw [hc, select_one, ← EReal.coe_natCast, Ideal.rsqrt_coe, if_neg hm0, if_neg hm1]

theorem refParams_hd : ∀ n : Fin 100000, ∃ r : ℝ, 0 ≤ r ∧
    (refParams a0 a1 a2 a3 a4 a5 a6 a7 a8 a9 a10 a11 a12).d n = ((r : ℝ) : EReal) := by
  intro n
  simp only [refParams]
  exact invsqrt_deg_real a1 n

end Cert.Val

end
-- ==== Proof.K.Reg0.lean ====
import proofs.«419651_j51711406244070_2_alg».proof.Proof.Gen.Kernel.Launch
import proofs.«419651_j51711406244070_2_alg».proof.Proof.Gen.Kernel.Skeleton
import proofs.«419651_j51711406244070_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_x : Rect S5000x3 := Rect.unit (s := S5000x3) ![0, 0] S5000x3.size inb_S5000x3_S5000x3_0_0
abbrev r0_w : Rect S3x128 := Rect.unit (s := S3x128) ![0, 0] S3x128.size inb_S3x128_S3x128_0_0
abbrev r0_d : Rect S5000x1 := Rect.unit (s := S5000x1) ![0, 0] S5000x1.size inb_S5000x1_S5000x1_0_0
abbrev r0_o : Rect S5000x128 := Rect.unit (s := S5000x128) ![0, 0] S5000x128.size inb_S5000x128_S5000x128_0_0

/-- The output block after the body: the one whole-block store, over the payload of the three input blocks. -/
def out0_3 (x0 : Vec F S5000x3 .f32) (x1 : Vec F S3x128 .f32) (x2 : Vec F S5000x1 .f32) : Vec F S5000x128 .f32 :=
  View.canon [⟨r0_o, k0_pay1 (View.ld x0 r0_x) (View.ld x1 r0_w) (View.ld x2 r0_d)⟩]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-! ## The input windows at a point -/

/-- Input window 0's current staging buffer holds its block at every point, fetched there or not, for any proof data
    whose array is the entry contents' and whose body leaves the block in place: unfetched, the block index has not
    moved, so the block of the point before is this point's. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the weights, one block for the whole grid, fetched at the first point only): the same. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 (the scale column): the same. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The output block's one store covers it -/

/-- The one store is of the whole block, so it covers it. -/
theorem cover0_3 (p0 : Vec F S5000x128 .f32) (y : S5000x128.Idx) :
    ∃ pc ∈ ([⟨r0_o, p0⟩] : List (View.Piece (Elt F) S5000x128 .f32)), y ∈ pc.1.set :=
  View.cover_of_tiled [⟨r0_o, p0⟩] S5000x128.size (by rfl) y

/-! ## The body's triple -/

set_option maxHeartbeats 1000000 in
/-- The kernel body on whole staging memrefs, the three inputs' at read contents and the output's at anything, runs to
    the continuation holding the inputs' as they were and the output's at the one store's payload over them. The body
    also loads the output block before storing it; the loaded value is not used. -/
theorem sound_kernel0 (c : Dev nD) (E : Set ℕ) (i : grid0.Coords)
    (arg1 : Memref sig .tc .vmem S5000x3 .f32) (harg1 : arg1.IsWhole) (arg2 : Memref sig .tc .vmem S3x128 .f32) (harg2 : arg2.IsWhole)
    (arg3 : Memref sig .tc .vmem S5000x1 .f32) (harg3 : arg3.IsWhole) (arg4 : Memref sig .tc .vmem S5000x128 .f32) (harg4 : arg4.IsWhole)
    (x0 : Vec F S5000x3 .f32) (x1 : Vec F S3x128 .f32) (x2 : Vec F S5000x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__lin_kernel i arg1 harg1 arg2 harg2 arg3 harg3 arg4 harg4) K := by
  simp only [cc0__lin_kernel_eq_skeleton]; unfold cc0__lin_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Reg1.lean ====
import proofs.«419651_j51711406244070_2_alg».proof.Proof.Gen.Kernel.Launch
import proofs.«419651_j51711406244070_2_alg».proof.Proof.Gen.Kernel.Skeleton
import proofs.«419651_j51711406244070_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place: an unfetched point has the block index of
    the point before it, so the buffer still holds this point's block. The window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s and whose body leaves the block in place: an unfetched point has the block index of
    the point before it, so the buffer still holds this point's block. The window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s and whose body leaves the block in place: an unfetched point has the block index of
    the point before it, so the buffer still holds this point's block. The window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s and whose body leaves the block in place: an unfetched point has the block index of
    the point before it, so the buffer still holds this point's block. The window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

abbrev r1_a : Rect S5000x128 := Rect.unit (s := S5000x128) ![0, 0] S5000x128.size inb_S5000x128_S5000x128_0_0
abbrev r1_d : Rect S5000x1 := Rect.unit (s := S5000x1) ![0, 0] S5000x1.size inb_S5000x1_S5000x1_0_0
abbrev r1_b : Rect S1x128 := Rect.unit (s := S1x128) ![0, 0] S1x128.size inb_S1x128_S1x128_0_0
abbrev r1_w : Rect S128x128 := Rect.unit (s := S128x128) ![0, 0] S128x128.size inb_S128x128_S128x128_0_0

/-- The output block after the body: the one whole-block store, over the payload of the four input blocks
    (the scale column is loaded twice). -/
def out1_4 (x0 : Vec F S5000x128 .f32) (x1 : Vec F S5000x1 .f32) (x2 : Vec F S1x128 .f32) (x3 : Vec F S128x128 .f32) : Vec F S5000x128 .f32 :=
  View.canon [⟨r1_a, k1_pay1 (View.ld x0 r1_a) (View.ld x1 r1_d) (View.ld x2 r1_b) (View.ld x3 r1_w) (View.ld x1 r1_d)⟩]

/-- The one store is through the whole block, so it covers every index. -/
theorem cover1_4 (p0 : Vec F S5000x128 .f32) (y : S5000x128.Idx) :
    ∃ pc ∈ ([⟨r1_a, p0⟩] : List (View.Piece (Elt F) S5000x128 .f32)), y ∈ pc.1.set :=
  View.cover_of_tiled [⟨r1_a, p0⟩] S5000x128.size (by rfl) y

set_option maxHeartbeats 1000000 in
/-- The kernel body on whole staging memrefs, the four inputs' at read contents `x0 … x3` and the output's at anything,
    runs to the continuation holding the inputs' as they were and the output's at `out1_4` of the inputs'. The scale
    column is loaded twice (the same contents both times); the output block is loaded once before the store, and that
    value goes nowhere. -/
theorem sound_kernel1 (c : Dev nD) (E : Set ℕ) (i : grid1.Coords)
    (arg0 : Memref sig .tc .vmem S5000x128 .f32) (harg0 : arg0.IsWhole) (arg1 : Memref sig .tc .vmem S5000x1 .f32) (harg1 : arg1.IsWhole)
    (arg2 : Memref sig .tc .vmem S1x128 .f32) (harg2 : arg2.IsWhole) (arg3 : Memref sig .tc .vmem S128x128 .f32) (harg3 : arg3.IsWhole)
    (arg4 : Memref sig .tc .vmem S5000x128 .f32) (harg4 : arg4.IsWhole)
    (x0 : Vec F S5000x128 .f32) (x1 : Vec F S5000x1 .f32) (x2 : Vec F S1x128 .f32) (x3 : Vec F S128x128 .f32) (K : PUnit → sProp 𝕄) :
    iprop(owns (c : Thread nD τ) arg0 fullShare x0 ∗ owns (c : Thread nD τ) arg1 fullShare x1
        ∗ owns (c : Thread nD τ) arg2 fullShare x2 ∗ owns (c : Thread nD τ) arg3 fullShare x3
        ∗ (∃ d, owns (c : Thread nD τ) arg4 fullShare d)
        ∗ (iprop(owns (c : Thread nD τ) arg0 fullShare x0 ∗ owns (c : Thread nD τ) arg1 fullShare x1
            ∗ owns (c : Thread nD τ) arg2 fullShare x2 ∗ owns (c : Thread nD τ) arg3 fullShare x3
            ∗ owns (c : Thread nD τ) arg4 fullShare (out1_4 x0 x1 x2 x3)) -∗ K ⟨⟩))
      ⊢ wp frame (wpE (defs₀ (F := F)) Variants.none c none) E (cc1__fused_kernel i arg0 harg0 arg1 harg1 arg2 harg2 arg3 harg3 arg4 harg4) K := by
  simp only [cc1__fused_kernel_eq_skeleton]; unfold cc1__fused_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is called with at point `t`: the invariant, the core's debts, and the five windows' current staging
    buffers at what the pipeline left in them, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so the body's triple applies; the invariant and
    the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Reg2.lean ====
import proofs.«419651_j51711406244070_2_alg».proof.Proof.Gen.Kernel.Launch
import proofs.«419651_j51711406244070_2_alg».proof.Proof.Gen.Kernel.Skeleton
import proofs.«419651_j51711406244070_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s and whose body leaves the block in place: an unfetched point has the block index of
    the point before it, so the buffer still holds this point's block. The window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is `V`'s and whose body leaves the block in place: an unfetched point has the block index of
    the point before it, so the buffer still holds this point's block. The window is uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof
    data whose array is `V`'s and whose body leaves the block in place: an unfetched point has the block index of
    the point before it, so the buffer still holds this point's block. The window is uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof
    data whose array is `V`'s and whose body leaves the block in place: an unfetched point has the block index of
    the point before it, so the buffer still holds this point's block. The window is uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

abbrev r2_a : Rect S5000x128 := Rect.unit (s := S5000x128) ![0, 0] S5000x128.size inb_S5000x128_S5000x128_0_0
abbrev r2_d : Rect S5000x1 := Rect.unit (s := S5000x1) ![0, 0] S5000x1.size inb_S5000x1_S5000x1_0_0
abbrev r2_b : Rect S1x128 := Rect.unit (s := S1x128) ![0, 0] S1x128.size inb_S1x128_S1x128_0_0
abbrev r2_w : Rect S128x128 := Rect.unit (s := S128x128) ![0, 0] S128x128.size inb_S128x128_S128x128_0_0

/-- The output block after the body: the one whole-block store, over the payload of the four input blocks
    (the scale column is loaded twice). -/
def out2_4 (x0 : Vec F S5000x128 .f32) (x1 : Vec F S5000x1 .f32) (x2 : Vec F S1x128 .f32) (x3 : Vec F S128x128 .f32) : Vec F S5000x128 .f32 :=
  View.canon [⟨r2_a, k2_pay1 (View.ld x0 r2_a) (View.ld x1 r2_d) (View.ld x2 r2_b) (View.ld x3 r2_w) (View.ld x1 r2_d)⟩]

/-- The one store is through the whole block, so it covers every index. -/
theorem cover2_4 (p0 : Vec F S5000x128 .f32) (y : S5000x128.Idx) :
    ∃ pc ∈ ([⟨r2_a, p0⟩] : List (View.Piece (Elt F) S5000x128 .f32)), y ∈ pc.1.set :=
  View.cover_of_tiled [⟨r2_a, p0⟩] S5000x128.size (by rfl) y

set_option maxHeartbeats 1000000 in
/-- The kernel body on whole staging memrefs, the four inputs' at read contents `x0 … x3` and the output's at anything,
    runs to the continuation holding the inputs' as they were and the output's at `out2_4` of the inputs'. The scale
    column is loaded twice (the same contents both times); the output block is loaded once before the store, and that
    value goes nowhere. -/
theorem sound_kernel2 (c : Dev nD) (E : Set ℕ) (i : grid2.Coords)
    (arg0 : Memref sig .tc .vmem S5000x128 .f32) (harg0 : arg0.IsWhole) (arg1 : Memref sig .tc .vmem S5000x1 .f32) (harg1 : arg1.IsWhole)
    (arg2 : Memref sig .tc .vmem S1x128 .f32) (harg2 : arg2.IsWhole) (arg3 : Memref sig .tc .vmem S128x128 .f32) (harg3 : arg3.IsWhole)
    (arg4 : Memref sig .tc .vmem S5000x128 .f32) (harg4 : arg4.IsWhole)
    (x0 : Vec F S5000x128 .f32) (x1 : Vec F S5000x1 .f32) (x2 : Vec F S1x128 .f32) (x3 : Vec F S128x128 .f32) (K : PUnit → sProp 𝕄) :
    iprop(owns (c : Thread nD τ) arg0 fullShare x0 ∗ owns (c : Thread nD τ) arg1 fullShare x1
        ∗ owns (c : Thread nD τ) arg2 fullShare x2 ∗ owns (c : Thread nD τ) arg3 fullShare x3
        ∗ (∃ d, owns (c : Thread nD τ) arg4 fullShare d)
        ∗ (iprop(owns (c : Thread nD τ) arg0 fullShare x0 ∗ owns (c : Thread nD τ) arg1 fullShare x1
            ∗ owns (c : Thread nD τ) arg2 fullShare x2 ∗ owns (c : Thread nD τ) arg3 fullShare x3
            ∗ owns (c : Thread nD τ) arg4 fullShare (out2_4 x0 x1 x2 x3)) -∗ K ⟨⟩))
      ⊢ wp frame (wpE (defs₀ (F := F)) Variants.none c none) E (cc2__fused_kernel i arg0 harg0 arg1 harg1 arg2 harg2 arg3 harg3 arg4 harg4) K := by
  simp only [cc2__fused_kernel_eq_skeleton]; unfold cc2__fused_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) :
    (dat2 V c).after 4 t = out2_4 (iblk2 V c 0 t) (iblk2 V c 1 t) (iblk2 V c 2 t) (iblk2 V c 3 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-- What the body is called with at point `t`: the invariant, the core's debts, and the five windows' current staging
    buffers at what the pipeline left in them, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' memrefs hold their blocks, so the body's triple applies; the invariant and
    the core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Reg3.lean ====
import proofs.«419651_j51711406244070_2_alg».proof.Proof.Gen.Kernel.Launch
import proofs.«419651_j51711406244070_2_alg».proof.Proof.Gen.Kernel.Skeleton
import proofs.«419651_j51711406244070_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof
    data whose array is `V`'s and whose body leaves the block in place: an unfetched point has the block index of
    the point before it, so the buffer still holds this point's block. The window is uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not, for any proof
    data whose array is `V`'s and whose body leaves the block in place: an unfetched point has the block index of
    the point before it, so the buffer still holds this point's block. The window is uncut and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not, for any proof
    data whose array is `V`'s and whose body leaves the block in place: an unfetched point has the block index of
    the point before it, so the buffer still holds this point's block. The window is uncut and never idle. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not, for any proof
    data whose array is `V`'s and whose body leaves the block in place: an unfetched point has the block index of
    the point before it, so the buffer still holds this point's block. The window is uncut and never idle. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

abbrev r3_a : Rect S5000x128 := Rect.unit (s := S5000x128) ![0, 0] S5000x128.size inb_S5000x128_S5000x128_0_0
abbrev r3_d : Rect S5000x1 := Rect.unit (s := S5000x1) ![0, 0] S5000x1.size inb_S5000x1_S5000x1_0_0
abbrev r3_b : Rect S1x128 := Rect.unit (s := S1x128) ![0, 0] S1x128.size inb_S1x128_S1x128_0_0
abbrev r3_w : Rect S128x128 := Rect.unit (s := S128x128) ![0, 0] S128x128.size inb_S128x128_S128x128_0_0

/-- The output block after the body: the one whole-block store, over the payload of the four input blocks
    (the scale column is loaded twice). -/
def out3_4 (x0 : Vec F S5000x128 .f32) (x1 : Vec F S5000x1 .f32) (x2 : Vec F S1x128 .f32) (x3 : Vec F S128x128 .f32) : Vec F S5000x128 .f32 :=
  View.canon [⟨r3_a, k3_pay1 (View.ld x0 r3_a) (View.ld x1 r3_d) (View.ld x2 r3_b) (View.ld x3 r3_w) (View.ld x1 r3_d)⟩]

/-- The one store is through the whole block, so it covers every index. -/
theorem cover3_4 (p0 : Vec F S5000x128 .f32) (y : S5000x128.Idx) :
    ∃ pc ∈ ([⟨r3_a, p0⟩] : List (View.Piece (Elt F) S5000x128 .f32)), y ∈ pc.1.set :=
  View.cover_of_tiled [⟨r3_a, p0⟩] S5000x128.size (by rfl) y

set_option maxHeartbeats 1000000 in
/-- The kernel body on whole staging memrefs, the four inputs' at read contents `x0 … x3` and the output's at anything,
    runs to the continuation holding the inputs' as they were and the output's at `out3_4` of the inputs'. The scale
    column is loaded twice (the same contents both times); the output block is loaded once before the store, and that
    value goes nowhere. -/
theorem sound_kernel3 (c : Dev nD) (E : Set ℕ) (i : grid3.Coords)
    (arg0 : Memref sig .tc .vmem S5000x128 .f32) (harg0 : arg0.IsWhole) (arg1 : Memref sig .tc .vmem S5000x1 .f32) (harg1 : arg1.IsWhole)
    (arg2 : Memref sig .tc .vmem S1x128 .f32) (harg2 : arg2.IsWhole) (arg3 : Memref sig .tc .vmem S128x128 .f32) (harg3 : arg3.IsWhole)
    (arg4 : Memref sig .tc .vmem S5000x128 .f32) (harg4 : arg4.IsWhole)
    (x0 : Vec F S5000x128 .f32) (x1 : Vec F S5000x1 .f32) (x2 : Vec F S1x128 .f32) (x3 : Vec F S128x128 .f32) (K : PUnit → sProp 𝕄) :
    iprop(owns (c : Thread nD τ) arg0 fullShare x0 ∗ owns (c : Thread nD τ) arg1 fullShare x1
        ∗ owns (c : Thread nD τ) arg2 fullShare x2 ∗ owns (c : Thread nD τ) arg3 fullShare x3
        ∗ (∃ d, owns (c : Thread nD τ) arg4 fullShare d)
        ∗ (iprop(owns (c : Thread nD τ) arg0 fullShare x0 ∗ owns (c : Thread nD τ) arg1 fullShare x1
            ∗ owns (c : Thread nD τ) arg2 fullShare x2 ∗ owns (c : Thread nD τ) arg3 fullShare x3
            ∗ owns (c : Thread nD τ) arg4 fullShare (out3_4 x0 x1 x2 x3)) -∗ K ⟨⟩))
      ⊢ wp frame (wpE (defs₀ (F := F)) Variants.none c none) E (cc3__fused_kernel i arg0 harg0 arg1 harg1 arg2 harg2 arg3 harg3 arg4 harg4) K := by
  simp only [cc3__fused_kernel_eq_skeleton]; unfold cc3__fused_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3_4 _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) :
    (dat3 V c).after 4 t = out3_4 (iblk3 V c 0 t) (iblk3 V c 1 t) (iblk3 V c 2 t) (iblk3 V c 3 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-- What the body is called with at point `t`: the invariant, the core's debts, and the five windows' current staging
    buffers at what the pipeline left in them, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

/-- The body at any point: the inputs' memrefs hold their blocks, so the body's triple applies; the invariant and
    the core's debts pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.Reg4.lean ====
import proofs.«419651_j51711406244070_2_alg».proof.Proof.Gen.Kernel.Launch
import proofs.«419651_j51711406244070_2_alg».proof.Proof.Gen.Kernel.Skeleton
import proofs.«419651_j51711406244070_2_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The running sum scratch after point `n`: the first point starts from the zero fill, every later one from what the
    point before left. -/
def accAt (c : Dev nD) : (n : ℕ) → n < cfg4.N → Vec F S2048x128 .f32
  | 0, h => k4_pay6 (iblk4 V c 0 ⟨0, h⟩) (iblk4 V c 1 ⟨0, h⟩) (iblk4 V c 2 ⟨0, h⟩) (iblk4 V c 3 ⟨0, h⟩) k4_pay3
  | n + 1, h => k4_pay6 (iblk4 V c 0 ⟨n + 1, h⟩) (iblk4 V c 1 ⟨n + 1, h⟩) (iblk4 V c 2 ⟨n + 1, h⟩) (iblk4 V c 3 ⟨n + 1, h⟩)
      (accAt c n (Nat.lt_of_succ_lt h))

/-- The running count scratch after point `n`, likewise. -/
def cntAt (c : Dev nD) : (n : ℕ) → n < cfg4.N → Vec F S2048x1 .f32
  | 0, h => k4_pay1 (k4_pay7 (iblk4 V c 3 ⟨0, h⟩) k4_pay4)
  | n + 1, h => k4_pay1 (k4_pay7 (iblk4 V c 3 ⟨n + 1, h⟩) (cntAt c n (Nat.lt_of_succ_lt h)))

/-- What the last point stores into the output block: the quotient of the two scratch buffers after that point's
    update, through the final product and bias. (Consulted at the last point only: the output window is idle before.) -/
def out4_6 (c : Dev nD) (t : Fin cfg4.N) : Vec F S2048x4 .f32 :=
  k4_pay2 (accAt V c t.val t.isLt) (cntAt V c t.val t.isLt) (iblk4 V c 4 t) (iblk4 V c 5 t)

/-- The body's invariant between points: before the first point the class-A one (every scoped buffer at anything, the
    generator register); after point `n` the two scratch buffers at the running sum and count, the other scoped
    buffers at anything, the generator register. -/
def Φ4 (c : Dev nD) (t : Fin (cfg4.N + 1)) : sProp 𝕄 :=
  match t with
  | ⟨0, _⟩ => Pipeline.ΦA spec4 c
  | ⟨n + 1, h⟩ => iprop(owns (c : Thread nD τ) (Memref.whole cc4_scratch0) fullShare (accAt V c n (Nat.lt_of_succ_lt_succ h))
      ∗ owns (c : Thread nD τ) (Memref.whole cc4_scratch1) fullShare (cntAt V c n (Nat.lt_of_succ_lt_succ h))
      ∗ Pipeline.scopedRestBut (Ix := Unit) (Name := ℕ) (U := UR sig nD τ) (Lvl := ℕ) (Val := Elt F) spec4 c [cc4_scratch0, cc4_scratch1]
      ∗ ∃ r, prngReg c r)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => out4_6 V c t
  Φ t := Φ4 V c t
  q _ := fullShare
  owed _ := 0

theorem A_eq4 (c : Dev nD) (w : Fin cfg4.W) : (dat4 V c).A w = V c (Pipeline.arrRef spec4 w) := by
  dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = out4_6 V c t := by dsimp only [dat4]

/-! ## The two branch conditions, in closed form over the grid -/

/-- The condition of the first branch as the body computes it from the grid coordinate: "the coordinate is zero". -/
abbrev cond4_first (i : grid4.Coords) : BitVec 1 :=
  let arg0 : BitVec 32 := BitVec.ofNat 32 (i 0).val
  let v0 : BitVec 1 := Scalar.cmpi .eq arg0 0#32
  let v1 : BitVec 32 := Scalar.extui v0
  let v2 : BitVec 1 := Scalar.cmpi .ne v1 0#32
  v2

/-- It holds at the first point only. -/
theorem hcond4_first : ∀ t : Fin cfg4.N, cond4_first (grid4.coords t) = 1#1 ↔ t.val = 0 :=
  (by decide +kernel : ∀ t : Fin grid4.N, cond4_first (grid4.coords t) = 1#1 ↔ t.val = 0)

/-- The second branch's condition, "the coordinate is 99", holds at the last point only. -/
theorem hcond4_last : ∀ t : Fin cfg4.N, k4_cond2 (grid4.coords t) = 1#1 ↔ t.val = 99 :=
  (by decide +kernel : ∀ t : Fin grid4.N, k4_cond2 (grid4.coords t) = 1#1 ↔ t.val = 99)

/-! ## The invariant at the first point, after a point, and after the last -/

/-- Before the first point the invariant is the class-A one. -/
theorem Φ4_zero (c : Dev nD) : (dat4 V c).Φ 0 = Pipeline.ΦA spec4 c := by
  first | rfl | dsimp only [dat4, Φ4] | fail "Φ4_zero"

/-- After point n the invariant holds the two scratch buffers at the running sum and count of that point. -/
theorem Φ4_succ (c : Dev nD) (n : ℕ) (h : n + 1 < cfg4.N + 1) :
    (dat4 V c).Φ ⟨n + 1, h⟩ = iprop(owns (c : Thread nD τ) (Memref.whole cc4_scratch0) fullShare (accAt V c n (Nat.lt_of_succ_lt_succ h))
      ∗ owns (c : Thread nD τ) (Memref.whole cc4_scratch1) fullShare (cntAt V c n (Nat.lt_of_succ_lt_succ h))
      ∗ Pipeline.scopedRestBut (Ix := Unit) (Name := ℕ) (U := UR sig nD τ) (Lvl := ℕ) (Val := Elt F) spec4 c [cc4_scratch0, cc4_scratch1]
      ∗ ∃ r, prngReg c r) := by
  first | rfl | dsimp only [dat4, Φ4] | fail "Φ4_succ"

/-- After the last point it gives the class-A one back: the two scratch buffers rejoin the scoped rest. -/
theorem Φ4_last (c : Dev nD) : (dat4 V c).Φ (Fin.last cfg4.N) ⊢ (Pipeline.ΦA spec4 c : sProp 𝕄) := by
  rw [show Fin.last cfg4.N = ⟨99 + 1, by decide⟩ from Fin.ext (by decide), Φ4_succ]
  unfold Pipeline.ΦA
  rw [scopedRest4_split, owns_whole, owns_whole]
  iintro ⟨H0, H1, Hrest, Hr⟩
  isplitr [Hr]
  · isplitr [Hrest]
    · isplitl [H0]
      · iexists _; iexact H0
      · iexists _; iexact H1
    · iexact Hrest
  · iexact Hr

/-! ## What the body finds in the six input windows' buffers -/

/-- Each input window's current staging buffer holds its block at every point, fetched there or not: an input not
    fetched at a point has the block index of the point before, and the body leaves the block in place. -/
theorem before4_0 (c : Dev nD) (t : Fin cfg4.N) (d) : (dat4 V c).before 0 t d = iblk4 V c 0 t :=
  ((dat4 V c).before_in_eq_fetched 0 rfl (fun _ => rfl) (fun _ _ _ => rfl) (fun t => by rw [after4_0]; unfold Dat.blockOf iblk4; rw [A_eq4]; try rfl) t d).trans
    (by unfold Dat.fetched Dat.blockOf iblk4; rw [A_eq4]; try rfl)
theorem before4_1 (c : Dev nD) (t : Fin cfg4.N) (d) : (dat4 V c).before 1 t d = iblk4 V c 1 t :=
  ((dat4 V c).before_in_eq_fetched 1 rfl (fun _ => rfl) (fun _ _ _ => rfl) (fun t => by rw [after4_1]; unfold Dat.blockOf iblk4; rw [A_eq4]; try rfl) t d).trans
    (by unfold Dat.fetched Dat.blockOf iblk4; rw [A_eq4]; try rfl)
theorem before4_2 (c : Dev nD) (t : Fin cfg4.N) (d) : (dat4 V c).before 2 t d = iblk4 V c 2 t :=
  ((dat4 V c).before_in_eq_fetched 2 rfl (fun _ => rfl) (fun _ _ _ => rfl) (fun t => by rw [after4_2]; unfold Dat.blockOf iblk4; rw [A_eq4]; try rfl) t d).trans
    (by unfold Dat.fetched Dat.blockOf iblk4; rw [A_eq4]; try rfl)
theorem before4_3 (c : Dev nD) (t : Fin cfg4.N) (d) : (dat4 V c).before 3 t d = iblk4 V c 3 t :=
  ((dat4 V c).before_in_eq_fetched 3 rfl (fun _ => rfl) (fun _ _ _ => rfl) (fun t => by rw [after4_3]; unfold Dat.blockOf iblk4; rw [A_eq4]; try rfl) t d).trans
    (by unfold Dat.fetched Dat.blockOf iblk4; rw [A_eq4]; try rfl)
theorem before4_4 (c : Dev nD) (t : Fin cfg4.N) (d) : (dat4 V c).before 4 t d = iblk4 V c 4 t :=
  ((dat4 V c).before_in_eq_fetched 4 rfl (fun _ => rfl) (fun _ _ _ => rfl) (fun t => by rw [after4_4]; unfold Dat.blockOf iblk4; rw [A_eq4]; try rfl) t d).trans
    (by unfold Dat.fetched Dat.blockOf iblk4; rw [A_eq4]; try rfl)
theorem before4_5 (c : Dev nD) (t : Fin cfg4.N) (d) : (dat4 V c).before 5 t d = iblk4 V c 5 t :=
  ((dat4 V c).before_in_eq_fetched 5 rfl (fun _ => rfl) (fun _ _ _ => rfl) (fun t => by rw [after4_5]; unfold Dat.blockOf iblk4; rw [A_eq4]; try rfl) t d).trans
    (by unfold Dat.fetched Dat.blockOf iblk4; rw [A_eq4]; try rfl)

/-! ## The body's triple, case by case

The body on whole staging memrefs and the two scratch memrefs. In every case the six inputs are read and left as
found; the running-sum scratch ends at the update of what it held (after the zero fill, at the first point), the
running-count scratch likewise; the output buffer is stored only at the last point, from the two scratch buffers as
just updated. -/

theorem hz4 : (![0, 0] : Fin 2 → Nat) = fun _ => 0 := funext fun a => by fin_cases a <;> rfl

set_option maxHeartbeats 2000000 in
theorem sound_kernel4_A (c : Dev nD) (E : Set ℕ) (i : grid4.Coords)
    (arg1 : Memref sig .tc .vmem S1000x128 .f32) (harg1 : arg1.IsWhole) (arg2 : Memref sig .tc .vmem S1000x1 .f32) (harg2 : arg2.IsWhole)
    (arg3 : Memref sig .tc .vmem S1x128 .f32) (harg3 : arg3.IsWhole) (arg4 : Memref sig .tc .vmem S1000x1 .i32) (harg4 : arg4.IsWhole)
    (arg5 : Memref sig .tc .vmem S128x4 .f32) (harg5 : arg5.IsWhole) (arg6 : Memref sig .tc .vmem S1x4 .f32) (harg6 : arg6.IsWhole)
    (arg7 : Memref sig .tc .vmem S2048x4 .f32) (harg7 : arg7.IsWhole) (arg8 : Memref sig .tc .vmem S2048x128 .f32) (harg8 : arg8.IsWhole)
    (arg9 : Memref sig .tc .vmem S2048x1 .f32) (harg9 : arg9.IsWhole)
    (hc1 : cond4_first i = 1#1) (hc2 : ¬ k4_cond2 i = 1#1)
    (x0 : Vec F S1000x128 .f32) (x1 : Vec F S1000x1 .f32) (x2 : Vec F S1x128 .f32) (x3 : Vec F S1000x1 .i32)
    (x4 : Vec F S128x4 .f32) (x5 : Vec F S1x4 .f32) (y6 : Vec F S2048x4 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare y6 ∗ (∃ a, owns (c : Thread nD τ) arg8 fullShare a) ∗ (∃ n, owns (c : Thread nD τ) arg9 fullShare n)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare y6 ∗ owns (c : Thread nD τ) arg8 fullShare (k4_pay6 x0 x1 x2 x3 k4_pay3) ∗ owns (c : Thread nD τ) arg9 fullShare (k4_pay1 (k4_pay7 x3 k4_pay4))) -∗ K ⟨⟩))
      ⊢ wp frame (wpE (defs₀ (F := F)) Variants.none c none) E (cc4__pool_kernel i arg1 harg1 arg2 harg2 arg3 harg3 arg4 harg4 arg5 harg5 arg6 harg6 arg7 harg7 arg8 harg8 arg9 harg9) K := by
  simp only [cc4__pool_kernel_eq_skeleton]; unfold cc4__pool_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%a, %f8, -, H8⟩, ⟨%n, %f9, -, H9⟩, Hk⟩
  subst hf1 hf2 hf3 hf4 hf5 hf6 hf7
  sl_exec (disch := first | sl_exact hc1 | sl_exact hc2)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr; swap; · iexact H8
    ipureintro
    try sl_unfold_run_names
    rw [View.read_writes_eq_canon _ _ _ (fun y => ⟨_, List.Mem.head _, View.mem_set_unit_zero hz4 inb_S2048x128_S2048x128_0_0 y⟩), View.canon_cons_unit_zero hz4]
    simp only [View.readAt_eq_ld, View.readCov_cons_toLoadRect, View.ld_unit_zero (S := S1000x128) hz4, View.ld_unit_zero (S := S1000x1) hz4, View.ld_unit_zero (S := S1x128) hz4, View.ld_unit_zero (S := S128x4) hz4, View.ld_unit_zero (S := S1x4) hz4, View.ld_unit_zero (S := S2048x4) hz4, View.ld_unit_zero (S := S2048x128) hz4, View.ld_unit_zero (S := S2048x1) hz4]
  · iexists _; isplitr; swap; · iexact H9
    ipureintro
    try sl_unfold_run_names
    rw [View.read_writes_eq_canon _ _ _ (fun y => ⟨_, List.Mem.head _, View.mem_set_unit_zero hz4 inb_S2048x1_S2048x1_0_0 y⟩), View.canon_cons_unit_zero hz4]
    simp only [View.readAt_eq_ld, View.readCov_cons_toLoadRect, View.ld_unit_zero (S := S1000x128) hz4, View.ld_unit_zero (S := S1000x1) hz4, View.ld_unit_zero (S := S1x128) hz4, View.ld_unit_zero (S := S128x4) hz4, View.ld_unit_zero (S := S1x4) hz4, View.ld_unit_zero (S := S2048x4) hz4, View.ld_unit_zero (S := S2048x128) hz4, View.ld_unit_zero (S := S2048x1) hz4]

set_option maxHeartbeats 2000000 in
theorem sound_kernel4_B (c : Dev nD) (E : Set ℕ) (i : grid4.Coords)
    (arg1 : Memref sig .tc .vmem S1000x128 .f32) (harg1 : arg1.IsWhole) (arg2 : Memref sig .tc .vmem S1000x1 .f32) (harg2 : arg2.IsWhole)
    (arg3 : Memref sig .tc .vmem S1x128 .f32) (harg3 : arg3.IsWhole) (arg4 : Memref sig .tc .vmem S1000x1 .i32) (harg4 : arg4.IsWhole)
    (arg5 : Memref sig .tc .vmem S128x4 .f32) (harg5 : arg5.IsWhole) (arg6 : Memref sig .tc .vmem S1x4 .f32) (harg6 : arg6.IsWhole)
    (arg7 : Memref sig .tc .vmem S2048x4 .f32) (harg7 : arg7.IsWhole) (arg8 : Memref sig .tc .vmem S2048x128 .f32) (harg8 : arg8.IsWhole)
    (arg9 : Memref sig .tc .vmem S2048x1 .f32) (harg9 : arg9.IsWhole)
    (hc1 : ¬ cond4_first i = 1#1) (hc2 : ¬ k4_cond2 i = 1#1)
    (x0 : Vec F S1000x128 .f32) (x1 : Vec F S1000x1 .f32) (x2 : Vec F S1x128 .f32) (x3 : Vec F S1000x1 .i32)
    (x4 : Vec F S128x4 .f32) (x5 : Vec F S1x4 .f32) (y6 : Vec F S2048x4 .f32) (a : Vec F S2048x128 .f32) (n : Vec F S2048x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare y6 ∗ owns (c : Thread nD τ) arg8 fullShare a ∗ owns (c : Thread nD τ) arg9 fullShare n
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare y6 ∗ owns (c : Thread nD τ) arg8 fullShare (k4_pay6 x0 x1 x2 x3 a) ∗ owns (c : Thread nD τ) arg9 fullShare (k4_pay1 (k4_pay7 x3 n))) -∗ K ⟨⟩))
      ⊢ wp frame (wpE (defs₀ (F := F)) Variants.none c none) E (cc4__pool_kernel i arg1 harg1 arg2 harg2 arg3 harg3 arg4 harg4 arg5 harg5 arg6 harg6 arg7 harg7 arg8 harg8 arg9 harg9) K := by
  simp only [cc4__pool_kernel_eq_skeleton]; unfold cc4__pool_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf1 hf2 hf3 hf4 hf5 hf6 hf7 hf8 hf9
  sl_exec (disch := first | sl_exact hc1 | sl_exact hc2)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr; swap; · iexact H8
    ipureintro
    try sl_unfold_run_names
    rw [View.read_writes_eq_canon _ _ _ (fun y => ⟨_, List.Mem.head _, View.mem_set_unit_zero hz4 inb_S2048x128_S2048x128_0_0 y⟩), View.canon_cons_unit_zero hz4]
    simp only [View.readAt_eq_ld, View.readCov_cons_toLoadRect, View.ld_unit_zero (S := S1000x128) hz4, View.ld_unit_zero (S := S1000x1) hz4, View.ld_unit_zero (S := S1x128) hz4, View.ld_unit_zero (S := S128x4) hz4, View.ld_unit_zero (S := S1x4) hz4, View.ld_unit_zero (S := S2048x4) hz4, View.ld_unit_zero (S := S2048x128) hz4, View.ld_unit_zero (S := S2048x1) hz4]
  · iexists _; isplitr; swap; · iexact H9
    ipureintro
    try sl_unfold_run_names
    rw [View.read_writes_eq_canon _ _ _ (fun y => ⟨_, List.Mem.head _, View.mem_set_unit_zero hz4 inb_S2048x1_S2048x1_0_0 y⟩), View.canon_cons_unit_zero hz4]
    simp only [View.readAt_eq_ld, View.readCov_cons_toLoadRect, View.ld_unit_zero (S := S1000x128) hz4, View.ld_unit_zero (S := S1000x1) hz4, View.ld_unit_zero (S := S1x128) hz4, View.ld_unit_zero (S := S128x4) hz4, View.ld_unit_zero (S := S1x4) hz4, View.ld_unit_zero (S := S2048x4) hz4, View.ld_unit_zero (S := S2048x128) hz4, View.ld_unit_zero (S := S2048x1) hz4]

set_option maxHeartbeats 2000000 in
theorem sound_kernel4_C (c : Dev nD) (E : Set ℕ) (i : grid4.Coords)
    (arg1 : Memref sig .tc .vmem S1000x128 .f32) (harg1 : arg1.IsWhole) (arg2 : Memref sig .tc .vmem S1000x1 .f32) (harg2 : arg2.IsWhole)
    (arg3 : Memref sig .tc .vmem S1x128 .f32) (harg3 : arg3.IsWhole) (arg4 : Memref sig .tc .vmem S1000x1 .i32) (harg4 : arg4.IsWhole)
    (arg5 : Memref sig .tc .vmem S128x4 .f32) (harg5 : arg5.IsWhole) (arg6 : Memref sig .tc .vmem S1x4 .f32) (harg6 : arg6.IsWhole)
    (arg7 : Memref sig .tc .vmem S2048x4 .f32) (harg7 : arg7.IsWhole) (arg8 : Memref sig .tc .vmem S2048x128 .f32) (harg8 : arg8.IsWhole)
    (arg9 : Memref sig .tc .vmem S2048x1 .f32) (harg9 : arg9.IsWhole)
    (hc1 : ¬ cond4_first i = 1#1) (hc2 : k4_cond2 i = 1#1)
    (x0 : Vec F S1000x128 .f32) (x1 : Vec F S1000x1 .f32) (x2 : Vec F S1x128 .f32) (x3 : Vec F S1000x1 .i32)
    (x4 : Vec F S128x4 .f32) (x5 : Vec F S1x4 .f32) (a : Vec F S2048x128 .f32) (n : Vec F S2048x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare a ∗ owns (c : Thread nD τ) arg9 fullShare n
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (k4_pay2 (k4_pay6 x0 x1 x2 x3 a) (k4_pay1 (k4_pay7 x3 n)) x4 x5) ∗ owns (c : Thread nD τ) arg8 fullShare (k4_pay6 x0 x1 x2 x3 a) ∗ owns (c : Thread nD τ) arg9 fullShare (k4_pay1 (k4_pay7 x3 n))) -∗ K ⟨⟩))
      ⊢ wp frame (wpE (defs₀ (F := F)) Variants.none c none) E (cc4__pool_kernel i arg1 harg1 arg2 harg2 arg3 harg3 arg4 harg4 arg5 harg5 arg6 harg6 arg7 harg7 arg8 harg8 arg9 harg9) K := by
  simp only [cc4__pool_kernel_eq_skeleton]; unfold cc4__pool_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d, %f7, -, H7⟩, ⟨%f8, %hf8, H8⟩, ⟨%f9, %hf9, H9⟩, Hk⟩
  subst hf1 hf2 hf3 hf4 hf5 hf6 hf8 hf9
  sl_exec (disch := first | sl_exact hc1 | sl_exact hc2)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr; swap; · iexact H7
    ipureintro
    try sl_unfold_run_names
    rw [View.read_writes_eq_canon _ _ _ (fun y => ⟨_, List.Mem.head _, View.mem_set_unit_zero hz4 inb_S2048x4_S2048x4_0_0 y⟩), View.canon_cons_unit_zero hz4]
    simp only [View.readAt_eq_ld, View.readCov_cons_toLoadRect, View.ld_unit_zero (S := S1000x128) hz4, View.ld_unit_zero (S := S1000x1) hz4, View.ld_unit_zero (S := S1x128) hz4, View.ld_unit_zero (S := S128x4) hz4, View.ld_unit_zero (S := S1x4) hz4, View.ld_unit_zero (S := S2048x4) hz4, View.ld_unit_zero (S := S2048x128) hz4, View.ld_unit_zero (S := S2048x1) hz4]
  isplitl [H8]
  · iexists _; isplitr; swap; · iexact H8
    ipureintro
    try sl_unfold_run_names
    rw [View.read_writes_eq_canon _ _ _ (fun y => ⟨_, List.Mem.head _, View.mem_set_unit_zero hz4 inb_S2048x128_S2048x128_0_0 y⟩), View.canon_cons_unit_zero hz4]
    simp only [View.readAt_eq_ld, View.readCov_cons_toLoadRect, View.ld_unit_zero (S := S1000x128) hz4, View.ld_unit_zero (S := S1000x1) hz4, View.ld_unit_zero (S := S1x128) hz4, View.ld_unit_zero (S := S128x4) hz4, View.ld_unit_zero (S := S1x4) hz4, View.ld_unit_zero (S := S2048x4) hz4, View.ld_unit_zero (S := S2048x128) hz4, View.ld_unit_zero (S := S2048x1) hz4]
  · iexists _; isplitr; swap; · iexact H9
    ipureintro
    try sl_unfold_run_names
    rw [View.read_writes_eq_canon _ _ _ (fun y => ⟨_, List.Mem.head _, View.mem_set_unit_zero hz4 inb_S2048x1_S2048x1_0_0 y⟩), View.canon_cons_unit_zero hz4]
    simp only [View.readAt_eq_ld, View.readCov_cons_toLoadRect, View.ld_unit_zero (S := S1000x128) hz4, View.ld_unit_zero (S := S1000x1) hz4, View.ld_unit_zero (S := S1x128) hz4, View.ld_unit_zero (S := S128x4) hz4, View.ld_unit_zero (S := S1x4) hz4, View.ld_unit_zero (S := S2048x4) hz4, View.ld_unit_zero (S := S2048x128) hz4, View.ld_unit_zero (S := S2048x1) hz4]

/-! ## The body obligation

At the first point the two scratch buffers come out of the scoped rest at whatever they hold and are zero-filled; at
every later point they come in at the running sum and count of the point before. They leave at this point's. The
output window's buffer is handed back as found except at the last point, where it leaves at the final product. -/

/-- The running sum and count, one step unfolded. -/
theorem accAt_zero (c : Dev nD) (h : 0 < cfg4.N) :
    accAt V c 0 h = k4_pay6 (iblk4 V c 0 ⟨0, h⟩) (iblk4 V c 1 ⟨0, h⟩) (iblk4 V c 2 ⟨0, h⟩) (iblk4 V c 3 ⟨0, h⟩) k4_pay3 := rfl
theorem accAt_succ (c : Dev nD) (n : ℕ) (h : n + 1 < cfg4.N) :
    accAt V c (n + 1) h = k4_pay6 (iblk4 V c 0 ⟨n + 1, h⟩) (iblk4 V c 1 ⟨n + 1, h⟩) (iblk4 V c 2 ⟨n + 1, h⟩) (iblk4 V c 3 ⟨n + 1, h⟩)
      (accAt V c n (Nat.lt_of_succ_lt h)) := rfl
theorem cntAt_zero (c : Dev nD) (h : 0 < cfg4.N) : cntAt V c 0 h = k4_pay1 (k4_pay7 (iblk4 V c 3 ⟨0, h⟩) k4_pay4) := rfl
theorem cntAt_succ (c : Dev nD) (n : ℕ) (h : n + 1 < cfg4.N) :
    cntAt V c (n + 1) h = k4_pay1 (k4_pay7 (iblk4 V c 3 ⟨n + 1, h⟩) (cntAt V c n (Nat.lt_of_succ_lt h))) := rfl

/-- What the last point stores, over the running sum and count of the point before. -/
theorem out4_6_succ (c : Dev nD) (n : ℕ) (h : n + 1 < cfg4.N) :
    out4_6 V c ⟨n + 1, h⟩ = k4_pay2
      (k4_pay6 (iblk4 V c 0 ⟨n + 1, h⟩) (iblk4 V c 1 ⟨n + 1, h⟩) (iblk4 V c 2 ⟨n + 1, h⟩) (iblk4 V c 3 ⟨n + 1, h⟩) (accAt V c n (Nat.lt_of_succ_lt h)))
      (k4_pay1 (k4_pay7 (iblk4 V c 3 ⟨n + 1, h⟩) (cntAt V c n (Nat.lt_of_succ_lt h))))
      (iblk4 V c 4 ⟨n + 1, h⟩) (iblk4 V c 5 ⟨n + 1, h⟩) := rfl

/-- The output window is idle exactly where the last branch is not taken, -/
theorem idle4_6_of_not (t : Fin cfg4.N) (h : ¬ k4_cond2 (grid4.coords t) = 1#1) : cfg4.idle 6 (cfg4.grid.coords t) = true := by
  show (!(k4_cond2 (grid4.coords t) == 1#1)) = true
  rw [beq_false_of_ne h]; rfl
theorem live4_6_of (t : Fin cfg4.N) (h : k4_cond2 (grid4.coords t) = 1#1) : cfg4.idle 6 (cfg4.grid.coords t) = false := by
  show (!(k4_cond2 (grid4.coords t) == 1#1)) = false
  rw [beq_iff_eq.mpr h]; rfl
/-- and is not written back before the last point. -/
theorem noflush4_6 (t : Fin cfg4.N) (h : t.val ≠ 99) : (cfg4.win 6).flush t = false := by
  have hN : t.val < 100 := lt_of_lt_of_eq t.isLt (show cfg4.N = 100 from N_4)
  exact Bool.eq_false_iff.mpr fun hf => h (by have := (flush4_6 t).mp hf; omega)

/-- What the body is called with at point t, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ (dat4 V c).leavesExact 6 t)

set_option maxHeartbeats 2000000 in
/-- The body at the first point: the zero fill, then the update. -/
theorem sound_body4_first (c : Dev nD) (ht : 0 < cfg4.N) :
    bodyPre4 V c ⟨0, ht⟩ ⊢ wp frame (wpE (defs₀ (F := F)) Variants.none c none) Set.univ (bodyAt4 ⟨0, ht⟩) (fun _ => bodyPost4 V c ⟨0, ht⟩) := by
  have hc1 : cond4_first (grid4.coords ⟨0, ht⟩) = 1#1 := (hcond4_first ⟨0, ht⟩).mpr rfl
  have hc2 : ¬ k4_cond2 (grid4.coords ⟨0, ht⟩) = 1#1 := fun h => absurd ((hcond4_last ⟨0, ht⟩).mp h) (show (0 : ℕ) ≠ 99 by decide)
  unfold bodyPre4 bodyPost4 bodyAt4
  simp only [before4_0, before4_1, before4_2, before4_3, before4_4, before4_5]
  rw [show (dat4 V c).owesAt () (Fin.succ ⟨0, ht⟩) = (dat4 V c).owesAt () (Fin.castSucc ⟨0, ht⟩) from rfl,
    after4_0, after4_1, after4_2, after4_3, after4_4, after4_5,
    Dat.leavesExact_idle (dat4 V c) 6 ⟨0, ht⟩ (idle4_6_of_not ⟨0, ht⟩ hc2) (noflush4_6 ⟨0, ht⟩ (show (0 : ℕ) ≠ 99 by decide)),
    show (dat4 V c).Φ (Fin.castSucc ⟨0, ht⟩) = Pipeline.ΦA spec4 c from rfl,
    show (dat4 V c).Φ (Fin.succ ⟨0, ht⟩) = _ from Φ4_succ V c 0 (Nat.succ_lt_succ ht),
    accAt_zero, cntAt_zero]
  unfold Pipeline.ΦA
  rw [scopedRest4_split]
  have hs0 : ∀ a, (((c : Thread nD τ).loc cc4_scratch0) ↦{fullShare} a : sProp 𝕄) ⊢ owns (c : Thread nD τ) (Memref.whole cc4_scratch0) fullShare a :=
    fun a => Entails.of_eq (owns_whole (c : Thread nD τ) cc4_scratch0 fullShare a).symm
  have hs1 : ∀ n, (((c : Thread nD τ).loc cc4_scratch1) ↦{fullShare} n : sProp 𝕄) ⊢ owns (c : Thread nD τ) (Memref.whole cc4_scratch1) fullShare n :=
    fun n => Entails.of_eq (owns_whole (c : Thread nD τ) cc4_scratch1 fullShare n).symm
  iintro ⟨⟨⟨⟨⟨%a, Hs0⟩, ⟨%n, Hs1⟩⟩, Hrest⟩, Hr⟩, Ho, ⟨%d0, H0⟩, ⟨%d1, H1⟩, ⟨%d2, H2⟩, ⟨%d3, H3⟩, ⟨%d4, H4⟩, ⟨%d5, H5⟩, ⟨%d6, H6⟩⟩
  iapply (sound_kernel4_A c Set.univ (grid4.coords ⟨0, ht⟩) _ _ _ _ _ _ _ _ _ _ _ _ _ _ _ _ _ _ hc1 hc2 (iblk4 V c 0 ⟨0, ht⟩) (iblk4 V c 1 ⟨0, ht⟩) (iblk4 V c 2 ⟨0, ht⟩) (iblk4 V c 3 ⟨0, ht⟩) (iblk4 V c 4 ⟨0, ht⟩) (iblk4 V c 5 ⟨0, ht⟩) ((dat4 V c).before 6 ⟨0, ht⟩ d6) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [Hs0]; · iexists a; iapply hs0; iexact Hs0
  isplitl [Hs1]; · iexists n; iapply hs1; iexact Hs1
  iintro ⟨H0, H1, H2, H3, H4, H5, H6, Hs0, Hs1⟩
  isplitl [Hs0 Hs1 Hrest Hr]
  · isplitl [Hs0]; · iexact Hs0
    isplitl [Hs1]; · iexact Hs1
    isplitl [Hrest]; · iexact Hrest
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists d6; iexact H6

set_option maxHeartbeats 2000000 in
/-- The body at a later point: the update of what the point before left; at the last point also the final product. -/
theorem sound_body4_later (c : Dev nD) (n : ℕ) (ht : n + 1 < cfg4.N) :
    bodyPre4 V c ⟨n + 1, ht⟩ ⊢ wp frame (wpE (defs₀ (F := F)) Variants.none c none) Set.univ (bodyAt4 ⟨n + 1, ht⟩) (fun _ => bodyPost4 V c ⟨n + 1, ht⟩) := by
  have hc1 : ¬ cond4_first (grid4.coords ⟨n + 1, ht⟩) = 1#1 := fun h => absurd ((hcond4_first ⟨n + 1, ht⟩).mp h) (Nat.succ_ne_zero n)
  unfold bodyPre4 bodyPost4 bodyAt4
  simp only [before4_0, before4_1, before4_2, before4_3, before4_4, before4_5]
  by_cases hl : n + 1 = 99
  · have hc2 : k4_cond2 (grid4.coords ⟨n + 1, ht⟩) = 1#1 := (hcond4_last ⟨n + 1, ht⟩).mpr hl
    rw [show (dat4 V c).leavesExact 6 ⟨n + 1, ht⟩ = owns (c : Thread nD τ) (st4_6 ⟨n + 1, ht⟩) fullShare ((dat4 V c).after 6 ⟨n + 1, ht⟩) from by
      unfold Dat.leavesExact; rw [live4_6_of ⟨n + 1, ht⟩ hc2], after4_6, out4_6_succ]
    rw [show (dat4 V c).owesAt () (Fin.succ ⟨n + 1, ht⟩) = (dat4 V c).owesAt () (Fin.castSucc ⟨n + 1, ht⟩) from rfl,
    after4_0, after4_1, after4_2, after4_3, after4_4, after4_5,
    show (dat4 V c).Φ (Fin.castSucc ⟨n + 1, ht⟩) = _ from Φ4_succ V c n (Nat.lt_succ_of_lt ht),
    show (dat4 V c).Φ (Fin.succ ⟨n + 1, ht⟩) = _ from Φ4_succ V c (n + 1) (Nat.succ_lt_succ ht),
    accAt_succ, cntAt_succ]
    iintro ⟨⟨Hs0, Hs1, Hrest, Hr⟩, Ho, ⟨%d0, H0⟩, ⟨%d1, H1⟩, ⟨%d2, H2⟩, ⟨%d3, H3⟩, ⟨%d4, H4⟩, ⟨%d5, H5⟩, ⟨%d6, H6⟩⟩
    iapply (sound_kernel4_C c Set.univ (grid4.coords ⟨n + 1, ht⟩) _ _ _ _ _ _ _ _ _ _ _ _ _ _ _ _ _ _ hc1 hc2 (iblk4 V c 0 ⟨n + 1, ht⟩) (iblk4 V c 1 ⟨n + 1, ht⟩) (iblk4 V c 2 ⟨n + 1, ht⟩) (iblk4 V c 3 ⟨n + 1, ht⟩) (iblk4 V c 4 ⟨n + 1, ht⟩) (iblk4 V c 5 ⟨n + 1, ht⟩) (accAt V c n (Nat.lt_of_succ_lt ht)) (cntAt V c n (Nat.lt_of_succ_lt ht)) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [Hs0]; · iexact Hs0
    isplitl [Hs1]; · iexact Hs1
    iintro ⟨H0, H1, H2, H3, H4, H5, H6, Hs0, Hs1⟩
    isplitl [Hs0 Hs1 Hrest Hr]
    · isplitl [Hs0]; · iexact Hs0
      isplitl [Hs1]; · iexact Hs1
      isplitl [Hrest]; · iexact Hrest
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have hc2 : ¬ k4_cond2 (grid4.coords ⟨n + 1, ht⟩) = 1#1 := fun h => hl ((hcond4_last ⟨n + 1, ht⟩).mp h)
    rw [Dat.leavesExact_idle (dat4 V c) 6 ⟨n + 1, ht⟩ (idle4_6_of_not ⟨n + 1, ht⟩ hc2) (noflush4_6 ⟨n + 1, ht⟩ hl)]
    rw [show (dat4 V c).owesAt () (Fin.succ ⟨n + 1, ht⟩) = (dat4 V c).owesAt () (Fin.castSucc ⟨n + 1, ht⟩) from rfl,
    after4_0, after4_1, after4_2, after4_3, after4_4, after4_5,
    show (dat4 V c).Φ (Fin.castSucc ⟨n + 1, ht⟩) = _ from Φ4_succ V c n (Nat.lt_succ_of_lt ht),
    show (dat4 V c).Φ (Fin.succ ⟨n + 1, ht⟩) = _ from Φ4_succ V c (n + 1) (Nat.succ_lt_succ ht),
    accAt_succ, cntAt_succ]
    iintro ⟨⟨Hs0, Hs1, Hrest, Hr⟩, Ho, ⟨%d0, H0⟩, ⟨%d1, H1⟩, ⟨%d2, H2⟩, ⟨%d3, H3⟩, ⟨%d4, H4⟩, ⟨%d5, H5⟩, ⟨%d6, H6⟩⟩
    iapply (sound_kernel4_B c Set.univ (grid4.coords ⟨n + 1, ht⟩) _ _ _ _ _ _ _ _ _ _ _ _ _ _ _ _ _ _ hc1 hc2 (iblk4 V c 0 ⟨n + 1, ht⟩) (iblk4 V c 1 ⟨n + 1, ht⟩) (iblk4 V c 2 ⟨n + 1, ht⟩) (iblk4 V c 3 ⟨n + 1, ht⟩) (iblk4 V c 4 ⟨n + 1, ht⟩) (iblk4 V c 5 ⟨n + 1, ht⟩) ((dat4 V c).before 6 ⟨n + 1, ht⟩ d6) (accAt V c n (Nat.lt_of_succ_lt ht)) (cntAt V c n (Nat.lt_of_succ_lt ht)) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [Hs0]; · iexact Hs0
    isplitl [Hs1]; · iexact Hs1
    iintro ⟨H0, H1, H2, H3, H4, H5, H6, Hs0, Hs1⟩
    isplitl [Hs0 Hs1 Hrest Hr]
    · isplitl [Hs0]; · iexact Hs0
      isplitl [Hs1]; · iexact Hs1
      isplitl [Hrest]; · iexact Hrest
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists d6; iexact H6

/-- The body at any point. -/
theorem sound_body4 (c : Dev nD) (t : Fin cfg4.N) :
    bodyPre4 V c t ⊢ wp frame (wpE (defs₀ (F := F)) Variants.none c none) Set.univ (bodyAt4 t) (fun _ => bodyPost4 V c t) := by
  obtain ⟨tv, ht⟩ := t
  cases tv with
  | zero => exact sound_body4_first V c ht
  | succ n => exact sound_body4_later V c n ht

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.K.Run.lean ====
import proofs.«419651_j51711406244070_2_alg».proof.Proof.Gen.Kernel.Launch
import proofs.«419651_j51711406244070_2_alg».proof.Proof.Gen.Kernel.Skeleton
import proofs.«419651_j51711406244070_2_alg».proof.Proof.Gen.Kernel.Points
import proofs.«419651_j51711406244070_2_alg».proof.Proof.Gen.Kernel.Regions
import proofs.«419651_j51711406244070_2_alg».proof.Proof.K.Reg0
import proofs.«419651_j51711406244070_2_alg».proof.Proof.K.Reg1
import proofs.«419651_j51711406244070_2_alg».proof.Proof.K.Reg2
import proofs.«419651_j51711406244070_2_alg».proof.Proof.K.Reg3
import proofs.«419651_j51711406244070_2_alg».proof.Proof.K.Reg4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! # The run of @main: five kernel regions among seven host stretches

## The buffers' contents at each boundary between two items: a fold from the launch memory

A host stretch takes the contents `W` to `StableHlo.after ops W`. A region takes them to the same contents except at its
windows' arrays, which hold what the pipeline's write-backs leave (`Dat.arrAt … N`: an input window's array as entered,
an output window's array with every block written back). -/

/-- Core `c`'s buffers at launch. -/
abbrev W0 : Dev nD → Valuation τ sig (Elt F) := fun c b => m (c, b)
/-- After `hostOps0`. -/
abbrev W1 : Dev nD → Valuation τ sig (Elt F) := fun c => StableHlo.after hostOps0 (W0 m c)
/-- After `hostOps0_1`. -/
abbrev W2 : Dev nD → Valuation τ sig (Elt F) := fun c => StableHlo.after hostOps0_1 (W1 m c)
/-- After `hostOps0_2` (region 0's entry). -/
abbrev W3 : Dev nD → Valuation τ sig (Elt F) := fun c => StableHlo.after hostOps0_2 (W2 m c)
/-- The same read at the TensorCore's references (what region 0's proof data take). -/
abbrev V3 : (c : Dev nD) → (b : Ref sig .tc) → Buf (Elt F) ((c : Thread nD τ).loc b) := fun c b => W3 m c b

/-- At region 0's exit: its arrays at what the pipeline leaves, every other buffer as entered. -/
def W4 (c : Dev nD) : Valuation τ sig (Elt F) :=
  Pipeline.withArrays spec0 c (W3 m c) fun w => (dat0 (V3 m) c).arrAt w cfg0.N
theorem W4_arr (c : Dev nD) (w : Fin cfg0.W) :
    W4 m c (Proc.devRef .tc (Pipeline.arrRef spec0 w)) = (dat0 (V3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
/-- The same read at the TensorCore's references (region 0's exit contents). -/
abbrev V4 : (c : Dev nD) → (b : Ref sig .tc) → Buf (Elt F) ((c : Thread nD τ).loc b) := fun c b => W4 m c b
/-- At region 0's exit each of its arrays holds what the pipeline leaves (`hF0`) and every other buffer what it held at
    entry (`hrest0`). -/
theorem hF0 (c : Dev nD) (w : Fin cfg0.W) : (dat0 (V3 m) c).arrAt w cfg0.N = V4 m c (Pipeline.arrRef spec0 w) :=
  (W4_arr m c w).symm
theorem hrest0 (c : Dev nD) : ∀ b, b ∉ Finset.univ.image (Pipeline.arrRef spec0) → V4 m c b = V3 m c b :=
  fun b hb => W4_of_ne m c b fun w e => hb (Finset.mem_image.mpr ⟨w, Finset.mem_univ _, e⟩)

/-- After `hostOps1` (region 1's entry). -/
abbrev W5 : Dev nD → Valuation τ sig (Elt F) := fun c => StableHlo.after hostOps1 (W4 m c)
abbrev V5 : (c : Dev nD) → (b : Ref sig .tc) → Buf (Elt F) ((c : Thread nD τ).loc b) := fun c b => W5 m c b

/-- At region 1's exit: its arrays at what the pipeline leaves, every other buffer as entered. -/
def W6 (c : Dev nD) : Valuation τ sig (Elt F) :=
  Pipeline.withArrays spec1 c (W5 m c) fun w => (dat1 (V5 m) c).arrAt w cfg1.N
theorem W6_arr (c : Dev nD) (w : Fin cfg1.W) :
    W6 m c (Proc.devRef .tc (Pipeline.arrRef spec1 w)) = (dat1 (V5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
abbrev V6 : (c : Dev nD) → (b : Ref sig .tc) → Buf (Elt F) ((c : Thread nD τ).loc b) := fun c b => W6 m c b
theorem hF1 (c : Dev nD) (w : Fin cfg1.W) : (dat1 (V5 m) c).arrAt w cfg1.N = V6 m c (Pipeline.arrRef spec1 w) :=
  (W6_arr m c w).symm
theorem hrest1 (c : Dev nD) : ∀ b, b ∉ Finset.univ.image (Pipeline.arrRef spec1) → V6 m c b = V5 m c b :=
  fun b hb => W6_of_ne m c b fun w e => hb (Finset.mem_image.mpr ⟨w, Finset.mem_univ _, e⟩)

/-- After `hostOps2` (region 2's entry). -/
abbrev W7 : Dev nD → Valuation τ sig (Elt F) := fun c => StableHlo.after hostOps2 (W6 m c)
abbrev V7 : (c : Dev nD) → (b : Ref sig .tc) → Buf (Elt F) ((c : Thread nD τ).loc b) := fun c b => W7 m c b

/-- At region 2's exit: its arrays at what the pipeline leaves, every other buffer as entered. -/
def W8 (c : Dev nD) : Valuation τ sig (Elt F) :=
  Pipeline.withArrays spec2 c (W7 m c) fun w => (dat2 (V7 m) c).arrAt w cfg2.N
theorem W8_arr (c : Dev nD) (w : Fin cfg2.W) :
    W8 m c (Proc.devRef .tc (Pipeline.arrRef spec2 w)) = (dat2 (V7 m) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m c (Proc.devRef .tc b) = W7 m c (Proc.devRef .tc b) := by
  unfold W8; exact Pipeline.withArrays_of_ne spec2 c _ _ b hb
abbrev V8 : (c : Dev nD) → (b : Ref sig .tc) → Buf (Elt F) ((c : Thread nD τ).loc b) := fun c b => W8 m c b
theorem hF2 (c : Dev nD) (w : Fin cfg2.W) : (dat2 (V7 m) c).arrAt w cfg2.N = V8 m c (Pipeline.arrRef spec2 w) :=
  (W8_arr m c w).symm
theorem hrest2 (c : Dev nD) : ∀ b, b ∉ Finset.univ.image (Pipeline.arrRef spec2) → V8 m c b = V7 m c b :=
  fun b hb => W8_of_ne m c b fun w e => hb (Finset.mem_image.mpr ⟨w, Finset.mem_univ _, e⟩)

/-- After `hostOps3` (region 3's entry). -/
abbrev W9 : Dev nD → Valuation τ sig (Elt F) := fun c => StableHlo.after hostOps3 (W8 m c)
abbrev V9 : (c : Dev nD) → (b : Ref sig .tc) → Buf (Elt F) ((c : Thread nD τ).loc b) := fun c b => W9 m c b

/-- At region 3's exit: its arrays at what the pipeline leaves, every other buffer as entered. -/
def W10 (c : Dev nD) : Valuation τ sig (Elt F) :=
  Pipeline.withArrays spec3 c (W9 m c) fun w => (dat3 (V9 m) c).arrAt w cfg3.N
theorem W10_arr (c : Dev nD) (w : Fin cfg3.W) :
    W10 m c (Proc.devRef .tc (Pipeline.arrRef spec3 w)) = (dat3 (V9 m) c).arrAt w cfg3.N := by
  unfold W10; exact Pipeline.withArrays_arr spec3 launch3.win.arr_inj c _ _ w
theorem W10_of_ne (c : Dev nD) (b : Ref sig .tc) (hb : ∀ w, Pipeline.arrRef spec3 w ≠ b) :
    W10 m c (Proc.devRef .tc b) = W9 m c (Proc.devRef .tc b) := by
  unfold W10; exact Pipeline.withArrays_of_ne spec3 c _ _ b hb
abbrev V10 : (c : Dev nD) → (b : Ref sig .tc) → Buf (Elt F) ((c : Thread nD τ).loc b) := fun c b => W10 m c b
theorem hF3 (c : Dev nD) (w : Fin cfg3.W) : (dat3 (V9 m) c).arrAt w cfg3.N = V10 m c (Pipeline.arrRef spec3 w) :=
  (W10_arr m c w).symm
theorem hrest3 (c : Dev nD) : ∀ b, b ∉ Finset.univ.image (Pipeline.arrRef spec3) → V10 m c b = V9 m c b :=
  fun b hb => W10_of_ne m c b fun w e => hb (Finset.mem_image.mpr ⟨w, Finset.mem_univ _, e⟩)

/-- After `hostOps4` (region 4's entry). -/
abbrev W11 : Dev nD → Valuation τ sig (Elt F) := fun c => StableHlo.after hostOps4 (W10 m c)
abbrev V11 : (c : Dev nD) → (b : Ref sig .tc) → Buf (Elt F) ((c : Thread nD τ).loc b) := fun c b => W11 m c b

/-- At region 4's exit, which is the return: its arrays at what the pipeline leaves, every other buffer as entered. -/
def W12 (c : Dev nD) : Valuation τ sig (Elt F) :=
  Pipeline.withArrays spec4 c (W11 m c) fun w => (dat4 (V11 m) c).arrAt w cfg4.N
theorem W12_arr (c : Dev nD) (w : Fin cfg4.W) :
    W12 m c (Proc.devRef .tc (Pipeline.arrRef spec4 w)) = (dat4 (V11 m) c).arrAt w cfg4.N := by
  unfold W12; exact Pipeline.withArrays_arr spec4 launch4.win.arr_inj c _ _ w
theorem W12_of_ne (c : Dev nD) (b : Ref sig .tc) (hb : ∀ w, Pipeline.arrRef spec4 w ≠ b) :
    W12 m c (Proc.devRef .tc b) = W11 m c (Proc.devRef .tc b) := by
  unfold W12; exact Pipeline.withArrays_of_ne spec4 c _ _ b hb
abbrev V12 : (c : Dev nD) → (b : Ref sig .tc) → Buf (Elt F) ((c : Thread nD τ).loc b) := fun c b => W12 m c b
theorem hF4 (c : Dev nD) (w : Fin cfg4.W) : (dat4 (V11 m) c).arrAt w cfg4.N = V12 m c (Pipeline.arrRef spec4 w) :=
  (W12_arr m c w).symm
theorem hrest4 (c : Dev nD) : ∀ b, b ∉ Finset.univ.image (Pipeline.arrRef spec4) → V12 m c b = V11 m c b :=
  fun b hb => W12_of_ne m c b fun w e => hb (Finset.mem_image.mpr ⟨w, Finset.mem_univ _, e⟩)

/-! ## The arguments end as launched

No host stretch writes an argument, and a region either bypasses it or reads it through an input window, whose array
the pipeline leaves as entered. So the fold at an argument's buffer walks back to the launch memory: at a host stretch
because the reference is not among those the stretch writes, at a region because every window on that buffer is an
input window. -/

/-- Region 0 leaves a buffer as entered unless one of its OUTPUT windows is on it. -/
theorem W4_of_in (c : Dev nD) (r : Ref sig .tc) (h : ∀ w, Pipeline.arrRef spec0 w = r → (cfg0.win w).isOut = false) :
    W4 m c (Proc.devRef .tc r) = W3 m c (Proc.devRef .tc r) := by
  by_cases hr : ∃ w, Pipeline.arrRef spec0 w = r
  · obtain ⟨w, rfl⟩ := hr
    exact (W4_arr m c w).trans (((dat0 (V3 m) c).arrAt_in w (h w rfl) _).trans (A_eq0 (V3 m) c w))
  · exact W4_of_ne m c r fun w e => hr ⟨w, e⟩
/-- Region 1 likewise. -/
theorem W6_of_in (c : Dev nD) (r : Ref sig .tc) (h : ∀ w, Pipeline.arrRef spec1 w = r → (cfg1.win w).isOut = false) :
    W6 m c (Proc.devRef .tc r) = W5 m c (Proc.devRef .tc r) := by
  by_cases hr : ∃ w, Pipeline.arrRef spec1 w = r
  · obtain ⟨w, rfl⟩ := hr
    exact (W6_arr m c w).trans (((dat1 (V5 m) c).arrAt_in w (h w rfl) _).trans (A_eq1 (V5 m) c w))
  · exact W6_of_ne m c r fun w e => hr ⟨w, e⟩
/-- Region 2 likewise. -/
theorem W8_of_in (c : Dev nD) (r : Ref sig .tc) (h : ∀ w, Pipeline.arrRef spec2 w = r → (cfg2.win w).isOut = false) :
    W8 m c (Proc.devRef .tc r) = W7 m c (Proc.devRef .tc r) := by
  by_cases hr : ∃ w, Pipeline.arrRef spec2 w = r
  · obtain ⟨w, rfl⟩ := hr
    exact (W8_arr m c w).trans (((dat2 (V7 m) c).arrAt_in w (h w rfl) _).trans (A_eq2 (V7 m) c w))
  · exact W8_of_ne m c r fun w e => hr ⟨w, e⟩
/-- Region 3 likewise. -/
theorem W10_of_in (c : Dev nD) (r : Ref sig .tc) (h : ∀ w, Pipeline.arrRef spec3 w = r → (cfg3.win w).isOut = false) :
    W10 m c (Proc.devRef .tc r) = W9 m c (Proc.devRef .tc r) := by
  by_cases hr : ∃ w, Pipeline.arrRef spec3 w = r
  · obtain ⟨w, rfl⟩ := hr
    exact (W10_arr m c w).trans (((dat3 (V9 m) c).arrAt_in w (h w rfl) _).trans (A_eq3 (V9 m) c w))
  · exact W10_of_ne m c r fun w e => hr ⟨w, e⟩
/-- Region 4 likewise. -/
theorem W12_of_in (c : Dev nD) (r : Ref sig .tc) (h : ∀ w, Pipeline.arrRef spec4 w = r → (cfg4.win w).isOut = false) :
    W12 m c (Proc.devRef .tc r) = W11 m c (Proc.devRef .tc r) := by
  by_cases hr : ∃ w, Pipeline.arrRef spec4 w = r
  · obtain ⟨w, rfl⟩ := hr
    exact (W12_arr m c w).trans (((dat4 (V11 m) c).arrAt_in w (h w rfl) _).trans (A_eq4 (V11 m) c w))
  · exact W12_of_ne m c r fun w e => hr ⟨w, e⟩

/-- A buffer no host stretch writes and no region has an output window on holds at the return what it held at launch:
    the twelve steps of the fold, last first. -/
theorem W12_of_unwritten (c : Dev nD) (r : Ref sig .tc)
    (h0 : r ∉ hostOps0_W) (h1 : r ∉ hostOps0_1_W) (h2 : r ∉ hostOps0_2_W)
    (a0 : ∀ w, Pipeline.arrRef spec0 w = r → (cfg0.win w).isOut = false) (h3 : r ∉ hostOps1_W)
    (a1 : ∀ w, Pipeline.arrRef spec1 w = r → (cfg1.win w).isOut = false) (h4 : r ∉ hostOps2_W)
    (a2 : ∀ w, Pipeline.arrRef spec2 w = r → (cfg2.win w).isOut = false) (h5 : r ∉ hostOps3_W)
    (a3 : ∀ w, Pipeline.arrRef spec3 w = r → (cfg3.win w).isOut = false) (h6 : r ∉ hostOps4_W)
    (a4 : ∀ w, Pipeline.arrRef spec4 w = r → (cfg4.win w).isOut = false) :
    W12 m c (Proc.devRef .tc r) = m ((c : Thread nD τ).loc r) :=
  calc W12 m c (Proc.devRef .tc r)
    _ = W11 m c (Proc.devRef .tc r) := W12_of_in m c r a4
    _ = W10 m c (Proc.devRef .tc r) := StableHlo.after_of_writes_sub hostOps4 _ hostOps4_writes h6
    _ = W9 m c (Proc.devRef .tc r) := W10_of_in m c r a3
    _ = W8 m c (Proc.devRef .tc r) := StableHlo.after_of_writes_sub hostOps3 _ hostOps3_writes h5
    _ = W7 m c (Proc.devRef .tc r) := W8_of_in m c r a2
    _ = W6 m c (Proc.devRef .tc r) := StableHlo.after_of_writes_sub hostOps2 _ hostOps2_writes h4
    _ = W5 m c (Proc.devRef .tc r) := W6_of_in m c r a1
    _ = W4 m c (Proc.devRef .tc r) := StableHlo.after_of_writes_sub hostOps1 _ hostOps1_writes h3
    _ = W3 m c (Proc.devRef .tc r) := W4_of_in m c r a0
    _ = W2 m c (Proc.devRef .tc r) := StableHlo.after_of_writes_sub hostOps0_2 _ hostOps0_2_writes h2
    _ = W1 m c (Proc.devRef .tc r) := StableHlo.after_of_writes_sub hostOps0_1 _ hostOps0_1_writes h1
    _ = W0 m c (Proc.devRef .tc r) := StableHlo.after_of_writes_sub hostOps0 _ hostOps0_writes h0
    _ = m ((c : Thread nD τ).loc r) := rfl

theorem W12_main_arg0 (c : Dev nD) : W12 m c (Proc.devRef .tc main_arg0) = m ((c : Thread nD τ).loc main_arg0) :=
  W12_of_unwritten m c main_arg0 (by decide) (by decide) (by decide) (by decide) (by decide) (by decide) (by decide) (by decide)
    (by decide) (by decide) (by decide) (by decide)
theorem W12_main_arg1 (c : Dev nD) : W12 m c (Proc.devRef .tc main_arg1) = m ((c : Thread nD τ).loc main_arg1) :=
  W12_of_unwritten m c main_arg1 (by decide) (by decide) (by decide) (by decide) (by decide) (by decide) (by decide) (by decide)
    (by decide) (by decide) (by decide) (by decide)
theorem W12_main_arg2 (c : Dev nD) : W12 m c (Proc.devRef .tc main_arg2) = m ((c : Thread nD τ).loc main_arg2) :=
  W12_of_unwritten m c main_arg2 (by decide) (by decide) (by decide) (by decide) (by decide) (by decide) (by decide) (by decide)
    (by decide) (by decide) (by decide) (by decide)
theorem W12_main_arg3 (c : Dev nD) : W12 m c (Proc.devRef .tc main_arg3) = m ((c : Thread nD τ).loc main_arg3) :=
  W12_of_unwritten m c main_arg3 (by decide) (by decide) (by decide) (by decide) (by decide) (by decide) (by decide) (by decide)
    (by decide) (by decide) (by decide) (by decide)
theorem W12_main_arg4 (c : Dev nD) : W12 m c (Proc.devRef .tc main_arg4) = m ((c : Thread nD τ).loc main_arg4) :=
  W12_of_unwritten m c main_arg4 (by decide) (by decide) (by decide) (by decide) (by decide) (by decide) (by decide) (by decide)
    (by decide) (by decide) (by decide) (by decide)
theorem W12_main_arg5 (c : Dev nD) : W12 m c (Proc.devRef .tc main_arg5) = m ((c : Thread nD τ).loc main_arg5) :=
  W12_of_unwritten m c main_arg5 (by decide) (by decide) (by decide) (by decide) (by decide) (by decide) (by decide) (by decide)
    (by decide) (by decide) (by decide) (by decide)
theorem W12_main_arg6 (c : Dev nD) : W12 m c (Proc.devRef .tc main_arg6) = m ((c : Thread nD τ).loc main_arg6) :=
  W12_of_unwritten m c main_arg6 (by decide) (by decide) (by decide) (by decide) (by decide) (by decide) (by decide) (by decide)
    (by decide) (by decide) (by decide) (by decide)
theorem W12_main_arg7 (c : Dev nD) : W12 m c (Proc.devRef .tc main_arg7) = m ((c : Thread nD τ).loc main_arg7) :=
  W12_of_unwritten m c main_arg7 (by decide) (by decide) (by decide) (by decide) (by decide) (by decide) (by decide) (by decide)
    (by decide) (by decide) (by decide) (by decide)
theorem W12_main_arg8 (c : Dev nD) : W12 m c (Proc.devRef .tc main_arg8) = m ((c : Thread nD τ).loc main_arg8) :=
  W12_of_unwritten m c main_arg8 (by decide) (by decide) (by decide) (by decide) (by decide) (by decide) (by decide) (by decide)
    (by decide) (by decide) (by decide) (by decide)
theorem W12_main_arg9 (c : Dev nD) : W12 m c (Proc.devRef .tc main_arg9) = m ((c : Thread nD τ).loc main_arg9) :=
  W12_of_unwritten m c main_arg9 (by decide) (by decide) (by decide) (by decide) (by decide) (by decide) (by decide) (by decide)
    (by decide) (by decide) (by decide) (by decide)
theorem W12_main_arg10 (c : Dev nD) : W12 m c (Proc.devRef .tc main_arg10) = m ((c : Thread nD τ).loc main_arg10) :=
  W12_of_unwritten m c main_arg10 (by decide) (by decide) (by decide) (by decide) (by decide) (by decide) (by decide) (by decide)
    (by decide) (by decide) (by decide) (by decide)
theorem W12_main_arg11 (c : Dev nD) : W12 m c (Proc.devRef .tc main_arg11) = m ((c : Thread nD τ).loc main_arg11) :=
  W12_of_unwritten m c main_arg11 (by decide) (by decide) (by decide) (by decide) (by decide) (by decide) (by decide) (by decide)
    (by decide) (by decide) (by decide) (by decide)
theorem W12_main_arg12 (c : Dev nD) : W12 m c (Proc.devRef .tc main_arg12) = m ((c : Thread nD τ).loc main_arg12) :=
  W12_of_unwritten m c main_arg12 (by decide) (by decide) (by decide) (by decide) (by decide) (by decide) (by decide) (by decide)
    (by decide) (by decide) (by decide) (by decide)

/-! ## The proof data family and the thread state -/

/-- Every pipeline's proof data, each at its region's entry contents — a literal `match`, so that the family at a numeral
    reduces to that region's proof data. -/
def pdats : (p : Fin 5) → (c : Dev nD) → Dat τ (Elt F) Unit ℕ (UR sig nD τ) ℕ (Pipeline.pin (pcfgs (F := F)) adm p) c
  | ⟨0, _⟩ => fun c => dat0 (V3 m) c
  | ⟨1, _⟩ => fun c => dat1 (V5 m) c
  | ⟨2, _⟩ => fun c => dat2 (V7 m) c
  | ⟨3, _⟩ => fun c => dat3 (V9 m) c
  | ⟨4, _⟩ => fun c => dat4 (V11 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's PRNG register at some state and its `owes`, at
    nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it is left at
    `StableHlo.after ops (W c)`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W12`, the PRNG
    register at some state. -/
abbrev Tₙ (c : Dev nD) : sProp 𝕄 := iprop(StableHlo.held (c : Thread nD τ) (Pipeline.ucRefs τ sig) (W12 m c) ∗ ∃ r, prngReg c r)

/-! ## The regions as segments

Each region is entered from every unscoped buffer at its entry contents and left at its exit contents: its arrays split
out of the unscoped buffers and put back at what the pipeline leaves; the PRNG register goes into the region's
invariant and comes out of it; nothing is owed; the kernel has no semaphore of its own. -/

set_option backward.isDefEq.respectTransparency.types false in
/-- REGION 0 (custom_call 0) over the thread state: entered at `W3`, left at `W4`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (V3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V3 m c) (V4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 (custom_call 1) over the thread state: entered at `W5`, left at `W6`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (V5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V5 m c) (V6 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 (custom_call 2) over the thread state: entered at `W7`, left at `W8`. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m) c).loose
  hwaits := Pipeline.hwaits_of_owed_zero _ _ _ _ L lv 2 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec2 c (V7 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V7 m c) (V8 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 3 (custom_call 3) over the thread state: entered at `W9`, left at `W10`. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V9 m) c).loose
  hwaits := Pipeline.hwaits_of_owed_zero _ _ _ _ L lv 3 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec3 c (V9 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V9 m c) (V10 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 4 (custom_call 4) over the thread state: entered at `W11`, left at `W12`, the return. Its invariant is its own
    (two scratch buffers carried from point to point): the class invariant before the first point (`Φ4_zero`) and again
    after the last (`Φ4_last`). -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V11 m) c).loose
  hwaits := Pipeline.hwaits_of_owed_zero _ _ _ _ L lv 4 fun _ _ => rfl
  pre c := iprop(StableHlo.held (c : Thread nD τ) (Pipeline.ucRefs τ sig) (W11 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V11 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (V11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from Φ4_zero (V11 m) c]; unfold Pipeline.ΦA
    iintro ⟨Hp, -, Hr⟩
    isplitl [Hr]; · iexact Hr
    iexact Hp
  hout c := by
    rw [Pipeline.ownSems0_none]
    refine (show (pdats m 4 c).Φ (Fin.last _) ⊢ (Pipeline.ΦA spec4 c : sProp 𝕄) from Φ4_last (V11 m) c).trans ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (V11 m c) (V12 m c) ((pdats m 4 c).arrAt · cfg4.N) (hF4 m c) (hrest4 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 12 segments in order: a host segment per stretch from its boundary's contents, a region per custom_call. -/
abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .region (reg1 m),
    .host (hseg hostOps2 hostOps2_sub hostOps2_fresh (W6 m)),
    .region (reg2 m),
    .host (hseg hostOps3 hostOps3_sub hostOps3_fresh (W8 m)),
    .region (reg3 m),
    .host (hseg hostOps4 hostOps4_sub hostOps4_fresh (W10 m)),
    .region (reg4 m) ]

/-- @main IS the run of the segments: it is the chain of its items (`main_chain`), and the segments' run is the chain of
    their programs, which are those items. -/
theorem main_run (c : Dev nD) : main (F := F) c = Pipeline.Seg.run (segs m) := by
  rewrite [main_chain c, Seg.run_eq_chain,
    show (segs m).map Seg.prog = [
      StableHlo.seq hostOps0,
      StableHlo.seq hostOps0_1,
      StableHlo.seq hostOps0_2,
      Prog.lift (.customCall (Pipeline.entry 0) ()),
      StableHlo.seq hostOps1,
      Prog.lift (.customCall (Pipeline.entry 1) ()),
      StableHlo.seq hostOps2,
      Prog.lift (.customCall (Pipeline.entry 2) ()),
      StableHlo.seq hostOps3,
      Prog.lift (.customCall (Pipeline.entry 3) ()),
      StableHlo.seq hostOps4,
      Prog.lift (.customCall (Pipeline.entry 4) ()) ] from rfl]
  rfl

set_option backward.isDefEq.respectTransparency.types false in
/-- THE RUN: from any memory with zero counters, every weakly fair execution of @main on the TensorCores terminates,
    nothing faulting, and every final state holds every unscoped buffer at the last boundary's contents `W12`: the
    launch over the segments, the last thread state read against the final state. -/
theorem run_all (ρ : Dev nD → PrngReg) : θ_run defs (onTc (τ := τ) (main (F := F))) ⟨m, fun _ => 0, ρ⟩
    (fun r => ∀ c : Dev nD, ∀ b ∈ Pipeline.ucRefs τ sig, r.2.mem (((c : Thread nD τ)).1, b) = W12 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m c b)
    (hfin := fun c s' => by
      iintro ⟨⟨Hh, -⟩, HSI⟩
      unfold StableHlo.held
      imodintro
      iapply (pointsTo_read_all (Pipeline.ucRefs τ sig) (fun b => (((c : Thread nD τ)).1, b)) (W12 m c) s')
      isplitl [Hh] <;> iassumption)
    (hQ := fun s h c => h c)

/-- THE FRAME, at any `F`: every weakly fair execution of @main terminates, nothing faulting, and every final state has
    the argument arrays as launched — each argument is an unscoped buffer, which the run leaves at `W12`, and `W12` at an
    argument is the launch memory (`W12_main_argJ`). -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs (onTc (τ := τ) (main (F := F))) ⟨m, fun _ => 0, ρ⟩).mono (fun r h c =>
    ⟨(h c _ (mem_uc main_arg0 (by decide))).trans (W12_main_arg0 m c),
     (h c _ (mem_uc main_arg1 (by decide))).trans (W12_main_arg1 m c),
     (h c _ (mem_uc main_arg2 (by decide))).trans (W12_main_arg2 m c),
     (h c _ (mem_uc main_arg3 (by decide))).trans (W12_main_arg3 m c),
     (h c _ (mem_uc main_arg4 (by decide))).trans (W12_main_arg4 m c),
     (h c _ (mem_uc main_arg5 (by decide))).trans (W12_main_arg5 m c),
     (h c _ (mem_uc main_arg6 (by decide))).trans (W12_main_arg6 m c),
     (h c _ (mem_uc main_arg7 (by decide))).trans (W12_main_arg7 m c),
     (h c _ (mem_uc main_arg8 (by decide))).trans (W12_main_arg8 m c),
     (h c _ (mem_uc main_arg9 (by decide))).trans (W12_main_arg9 m c),
     (h c _ (mem_uc main_arg10 (by decide))).trans (W12_main_arg10 m c),
     (h c _ (mem_uc main_arg11 (by decide))).trans (W12_main_arg11 m c),
     (h c _ (mem_uc main_arg12 (by decide))).trans (W12_main_arg12 m c)⟩) (run_all m ρ)

end Cert.Kernel.Hand

end
-- ==== Proof.Val.Ref.lean ====
/-
  The second program's result as an explicit index formula.

  Walking back from the result: it is the last product plus the last bias; the product's left factor is the
  per-segment sum of the fourth layer's features divided by the per-segment count (at least one), both accumulating
  scatters at the segment words; each layer is a product with a weight, a gather of its rows at the source nodes, a
  scaling of each message by the product of d at its two ends, an accumulating scatter at the target numbers on top
  of a zero fill, a bias and a clip at zero. The four layers differ only in which arrays they read, so the layer is
  proved once for arbitrary arrays and read off four times; the index arrays each layer builds for itself are the same
  functions of the edge array as the first layer's.
-/
import proofs.«419651_j51711406244070_2_alg».proof.Proof.Val.Args

set_option maxRecDepth 16384

noncomputable section

open scoped BigOperators

namespace Cert.Val

open Idealize.ShloMosaic Idealize.ShloMosaic.ValueIdx Cert.ReferenceIdeal Cert.ReferenceIdeal.Gen Cert.ReferenceIdeal.Read Cert.Val.Idx

variable (a0 : S100000x3.Idx → EReal) (a1 : S2x640000.Idx → BitVec 32) (a2 : S100000.Idx → BitVec 32)
    (a3 : S3x128.Idx → EReal) (a4 : S128.Idx → EReal) (a5 : S128x128.Idx → EReal) (a6 : S128.Idx → EReal)
    (a7 : S128x128.Idx → EReal) (a8 : S128.Idx → EReal) (a9 : S128x128.Idx → EReal) (a10 : S128.Idx → EReal)
    (a11 : S128x4.Idx → EReal) (a12 : S4.Idx → EReal)

local notation "𝔭" => refParams a0 a1 a2 a3 a4 a5 a6 a7 a8 a9 a10 a11 a12

/-! ## Indices of the layout operations, by coordinates -/

local macro "idx1" : tactic => `(tactic| (funext a; match a with | ⟨0, _⟩ => rfl))
local macro "idx2" : tactic => `(tactic| (funext a; match a with | ⟨0, _⟩ => rfl | ⟨1, _⟩ => rfl))

/-! ## The parameters' tables are the program's own arrays -/

private theorem ref_src (k : Fin 740000) : (𝔭).src k = clampN (val_main_v20 (F := Ideal) a1 (ix2 k 0)) := by
  simp only [refParams]
private theorem ref_dst (k : Fin 740000) : (𝔭).dst k = clampN (val_main_v27 (F := Ideal) a1 (ix2 k 0)) := by
  simp only [refParams]
private theorem ref_colv (k : Fin 740000) : (𝔭).colv k = (val_main_v6 (F := Ideal) a1 (ix1 k)).toInt := by
  simp only [refParams]
private theorem ref_d (n : Fin 100000) : (𝔭).d n = val_main_v14 (F := Ideal) a1 (ix1 n) := by
  simp only [refParams]
private theorem ref_ids (n : Fin 100000) : (𝔭).ids n = a2 (ix1 n) := by
  simp only [refParams]

/-- The source-node array of each layer is the first one: the same wrap of the same numbers. -/
private theorem ref_row (k : Fin 740000) : clampN (val_main_v36 (F := Ideal) a1 (ix2 k 0)) = (𝔭).src k := by
  rw [ref_src]; rfl

/-- The scatter's index array holds the target numbers. -/
private theorem ref_col (k : Fin 740000) : (val_main_v42 (F := Ideal) a1 (ix2 k 0)).toInt = (𝔭).colv k := by
  have e : idx_main_v42 (ix2 k (0 : Fin 1)) = ix1 k := by idx1
  rw [ref_colv, val_main_v42_apply, e]

/-- The scale of message k, spread along the feature axis: the product of d at its two ends. -/
private theorem ref_E (k : Fin 740000) (c : Fin 128) :
    val_main_v39 (F := Ideal) a1 (ix2 k c) = (𝔭).d ((𝔭).src k) * (𝔭).d ((𝔭).dst k) := by
  have e39 : idx_main_v39 (ix2 k c) = ix2 k (0 : Fin 1) := by idx2
  have e38 : idx_main_v38 (ix2 k (0 : Fin 1)) = ix1 k := by idx1
  rw [val_main_v39_apply, e39, val_main_v38_apply, e38, val_main_v29_apply, Ideal.mulf_def]
  unfold val_main_v21 val_main_v28
  rw [gather_vec_RI, gather_vec_RI, ref_d, ref_d, ref_src, ref_dst]

/-- The zero fill. -/
private theorem ref_zero (i : S100000x128.Idx) : val_main_v41 (F := Ideal) i = 0 := by
  rw [val_main_v41_apply, val_main_cst_8_apply, Ideal.ofBits_def, Ideal.ofBits_zero_f32]
private theorem ref_zero' (i : S100000x128.Idx) : val_main_call1_v0 (F := Ideal) i = 0 := by
  rw [val_main_call1_v0_apply, val_main_call1_cst_apply, Ideal.ofBits_def, Ideal.ofBits_zero_f32]

/-- A bias vector spread along the node axis. -/
private theorem ref_bias (b : S128.Idx → EReal) (n : Fin 100000) (c : Fin 128) :
    val_main_v45 (F := Ideal) b (ix2 n c) = b (ix1 c) := by
  have e : idx_main_v44 (idx_main_v45 (ix2 n c)) = ix1 c := by idx1
  rw [val_main_v45_apply, val_main_v44_apply, e]

/-! ## One layer -/

/-- One layer of the second program at node n, feature c, over arbitrary arrays: the rows of L = q gathered at the source
    nodes, each message scaled by E, what arrives at n added up on top of the zero fill Z, the bias B added, the
    result clipped at zero. -/
theorem ref_layer (p : Params) (q : Fin 100000 → Fin 128 → EReal) (b : Fin 128 → EReal)
    (L : FVec Ideal S100000x128 .f32) (rowI colI : IVec S740000x1 32) (E : FVec Ideal S740000x128 .f32)
    (Z B Z' : FVec Ideal S100000x128 .f32)
    (hL : ∀ n c, L (ix2 n c) = q n c)
    (hrow : ∀ k, clampN (rowI (ix2 k 0)) = p.src k)
    (hcol : ∀ k, (colI (ix2 k 0)).toInt = p.colv k)
    (hE : ∀ k c, E (ix2 k c) = p.d (p.src k) * p.d (p.dst k))
    (hZ : ∀ n c, Z (ix2 n c) = 0) (hB : ∀ n c, B (ix2 n c) = b c) (hZ' : ∀ n c, Z' (ix2 n c) = 0)
    (n : Fin 100000) (c : Fin 128) :
    maximumf (addf (Host.scatterAdd (F := Ideal) scatter_S100000x128_S740000x1_S740000x128_1_0_0_1 Z colI
        (mulf (Host.gather gather_S100000x128_S740000x1_S740000x128_1_0_n_n_0_1_1128 L rowI) E)) B) Z' (ix2 n c)
      = rAct (rAgg p q) b n c := by
  have hs : (∑ k ∈ Finset.univ.filter (fun k : Fin 740000 => (colI (ix2 k 0)).toInt = (n.val : ℤ)),
        mulf (Host.gather gather_S100000x128_S740000x1_S740000x128_1_0_n_n_0_1_1128 L rowI) E (ix2 k c))
      = ∑ k ∈ hit p n, q (p.src k) c * (p.d (p.src k) * p.d (p.dst k)) := by
    refine Finset.sum_congr ?_ (fun k _ => ?_)
    · ext k; simp only [hit, Finset.mem_filter, Finset.mem_univ, true_and, hcol]
    · rw [mulf_apply, gather_rows_RI, hL, hrow, hE]
  rw [maximumf_apply, addf_apply, scatterAdd_rows_RI, hZ, hB, hZ', hs]
  unfold rAct rAgg
  exact rfl

/-! ## The four layers -/

private theorem ref_lin1 (n : Fin 100000) (c : Fin 128) :
    val_main_v30 (F := Ideal) a0 a3 (ix2 n c) = rLin (𝔭).x (𝔭).W1 n c := by
  rw [val_main_v30_apply]
  unfold rLin
  refine Finset.sum_congr rfl fun k _ => ?_
  have el : lidx_main_v30 (ix2 n c) k = ix2 n k := by idx2
  have er : ridx_main_v30 (ix2 n c) k = ix2 k c := by idx2
  rw [el, er]; rfl

theorem ref_h1 (n : Fin 100000) (c : Fin 128) :
    val_main_v47 (F := Ideal) a0 a1 a3 a4 (ix2 n c) = rH1 (𝔭) n c := by
  unfold val_main_v47 val_main_v46 val_main_v43 val_main_v40 val_main_v37 rH1
  exact ref_layer (𝔭) (rLin (𝔭).x (𝔭).W1) (𝔭).b1 (val_main_v30 (F := Ideal) a0 a3) (val_main_v36 (F := Ideal) a1)
    (val_main_v42 (F := Ideal) a1) (val_main_v39 (F := Ideal) a1) (val_main_v41 (F := Ideal)) (val_main_v45 (F := Ideal) a4)
    (val_main_call1_v0 (F := Ideal))
    (ref_lin1 a0 a1 a2 a3 a4 a5 a6 a7 a8 a9 a10 a11 a12) (ref_row a0 a1 a2 a3 a4 a5 a6 a7 a8 a9 a10 a11 a12)
    (ref_col a0 a1 a2 a3 a4 a5 a6 a7 a8 a9 a10 a11 a12) (ref_E a0 a1 a2 a3 a4 a5 a6 a7 a8 a9 a10 a11 a12)
    (fun _ _ => ref_zero _) (fun n c => ref_bias a4 n c) (fun _ _ => ref_zero' _) n c

private theorem ref_lin2 (n : Fin 100000) (c : Fin 128) :
    val_main_v48 (F := Ideal) a0 a1 a3 a4 a5 (ix2 n c) = rLin (rH1 (𝔭)) (𝔭).W2 n c := by
  rw [val_main_v48_apply]
  unfold rLin
  refine Finset.sum_congr rfl fun k _ => ?_
  have el : lidx_main_v48 (ix2 n c) k = ix2 n k := by idx2
  have er : ridx_main_v48 (ix2 n c) k = ix2 k c := by idx2
  rw [el, er, ref_h1 a0 a1 a2 a3 a4 a5 a6 a7 a8 a9 a10 a11 a12]; rfl

theorem ref_h2 (n : Fin 100000) (c : Fin 128) :
    val_main_v65 (F := Ideal) a0 a1 a3 a4 a5 a6 (ix2 n c) = rH2 (𝔭) n c := by
  unfold val_main_v65 val_main_v64 val_main_v61 val_main_v58 val_main_v55 rH2
  exact ref_layer (𝔭) (rLin (rH1 (𝔭)) (𝔭).W2) (𝔭).b2 (val_main_v48 (F := Ideal) a0 a1 a3 a4 a5) (val_main_v54 (F := Ideal) a1)
    (val_main_v60 (F := Ideal) a1) (val_main_v57 (F := Ideal) a1) (val_main_v59 (F := Ideal)) (val_main_v63 (F := Ideal) a6)
    (val_main_call2_v0 (F := Ideal))
    (ref_lin2 a0 a1 a2 a3 a4 a5 a6 a7 a8 a9 a10 a11 a12) (ref_row a0 a1 a2 a3 a4 a5 a6 a7 a8 a9 a10 a11 a12)
    (ref_col a0 a1 a2 a3 a4 a5 a6 a7 a8 a9 a10 a11 a12) (ref_E a0 a1 a2 a3 a4 a5 a6 a7 a8 a9 a10 a11 a12)
    (fun _ _ => ref_zero _) (fun n c => ref_bias a6 n c) (fun _ _ => ref_zero' _) n c

private theorem ref_lin3 (n : Fin 100000) (c : Fin 128) :
    val_main_v66 (F := Ideal) a0 a1 a3 a4 a5 a6 a7 (ix2 n c) = rLin (rH2 (𝔭)) (𝔭).W3 n c := by
  rw [val_main_v66_apply]
  unfold rLin
  refine Finset.sum_congr rfl fun k _ => ?_
  have el : lidx_main_v66 (ix2 n c) k = ix2 n k := by idx2
  have er : ridx_main_v66 (ix2 n c) k = ix2 k c := by idx2
  rw [el, er, ref_h2 a0 a1 a2 a3 a4 a5 a6 a7 a8 a9 a10 a11 a12]; rfl

theorem ref_h3 (n : Fin 100000) (c : Fin 128) :
    val_main_v83 (F := Ideal) a0 a1 a3 a4 a5 a6 a7 a8 (ix2 n c) = rH3 (𝔭) n c := by
  unfold val_main_v83 val_main_v82 val_main_v79 val_main_v76 val_main_v73 rH3
  exact ref_layer (𝔭) (rLin (rH2 (𝔭)) (𝔭).W3) (𝔭).b3 (val_main_v66 (F := Ideal) a0 a1 a3 a4 a5 a6 a7) (val_main_v72 (F := Ideal) a1)
    (val_main_v78 (F := Ideal) a1) (val_main_v75 (F := Ideal) a1) (val_main_v77 (F := Ideal)) (val_main_v81 (F := Ideal) a8)
    (val_main_call3_v0 (F := Ideal))
    (ref_lin3 a0 a1 a2 a3 a4 a5 a6 a7 a8 a9 a10 a11 a12) (ref_row a0 a1 a2 a3 a4 a5 a6 a7 a8 a9 a10 a11 a12)
    (ref_col a0 a1 a2 a3 a4 a5 a6 a7 a8 a9 a10 a11 a12) (ref_E a0 a1 a2 a3 a4 a5 a6 a7 a8 a9 a10 a11 a12)
    (fun _ _ => ref_zero _) (fun n c => ref_bias a8 n c) (fun _ _ => ref_zero' _) n c

private theorem ref_lin4 (n : Fin 100000) (c : Fin 128) :
    val_main_v84 (F := Ideal) a0 a1 a3 a4 a5 a6 a7 a8 a9 (ix2 n c) = rLin (rH3 (𝔭)) (𝔭).W4 n c := by
  rw [val_main_v84_apply]
  unfold rLin
  refine Finset.sum_congr rfl fun k _ => ?_
  have el : lidx_main_v84 (ix2 n c) k = ix2 n k := by idx2
  have er : ridx_main_v84 (ix2 n c) k = ix2 k c := by idx2
  rw [el, er, ref_h3 a0 a1 a2 a3 a4 a5 a6 a7 a8 a9 a10 a11 a12]; rfl

theorem ref_h4 (n : Fin 100000) (c : Fin 128) :
    val_main_v101 (F := Ideal) a0 a1 a3 a4 a5 a6 a7 a8 a9 a10 (ix2 n c) = rH4 (𝔭) n c := by
  unfold val_main_v101 val_main_v100 val_main_v97 val_main_v94 val_main_v91 rH4
  exact ref_layer (𝔭) (rLin (rH3 (𝔭)) (𝔭).W4) (𝔭).b4 (val_main_v84 (F := Ideal) a0 a1 a3 a4 a5 a6 a7 a8 a9) (val_main_v90 (F := Ideal) a1)
    (val_main_v96 (F := Ideal) a1) (val_main_v93 (F := Ideal) a1) (val_main_v95 (F := Ideal)) (val_main_v99 (F := Ideal) a10)
    (val_main_call4_v0 (F := Ideal))
    (ref_lin4 a0 a1 a2 a3 a4 a5 a6 a7 a8 a9 a10 a11 a12) (ref_row a0 a1 a2 a3 a4 a5 a6 a7 a8 a9 a10 a11 a12)
    (ref_col a0 a1 a2 a3 a4 a5 a6 a7 a8 a9 a10 a11 a12) (ref_E a0 a1 a2 a3 a4 a5 a6 a7 a8 a9 a10 a11 a12)
    (fun _ _ => ref_zero _) (fun n c => ref_bias a10 n c) (fun _ _ => ref_zero' _) n c

/-! ## The per-segment mean, the last product and bias -/

private theorem ref_idw (n : Fin 100000) : val_main_v103 (F := Ideal) a2 (ix2 n 0) = (𝔭).ids n := by
  have e : idx_main_v103 (ix2 n (0 : Fin 1)) = ix1 n := by idx1
  rw [ref_ids, val_main_v103_apply, e]

private theorem ref_seg (g : Fin 2048) :
    (Finset.univ.filter fun n : Fin 100000 => (val_main_v103 (F := Ideal) a2 (ix2 n 0)).toInt = (g.val : ℤ)) = seg (𝔭) g := by
  ext n
  simp only [seg, Finset.mem_filter, Finset.mem_univ, true_and, ref_idw a0 a1 a2 a3 a4 a5 a6 a7 a8 a9 a10 a11 a12]

/-- The per-segment sum of the last features. -/
private theorem ref_pool_sum (g : Fin 2048) (c : Fin 128) :
    val_main_v104 (F := Ideal) a0 a1 a2 a3 a4 a5 a6 a7 a8 a9 a10 (ix2 g c) = 0 + ∑ n ∈ seg (𝔭) g, rH4 (𝔭) n c := by
  unfold val_main_v104
  rw [scatterAdd_seg_rows_RI, val_main_v102_apply, val_main_cst_18_apply, Ideal.ofBits_def, Ideal.ofBits_zero_f32,
    ref_seg a0 a1 a2 a3 a4 a5 a6 a7 a8 a9 a10 a11 a12,
    Finset.sum_congr rfl (fun n _ => ref_h4 a0 a1 a2 a3 a4 a5 a6 a7 a8 a9 a10 a11 a12 n c)]

/-- The per-segment count, at least one. -/
private theorem ref_pool_cnt (g : Fin 2048) :
    val_main_v110 (F := Ideal) a2 (ix1 g) = max (0 + ∑ _n ∈ seg (𝔭) g, one32) one32 := by
  have e1 : ∀ n : Fin 100000, val_main_v105 (F := Ideal) (ix1 n) = one32 := by
    intro n; rw [val_main_v105_apply, val_main_cst_19_apply, Ideal.ofBits_def]
  rw [val_main_v110_apply, Ideal.maximumf_def, val_main_v109_apply, val_main_cst_21_apply, Ideal.ofBits_def]
  unfold val_main_v108
  rw [scatterAdd_seg_vec_RI, val_main_v106_apply, val_main_cst_20_apply, Ideal.ofBits_def, Ideal.ofBits_zero_f32]
  have e107 : val_main_v107 (F := Ideal) a2 = val_main_v103 (F := Ideal) a2 := rfl
  rw [e107, ref_seg a0 a1 a2 a3 a4 a5 a6 a7 a8 a9 a10 a11 a12, Finset.sum_congr rfl (fun n _ => e1 n)]

/-- THE SECOND PROGRAM'S RESULT at segment g, output j, as the index formula. -/
theorem ref_value (g : Fin 2048) (j : Fin 4) :
    val_main_v117 (F := Ideal) a0 a1 a2 a3 a4 a5 a6 a7 a8 a9 a10 a11 a12 (ix2 g j) = rOut (𝔭) g j := by
  have e116 : idx_main_v115 (idx_main_v116 (ix2 g j)) = ix1 j := by idx1
  rw [val_main_v117_apply, val_main_v114_apply, val_main_v116_apply, val_main_v115_apply, e116, Ideal.addf_def]
  unfold rOut rPool
  have hs : ∀ k : Fin 128,
      val_main_v113 (F := Ideal) a0 a1 a2 a3 a4 a5 a6 a7 a8 a9 a10 (lidx_main_v114 (ix2 g j) k) * a11 (ridx_main_v114 (ix2 g j) k)
        = Ideal.div (0 + ∑ n ∈ seg (𝔭) g, rH4 (𝔭) n k) (max (0 + ∑ _n ∈ seg (𝔭) g, one32) one32) * (𝔭).Wfc k j := by
    intro k
    have el : lidx_main_v114 (ix2 g j) k = ix2 g k := by idx2
    have er : ridx_main_v114 (ix2 g j) k = ix2 k j := by idx2
    have e112 : idx_main_v111 (idx_main_v112 (ix2 g k)) = ix1 g := by idx1
    rw [el, er, val_main_v113_apply, Ideal.hostDivf_def, ref_pool_sum a0 a1 a2 a3 a4 a5 a6 a7 a8 a9 a10 a11 a12,
      val_main_v112_apply, val_main_v111_apply, e112, ref_pool_cnt a0 a1 a2 a3 a4 a5 a6 a7 a8 a9 a10 a11 a12]
    rfl
  rw [Finset.sum_congr rfl (fun k _ => hs k)]
  rfl

end Cert.Val

end
-- ==== Proof.Val.Fin0.lean ====
/-
  What the first layer's linear step leaves in its output array, entry by entry, over the extended reals.

  The step runs over 20 blocks of 5000 nodes. At each block it multiplies the block's [5000,3] features by the [3,128]
  weight (a change of float format in between is the identity on extended reals, and the product accumulates into a
  zero fill), scales row `p` by the block's scale entry of row `p`, and stores the [5000,128] result as the block's
  rows of the output. So entry (n, j) of the output array is
  `(∑ k, x n k * w k j) * d n`: block `n / 5000` writes it, from row `n % 5000` of that block's features and scale.
-/
import proofs.«419651_j51711406244070_2_alg».proof.Proof.KI.Reg0
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

/-! ## The block's value at a row and a column -/

/-- The operand indices of the [5000,3] × [3,128] product at output index `i` and contraction index `q`, axis by axis:
    the left operand is read at row `i 0` and column `q`, the right at row `q` and column `i 1`. -/
theorem lhs0_0 (i : S5000x128.Idx) (q : dot_S5000x3_S3x128_S5000x128_1_0_0_1_n_n.contr.Idx) :
    (dot_S5000x3_S3x128_S5000x128_1_0_0_1_n_n.lhsIdx i q 0).val = (i 0).val := by
  unfold DotDims.lhsIdx
  rw [dif_neg (show ¬(0 : Fin S5000x3.rank) ∈ dot_S5000x3_S3x128_S5000x128_1_0_0_1_n_n.lhsBatch by decide), dif_pos (show (0 : Fin S5000x3.rank) ∈ dot_S5000x3_S3x128_S5000x128_1_0_0_1_n_n.lhsNonContracting by decide)]
  rfl
theorem lhs0_1 (i : S5000x128.Idx) (q : dot_S5000x3_S3x128_S5000x128_1_0_0_1_n_n.contr.Idx) :
    (dot_S5000x3_S3x128_S5000x128_1_0_0_1_n_n.lhsIdx i q 1).val = (q ⟨0, by decide⟩).val :=
  dot_S5000x3_S3x128_S5000x128_1_0_0_1_n_n.lhsIdx_val_of_single rfl i q
theorem rhs0_0 (i : S5000x128.Idx) (q : dot_S5000x3_S3x128_S5000x128_1_0_0_1_n_n.contr.Idx) :
    (dot_S5000x3_S3x128_S5000x128_1_0_0_1_n_n.rhsIdx i q 0).val = (q ⟨0, by decide⟩).val :=
  dot_S5000x3_S3x128_S5000x128_1_0_0_1_n_n.rhsIdx_val_of_single rfl i q
theorem rhs0_1 (i : S5000x128.Idx) (q : dot_S5000x3_S3x128_S5000x128_1_0_0_1_n_n.contr.Idx) :
    (dot_S5000x3_S3x128_S5000x128_1_0_0_1_n_n.rhsIdx i q 1).val = (i 1).val := by
  unfold DotDims.rhsIdx
  rw [dif_neg (show ¬(1 : Fin S3x128.rank) ∈ dot_S5000x3_S3x128_S5000x128_1_0_0_1_n_n.rhsBatch by decide), dif_pos (show (1 : Fin S3x128.rank) ∈ dot_S5000x3_S3x128_S5000x128_1_0_0_1_n_n.rhsNonContracting by decide)]
  rfl

/-- The matrix product into a zero accumulator, at row `p` and column `q`: the three products along the row of the
    left operand and the column of the right, summed. -/
theorem prod0_apply (a : FVec Ideal S5000x3 .bf16) (b : FVec Ideal S3x128 .bf16) (p : Fin 5000) (q : Fin 128) :
    matmul (F := Ideal) dot_S5000x3_S3x128_S5000x128_1_0_0_1_n_n none a b (constant (F := Ideal) S5000x128 .f32 0x00000000#32) (ix2 p q)
      = ∑ k : Fin 3, (a (ix2 p k) : EReal) * (b (ix2 k q) : EReal) := by
  simp only [matmul]
  rw [Ideal.matmul_constant_zero_apply, ← Equiv.sum_comp (contrEquiv1 dot_S5000x3_S3x128_S5000x128_1_0_0_1_n_n 3 rfl rfl).symm]
  refine Finset.sum_congr rfl fun k _ => ?_
  have hk := contrEquiv1_symm_val dot_S5000x3_S3x128_S5000x128_1_0_0_1_n_n 3 rfl rfl k
  have el : dot_S5000x3_S3x128_S5000x128_1_0_0_1_n_n.lhsIdx (ix2 p q) ((contrEquiv1 dot_S5000x3_S3x128_S5000x128_1_0_0_1_n_n 3 rfl rfl).symm k) = ix2 p k := funext fun a => Fin.ext (by
    match a with
    | ⟨0, _⟩ => exact lhs0_0 _ _
    | ⟨1, _⟩ => exact (lhs0_1 _ _).trans hk)
  have er : dot_S5000x3_S3x128_S5000x128_1_0_0_1_n_n.rhsIdx (ix2 p q) ((contrEquiv1 dot_S5000x3_S3x128_S5000x128_1_0_0_1_n_n 3 rfl rfl).symm k) = ix2 k q := funext fun a => Fin.ext (by
    match a with
    | ⟨0, _⟩ => exact (rhs0_0 _ _).trans hk
    | ⟨1, _⟩ => exact rhs0_1 _ _)
  rw [el, er]

/-- The scale column spread along the rows, at row `p` and column `q`: the column's entry of row `p`. -/
theorem col0_apply (d : FVec Ideal S5000x1 .f32) (p : Fin 5000) (q : Fin 128) :
    broadcastTo S5000x128 (shapeCast S5000x1 d shapeCasts_S5000x1_S5000x1) broadcasts_S5000x1_S5000x128 (ix2 p q) = d (ix2 p 0) := by
  rw [shapeCast_self]
  refine broadcastTo_apply d broadcasts_S5000x1_S5000x128 (ix2 p q) (ix2 p 0) fun a => ?_
  match a with
  | ⟨0, _⟩ => show p.val = if (5000 : Nat) = 1 then 0 else p.val; rw [if_neg (by decide)]
  | ⟨1, _⟩ => show (0 : Nat) = if (1 : Nat) = 1 then 0 else q.val; rw [if_pos rfl]

/-- What the body stores at row `p` and column `q` of its block: the row of the feature block times the column of
    the weight, scaled by the row's entry of the scale column. -/
theorem pay0_apply (x0 : Vec Ideal S5000x3 .f32) (x1 : Vec Ideal S3x128 .f32) (x2 : Vec Ideal S5000x1 .f32) (p : Fin 5000) (q : Fin 128) :
    (k0_pay1 x0 x1 x2 (ix2 p q) : EReal) = (∑ k : Fin 3, (x0 (ix2 p k) : EReal) * (x1 (ix2 k q) : EReal)) * (x2 (ix2 p 0) : EReal) := by
  unfold k0_pay1
  show (matmul (F := Ideal) dot_S5000x3_S3x128_S5000x128_1_0_0_1_n_n none (truncf (F := Ideal) .bf16 x0 bitsLt_bf16_f32) (truncf (F := Ideal) .bf16 x1 bitsLt_bf16_f32) (constant (F := Ideal) S5000x128 .f32 0x00000000#32) (ix2 p q) : EReal)
      * (broadcastTo S5000x128 (shapeCast S5000x1 x2 shapeCasts_S5000x1_S5000x1) broadcasts_S5000x1_S5000x128 (ix2 p q) : EReal) = _
  rw [prod0_apply, col0_apply]
  rfl

/-! ## The three input blocks and the output block inside their arrays

At point `t` of the 20 the feature block is rows `5000 t … 5000 t + 4999` of the feature array, the scale block the
same rows of the scale column, the weight block the whole weight, and the output block the same rows of the output. -/

variable (V : (c : Dev nD) → (b : Ref sig .tc) → Buf (Elt Ideal) ((c : Thread nD τ).loc b))

theorem zeros2 : (![0, 0] : Fin 2 → Nat) = fun _ => 0 := funext fun a => by
  match a with
  | ⟨0, _⟩ => rfl
  | ⟨1, _⟩ => rfl

/-- The output array as one function of the three arrays the region reads, index by index: row `n` of the features
    times column `j` of the weight, scaled by entry `n` of the scale column. -/
def lin0 (X : S100000x3.Idx → EReal) (W : S3x128.Idx → EReal) (D : S100000x1.Idx → EReal) : S100000x128.Idx → EReal :=
  fun i => (∑ k : Fin 3, X (ix2 (⟨(i 0).val, (i 0).isLt⟩ : Fin 100000) k) * W (ix2 k (⟨(i 1).val, (i 1).isLt⟩ : Fin 128)))
    * D (ix2 (⟨(i 0).val, (i 0).isLt⟩ : Fin 100000) (0 : Fin 1))

/-- The block indices of the four windows at every point of the grid: the row block is the point's number, the column
    block is zero; the weight's block is the one it has. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Row `p`, column `k` of the feature block at point `t` is row `5000 t + p`, column `k` of the feature array. -/
theorem blk0_0_apply (c : Dev nD) (t : Fin cfg0.N) (p : Fin 5000) (k : Fin 3) (i : S100000x3.Idx)
    (hi0 : (i 0).val = t.val * 5000 + p.val) (hi1 : (i 1).val = k.val) :
    (iblk0 V c 0 t : Vec Ideal S5000x3 .f32) (ix2 p k) = (V c main_arg0 : S100000x3.Idx → EReal) i := by
  obtain ⟨e00, e01, -⟩ := idx_facts0 t
  show V c main_arg0 (((cfg0.win 0).blk t).view.emb (ix2 p k)) = V c main_arg0 i
  refine congrArg _ (funext fun a => Fin.ext ?_)
  match a with
  | ⟨0, _⟩ => show win0_0.index t (0 : Fin 2) * 5000 + 1 * p.val = (i 0).val; omega
  | ⟨1, _⟩ => show win0_0.index t (1 : Fin 2) * 3 + 1 * k.val = (i 1).val; omega

/-- The weight block at every point is the weight array. -/
theorem blk0_1_apply (c : Dev nD) (t : Fin cfg0.N) (k : Fin 3) (q : Fin 128) (i : S3x128.Idx)
    (hi0 : (i 0).val = k.val) (hi1 : (i 1).val = q.val) :
    (iblk0 V c 1 t : Vec Ideal S3x128 .f32) (ix2 k q) = (V c main_arg3 : S3x128.Idx → EReal) i := by
  obtain ⟨-, -, e10, e11, -⟩ := idx_facts0 t
  show V c main_arg3 (((cfg0.win 1).blk t).view.emb (ix2 k q)) = V c main_arg3 i
  refine congrArg _ (funext fun a => Fin.ext ?_)
  match a with
  | ⟨0, _⟩ => show win0_1.index t (0 : Fin 2) * 3 + 1 * k.val = (i 0).val; omega
  | ⟨1, _⟩ => show win0_1.index t (1 : Fin 2) * 128 + 1 * q.val = (i 1).val; omega

/-- Row `p` of the scale block at point `t` is entry `5000 t + p` of the scale column. -/
theorem blk0_2_apply (c : Dev nD) (t : Fin cfg0.N) (p : Fin 5000) (i : S100000x1.Idx)
    (hi0 : (i 0).val = t.val * 5000 + p.val) (hi1 : (i 1).val = 0) :
    (iblk0 V c 2 t : Vec Ideal S5000x1 .f32) (ix2 p (0 : Fin 1)) = (V c main_v15 : S100000x1.Idx → EReal) i := by
  obtain ⟨-, -, -, -, e20, e21, -⟩ := idx_facts0 t
  show V c main_v15 (((cfg0.win 2).blk t).view.emb (ix2 p (0 : Fin 1))) = V c main_v15 i
  refine congrArg _ (funext fun a => Fin.ext ?_)
  match a with
  | ⟨0, _⟩ => show win0_2.index t (0 : Fin 2) * 5000 + 1 * p.val = (i 0).val; omega
  | ⟨1, _⟩ => show win0_2.index t (1 : Fin 2) * 1 + 1 * 0 = (i 1).val; omega

/-- The body's store at row `p`, column `q`, from blocks that are rows of three arrays, is `lin0` of the arrays at the
    index whose row the blocks' rows are and whose column is `q`. -/
theorem lin0_of_blocks (x0 : Vec Ideal S5000x3 .f32) (x1 : Vec Ideal S3x128 .f32) (x2 : Vec Ideal S5000x1 .f32)
    (X : S100000x3.Idx → EReal) (W : S3x128.Idx → EReal) (D : S100000x1.Idx → EReal)
    (p : Fin 5000) (q : Fin 128) (i : S100000x128.Idx)
    (h0 : ∀ k : Fin 3, (x0 (ix2 p k) : EReal) = X (ix2 (⟨(i 0).val, (i 0).isLt⟩ : Fin 100000) k))
    (h1 : ∀ k : Fin 3, (x1 (ix2 k q) : EReal) = W (ix2 k (⟨(i 1).val, (i 1).isLt⟩ : Fin 128)))
    (h2 : (x2 (ix2 p (0 : Fin 1)) : EReal) = D (ix2 (⟨(i 0).val, (i 0).isLt⟩ : Fin 100000) (0 : Fin 1))) :
    (k0_pay1 x0 x1 x2 (ix2 p q) : EReal) = lin0 X W D i := by
  rw [pay0_apply, h2]
  unfold lin0
  exact congrArg (· * _) (Finset.sum_congr rfl fun k _ => by rw [h0 k, h1 k])

/-- What the body leaves at index `y` of the output block at point `t` is `lin0` of the arrays at the block's
    index `y` inside the output array. -/
theorem flushed0_apply (c : Dev nD) (t : Fin cfg0.N) (y : S5000x128.Idx) :
    (k0_pay1 (iblk0 V c 0 t) (iblk0 V c 1 t) (iblk0 V c 2 t) y : EReal)
      = lin0 (V c main_arg0) (V c main_arg3) (V c main_v15) (((cfg0.win 3).blk t).view.emb y) := by
  obtain ⟨p, q, rfl⟩ : ∃ (p : Fin 5000) (q : Fin 128), y = ix2 p q := ⟨y 0, y 1, eq_ix2 y⟩
  obtain ⟨-, -, -, -, -, -, e30, e31⟩ := idx_facts0 t
  have hr : ((((cfg0.win 3).blk t).view.emb (ix2 p q)) (0 : Fin 2)).val = t.val * 5000 + p.val := by
    show win0_3.index t (0 : Fin 2) * 5000 + 1 * p.val = _; omega
  have hc : ((((cfg0.win 3).blk t).view.emb (ix2 p q)) (1 : Fin 2)).val = q.val := by
    show win0_3.index t (1 : Fin 2) * 128 + 1 * q.val = _; omega
  exact lin0_of_blocks (iblk0 V c 0 t) (iblk0 V c 1 t) (iblk0 V c 2 t) (V c main_arg0) (V c main_arg3) (V c main_v15) p q
    (((cfg0.win 3).blk t).view.emb (ix2 p q))
    (fun k => blk0_0_apply V c t p k _ hr rfl) (fun k => blk0_1_apply V c t k q _ rfl hc) (blk0_2_apply V c t p _ hr rfl)

/-- What point `t` writes back is block `t` of `lin0` of the three arrays as the region finds them. -/
theorem flushed0_eq (c : Dev nD) (t : Fin cfg0.N) :
    (dat0 V c).flushed 3 t = ((cfg0.win 3).blk t).view.read (Elt Ideal) (lin0 (V c main_arg0) (V c main_arg3) (V c main_v15)) := by
  show (cfg0.win 3).cut (grid0.coords t) ((dat0 V c).after 3 t) = _
  rw [after0_3]
  unfold out0_3
  rw [View.canon_unit_zero zeros2]
  simp only [View.ld_unit_zero (S := S5000x3) zeros2, View.ld_unit_zero (S := S3x128) zeros2, View.ld_unit_zero (S := S5000x1) zeros2]
  funext j
  exact flushed0_apply V c t j

/-- An index of the output array is in point `t`'s block iff each coordinate is in the block's range on its axis. -/
theorem mem_blk0 (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v16).slice (win0_3.rect t)).set ↔ _
  rw [View.set_slice_whole, Rect.mem_set_unit]
  exact Iff.rfl

/-- Every index of the output array is in the block of the point numbered by its row divided by 5000, and every point
    writes its block back. -/
theorem cover0 (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 20 := N_0
  have ht : (i 0).val / 5000 < cfg0.N := by rw [hN]; omega
  obtain ⟨-, -, -, -, -, -, e30, e31⟩ := idx_facts0 ⟨(i 0).val / 5000, ht⟩
  have e30' : win0_3.index ⟨(i 0).val / 5000, ht⟩ (0 : Fin 2) = (i 0).val / 5000 := e30
  refine ⟨⟨(i 0).val / 5000, ht⟩, flush0_3 _, ?_⟩
  rw [mem_blk0]
  intro a
  match a with
  | ⟨0, _⟩ =>
    show win0_3.index ⟨(i 0).val / 5000, ht⟩ (0 : Fin 2) * 5000 ≤ (i 0).val ∧ (i 0).val < win0_3.index ⟨(i 0).val / 5000, ht⟩ (0 : Fin 2) * 5000 + 5000
    omega
  | ⟨1, _⟩ =>
    show win0_3.index ⟨(i 0).val / 5000, ht⟩ (1 : Fin 2) * 128 ≤ (i 1).val ∧ (i 1).val < win0_3.index ⟨(i 0).val / 5000, ht⟩ (1 : Fin 2) * 128 + 128
    omega

/-- The output array after the region is `lin0` of the three arrays the region reads. -/
theorem final0_eq (c : Dev nD) :
    (dat0 V c).arrAt 3 cfg0.N = lin0 (V c main_arg0) (V c main_arg3) (V c main_v15) :=
  (dat0 V c).arrAt_eq_of_cover 3 (lin0 (V c main_arg0) (V c main_arg3) (V c main_v15)) (fun t _ => flushed0_eq V c t) cover0

/-- `lin0` at row `n` and column `j`. -/
theorem lin0_apply (X : S100000x3.Idx → EReal) (W : S3x128.Idx → EReal) (D : S100000x1.Idx → EReal) (n : Fin 100000) (j : Fin 128) :
    lin0 X W D (ix2 n j) = (∑ k : Fin 3, X (ix2 n k) * W (ix2 k j)) * D (ix2 n (0 : Fin 1)) := rfl

/-- The three arrays the region reads, as the region finds them, each as a function of its literal index type: the
    features, the weight, the scale column. -/
abbrev arr0_x (c : Dev nD) : S100000x3.Idx → EReal := V c main_arg0
abbrev arr0_w (c : Dev nD) : S3x128.Idx → EReal := V c main_arg3
abbrev arr0_d (c : Dev nD) : S100000x1.Idx → EReal := V c main_v15

/-- The output array after the region, at row `n` and column `j`: row `n` of the features times column `j` of the
    weight, scaled by entry `n` of the scale column. -/
theorem final0 (c : Dev nD) (n : Fin 100000) (j : Fin 128) :
    ((dat0 V c).arrAt 3 cfg0.N : S100000x128.Idx → EReal) (ix2 n j)
      = (∑ k : Fin 3, arr0_x V c (ix2 n k) * arr0_w V c (ix2 k j)) * arr0_d V c (ix2 n (0 : Fin 1)) := by
  rw [final0_eq]
  rfl

end Cert.KernelIdeal.Val

end
-- ==== Proof.Val.Fin1.lean ====
/-
  What the fused layer's output array holds after its twenty write-backs, index by index.

  The four input arrays: `A` of 100000 rows and 128 columns, a column `d` of 100000 entries, a row `b` of 128 entries and a
  weight `W` of 128 by 128. Grid point `t` reads rows `5000 t … 5000 t + 4999` of `A` and of `d`, the whole of `b` and `W`, and
  writes rows `5000 t … 5000 t + 4999` of the output. On a block the body computes `h = max (A · d + b) 0` (the column `d`
  spread over the 128 columns, the row `b` over the 5000 rows), then `(h W) · d`: the product with the weight is a sum over
  the 128 columns of `h` on top of a zero fill, and the changes of number format around it are the identity on the
  extended reals. Hence at row `n` and column `j` the output is
  `(∑ k, max (A n k * d n + b k) 0 * W k j) * d n`:
  first the body's value at a coordinate of a block, then each block as rows of its array, then the cover of the 100000
  rows by the twenty blocks.
-/
import proofs.«419651_j51711406244070_2_alg».proof.Proof.KI.Reg1
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open scoped BigOperators

/-- A column `[a, 1]` broadcast to `[a, b]` reads, at `(p, c)`, the column's entry of row `p`. -/
theorem colbc1_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The operand indices of the product at output index `i` and contraction index `q`: row `i 0`, column `q` on the left;
    row `q`, column `i 1` on the right. -/
theorem lhs1_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs1_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs1_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs1_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The body's value at row `p`, column `q` of a block, from the four blocks it loads (the column block twice). -/
theorem pay1_apply (x0 : Vec Ideal S5000x128 .f32) (x1 : Vec Ideal S5000x1 .f32) (x2 : Vec Ideal S1x128 .f32) (x3 : Vec Ideal S128x128 .f32)
    (p : Fin 5000) (q : Fin 128) :
    (k1_pay1 x0 x1 x2 x3 x1 : S5000x128.Idx → EReal) (ix2 p q)
      = (∑ k : Fin 128, max ((x0 : S5000x128.Idx → EReal) (ix2 p k) * (x1 : S5000x1.Idx → EReal) (ix2 p 0) + (x2 : S1x128.Idx → EReal) (ix2 0 k)) 0
          * (x3 : S128x128.Idx → EReal) (ix2 k q)) * (x1 : S5000x1.Idx → EReal) (ix2 p 0) := by
  unfold k1_pay1
  simp only [shapeCast_self]
  rw [mulf_apply, colbc1_apply]
  refine congrArg (· * (x1 : S5000x1.Idx → EReal) (ix2 p 0)) ?_
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs1_0 _ _
    | ⟨1, _⟩ => exact (lhs1_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs1_0 _ _).trans hk
    | ⟨1, _⟩ => exact rhs1_1 _ _)
  rw [el, er, truncf_apply, truncf_apply, maximumf_apply, addf_apply, mulf_apply, colbc1_apply, broadcastTo_1b_ab_apply, broadcast_apply]
  rw [show (FloatOps.ofBits (F := Ideal) FTy.f32 0x00000000#32 : EReal) = 0 from Ideal.ofBits_zero_f32]

variable (V : (c : Dev nD) → (b : Ref sig .tc) → Buf (Elt Ideal) ((c : Thread nD τ).loc b))

/-- The zero offsets of a whole-block load or store. -/
theorem hz1 : (![0, 0] : Fin 2 → Nat) = fun _ => 0 := funext fun a => by fin_cases a <;> rfl

/-- What the output array holds, index by index, as one function of the four input arrays. -/
def G1 (a0 : S100000x128.Idx → EReal) (a1 : S100000x1.Idx → EReal) (a2 : S1x128.Idx → EReal) (a3 : S128x128.Idx → EReal) :
    S100000x128.Idx → EReal := fun i =>
  (∑ k : Fin 128, max (a0 (ix2 (i 0) k) * a1 (ix2 (i 0) 0) + a2 (ix2 0 k)) 0 * a3 (ix2 k (i 1))) * a1 (ix2 (i 0) 0)

/-- The printed index maps, decided over the twenty points. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Row `p` of block `t` is a row of the array. -/
theorem rowlt1 (t : Fin cfg1.N) (p : Fin 5000) : t.val * 5000 + p.val < 100000 := by
  have h1 : t.val < 20 := t.isLt
  have h2 := p.isLt
  omega

/-- Each input block read at a coordinate is its array read at the block's rows (all rows for the two whole-array
    windows): a block's coordinate on an axis is block index × block size + the coordinate inside the block. -/
theorem iblk1_0_apply (c : Dev nD) (t : Fin cfg1.N) (p : Fin 5000) (k : Fin 128) :
    (iblk1 V c 0 t : S5000x128.Idx → EReal) (ix2 p k) = (V c main_v26 : S100000x128.Idx → EReal) (ix2 ⟨t.val * 5000 + p.val, rowlt1 t p⟩ k) := by
  obtain ⟨e00, e01, e10, e11, e20, e21, e30, e31, e40, e41⟩ := idx_facts1 t
  show (V c main_v26 : S100000x128.Idx → EReal) (((cfg1.win 0).blk t).view.emb (ix2 p k)) = _
  refine congrArg _ (funext fun a => Fin.ext ?_)
  match a with
  | ⟨0, _⟩ => show win1_0.index t (0 : Fin 2) * 5000 + 1 * p.val = t.val * 5000 + p.val; omega
  | ⟨1, _⟩ => show win1_0.index t (1 : Fin 2) * 128 + 1 * k.val = k.val; omega

theorem iblk1_1_apply (c : Dev nD) (t : Fin cfg1.N) (p : Fin 5000) :
    (iblk1 V c 1 t : S5000x1.Idx → EReal) (ix2 p 0) = (V c main_v15 : S100000x1.Idx → EReal) (ix2 ⟨t.val * 5000 + p.val, rowlt1 t p⟩ 0) := by
  obtain ⟨e00, e01, e10, e11, e20, e21, e30, e31, e40, e41⟩ := idx_facts1 t
  show (V c main_v15 : S100000x1.Idx → EReal) (((cfg1.win 1).blk t).view.emb (ix2 p 0)) = _
  refine congrArg _ (funext fun a => Fin.ext ?_)
  match a with
  | ⟨0, _⟩ => show win1_1.index t (0 : Fin 2) * 5000 + 1 * p.val = t.val * 5000 + p.val; omega
  | ⟨1, _⟩ => show win1_1.index t (1 : Fin 2) * 1 + 1 * 0 = 0; omega

theorem iblk1_2_apply (c : Dev nD) (t : Fin cfg1.N) (k : Fin 128) :
    (iblk1 V c 2 t : S1x128.Idx → EReal) (ix2 0 k) = (V c main_v27 : S1x128.Idx → EReal) (ix2 0 k) := by
  obtain ⟨e00, e01, e10, e11, e20, e21, e30, e31, e40, e41⟩ := idx_facts1 t
  show (V c main_v27 : S1x128.Idx → EReal) (((cfg1.win 2).blk t).view.emb (ix2 0 k)) = _
  refine congrArg _ (funext fun a => Fin.ext ?_)
  match a with
  | ⟨0, _⟩ => show win1_2.index t (0 : Fin 2) * 1 + 1 * 0 = 0; omega
  | ⟨1, _⟩ => show win1_2.index t (1 : Fin 2) * 128 + 1 * k.val = k.val; omega

theorem iblk1_3_apply (c : Dev nD) (t : Fin cfg1.N) (k q : Fin 128) :
    (iblk1 V c 3 t : S128x128.Idx → EReal) (ix2 k q) = (V c main_arg5 : S128x128.Idx → EReal) (ix2 k q) := by
  obtain ⟨e00, e01, e10, e11, e20, e21, e30, e31, e40, e41⟩ := idx_facts1 t
  show (V c main_arg5 : S128x128.Idx → EReal) (((cfg1.win 3).blk t).view.emb (ix2 k q)) = _
  refine congrArg _ (funext fun a => Fin.ext ?_)
  match a with
  | ⟨0, _⟩ => show win1_3.index t (0 : Fin 2) * 128 + 1 * k.val = k.val; omega
  | ⟨1, _⟩ => show win1_3.index t (1 : Fin 2) * 128 + 1 * q.val = q.val; omega

/-- Where row `p`, column `q` of the output's block `t` sits in the output array. -/
theorem emb1_4 (t : Fin cfg1.N) (p : Fin 5000) (q : Fin 128) :
    (((cfg1.win 4).blk t).view.emb (ix2 p q) : S100000x128.Idx) = ix2 ⟨t.val * 5000 + p.val, rowlt1 t p⟩ q := by
  obtain ⟨e00, e01, e10, e11, e20, e21, e30, e31, e40, e41⟩ := idx_facts1 t
  refine funext fun a => Fin.ext ?_
  match a with
  | ⟨0, _⟩ => show win1_4.index t (0 : Fin 2) * 5000 + 1 * p.val = t.val * 5000 + p.val; omega
  | ⟨1, _⟩ => show win1_4.index t (1 : Fin 2) * 128 + 1 * q.val = q.val; omega

/-- What point `t` writes back is block `t` of `G1` of the four arrays as the region finds them. -/
theorem flushed1_eq (c : Dev nD) (t : Fin cfg1.N) :
    (dat1 V c).flushed 4 t = ((cfg1.win 4).blk t).view.read (Elt Ideal) (G1 (V c main_v26) (V c main_v15) (V c main_v27) (V c main_arg5)) := by
  show (cfg1.win 4).cut (grid1.coords t) ((dat1 V c).after 4 t) = _
  rw [after1_4]
  unfold out1_4
  rw [View.canon_unit_zero hz1]
  simp only [View.ld_unit_zero (S := S5000x128) hz1, View.ld_unit_zero (S := S5000x1) hz1, View.ld_unit_zero (S := S1x128) hz1, View.ld_unit_zero (S := S128x128) hz1]
  funext j
  obtain ⟨p, q, rfl⟩ : ∃ (p : Fin 5000) (q : Fin 128), j = ix2 p q := ⟨j 0, j 1, eq_ix2 j⟩
  show (k1_pay1 (iblk1 V c 0 t) (iblk1 V c 1 t) (iblk1 V c 2 t) (iblk1 V c 3 t) (iblk1 V c 1 t) : S5000x128.Idx → EReal) (ix2 p q)
    = G1 (V c main_v26) (V c main_v15) (V c main_v27) (V c main_arg5) (((cfg1.win 4).blk t).view.emb (ix2 p q))
  refine (pay1_apply (iblk1 V c 0 t) (iblk1 V c 1 t) (iblk1 V c 2 t) (iblk1 V c 3 t) p q).trans ?_
  rw [emb1_4, iblk1_1_apply]
  unfold G1
  refine congrArg (· * _) (Finset.sum_congr rfl fun k _ => ?_)
  rw [iblk1_0_apply, iblk1_2_apply, iblk1_3_apply]

/-- An index of the array is in point `t`'s block iff each coordinate is in the block's range on its axis. -/
theorem mem_blk1 (t : Fin cfg1.N) (i : S100000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v28).slice (win1_4.rect t)).set ↔ _
  rw [View.set_slice_whole, Rect.mem_set_unit]
  exact Iff.rfl

/-- Row `r` lies in the block of point `r / 5000`: the twenty blocks of 5000 rows tile the 100000 rows. -/
theorem cover1 (i : S100000x128.Idx) : ∃ t : Fin cfg1.N, (cfg1.win 4).flush t = true ∧ i ∈ ((cfg1.win 4).blk t).view.set := by
  have hi0 : (i 0).val < 100000 := (i 0).isLt
  have hi1 : (i 1).val < 128 := (i 1).isLt
  have hN : cfg1.N = 20 := N_1
  let t : Fin cfg1.N := ⟨(i 0).val / 5000, by rw [hN]; omega⟩
  have ht : t.val = (i 0).val / 5000 := rfl
  obtain ⟨e00, e01, e10, e11, e20, e21, e30, e31, e40, e41⟩ := idx_facts1 t
  refine ⟨t, flush1_4 t, ?_⟩
  rw [mem_blk1]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 128 ≤ (i 1).val ∧ (i 1).val < win1_4.index t (1 : Fin 2) * 128 + 128; omega

/-- The four input arrays as the region finds them, each as a function of its own index type into the extended reals. -/
abbrev arr1_0 (c : Dev nD) : S100000x128.Idx → EReal := V c main_v26
abbrev arr1_1 (c : Dev nD) : S100000x1.Idx → EReal := V c main_v15
abbrev arr1_2 (c : Dev nD) : S1x128.Idx → EReal := V c main_v27
abbrev arr1_3 (c : Dev nD) : S128x128.Idx → EReal := V c main_arg5

/-- The twenty write-backs tile the output array, so after the region it is `G1` of the four input arrays. -/
theorem finalG1 (c : Dev nD) :
    (dat1 V c).arrAt 4 cfg1.N = G1 (arr1_0 V c) (arr1_1 V c) (arr1_2 V c) (arr1_3 V c) :=
  (dat1 V c).arrAt_eq_of_cover 4 (G1 (arr1_0 V c) (arr1_1 V c) (arr1_2 V c) (arr1_3 V c)) (fun t _ => flushed1_eq V c t) cover1

/-- The output array after the region: at row `n`, column `j`, the row of the first array scaled by the row's entry of
    the column array, biased and clipped at zero, times the weight's column, scaled by the same entry again. -/
theorem final1 (c : Dev nD) (n : Fin 100000) (j : Fin 128) :
    ((dat1 V c).arrAt 4 cfg1.N : S100000x128.Idx → EReal) (ix2 n j)
      = (∑ k : Fin 128, max (arr1_0 V c (ix2 n k) * arr1_1 V c (ix2 n 0) + arr1_2 V c (ix2 0 k)) 0 * arr1_3 V c (ix2 k j))
          * arr1_1 V c (ix2 n 0) := by
  rw [finalG1]
  rfl

end Cert.KernelIdeal.Val
end
-- ==== Proof.Val.Fin2.lean ====
/-
  What the fused layer's output array holds after its twenty write-backs, index by index.

  The four input arrays: `A` of 100000 rows and 128 columns, a column `d` of 100000 entries, a row `b` of 128 entries and a
  weight `W` of 128 by 128. Grid point `t` reads rows `5000 t … 5000 t + 4999` of `A` and of `d`, the whole of `b` and `W`, and
  writes rows `5000 t … 5000 t + 4999` of the output. On a block the body computes `h = max (A · d + b) 0` (the column `d`
  spread over the 128 columns, the row `b` over the 5000 rows), then `(h W) · d`: the product with the weight is a sum over
  the 128 columns of `h` on top of a zero fill, and the changes of number format around it are the identity on the
  extended reals. Hence at row `n` and column `j` the output is
  `(∑ k, max (A n k * d n + b k) 0 * W k j) * d n`:
  first the body's value at a coordinate of a block, then each block as rows of its array, then the cover of the 100000
  rows by the twenty blocks.
-/
import proofs.«419651_j51711406244070_2_alg».proof.Proof.KI.Reg2
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open scoped BigOperators

/-- A column `[a, 1]` broadcast to `[a, b]` reads, at `(p, c)`, the column's entry of row `p`. -/
theorem colbc2_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The operand indices of the product at output index `i` and contraction index `q`: row `i 0`, column `q` on the left;
    row `q`, column `i 1` on the right. -/
theorem lhs2_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs2_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs2_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs2_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The body's value at row `p`, column `q` of a block, from the four blocks it loads (the column block twice). -/
theorem pay2_apply (x0 : Vec Ideal S5000x128 .f32) (x1 : Vec Ideal S5000x1 .f32) (x2 : Vec Ideal S1x128 .f32) (x3 : Vec Ideal S128x128 .f32)
    (p : Fin 5000) (q : Fin 128) :
    (k2_pay1 x0 x1 x2 x3 x1 : S5000x128.Idx → EReal) (ix2 p q)
      = (∑ k : Fin 128, max ((x0 : S5000x128.Idx → EReal) (ix2 p k) * (x1 : S5000x1.Idx → EReal) (ix2 p 0) + (x2 : S1x128.Idx → EReal) (ix2 0 k)) 0
          * (x3 : S128x128.Idx → EReal) (ix2 k q)) * (x1 : S5000x1.Idx → EReal) (ix2 p 0) := by
  unfold k2_pay1
  simp only [shapeCast_self]
  rw [mulf_apply, colbc2_apply]
  refine congrArg (· * (x1 : S5000x1.Idx → EReal) (ix2 p 0)) ?_
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs2_0 _ _
    | ⟨1, _⟩ => exact (lhs2_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs2_0 _ _).trans hk
    | ⟨1, _⟩ => exact rhs2_1 _ _)
  rw [el, er, truncf_apply, truncf_apply, maximumf_apply, addf_apply, mulf_apply, colbc2_apply, broadcastTo_1b_ab_apply, broadcast_apply]
  rw [show (FloatOps.ofBits (F := Ideal) FTy.f32 0x00000000#32 : EReal) = 0 from Ideal.ofBits_zero_f32]

variable (V : (c : Dev nD) → (b : Ref sig .tc) → Buf (Elt Ideal) ((c : Thread nD τ).loc b))

/-- The zero offsets of a whole-block load or store. -/
theorem hz2 : (![0, 0] : Fin 2 → Nat) = fun _ => 0 := funext fun a => by fin_cases a <;> rfl

/-- What the output array holds, index by index, as one function of the four input arrays. -/
def G2 (a0 : S100000x128.Idx → EReal) (a1 : S100000x1.Idx → EReal) (a2 : S1x128.Idx → EReal) (a3 : S128x128.Idx → EReal) :
    S100000x128.Idx → EReal := fun i =>
  (∑ k : Fin 128, max (a0 (ix2 (i 0) k) * a1 (ix2 (i 0) 0) + a2 (ix2 0 k)) 0 * a3 (ix2 k (i 1))) * a1 (ix2 (i 0) 0)

/-- The printed index maps, decided over the twenty points. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Row `p` of block `t` is a row of the array. -/
theorem rowlt2 (t : Fin cfg2.N) (p : Fin 5000) : t.val * 5000 + p.val < 100000 := by
  have h1 : t.val < 20 := t.isLt
  have h2 := p.isLt
  omega

/-- Each input block read at a coordinate is its array read at the block's rows (all rows for the two whole-array
    windows): a block's coordinate on an axis is block index × block size + the coordinate inside the block. -/
theorem iblk2_0_apply (c : Dev nD) (t : Fin cfg2.N) (p : Fin 5000) (k : Fin 128) :
    (iblk2 V c 0 t : S5000x128.Idx → EReal) (ix2 p k) = (V c main_v38 : S100000x128.Idx → EReal) (ix2 ⟨t.val * 5000 + p.val, rowlt2 t p⟩ k) := by
  obtain ⟨e00, e01, e10, e11, e20, e21, e30, e31, e40, e41⟩ := idx_facts2 t
  show (V c main_v38 : S100000x128.Idx → EReal) (((cfg2.win 0).blk t).view.emb (ix2 p k)) = _
  refine congrArg _ (funext fun a => Fin.ext ?_)
  match a with
  | ⟨0, _⟩ => show win2_0.index t (0 : Fin 2) * 5000 + 1 * p.val = t.val * 5000 + p.val; omega
  | ⟨1, _⟩ => show win2_0.index t (1 : Fin 2) * 128 + 1 * k.val = k.val; omega

theorem iblk2_1_apply (c : Dev nD) (t : Fin cfg2.N) (p : Fin 5000) :
    (iblk2 V c 1 t : S5000x1.Idx → EReal) (ix2 p 0) = (V c main_v15 : S100000x1.Idx → EReal) (ix2 ⟨t.val * 5000 + p.val, rowlt2 t p⟩ 0) := by
  obtain ⟨e00, e01, e10, e11, e20, e21, e30, e31, e40, e41⟩ := idx_facts2 t
  show (V c main_v15 : S100000x1.Idx → EReal) (((cfg2.win 1).blk t).view.emb (ix2 p 0)) = _
  refine congrArg _ (funext fun a => Fin.ext ?_)
  match a with
  | ⟨0, _⟩ => show win2_1.index t (0 : Fin 2) * 5000 + 1 * p.val = t.val * 5000 + p.val; omega
  | ⟨1, _⟩ => show win2_1.index t (1 : Fin 2) * 1 + 1 * 0 = 0; omega

theorem iblk2_2_apply (c : Dev nD) (t : Fin cfg2.N) (k : Fin 128) :
    (iblk2 V c 2 t : S1x128.Idx → EReal) (ix2 0 k) = (V c main_v39 : S1x128.Idx → EReal) (ix2 0 k) := by
  obtain ⟨e00, e01, e10, e11, e20, e21, e30, e31, e40, e41⟩ := idx_facts2 t
  show (V c main_v39 : S1x128.Idx → EReal) (((cfg2.win 2).blk t).view.emb (ix2 0 k)) = _
  refine congrArg _ (funext fun a => Fin.ext ?_)
  match a with
  | ⟨0, _⟩ => show win2_2.index t (0 : Fin 2) * 1 + 1 * 0 = 0; omega
  | ⟨1, _⟩ => show win2_2.index t (1 : Fin 2) * 128 + 1 * k.val = k.val; omega

theorem iblk2_3_apply (c : Dev nD) (t : Fin cfg2.N) (k q : Fin 128) :
    (iblk2 V c 3 t : S128x128.Idx → EReal) (ix2 k q) = (V c main_arg7 : S128x128.Idx → EReal) (ix2 k q) := by
  obtain ⟨e00, e01, e10, e11, e20, e21, e30, e31, e40, e41⟩ := idx_facts2 t
  show (V c main_arg7 : S128x128.Idx → EReal) (((cfg2.win 3).blk t).view.emb (ix2 k q)) = _
  refine congrArg _ (funext fun a => Fin.ext ?_)
  match a with
  | ⟨0, _⟩ => show win2_3.index t (0 : Fin 2) * 128 + 1 * k.val = k.val; omega
  | ⟨1, _⟩ => show win2_3.index t (1 : Fin 2) * 128 + 1 * q.val = q.val; omega

/-- Where row `p`, column `q` of the output's block `t` sits in the output array. -/
theorem emb2_4 (t : Fin cfg2.N) (p : Fin 5000) (q : Fin 128) :
    (((cfg2.win 4).blk t).view.emb (ix2 p q) : S100000x128.Idx) = ix2 ⟨t.val * 5000 + p.val, rowlt2 t p⟩ q := by
  obtain ⟨e00, e01, e10, e11, e20, e21, e30, e31, e40, e41⟩ := idx_facts2 t
  refine funext fun a => Fin.ext ?_
  match a with
  | ⟨0, _⟩ => show win2_4.index t (0 : Fin 2) * 5000 + 1 * p.val = t.val * 5000 + p.val; omega
  | ⟨1, _⟩ => show win2_4.index t (1 : Fin 2) * 128 + 1 * q.val = q.val; omega

/-- What point `t` writes back is block `t` of `G2` of the four arrays as the region finds them. -/
theorem flushed2_eq (c : Dev nD) (t : Fin cfg2.N) :
    (dat2 V c).flushed 4 t = ((cfg2.win 4).blk t).view.read (Elt Ideal) (G2 (V c main_v38) (V c main_v15) (V c main_v39) (V c main_arg7)) := by
  show (cfg2.win 4).cut (grid2.coords t) ((dat2 V c).after 4 t) = _
  rw [after2_4]
  unfold out2_4
  rw [View.canon_unit_zero hz2]
  simp only [View.ld_unit_zero (S := S5000x128) hz2, View.ld_unit_zero (S := S5000x1) hz2, View.ld_unit_zero (S := S1x128) hz2, View.ld_unit_zero (S := S128x128) hz2]
  funext j
  obtain ⟨p, q, rfl⟩ : ∃ (p : Fin 5000) (q : Fin 128), j = ix2 p q := ⟨j 0, j 1, eq_ix2 j⟩
  show (k2_pay1 (iblk2 V c 0 t) (iblk2 V c 1 t) (iblk2 V c 2 t) (iblk2 V c 3 t) (iblk2 V c 1 t) : S5000x128.Idx → EReal) (ix2 p q)
    = G2 (V c main_v38) (V c main_v15) (V c main_v39) (V c main_arg7) (((cfg2.win 4).blk t).view.emb (ix2 p q))
  refine (pay2_apply (iblk2 V c 0 t) (iblk2 V c 1 t) (iblk2 V c 2 t) (iblk2 V c 3 t) p q).trans ?_
  rw [emb2_4, iblk2_1_apply]
  unfold G2
  refine congrArg (· * _) (Finset.sum_congr rfl fun k _ => ?_)
  rw [iblk2_0_apply, iblk2_2_apply, iblk2_3_apply]

/-- An index of the array is in point `t`'s block iff each coordinate is in the block's range on its axis. -/
theorem mem_blk2 (t : Fin cfg2.N) (i : S100000x128.Idx) :
    i ∈ ((cfg2.win 4).blk t).view.set ↔ ∀ a : Fin 2, win2_4.index t a * S5000x128.size a ≤ (i a).val ∧ (i a).val < win2_4.index t a * S5000x128.size a + S5000x128.size a := by
  show i ∈ ((View.whole main_v40).slice (win2_4.rect t)).set ↔ _
  rw [View.set_slice_whole, Rect.mem_set_unit]
  exact Iff.rfl

/-- Row `r` lies in the block of point `r / 5000`: the twenty blocks of 5000 rows tile the 100000 rows. -/
theorem cover2 (i : S100000x128.Idx) : ∃ t : Fin cfg2.N, (cfg2.win 4).flush t = true ∧ i ∈ ((cfg2.win 4).blk t).view.set := by
  have hi0 : (i 0).val < 100000 := (i 0).isLt
  have hi1 : (i 1).val < 128 := (i 1).isLt
  have hN : cfg2.N = 20 := N_2
  let t : Fin cfg2.N := ⟨(i 0).val / 5000, by rw [hN]; omega⟩
  have ht : t.val = (i 0).val / 5000 := rfl
  obtain ⟨e00, e01, e10, e11, e20, e21, e30, e31, e40, e41⟩ := idx_facts2 t
  refine ⟨t, flush2_4 t, ?_⟩
  rw [mem_blk2]
  intro a
  match a with
  | ⟨0, _⟩ => show win2_4.index t (0 : Fin 2) * 5000 ≤ (i 0).val ∧ (i 0).val < win2_4.index t (0 : Fin 2) * 5000 + 5000; omega
  | ⟨1, _⟩ => show win2_4.index t (1 : Fin 2) * 128 ≤ (i 1).val ∧ (i 1).val < win2_4.index t (1 : Fin 2) * 128 + 128; omega

/-- The four input arrays as the region finds them, each as a function of its own index type into the extended reals. -/
abbrev arr2_0 (c : Dev nD) : S100000x128.Idx → EReal := V c main_v38
abbrev arr2_1 (c : Dev nD) : S100000x1.Idx → EReal := V c main_v15
abbrev arr2_2 (c : Dev nD) : S1x128.Idx → EReal := V c main_v39
abbrev arr2_3 (c : Dev nD) : S128x128.Idx → EReal := V c main_arg7

/-- The twenty write-backs tile the output array, so after the region it is `G2` of the four input arrays. -/
theorem finalG2 (c : Dev nD) :
    (dat2 V c).arrAt 4 cfg2.N = G2 (arr2_0 V c) (arr2_1 V c) (arr2_2 V c) (arr2_3 V c) :=
  (dat2 V c).arrAt_eq_of_cover 4 (G2 (arr2_0 V c) (arr2_1 V c) (arr2_2 V c) (arr2_3 V c)) (fun t _ => flushed2_eq V c t) cover2

/-- The output array after the region: at row `n`, column `j`, the row of the first array scaled by the row's entry of
    the column array, biased and clipped at zero, times the weight's column, scaled by the same entry again. -/
theorem final2 (c : Dev nD) (n : Fin 100000) (j : Fin 128) :
    ((dat2 V c).arrAt 4 cfg2.N : S100000x128.Idx → EReal) (ix2 n j)
      = (∑ k : Fin 128, max (arr2_0 V c (ix2 n k) * arr2_1 V c (ix2 n 0) + arr2_2 V c (ix2 0 k)) 0 * arr2_3 V c (ix2 k j))
          * arr2_1 V c (ix2 n 0) := by
  rw [finalG2]
  rfl

end Cert.KernelIdeal.Val
end
-- ==== Proof.Val.Fin3.lean ====
/-
  What the fused layer's output array holds after its twenty write-backs, index by index.

  The four input arrays: `A` of 100000 rows and 128 columns, a column `d` of 100000 entries, a row `b` of 128 entries and a
  weight `W` of 128 by 128. Grid point `t` reads rows `5000 t … 5000 t + 4999` of `A` and of `d`, the whole of `b` and `W`, and
  writes rows `5000 t … 5000 t + 4999` of the output. On a block the body computes `h = max (A · d + b) 0` (the column `d`
  spread over the 128 columns, the row `b` over the 5000 rows), then `(h W) · d`: the product with the weight is a sum over
  the 128 columns of `h` on top of a zero fill, and the changes of number format around it are the identity on the
  extended reals. Hence at row `n` and column `j` the output is
  `(∑ k, max (A n k * d n + b k) 0 * W k j) * d n`:
  first the body's value at a coordinate of a block, then each block as rows of its array, then the cover of the 100000
  rows by the twenty blocks.
-/
import proofs.«419651_j51711406244070_2_alg».proof.Proof.KI.Reg3
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open scoped BigOperators

/-- A column `[a, 1]` broadcast to `[a, b]` reads, at `(p, c)`, the column's entry of row `p`. -/
theorem colbc3_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The operand indices of the product at output index `i` and contraction index `q`: row `i 0`, column `q` on the left;
    row `q`, column `i 1` on the right. -/
theorem lhs3_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs3_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs3_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs3_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The body's value at row `p`, column `q` of a block, from the four blocks it loads (the column block twice). -/
theorem pay3_apply (x0 : Vec Ideal S5000x128 .f32) (x1 : Vec Ideal S5000x1 .f32) (x2 : Vec Ideal S1x128 .f32) (x3 : Vec Ideal S128x128 .f32)
    (p : Fin 5000) (q : Fin 128) :
    (k3_pay1 x0 x1 x2 x3 x1 : S5000x128.Idx → EReal) (ix2 p q)
      = (∑ k : Fin 128, max ((x0 : S5000x128.Idx → EReal) (ix2 p k) * (x1 : S5000x1.Idx → EReal) (ix2 p 0) + (x2 : S1x128.Idx → EReal) (ix2 0 k)) 0
          * (x3 : S128x128.Idx → EReal) (ix2 k q)) * (x1 : S5000x1.Idx → EReal) (ix2 p 0) := by
  unfold k3_pay1
  simp only [shapeCast_self]
  rw [mulf_apply, colbc3_apply]
  refine congrArg (· * (x1 : S5000x1.Idx → EReal) (ix2 p 0)) ?_
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs3_0 _ _
    | ⟨1, _⟩ => exact (lhs3_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs3_0 _ _).trans hk
    | ⟨1, _⟩ => exact rhs3_1 _ _)
  rw [el, er, truncf_apply, truncf_apply, maximumf_apply, addf_apply, mulf_apply, colbc3_apply, broadcastTo_1b_ab_apply, broadcast_apply]
  rw [show (FloatOps.ofBits (F := Ideal) FTy.f32 0x00000000#32 : EReal) = 0 from Ideal.ofBits_zero_f32]

variable (V : (c : Dev nD) → (b : Ref sig .tc) → Buf (Elt Ideal) ((c : Thread nD τ).loc b))

/-- The zero offsets of a whole-block load or store. -/
theorem hz3 : (![0, 0] : Fin 2 → Nat) = fun _ => 0 := funext fun a => by fin_cases a <;> rfl

/-- What the output array holds, index by index, as one function of the four input arrays. -/
def G3 (a0 : S100000x128.Idx → EReal) (a1 : S100000x1.Idx → EReal) (a2 : S1x128.Idx → EReal) (a3 : S128x128.Idx → EReal) :
    S100000x128.Idx → EReal := fun i =>
  (∑ k : Fin 128, max (a0 (ix2 (i 0) k) * a1 (ix2 (i 0) 0) + a2 (ix2 0 k)) 0 * a3 (ix2 k (i 1))) * a1 (ix2 (i 0) 0)

/-- The printed index maps, decided over the twenty points. -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- Row `p` of block `t` is a row of the array. -/
theorem rowlt3 (t : Fin cfg3.N) (p : Fin 5000) : t.val * 5000 + p.val < 100000 := by
  have h1 : t.val < 20 := t.isLt
  have h2 := p.isLt
  omega

/-- Each input block read at a coordinate is its array read at the block's rows (all rows for the two whole-array
    windows): a block's coordinate on an axis is block index × block size + the coordinate inside the block. -/
theorem iblk3_0_apply (c : Dev nD) (t : Fin cfg3.N) (p : Fin 5000) (k : Fin 128) :
    (iblk3 V c 0 t : S5000x128.Idx → EReal) (ix2 p k) = (V c main_v50 : S100000x128.Idx → EReal) (ix2 ⟨t.val * 5000 + p.val, rowlt3 t p⟩ k) := by
  obtain ⟨e00, e01, e10, e11, e20, e21, e30, e31, e40, e41⟩ := idx_facts3 t
  show (V c main_v50 : S100000x128.Idx → EReal) (((cfg3.win 0).blk t).view.emb (ix2 p k)) = _
  refine congrArg _ (funext fun a => Fin.ext ?_)
  match a with
  | ⟨0, _⟩ => show win3_0.index t (0 : Fin 2) * 5000 + 1 * p.val = t.val * 5000 + p.val; omega
  | ⟨1, _⟩ => show win3_0.index t (1 : Fin 2) * 128 + 1 * k.val = k.val; omega

theorem iblk3_1_apply (c : Dev nD) (t : Fin cfg3.N) (p : Fin 5000) :
    (iblk3 V c 1 t : S5000x1.Idx → EReal) (ix2 p 0) = (V c main_v15 : S100000x1.Idx → EReal) (ix2 ⟨t.val * 5000 + p.val, rowlt3 t p⟩ 0) := by
  obtain ⟨e00, e01, e10, e11, e20, e21, e30, e31, e40, e41⟩ := idx_facts3 t
  show (V c main_v15 : S100000x1.Idx → EReal) (((cfg3.win 1).blk t).view.emb (ix2 p 0)) = _
  refine congrArg _ (funext fun a => Fin.ext ?_)
  match a with
  | ⟨0, _⟩ => show win3_1.index t (0 : Fin 2) * 5000 + 1 * p.val = t.val * 5000 + p.val; omega
  | ⟨1, _⟩ => show win3_1.index t (1 : Fin 2) * 1 + 1 * 0 = 0; omega

theorem iblk3_2_apply (c : Dev nD) (t : Fin cfg3.N) (k : Fin 128) :
    (iblk3 V c 2 t : S1x128.Idx → EReal) (ix2 0 k) = (V c main_v51 : S1x128.Idx → EReal) (ix2 0 k) := by
  obtain ⟨e00, e01, e10, e11, e20, e21, e30, e31, e40, e41⟩ := idx_facts3 t
  show (V c main_v51 : S1x128.Idx → EReal) (((cfg3.win 2).blk t).view.emb (ix2 0 k)) = _
  refine congrArg _ (funext fun a => Fin.ext ?_)
  match a with
  | ⟨0, _⟩ => show win3_2.index t (0 : Fin 2) * 1 + 1 * 0 = 0; omega
  | ⟨1, _⟩ => show win3_2.index t (1 : Fin 2) * 128 + 1 * k.val = k.val; omega

theorem iblk3_3_apply (c : Dev nD) (t : Fin cfg3.N) (k q : Fin 128) :
    (iblk3 V c 3 t : S128x128.Idx → EReal) (ix2 k q) = (V c main_arg9 : S128x128.Idx → EReal) (ix2 k q) := by
  obtain ⟨e00, e01, e10, e11, e20, e21, e30, e31, e40, e41⟩ := idx_facts3 t
  show (V c main_arg9 : S128x128.Idx → EReal) (((cfg3.win 3).blk t).view.emb (ix2 k q)) = _
  refine congrArg _ (funext fun a => Fin.ext ?_)
  match a with
  | ⟨0, _⟩ => show win3_3.index t (0 : Fin 2) * 128 + 1 * k.val = k.val; omega
  | ⟨1, _⟩ => show win3_3.index t (1 : Fin 2) * 128 + 1 * q.val = q.val; omega

/-- Where row `p`, column `q` of the output's block `t` sits in the output array. -/
theorem emb3_4 (t : Fin cfg3.N) (p : Fin 5000) (q : Fin 128) :
    (((cfg3.win 4).blk t).view.emb (ix2 p q) : S100000x128.Idx) = ix2 ⟨t.val * 5000 + p.val, rowlt3 t p⟩ q := by
  obtain ⟨e00, e01, e10, e11, e20, e21, e30, e31, e40, e41⟩ := idx_facts3 t
  refine funext fun a => Fin.ext ?_
  match a with
  | ⟨0, _⟩ => show win3_4.index t (0 : Fin 2) * 5000 + 1 * p.val = t.val * 5000 + p.val; omega
  | ⟨1, _⟩ => show win3_4.index t (1 : Fin 2) * 128 + 1 * q.val = q.val; omega

/-- What point `t` writes back is block `t` of `G3` of the four arrays as the region finds them. -/
theorem flushed3_eq (c : Dev nD) (t : Fin cfg3.N) :
    (dat3 V c).flushed 4 t = ((cfg3.win 4).blk t).view.read (Elt Ideal) (G3 (V c main_v50) (V c main_v15) (V c main_v51) (V c main_arg9)) := by
  show (cfg3.win 4).cut (grid3.coords t) ((dat3 V c).after 4 t) = _
  rw [after3_4]
  unfold out3_4
  rw [View.canon_unit_zero hz3]
  simp only [View.ld_unit_zero (S := S5000x128) hz3, View.ld_unit_zero (S := S5000x1) hz3, View.ld_unit_zero (S := S1x128) hz3, View.ld_unit_zero (S := S128x128) hz3]
  funext j
  obtain ⟨p, q, rfl⟩ : ∃ (p : Fin 5000) (q : Fin 128), j = ix2 p q := ⟨j 0, j 1, eq_ix2 j⟩
  show (k3_pay1 (iblk3 V c 0 t) (iblk3 V c 1 t) (iblk3 V c 2 t) (iblk3 V c 3 t) (iblk3 V c 1 t) : S5000x128.Idx → EReal) (ix2 p q)
    = G3 (V c main_v50) (V c main_v15) (V c main_v51) (V c main_arg9) (((cfg3.win 4).blk t).view.emb (ix2 p q))
  refine (pay3_apply (iblk3 V c 0 t) (iblk3 V c 1 t) (iblk3 V c 2 t) (iblk3 V c 3 t) p q).trans ?_
  rw [emb3_4, iblk3_1_apply]
  unfold G3
  refine congrArg (· * _) (Finset.sum_congr rfl fun k _ => ?_)
  rw [iblk3_0_apply, iblk3_2_apply, iblk3_3_apply]

/-- An index of the array is in point `t`'s block iff each coordinate is in the block's range on its axis. -/
theorem mem_blk3 (t : Fin cfg3.N) (i : S100000x128.Idx) :
    i ∈ ((cfg3.win 4).blk t).view.set ↔ ∀ a : Fin 2, win3_4.index t a * S5000x128.size a ≤ (i a).val ∧ (i a).val < win3_4.index t a * S5000x128.size a + S5000x128.size a := by
  show i ∈ ((View.whole main_v52).slice (win3_4.rect t)).set ↔ _
  rw [View.set_slice_whole, Rect.mem_set_unit]
  exact Iff.rfl

/-- Row `r` lies in the block of point `r / 5000`: the twenty blocks of 5000 rows tile the 100000 rows. -/
theorem cover3 (i : S100000x128.Idx) : ∃ t : Fin cfg3.N, (cfg3.win 4).flush t = true ∧ i ∈ ((cfg3.win 4).blk t).view.set := by
  have hi0 : (i 0).val < 100000 := (i 0).isLt
  have hi1 : (i 1).val < 128 := (i 1).isLt
  have hN : cfg3.N = 20 := N_3
  let t : Fin cfg3.N := ⟨(i 0).val / 5000, by rw [hN]; omega⟩
  have ht : t.val = (i 0).val / 5000 := rfl
  obtain ⟨e00, e01, e10, e11, e20, e21, e30, e31, e40, e41⟩ := idx_facts3 t
  refine ⟨t, flush3_4 t, ?_⟩
  rw [mem_blk3]
  intro a
  match a with
  | ⟨0, _⟩ => show win3_4.index t (0 : Fin 2) * 5000 ≤ (i 0).val ∧ (i 0).val < win3_4.index t (0 : Fin 2) * 5000 + 5000; omega
  | ⟨1, _⟩ => show win3_4.index t (1 : Fin 2) * 128 ≤ (i 1).val ∧ (i 1).val < win3_4.index t (1 : Fin 2) * 128 + 128; omega

/-- The four input arrays as the region finds them, each as a function of its own index type into the extended reals. -/
abbrev arr3_0 (c : Dev nD) : S100000x128.Idx → EReal := V c main_v50
abbrev arr3_1 (c : Dev nD) : S100000x1.Idx → EReal := V c main_v15
abbrev arr3_2 (c : Dev nD) : S1x128.Idx → EReal := V c main_v51
abbrev arr3_3 (c : Dev nD) : S128x128.Idx → EReal := V c main_arg9

/-- The twenty write-backs tile the output array, so after the region it is `G3` of the four input arrays. -/
theorem finalG3 (c : Dev nD) :
    (dat3 V c).arrAt 4 cfg3.N = G3 (arr3_0 V c) (arr3_1 V c) (arr3_2 V c) (arr3_3 V c) :=
  (dat3 V c).arrAt_eq_of_cover 4 (G3 (arr3_0 V c) (arr3_1 V c) (arr3_2 V c) (arr3_3 V c)) (fun t _ => flushed3_eq V c t) cover3

/-- The output array after the region: at row `n`, column `j`, the row of the first array scaled by the row's entry of
    the column array, biased and clipped at zero, times the weight's column, scaled by the same entry again. -/
theorem final3 (c : Dev nD) (n : Fin 100000) (j : Fin 128) :
    ((dat3 V c).arrAt 4 cfg3.N : S100000x128.Idx → EReal) (ix2 n j)
      = (∑ k : Fin 128, max (arr3_0 V c (ix2 n k) * arr3_1 V c (ix2 n 0) + arr3_2 V c (ix2 0 k)) 0 * arr3_3 V c (ix2 k j))
          * arr3_1 V c (ix2 n 0) := by
  rw [finalG3]
  rfl

end Cert.KernelIdeal.Val
end
-- ==== Proof.Val.Fin4a.lean ====
/-
  The pooling region's arithmetic, read at an index over the extended reals.

  The region carries two running quantities across its 100 grid points: per segment g and feature k the SUM, over the rows
  seen so far, of the row's clipped feature where the row belongs to g, and per segment the COUNT of such rows. Both are
  products contracting the ROWS of a 0/1 membership matrix (row r, column g: is row r's segment word the number g?) with
  the block's features, respectively with a column of ones. At the last point the sums are divided by the counts clipped
  below at one, multiplied by the last weight, and the last bias is added. Here each of these block operations is read at one
  index: the membership entry, the three products as finite sums over their contracted axis, and the three composed
  updates.
-/
import proofs.«419651_j51711406244070_2_alg».proof.Proof.KI.Reg4
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val.R4

open Cert.KernelIdeal Cert.KernelIdeal.Gen Cert.KernelIdeal.Hand
open Idealize.ShloMosaic Idealize.ShloMosaic.TcCoe Idealize.SL.Sem
open Idealize.ShloMosaic.ValueIdx

/-- A column [a,1] broadcast to [a,b] reads, at (p, c), the column at row p. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Row r is in segment g, as 1 or 0. -/
def hotw (b : BitVec 32) (g : Fin 2048) : EReal := if b = BitVec.ofNat 32 g.val then 1 else 0

/-- The membership matrix at (r, g): 1 when row r's segment word is g's number (the column number as a 32-bit word), else 0:
    the comparison's bit, widened, read as a signed integer. -/
theorem pay5_apply (ids : IVec S1000x1 32) (r : Fin 1000) (g : Fin 2048) :
    k4_pay5 (F := Ideal) ids (ix2 r g) = hotw (ids (ix2 r (0 : Fin 1))) g := by
  unfold k4_pay5
  rw [shapeCast_self]
  show FloatOps.sitofp (F := Ideal) .f32 ((IntOp.cmpi .eq (broadcastTo S1000x2048 ids broadcasts_S1000x1_S1000x2048 (ix2 r g))
      (broadcastTo S1000x2048 (iota Kind.tc S1x2048 32 [1] iota_S1x2048_d1_w32) broadcasts_S1x2048_S1000x2048 (ix2 r g))).setWidth 32) = _
  rw [broadcastTo_a1_ab_apply, broadcastTo_1b_ab_apply, iota_single_apply]
  show ((((IntOp.cmpi .eq (ids (ix2 r (0 : Fin 1))) (BitVec.ofNat 32 g.val)).setWidth 32).toInt : ℝ) : EReal) = _
  unfold hotw
  by_cases h : ids (ix2 r (0 : Fin 1)) = BitVec.ofNat 32 g.val
  · rw [if_pos h, h]
    simp [IntOp.cmpi]
  · rw [if_neg h]
    have e : IntOp.cmpi CmpIPredicate.eq (ids (ix2 r (0 : Fin 1))) (BitVec.ofNat 32 g.val) = 0#1 := by
      show BitVec.ofBool (ids (ix2 r (0 : Fin 1)) == BitVec.ofNat 32 g.val) = 0#1
      rw [beq_eq_false_iff_ne.mpr h]; rfl
    rw [e]
    simp

/-! The three contractions' operand indices, axis by axis, and each product into a zero accumulator read at an index. -/

theorem lhs6_0 (i : S2048x128.Idx) (q : dot_S1000x2048_S1000x128_S2048x128_0_0_1_1_n_n.contr.Idx) :
    (dot_S1000x2048_S1000x128_S2048x128_0_0_1_1_n_n.lhsIdx i q 0).val = (q ⟨0, by decide⟩).val :=
  dot_S1000x2048_S1000x128_S2048x128_0_0_1_1_n_n.lhsIdx_val_of_single rfl i q
theorem lhs6_1 (i : S2048x128.Idx) (q : dot_S1000x2048_S1000x128_S2048x128_0_0_1_1_n_n.contr.Idx) :
    (dot_S1000x2048_S1000x128_S2048x128_0_0_1_1_n_n.lhsIdx i q 1).val = (i 0).val := by
  unfold DotDims.lhsIdx
  rw [dif_neg (show ¬(1 : Fin S1000x2048.rank) ∈ dot_S1000x2048_S1000x128_S2048x128_0_0_1_1_n_n.lhsBatch by decide), dif_pos (show (1 : Fin S1000x2048.rank) ∈ dot_S1000x2048_S1000x128_S2048x128_0_0_1_1_n_n.lhsNonContracting by decide)]
  rfl
theorem rhs6_0 (i : S2048x128.Idx) (q : dot_S1000x2048_S1000x128_S2048x128_0_0_1_1_n_n.contr.Idx) :
    (dot_S1000x2048_S1000x128_S2048x128_0_0_1_1_n_n.rhsIdx i q 0).val = (q ⟨0, by decide⟩).val :=
  dot_S1000x2048_S1000x128_S2048x128_0_0_1_1_n_n.rhsIdx_val_of_single rfl i q
theorem rhs6_1 (i : S2048x128.Idx) (q : dot_S1000x2048_S1000x128_S2048x128_0_0_1_1_n_n.contr.Idx) :
    (dot_S1000x2048_S1000x128_S2048x128_0_0_1_1_n_n.rhsIdx i q 1).val = (i 1).val := by
  unfold DotDims.rhsIdx
  rw [dif_neg (show ¬(1 : Fin S1000x128.rank) ∈ dot_S1000x2048_S1000x128_S2048x128_0_0_1_1_n_n.rhsBatch by decide), dif_pos (show (1 : Fin S1000x128.rank) ∈ dot_S1000x2048_S1000x128_S2048x128_0_0_1_1_n_n.rhsNonContracting by decide)]
  rfl

/-- The product contracting the ROWS of both operands, into a zero accumulator, read at (g, k): the sum over the rows. -/
theorem mm6_apply (l : FVec Ideal S1000x2048 .bf16) (x : FVec Ideal S1000x128 .bf16) (g : Fin 2048) (k : Fin 128) :
    matmul dot_S1000x2048_S1000x128_S2048x128_0_0_1_1_n_n none l x (constant S2048x128 .f32 0x00000000#32) (ix2 g k)
      = ∑ r : Fin 1000, l (ix2 r g) * x (ix2 r k) := by
  simp only [matmul]
  rw [Ideal.matmul_constant_zero_apply, ← Equiv.sum_comp (contrEquiv1 dot_S1000x2048_S1000x128_S2048x128_0_0_1_1_n_n 1000 rfl rfl).symm]
  refine Finset.sum_congr rfl fun r _ => ?_
  have hk := contrEquiv1_symm_val dot_S1000x2048_S1000x128_S2048x128_0_0_1_1_n_n 1000 rfl rfl r
  have el : dot_S1000x2048_S1000x128_S2048x128_0_0_1_1_n_n.lhsIdx (ix2 g k) ((contrEquiv1 dot_S1000x2048_S1000x128_S2048x128_0_0_1_1_n_n 1000 rfl rfl).symm r) = ix2 r g := funext fun a => Fin.ext (by
    match a with
    | ⟨0, _⟩ => exact (lhs6_0 _ _).trans hk
    | ⟨1, _⟩ => exact lhs6_1 _ _)
  have er : dot_S1000x2048_S1000x128_S2048x128_0_0_1_1_n_n.rhsIdx (ix2 g k) ((contrEquiv1 dot_S1000x2048_S1000x128_S2048x128_0_0_1_1_n_n 1000 rfl rfl).symm r) = ix2 r k := funext fun a => Fin.ext (by
    match a with
    | ⟨0, _⟩ => exact (rhs6_0 _ _).trans hk
    | ⟨1, _⟩ => exact rhs6_1 _ _)
  rw [el, er]

theorem lhs7_0 (i : S2048x1.Idx) (q : dot_S1000x2048_S1000x1_S2048x1_0_0_1_1_n_n.contr.Idx) :
    (dot_S1000x2048_S1000x1_S2048x1_0_0_1_1_n_n.lhsIdx i q 0).val = (q ⟨0, by decide⟩).val :=
  dot_S1000x2048_S1000x1_S2048x1_0_0_1_1_n_n.lhsIdx_val_of_single rfl i q
theorem lhs7_1 (i : S2048x1.Idx) (q : dot_S1000x2048_S1000x1_S2048x1_0_0_1_1_n_n.contr.Idx) :
    (dot_S1000x2048_S1000x1_S2048x1_0_0_1_1_n_n.lhsIdx i q 1).val = (i 0).val := by
  unfold DotDims.lhsIdx
  rw [dif_neg (show ¬(1 : Fin S1000x2048.rank) ∈ dot_S1000x2048_S1000x1_S2048x1_0_0_1_1_n_n.lhsBatch by decide), dif_pos (show (1 : Fin S1000x2048.rank) ∈ dot_S1000x2048_S1000x1_S2048x1_0_0_1_1_n_n.lhsNonContracting by decide)]
  rfl
theorem rhs7_0 (i : S2048x1.Idx) (q : dot_S1000x2048_S1000x1_S2048x1_0_0_1_1_n_n.contr.Idx) :
    (dot_S1000x2048_S1000x1_S2048x1_0_0_1_1_n_n.rhsIdx i q 0).val = (q ⟨0, by decide⟩).val :=
  dot_S1000x2048_S1000x1_S2048x1_0_0_1_1_n_n.rhsIdx_val_of_single rfl i q
theorem rhs7_1 (i : S2048x1.Idx) (q : dot_S1000x2048_S1000x1_S2048x1_0_0_1_1_n_n.contr.Idx) :
    (dot_S1000x2048_S1000x1_S2048x1_0_0_1_1_n_n.rhsIdx i q 1).val = (i 1).val := by
  unfold DotDims.rhsIdx
  rw [dif_neg (show ¬(1 : Fin S1000x1.rank) ∈ dot_S1000x2048_S1000x1_S2048x1_0_0_1_1_n_n.rhsBatch by decide), dif_pos (show (1 : Fin S1000x1.rank) ∈ dot_S1000x2048_S1000x1_S2048x1_0_0_1_1_n_n.rhsNonContracting by decide)]
  rfl

/-- The same against a one-column right operand, read at (g, 0). -/
theorem mm7_apply (l : FVec Ideal S1000x2048 .bf16) (x : FVec Ideal S1000x1 .bf16) (g : Fin 2048) (z : Fin 1) :
    matmul dot_S1000x2048_S1000x1_S2048x1_0_0_1_1_n_n none l x (constant S2048x1 .f32 0x00000000#32) (ix2 g z)
      = ∑ r : Fin 1000, l (ix2 r g) * x (ix2 r z) := by
  simp only [matmul]
  rw [Ideal.matmul_constant_zero_apply, ← Equiv.sum_comp (contrEquiv1 dot_S1000x2048_S1000x1_S2048x1_0_0_1_1_n_n 1000 rfl rfl).symm]
  refine Finset.sum_congr rfl fun r _ => ?_
  have hk := contrEquiv1_symm_val dot_S1000x2048_S1000x1_S2048x1_0_0_1_1_n_n 1000 rfl rfl r
  have el : dot_S1000x2048_S1000x1_S2048x1_0_0_1_1_n_n.lhsIdx (ix2 g z) ((contrEquiv1 dot_S1000x2048_S1000x1_S2048x1_0_0_1_1_n_n 1000 rfl rfl).symm r) = ix2 r g := funext fun a => Fin.ext (by
    match a with
    | ⟨0, _⟩ => exact (lhs7_0 _ _).trans hk
    | ⟨1, _⟩ => exact lhs7_1 _ _)
  have er : dot_S1000x2048_S1000x1_S2048x1_0_0_1_1_n_n.rhsIdx (ix2 g z) ((contrEquiv1 dot_S1000x2048_S1000x1_S2048x1_0_0_1_1_n_n 1000 rfl rfl).symm r) = ix2 r z := funext fun a => Fin.ext (by
    match a with
    | ⟨0, _⟩ => exact (rhs7_0 _ _).trans hk
    | ⟨1, _⟩ => exact rhs7_1 _ _)
  rw [el, er]

theorem lhs2_0 (i : S2048x4.Idx) (q : dot_S2048x128_S128x4_S2048x4_1_0_0_1_n_n.contr.Idx) :
    (dot_S2048x128_S128x4_S2048x4_1_0_0_1_n_n.lhsIdx i q 0).val = (i 0).val := by
  unfold DotDims.lhsIdx
  rw [dif_neg (show ¬(0 : Fin S2048x128.rank) ∈ dot_S2048x128_S128x4_S2048x4_1_0_0_1_n_n.lhsBatch by decide), dif_pos (show (0 : Fin S2048x128.rank) ∈ dot_S2048x128_S128x4_S2048x4_1_0_0_1_n_n.lhsNonContracting by decide)]
  rfl
theorem lhs2_1 (i : S2048x4.Idx) (q : dot_S2048x128_S128x4_S2048x4_1_0_0_1_n_n.contr.Idx) :
    (dot_S2048x128_S128x4_S2048x4_1_0_0_1_n_n.lhsIdx i q 1).val = (q ⟨0, by decide⟩).val :=
  dot_S2048x128_S128x4_S2048x4_1_0_0_1_n_n.lhsIdx_val_of_single rfl i q
theorem rhs2_0 (i : S2048x4.Idx) (q : dot_S2048x128_S128x4_S2048x4_1_0_0_1_n_n.contr.Idx) :
    (dot_S2048x128_S128x4_S2048x4_1_0_0_1_n_n.rhsIdx i q 0).val = (q ⟨0, by decide⟩).val :=
  dot_S2048x128_S128x4_S2048x4_1_0_0_1_n_n.rhsIdx_val_of_single rfl i q
theorem rhs2_1 (i : S2048x4.Idx) (q : dot_S2048x128_S128x4_S2048x4_1_0_0_1_n_n.contr.Idx) :
    (dot_S2048x128_S128x4_S2048x4_1_0_0_1_n_n.rhsIdx i q 1).val = (i 1).val := by
  unfold DotDims.rhsIdx
  rw [dif_neg (show ¬(1 : Fin S128x4.rank) ∈ dot_S2048x128_S128x4_S2048x4_1_0_0_1_n_n.rhsBatch by decide), dif_pos (show (1 : Fin S128x4.rank) ∈ dot_S2048x128_S128x4_S2048x4_1_0_0_1_n_n.rhsNonContracting by decide)]
  rfl

/-- The ordinary product (columns of the left against rows of the right), into a zero accumulator, read at (g, j). -/
theorem mm2_apply (l : FVec Ideal S2048x128 .bf16) (x : FVec Ideal S128x4 .bf16) (g : Fin 2048) (j : Fin 4) :
    matmul dot_S2048x128_S128x4_S2048x4_1_0_0_1_n_n none l x (constant S2048x4 .f32 0x00000000#32) (ix2 g j)
      = ∑ r : Fin 128, l (ix2 g r) * x (ix2 r j) := by
  simp only [matmul]
  rw [Ideal.matmul_constant_zero_apply, ← Equiv.sum_comp (contrEquiv1 dot_S2048x128_S128x4_S2048x4_1_0_0_1_n_n 128 rfl rfl).symm]
  refine Finset.sum_congr rfl fun r _ => ?_
  have hk := contrEquiv1_symm_val dot_S2048x128_S128x4_S2048x4_1_0_0_1_n_n 128 rfl rfl r
  have el : dot_S2048x128_S128x4_S2048x4_1_0_0_1_n_n.lhsIdx (ix2 g j) ((contrEquiv1 dot_S2048x128_S128x4_S2048x4_1_0_0_1_n_n 128 rfl rfl).symm r) = ix2 g r := funext fun a => Fin.ext (by
    match a with
    | ⟨0, _⟩ => exact lhs2_0 _ _
    | ⟨1, _⟩ => exact (lhs2_1 _ _).trans hk)
  have er : dot_S2048x128_S128x4_S2048x4_1_0_0_1_n_n.rhsIdx (ix2 g j) ((contrEquiv1 dot_S2048x128_S128x4_S2048x4_1_0_0_1_n_n 128 rfl rfl).symm r) = ix2 r j := funext fun a => Fin.ext (by
    match a with
    | ⟨0, _⟩ => exact (rhs2_0 _ _).trans hk
    | ⟨1, _⟩ => exact rhs2_1 _ _)
  rw [el, er]

/-- One point's update of the running sum at (g, k): what was there plus, over the block's 1000 rows, membership times the
    clipped scaled-and-shifted feature. -/
theorem pay6_apply (a : FVec Ideal S1000x128 .f32) (d : FVec Ideal S1000x1 .f32) (b : FVec Ideal S1x128 .f32)
    (ids : IVec S1000x1 32) (acc : FVec Ideal S2048x128 .f32) (g : Fin 2048) (k : Fin 128) :
    k4_pay6 (F := Ideal) a d b ids acc (ix2 g k)
      = acc (ix2 g k) + ∑ r : Fin 1000, hotw (ids (ix2 r (0 : Fin 1))) g
          * max (a (ix2 r k) * d (ix2 r (0 : Fin 1)) + b (ix2 (0 : Fin 1) k)) 0 := by
  unfold k4_pay6
  simp only [shapeCast_self]
  rw [addf_apply, mm6_apply]
  refine congrArg (acc (ix2 g k) + ·) (Finset.sum_congr rfl fun r _ => ?_)
  rw [pay5_apply]
  refine congrArg (hotw _ g * ·) ?_
  show max (a (ix2 r k) * broadcastTo S1000x128 d broadcasts_S1000x1_S1000x128 (ix2 r k)
      + broadcastTo S1000x128 b broadcasts_S1x128_S1000x128 (ix2 r k)) (Ideal.ofBits .f32 0x00000000#32) = _
  rw [broadcastTo_a1_ab_apply, broadcastTo_1b_ab_apply, Ideal.ofBits_zero_f32]

/-- One point's update of the running count at (g, 0): what was there plus, over the block's rows, membership times the
    16-bit-format one. -/
theorem pay7_apply (ids : IVec S1000x1 32) (cnt : FVec Ideal S2048x1 .f32) (g : Fin 2048) :
    k4_pay1 (F := Ideal) (k4_pay7 (F := Ideal) ids cnt) (ix2 g (0 : Fin 1))
      = cnt (ix2 g (0 : Fin 1)) + ∑ r : Fin 1000, hotw (ids (ix2 r (0 : Fin 1))) g * Ideal.ofBits .bf16 0x3F80#16 := by
  unfold k4_pay1 k4_pay7
  simp only [shapeCast_self]
  rw [addf_apply, mm7_apply]
  refine congrArg (cnt (ix2 g (0 : Fin 1)) + ·) (Finset.sum_congr rfl fun r _ => ?_)
  rw [pay5_apply]
  rfl

/-- The last point's output at (g, j): over the 128 features, the sum divided by the count clipped below at one, times the
    weight, plus the bias. -/
theorem pay2_apply (acc : FVec Ideal S2048x128 .f32) (cnt : FVec Ideal S2048x1 .f32) (w : FVec Ideal S128x4 .f32)
    (bias : FVec Ideal S1x4 .f32) (g : Fin 2048) (j : Fin 4) :
    k4_pay2 (F := Ideal) acc cnt w bias (ix2 g j)
      = (∑ k : Fin 128, Ideal.div (acc (ix2 g k)) (max (cnt (ix2 g (0 : Fin 1))) (Ideal.ofBits .f32 0x3F800000#32)) * w (ix2 k j))
        + bias (ix2 (0 : Fin 1) j) := by
  unfold k4_pay2
  simp only [shapeCast_self]
  rw [addf_apply, mm2_apply, broadcastTo_1b_ab_apply]
  refine congrArg (· + bias (ix2 (0 : Fin 1) j)) (Finset.sum_congr rfl fun k _ => ?_)
  show Ideal.div (acc (ix2 g k)) (broadcastTo S2048x128 (maximumf cnt (broadcast S2048x1 (FloatOps.ofBits (F := Ideal) .f32 0x3F800000#32)))
      broadcasts_S2048x1_S2048x128 (ix2 g k)) * w (ix2 k j) = _
  rw [broadcastTo_a1_ab_apply]
  rfl

end Cert.KernelIdeal.Val.R4

end
-- ==== Proof.Val.SumSplit.lean ====
/-
  Two facts about finite sums in a commutative additive monoid.

  Tiles. The numbers below a * b are, each exactly once, the numbers b * t + r with t below a and r below b; so a sum
  over all of them is the sum over t of the sums over r. The case a = 100, b = 1000 is stated on its own.

  Running sums. A quantity that starts at z + s 0 and at every step adds the next term s (n + 1) is, after step n,
  z plus the sum of the terms s 0, …, s n.
-/
import Mathlib.Algebra.BigOperators.Fin
import Mathlib.Data.Fintype.BigOperators
import Mathlib.Logic.Equiv.Fin.Basic

open scoped BigOperators

namespace Cert.Val

/-- A row of a tile is a row of the whole: b * t + r is below a * b when t is below a and r below b. -/
theorem tile_lt {a b t r : ℕ} (ht : t < a) (hr : r < b) : b * t + r < a * b :=
  calc b * t + r < b * t + b := Nat.add_lt_add_left hr _
    _ = b * (t + 1) := (Nat.mul_succ b t).symm
    _ ≤ b * a := Nat.mul_le_mul_left b ht
    _ = a * b := Nat.mul_comm b a

/-- A sum over a * b rows is the sum over the a tiles of the sums over each tile's b rows. -/
theorem sum_tiles_mul {M : Type*} [AddCommMonoid M] (a b : ℕ) (f : Fin (a * b) → M) :
    ∑ t : Fin a, ∑ r : Fin b, f ⟨b * t.val + r.val, tile_lt t.isLt r.isLt⟩ = ∑ n : Fin (a * b), f n := by
  rw [← Fintype.sum_prod_type' (fun (t : Fin a) (r : Fin b) => f ⟨b * t.val + r.val, tile_lt t.isLt r.isLt⟩)]
  refine Fintype.sum_equiv finProdFinEquiv _ _ ?_
  intro x
  apply congrArg f
  apply Fin.ext
  show b * x.1.val + x.2.val = x.2.val + b * x.1.val
  exact Nat.add_comm _ _

/-- 100000 rows as 100 tiles of 1000 rows. -/
theorem sum_tiles {M : Type*} [AddCommMonoid M] (f : Fin 100000 → M) :
    ∑ t : Fin 100, ∑ r : Fin 1000, f ⟨1000 * t.val + r.val, by omega⟩ = ∑ n : Fin 100000, f n :=
  sum_tiles_mul 100 1000 f

/-- A running sum over the first N steps: started at z + s 0 and adding s (n + 1) at each step, after step n it
    is z plus the sum of s 0, …, s n. -/
theorem running_sum_lt {M : Type*} [AddCommMonoid M] (N : ℕ) (acc : (n : ℕ) → n < N → M) (z : M)
    (s : (n : ℕ) → n < N → M) (h0 : ∀ h, acc 0 h = z + s 0 h)
    (hs : ∀ n h h', acc (n + 1) h = acc n h' + s (n + 1) h) :
    ∀ n (h : n < N), acc n h = z + ∑ t : Fin (n + 1), s t.val (Nat.lt_of_lt_of_le t.isLt h) := by
  intro n
  induction n with
  | zero =>
    intro h
    rw [h0 h, Fin.sum_univ_one]
    rfl
  | succ n ih =>
    intro h
    have h' : n < N := Nat.lt_of_succ_lt h
    rw [hs n h h', ih h', add_assoc]
    refine congrArg (z + ·) ?_
    exact (Fin.sum_univ_castSucc (fun t : Fin (n + 1 + 1) => s t.val (Nat.lt_of_lt_of_le t.isLt h))).symm

/-- The same with 100 steps, as the statement is used. -/
theorem running_sum {M : Type*} [AddCommMonoid M] (acc : (n : ℕ) → n < 100 → M) (z : M)
    (s : (n : ℕ) → n < 100 → M) (h0 : ∀ h, acc 0 h = z + s 0 h)
    (hs : ∀ n h h', acc (n + 1) h = acc n h' + s (n + 1) h) :
    ∀ n h, acc n h = z + ∑ t : Fin (n + 1), s t.val (by omega) :=
  running_sum_lt 100 acc z s h0 hs

/-- After the last of the 100 steps the running sum is z plus the sum of all 100 terms. -/
theorem running_sum_last {M : Type*} [AddCommMonoid M] (acc : (n : ℕ) → n < 100 → M) (z : M)
    (s : (n : ℕ) → n < 100 → M) (h0 : ∀ h, acc 0 h = z + s 0 h)
    (hs : ∀ n h h', acc (n + 1) h = acc n h' + s (n + 1) h) (h : 99 < 100) :
    acc 99 h = z + ∑ t : Fin 100, s t.val t.isLt :=
  running_sum_lt 100 acc z s h0 hs 99 h

end Cert.Val
-- ==== Proof.Val.Fin4b.lean ====
/-
  The pooling region's output array as one function of the arrays it reads.

  Block reads: the three row-blocked windows (features, per-row scale, segment words) hold at point t, row r, the array's
  row 1000 t + r; the other windows hold their whole arrays at every point. So point t adds to the running sum and the
  running count the contributions of rows 1000 t, …, 1000 t + 999, and after the last of the 100 points both are the sums
  over all 100000 rows (100 tiles of 1000 rows). The output window is written back once, at the last point, and its one
  block is the whole [2048, 4] array: the array ends holding, at (g, j), the sum over the 128 features of segment g's sum
  divided by its count clipped below at one, times the last weight, plus the last bias.
-/
import proofs.«419651_j51711406244070_2_alg».proof.Proof.Val.Fin4a
import proofs.«419651_j51711406244070_2_alg».proof.Proof.Val.SumSplit

set_option maxRecDepth 16384

noncomputable section

open scoped BigOperators

namespace Cert.KernelIdeal.Val.R4

open Cert.KernelIdeal Cert.KernelIdeal.Gen Cert.KernelIdeal.Hand
open Idealize.ShloMosaic Idealize.ShloMosaic.TcCoe Idealize.SL.Sem
open Idealize.ShloMosaic.ValueIdx
open Idealize.ShloMosaic.Pipeline (Dat)

/-! ## From blocks to the arrays -/

variable (V : (c : Dev nD) → (b : Ref sig .tc) → Buf (Elt Ideal) ((c : Thread nD τ).loc b))

/-- The windows' index maps, decided over the 100 points: the three row-blocked windows are at block row t, column block 0;
    every whole-array window stays at block (0, 0). -/
theorem idx_facts4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0 :=
  (by decide +kernel : ∀ t : Fin grid4.N, _)

/-- The six arrays the region reads, as it finds them, each at its literal type: the node features, the per-node scale, the
    shift row, the segment words, the last weight and the last bias row. -/
abbrev feat (c : Dev nD) : FVec Ideal S100000x128 .f32 := V c main_v62
abbrev scl (c : Dev nD) : FVec Ideal S100000x1 .f32 := V c main_v15
abbrev shift (c : Dev nD) : FVec Ideal S1x128 .f32 := V c main_v64
abbrev segw (c : Dev nD) : IVec S100000x1 32 := V c main_v63
abbrev wfc (c : Dev nD) : FVec Ideal S128x4 .f32 := V c main_arg11
abbrev bfc (c : Dev nD) : FVec Ideal S1x4 .f32 := V c main_v65

theorem lt_rows {t r : ℕ} (ht : t < 100) (hr : r < 1000) : 1000 * t + r < 100000 := by omega

/-- Window 0's block at point t, row r, is the array's row 1000 t + r. -/
theorem iblk0_apply (c : Dev nD) (t : Fin cfg4.N) (r : Fin 1000) (k : Fin 128) :
    (iblk4 V c 0 t : FVec Ideal S1000x128 .f32) (ix2 r k)
      = feat V c (ix2 (⟨1000 * t.val + r.val, lt_rows (N_4 ▸ t.isLt) r.isLt⟩ : Fin 100000) k) := by
  obtain ⟨e0, e1, -⟩ := idx_facts4 t
  unfold iblk4
  rw [View.read_apply]
  show V c main_v62 _ = V c main_v62 _
  congr 1
  funext a
  apply Fin.ext
  match a with
  | ⟨0, _⟩ => show win4_0.index t (0 : Fin 2) * 1000 + 1 * r.val = 1000 * t.val + r.val; rw [e0]; omega
  | ⟨1, _⟩ => show win4_0.index t (1 : Fin 2) * 128 + 1 * k.val = k.val; rw [e1]; omega

/-- Window 1's block (the per-row scale, one column) at point t, row r, is the array's row 1000 t + r. -/
theorem iblk1_apply (c : Dev nD) (t : Fin cfg4.N) (r : Fin 1000) (z : Fin 1) :
    (iblk4 V c 1 t : FVec Ideal S1000x1 .f32) (ix2 r z)
      = scl V c (ix2 (⟨1000 * t.val + r.val, lt_rows (N_4 ▸ t.isLt) r.isLt⟩ : Fin 100000) z) := by
  obtain ⟨-, -, e0, e1, -⟩ := idx_facts4 t
  unfold iblk4
  rw [View.read_apply]
  show V c main_v15 _ = V c main_v15 _
  congr 1
  funext a
  apply Fin.ext
  match a with
  | ⟨0, _⟩ => show win4_1.index t (0 : Fin 2) * 1000 + 1 * r.val = 1000 * t.val + r.val; rw [e0]; omega
  | ⟨1, _⟩ => show win4_1.index t (1 : Fin 2) * 1 + 1 * z.val = z.val; rw [e1]; omega

/-- Window 2's block (the shift row) is the whole one-row array at every point. -/
theorem iblk2_apply (c : Dev nD) (t : Fin cfg4.N) (z : Fin 1) (k : Fin 128) :
    (iblk4 V c 2 t : FVec Ideal S1x128 .f32) (ix2 z k) = shift V c (ix2 z k) := by
  obtain ⟨-, -, -, -, e0, e1, -⟩ := idx_facts4 t
  unfold iblk4
  rw [View.read_apply]
  show V c main_v64 _ = V c main_v64 _
  congr 1
  funext a
  apply Fin.ext
  match a with
  | ⟨0, _⟩ => show win4_2.index t (0 : Fin 2) * 1 + 1 * z.val = z.val; rw [e0]; omega
  | ⟨1, _⟩ => show win4_2.index t (1 : Fin 2) * 128 + 1 * k.val = k.val; rw [e1]; omega

/-- Window 3's block (the segment words, one column) at point t, row r, is the array's row 1000 t + r. -/
theorem iblk3_apply (c : Dev nD) (t : Fin cfg4.N) (r : Fin 1000) (z : Fin 1) :
    (iblk4 V c 3 t : IVec S1000x1 32) (ix2 r z)
      = segw V c (ix2 (⟨1000 * t.val + r.val, lt_rows (N_4 ▸ t.isLt) r.isLt⟩ : Fin 100000) z) := by
  obtain ⟨-, -, -, -, -, -, e0, e1, -⟩ := idx_facts4 t
  unfold iblk4
  rw [View.read_apply]
  show V c main_v63 _ = V c main_v63 _
  congr 1
  funext a
  apply Fin.ext
  match a with
  | ⟨0, _⟩ => show win4_3.index t (0 : Fin 2) * 1000 + 1 * r.val = 1000 * t.val + r.val; rw [e0]; omega
  | ⟨1, _⟩ => show win4_3.index t (1 : Fin 2) * 1 + 1 * z.val = z.val; rw [e1]; omega

/-- Window 4's block (the last weight) is the whole array at every point. -/
theorem iblk4_apply (c : Dev nD) (t : Fin cfg4.N) (k : Fin 128) (j : Fin 4) :
    (iblk4 V c 4 t : FVec Ideal S128x4 .f32) (ix2 k j) = wfc V c (ix2 k j) := by
  obtain ⟨-, -, -, -, -, -, -, -, e0, e1, -⟩ := idx_facts4 t
  unfold iblk4
  rw [View.read_apply]
  show V c main_arg11 _ = V c main_arg11 _
  congr 1
  funext a
  apply Fin.ext
  match a with
  | ⟨0, _⟩ => show win4_4.index t (0 : Fin 2) * 128 + 1 * k.val = k.val; rw [e0]; omega
  | ⟨1, _⟩ => show win4_4.index t (1 : Fin 2) * 4 + 1 * j.val = j.val; rw [e1]; omega

/-- Window 5's block (the last bias row) is the whole array at every point. -/
theorem iblk5_apply (c : Dev nD) (t : Fin cfg4.N) (z : Fin 1) (j : Fin 4) :
    (iblk4 V c 5 t : FVec Ideal S1x4 .f32) (ix2 z j) = bfc V c (ix2 z j) := by
  obtain ⟨-, -, -, -, -, -, -, -, -, -, e0, e1, -⟩ := idx_facts4 t
  unfold iblk4
  rw [View.read_apply]
  show V c main_v65 _ = V c main_v65 _
  congr 1
  funext a
  apply Fin.ext
  match a with
  | ⟨0, _⟩ => show win4_5.index t (0 : Fin 2) * 1 + 1 * z.val = z.val; rw [e0]; omega
  | ⟨1, _⟩ => show win4_5.index t (1 : Fin 2) * 4 + 1 * j.val = j.val; rw [e1]; omega

/-! ## The two running quantities, row by row -/

/-- Row n's contribution to segment g's sum of feature k: membership times the clipped scaled-and-shifted feature. -/
def accRow (c : Dev nD) (g : Fin 2048) (k : Fin 128) (n : Fin 100000) : EReal :=
  hotw (segw V c (ix2 n (0 : Fin 1))) g
    * max (feat V c (ix2 n k) * scl V c (ix2 n (0 : Fin 1)) + shift V c (ix2 (0 : Fin 1) k)) 0

/-- Row n's contribution to segment g's count: membership times the 16-bit-format one. -/
def cntRow (c : Dev nD) (g : Fin 2048) (n : Fin 100000) : EReal :=
  hotw (segw V c (ix2 n (0 : Fin 1))) g * Ideal.ofBits .bf16 0x3F80#16

/-- Point t adds to the running sum its block's 1000 rows' contributions. -/
theorem acc_step (c : Dev nD) (t : Fin cfg4.N) (acc : FVec Ideal S2048x128 .f32) (g : Fin 2048) (k : Fin 128) :
    k4_pay6 (F := Ideal) (iblk4 V c 0 t) (iblk4 V c 1 t) (iblk4 V c 2 t) (iblk4 V c 3 t) acc (ix2 g k)
      = acc (ix2 g k) + ∑ r : Fin 1000, accRow V c g k ⟨1000 * t.val + r.val, lt_rows (N_4 ▸ t.isLt) r.isLt⟩ := by
  refine (pay6_apply (iblk4 V c 0 t) (iblk4 V c 1 t) (iblk4 V c 2 t) (iblk4 V c 3 t) acc g k).trans ?_
  refine congrArg (acc (ix2 g k) + ·) (Finset.sum_congr rfl fun r _ => ?_)
  rw [iblk0_apply, iblk1_apply, iblk2_apply, iblk3_apply]
  rfl

/-- Point t adds to the running count its block's 1000 rows' contributions. -/
theorem cnt_step (c : Dev nD) (t : Fin cfg4.N) (cnt : FVec Ideal S2048x1 .f32) (g : Fin 2048) :
    k4_pay1 (F := Ideal) (k4_pay7 (F := Ideal) (iblk4 V c 3 t) cnt) (ix2 g (0 : Fin 1))
      = cnt (ix2 g (0 : Fin 1)) + ∑ r : Fin 1000, cntRow V c g ⟨1000 * t.val + r.val, lt_rows (N_4 ▸ t.isLt) r.isLt⟩ := by
  refine (pay7_apply (iblk4 V c 3 t) cnt g).trans ?_
  refine congrArg (cnt (ix2 g (0 : Fin 1)) + ·) (Finset.sum_congr rfl fun r _ => ?_)
  rw [iblk3_apply]
  rfl

/-- The two zero fills read 0 everywhere. -/
theorem pay3_apply (i : S2048x128.Idx) : k4_pay3 (F := Ideal) i = 0 := by
  unfold k4_pay3
  rw [shapeCast_self]
  exact Ideal.ofBits_zero_f32
theorem pay4_apply (i : S2048x1.Idx) : k4_pay4 (F := Ideal) i = 0 := by
  unfold k4_pay4
  rw [shapeCast_self]
  exact Ideal.ofBits_zero_f32

/-- After point n the running sum at (g, k) is the sum over the points up to n of their blocks' rows' contributions. -/
theorem accAt_eq (c : Dev nD) (g : Fin 2048) (k : Fin 128) (n : ℕ) (h : n < cfg4.N) :
    accAt V c n h (ix2 g k)
      = 0 + ∑ t : Fin (n + 1), ∑ r : Fin 1000,
          accRow V c g k ⟨1000 * t.val + r.val, lt_rows (N_4 ▸ Nat.lt_of_lt_of_le t.isLt h) r.isLt⟩ :=
  Cert.Val.running_sum_lt cfg4.N (fun n h => accAt V c n h (ix2 g k)) 0
    (fun n h => ∑ r : Fin 1000, accRow V c g k ⟨1000 * n + r.val, lt_rows (N_4 ▸ h) r.isLt⟩)
    (fun h => by
      show k4_pay6 (F := Ideal) (iblk4 V c 0 ⟨0, h⟩) (iblk4 V c 1 ⟨0, h⟩) (iblk4 V c 2 ⟨0, h⟩) (iblk4 V c 3 ⟨0, h⟩) (k4_pay3 (F := Ideal)) (ix2 g k) = _
      rw [acc_step V c ⟨0, h⟩ (k4_pay3 (F := Ideal)) g k, pay3_apply])
    (fun n h h' => by
      show k4_pay6 (F := Ideal) (iblk4 V c 0 ⟨n + 1, h⟩) (iblk4 V c 1 ⟨n + 1, h⟩) (iblk4 V c 2 ⟨n + 1, h⟩) (iblk4 V c 3 ⟨n + 1, h⟩)
        (accAt V c n (Nat.lt_of_succ_lt h)) (ix2 g k) = _
      exact acc_step V c ⟨n + 1, h⟩ (accAt V c n (Nat.lt_of_succ_lt h)) g k)
    n h

/-- After point n the running count at (g, 0), likewise. -/
theorem cntAt_eq (c : Dev nD) (g : Fin 2048) (n : ℕ) (h : n < cfg4.N) :
    cntAt V c n h (ix2 g (0 : Fin 1))
      = 0 + ∑ t : Fin (n + 1), ∑ r : Fin 1000,
          cntRow V c g ⟨1000 * t.val + r.val, lt_rows (N_4 ▸ Nat.lt_of_lt_of_le t.isLt h) r.isLt⟩ :=
  Cert.Val.running_sum_lt cfg4.N (fun n h => cntAt V c n h (ix2 g (0 : Fin 1))) 0
    (fun n h => ∑ r : Fin 1000, cntRow V c g ⟨1000 * n + r.val, lt_rows (N_4 ▸ h) r.isLt⟩)
    (fun h => by
      show k4_pay1 (F := Ideal) (k4_pay7 (F := Ideal) (iblk4 V c 3 ⟨0, h⟩) (k4_pay4 (F := Ideal))) (ix2 g (0 : Fin 1)) = _
      rw [cnt_step V c ⟨0, h⟩ (k4_pay4 (F := Ideal)) g, pay4_apply])
    (fun n h h' => by
      show k4_pay1 (F := Ideal) (k4_pay7 (F := Ideal) (iblk4 V c 3 ⟨n + 1, h⟩) (cntAt V c n (Nat.lt_of_succ_lt h))) (ix2 g (0 : Fin 1)) = _
      exact cnt_step V c ⟨n + 1, h⟩ (cntAt V c n (Nat.lt_of_succ_lt h)) g)
    n h

/-- After the last point: the sums over all 100000 rows. -/
theorem accAt_last (c : Dev nD) (g : Fin 2048) (k : Fin 128) (h : 99 < cfg4.N) :
    accAt V c 99 h (ix2 g k) = ∑ n : Fin 100000, accRow V c g k n := by
  rw [accAt_eq V c g k 99 h, zero_add]
  exact Cert.Val.sum_tiles (accRow V c g k)

theorem cntAt_last (c : Dev nD) (g : Fin 2048) (h : 99 < cfg4.N) :
    cntAt V c 99 h (ix2 g (0 : Fin 1)) = ∑ n : Fin 100000, cntRow V c g n := by
  rw [cntAt_eq V c g 99 h, zero_add]
  exact Cert.Val.sum_tiles (cntRow V c g)

/-! ## The output array -/

/-- Segment g, output column j: over the 128 features, the segment's sum divided by its count clipped below at one, times the
    last weight, plus the last bias. -/
def poolAt (c : Dev nD) (g : Fin 2048) (j : Fin 4) : EReal :=
  (∑ k : Fin 128, Ideal.div (∑ n : Fin 100000, accRow V c g k n)
      (max (∑ n : Fin 100000, cntRow V c g n) (Ideal.ofBits .f32 0x3F800000#32)) * wfc V c (ix2 k j))
    + bfc V c (ix2 (0 : Fin 1) j)

/-- The whole [2048, 4] output as one function of the arrays the region reads. -/
def pool (c : Dev nD) : FVec Ideal S2048x4 .f32 := fun i => poolAt V c (i 0) (i 1)

/-- As contents of the output array. -/
abbrev poolBuf (c : Dev nD) : Buf (Elt Ideal) ((c : Thread nD τ).loc main_v66) := pool V c

/-- What the last point stores: the quotient of the running sum and the running count after all 100 points, through the last
    product and bias. -/
theorem out_last_apply (c : Dev nD) (h : 99 < cfg4.N) (g : Fin 2048) (j : Fin 4) :
    out4_6 V c ⟨99, h⟩ (ix2 g j) = poolAt V c g j := by
  show k4_pay2 (F := Ideal) (accAt V c 99 h) (cntAt V c 99 h) (iblk4 V c 4 ⟨99, h⟩) (iblk4 V c 5 ⟨99, h⟩) (ix2 g j) = _
  refine (pay2_apply (accAt V c 99 h) (cntAt V c 99 h) (iblk4 V c 4 ⟨99, h⟩) (iblk4 V c 5 ⟨99, h⟩) g j).trans ?_
  rw [cntAt_last, iblk5_apply]
  refine congrArg (· + bfc V c (ix2 (0 : Fin 1) j)) (Finset.sum_congr rfl fun k _ => ?_)
  rw [accAt_last, iblk4_apply]

/-- The one write-back, at the last point, writes the whole output: its block is the array, read at zero offsets. -/
theorem flushed6_eq (c : Dev nD) (t : Fin cfg4.N) (hf : (cfg4.win 6).flush t = true) :
    (dat4 V c).flushed 6 t = ((cfg4.win 6).blk t).view.read (Elt Ideal) (poolBuf V c) := by
  have hN : cfg4.N = 100 := N_4
  have h99 : t.val = 99 := by have := (flush4_6 t).mp hf; have := t.isLt; omega
  obtain ⟨n, hn⟩ := t
  obtain rfl : n = 99 := h99
  show (cfg4.win 6).cut (grid4.coords ⟨99, hn⟩) ((dat4 V c).after 6 ⟨99, hn⟩) = _
  rw [after4_6]
  have hout : out4_6 V c ⟨99, hn⟩ = pool V c := funext fun i => by
    obtain ⟨g, j, rfl⟩ : ∃ (g : Fin 2048) (j : Fin 4), i = ix2 g j := ⟨i 0, i 1, eq_ix2 i⟩
    exact out_last_apply V c hn g j
  rw [hout]
  obtain ⟨-, -, -, -, -, -, -, -, -, -, -, -, e0, e1⟩ := idx_facts4 ⟨99, hn⟩
  have hz' : (fun a => win4_6.index ⟨99, hn⟩ a * main_v66.ty.shape.size a) = fun _ => 0 := funext fun a => by
    match a with
    | ⟨0, _⟩ => show win4_6.index ⟨99, hn⟩ (0 : Fin 2) * _ = 0; rw [e0]; exact Nat.zero_mul _
    | ⟨1, _⟩ => show win4_6.index ⟨99, hn⟩ (1 : Fin 2) * _ = 0; rw [e1]; exact Nat.zero_mul _
  exact (Memref.read_access_unit_zero (Elt Ideal) main_v66 hz' (fun a => by rw [congrFun hz' a]; simp) (poolBuf V c)).symm

/-- The last point's block covers the output array. -/
theorem cover6 (i : S2048x4.Idx) : ∃ t : Fin cfg4.N, (cfg4.win 6).flush t = true ∧ i ∈ ((cfg4.win 6).blk t).view.set := by
  have h0 : (i 0 : ℕ) < 2048 := (i 0).isLt
  have h1 : (i 1 : ℕ) < 4 := (i 1).isLt
  have hN : 99 < cfg4.N := by rw [show cfg4.N = 100 from N_4]; decide
  obtain ⟨-, -, -, -, -, -, -, -, -, -, -, -, e0, e1⟩ := idx_facts4 ⟨99, hN⟩
  refine ⟨⟨99, hN⟩, (flush4_6 _).mpr rfl, ?_⟩
  show i ∈ ((View.whole main_v66).slice (win4_6.rect ⟨99, hN⟩)).set
  rw [View.set_slice_whole, Rect.mem_set_unit]
  intro a
  match a with
  | ⟨0, _⟩ =>
    show win4_6.index ⟨99, hN⟩ (0 : Fin 2) * win4_6.size 0 ≤ (i 0 : ℕ) ∧ (i 0 : ℕ) < win4_6.index ⟨99, hN⟩ (0 : Fin 2) * win4_6.size 0 + win4_6.xsize (grid4.coords ⟨99, hN⟩) 0
    rw [e0, show win4_6.xsize (grid4.coords ⟨99, hN⟩) 0 = 2048 from rfl]; omega
  | ⟨1, _⟩ =>
    show win4_6.index ⟨99, hN⟩ (1 : Fin 2) * win4_6.size 1 ≤ (i 1 : ℕ) ∧ (i 1 : ℕ) < win4_6.index ⟨99, hN⟩ (1 : Fin 2) * win4_6.size 1 + win4_6.xsize (grid4.coords ⟨99, hN⟩) 1
    rw [e1, show win4_6.xsize (grid4.coords ⟨99, hN⟩) 1 = 4 from rfl]; omega

/-- The output array after the region. -/
theorem final4_arr (c : Dev nD) : (dat4 V c).arrAt 6 cfg4.N = poolBuf V c :=
  (dat4 V c).arrAt_eq_of_cover 6 (poolBuf V c) (flushed6_eq V c) cover6

/-- The same, read at (g, j) and spelled out over the arrays the region reads. -/
theorem final4 (c : Dev nD) (g : Fin 2048) (j : Fin 4) :
    ((dat4 V c).arrAt 6 cfg4.N : FVec Ideal S2048x4 .f32) (ix2 g j)
      = (∑ k : Fin 128, Ideal.div
            (∑ n : Fin 100000, hotw (segw V c (ix2 n (0 : Fin 1))) g
                * max (feat V c (ix2 n k) * scl V c (ix2 n (0 : Fin 1)) + shift V c (ix2 (0 : Fin 1) k)) 0)
            (max (∑ n : Fin 100000, hotw (segw V c (ix2 n (0 : Fin 1))) g * Ideal.ofBits .bf16 0x3F80#16)
              (Ideal.ofBits .f32 0x3F800000#32))
          * wfc V c (ix2 k j))
        + bfc V c (ix2 (0 : Fin 1) j) := by
  rw [final4_arr]
  rfl

end Cert.KernelIdeal.Val.R4

end
-- ==== Proof.Val.Host.lean ====
/-
  The host operations between the kernel regions, as array formulas and read at an index.

  The program alternates stretches of host operations with five kernel regions. For an arbitrary state `W` of the
  buffers at the start of a stretch, each buffer a later region reads is given after the stretch as a term of library
  operations over `W`'s buffers: the two message index vectors (row 0 and row 1 of the edge list, each followed by one
  self loop per node), the in-degree vector (ones summed at the target numbers) and its inverse square root (zero where
  the degree is not positive), one round of message passing (rows gathered at the wrapped source numbers, summed at the
  target numbers into a zero array) and the reshaped biases. The buffers a stretch does not write are unchanged. Then
  the same arrays are read at an index: a reshape that adds a unit axis reads the vector's element, and element (n, c)
  after a round of message passing is zero plus the sum, over the messages k whose target number is n, of element c of
  the row numbered by message k's source number, wrapped and clamped.
-/
import proofs.«419651_j51711406244070_2_alg».proof.Proof.Gen.KernelIdeal.Regions
import proofs.«419651_j51711406244070_2_alg».proof.Proof.Val.Idx
import Idealize.ShloMosaic.Lib.StableHlo.Run
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

set_option maxRecDepth 16384

noncomputable section

open scoped BigOperators

namespace Cert.KernelIdeal.Val

open Cert.KernelIdeal Cert.KernelIdeal.Gen
open Idealize.ShloMosaic Idealize.ShloMosaic.TcCoe Idealize.ShloMosaic.ValueIdx

/-! ## The arrays the host stretches compute -/

/-- A message's source number wrapped into the node range: a negative number gets 100000 added. -/
def wrapv (r : S740000.Idx → BitVec 32) : S740000.Idx → BitVec 32 :=
  select (cmpi .slt r (broadcastInDim S740000 ![] bcast_S_S740000 (constantI S_ 32 0#32)))
    (addi r (broadcastInDim S740000 ![] bcast_S_S740000 (constantI S_ 32 100000#32))) r

/-- One round of message passing on whole arrays: the rows of `h` gathered at the wrapped source numbers `r`, summed
    into a zero array at the target numbers `t`. -/
def pass (h : S100000x128.Idx → EReal) (r t : S740000.Idx → BitVec 32) : S100000x128.Idx → EReal :=
  Host.scatterAdd scatter_S100000x128_S740000x1_S740000x128_1_0_0_1
    (broadcastInDim S100000x128 ![] bcast_S_S100000x128 (constant (F := Ideal) S_ .f32 0x00000000#32))
    (broadcastInDim S740000x1 ![0] bcast_S740000_S740000x1_0 t)
    (Host.gather gather_S100000x128_S740000x1_S740000x128_1_0_n_n_0_1_1128 h
      (broadcastInDim S740000x1 ![0] bcast_S740000_S740000x1_0 (wrapv r)))

variable (W : Valuation τ sig (Elt Ideal))

/-! ## The first stretches write none of the arguments -/

theorem host0_keep (r : Ref sig .tc) (h : r ∉ hostOps0_W) :
    StableHlo.after hostOps0 W (Proc.devRef .tc r) = W (Proc.devRef .tc r) :=
  StableHlo.after_of_writes_sub hostOps0 _ hostOps0_writes h

theorem host01_keep (r : Ref sig .tc) (h : r ∉ hostOps0_1_W) :
    StableHlo.after hostOps0_1 W (Proc.devRef .tc r) = W (Proc.devRef .tc r) :=
  StableHlo.after_of_writes_sub hostOps0_1 _ hostOps0_1_writes h

theorem host02_keep (r : Ref sig .tc) (h : r ∉ hostOps0_2_W) :
    StableHlo.after hostOps0_2 W (Proc.devRef .tc r) = W (Proc.devRef .tc r) :=
  StableHlo.after_of_writes_sub hostOps0_2 _ hostOps0_2_writes h

/-- A buffer none of the first three stretches writes is as launched at the first region's entry. -/
theorem entry0_keep (r : Ref sig .tc) (h0 : r ∉ hostOps0_W) (h1 : r ∉ hostOps0_1_W) (h2 : r ∉ hostOps0_2_W) :
    StableHlo.after hostOps0_2 (StableHlo.after hostOps0_1 (StableHlo.after hostOps0 W)) (Proc.devRef .tc r)
      = W (Proc.devRef .tc r) := by
  rw [host02_keep _ r h2, host01_keep _ r h1, host0_keep _ r h0]

/-! ## The stretch before the second region -/

theorem host1_v26 : (StableHlo.after hostOps1 W (Proc.devRef .tc main_v26) : S100000x128.Idx → EReal)
    = pass (W (Proc.devRef .tc main_v16)) (W (Proc.devRef .tc main_v3)) (W (Proc.devRef .tc main_v6)) := by
  unfold pass wrapv
  after_results_simp

theorem host1_v27 : (StableHlo.after hostOps1 W (Proc.devRef .tc main_v27) : S1x128.Idx → EReal)
    = shapeCast S1x128 (W (Proc.devRef .tc main_arg4) : S128.Idx → EReal) shapeCasts_S128_S1x128 := by
  after_results_simp
  rfl

theorem host1_keep (r : Ref sig .tc) (h : r ∉ hostOps1_W) :
    StableHlo.after hostOps1 W (Proc.devRef .tc r) = W (Proc.devRef .tc r) :=
  StableHlo.after_of_writes_sub hostOps1 _ hostOps1_writes h

/-! ## The stretch before the third region -/

theorem host2_v38 : (StableHlo.after hostOps2 W (Proc.devRef .tc main_v38) : S100000x128.Idx → EReal)
    = pass (W (Proc.devRef .tc main_v28)) (W (Proc.devRef .tc main_v3)) (W (Proc.devRef .tc main_v6)) := by
  unfold pass wrapv
  after_results_simp

theorem host2_v39 : (StableHlo.after hostOps2 W (Proc.devRef .tc main_v39) : S1x128.Idx → EReal)
    = shapeCast S1x128 (W (Proc.devRef .tc main_arg6) : S128.Idx → EReal) shapeCasts_S128_S1x128 := by
  after_results_simp
  rfl

theorem host2_keep (r : Ref sig .tc) (h : r ∉ hostOps2_W) :
    StableHlo.after hostOps2 W (Proc.devRef .tc r) = W (Proc.devRef .tc r) :=
  StableHlo.after_of_writes_sub hostOps2 _ hostOps2_writes h

/-! ## The stretch before the fourth region -/

theorem host3_v50 : (StableHlo.after hostOps3 W (Proc.devRef .tc main_v50) : S100000x128.Idx → EReal)
    = pass (W (Proc.devRef .tc main_v40)) (W (Proc.devRef .tc main_v3)) (W (Proc.devRef .tc main_v6)) := by
  unfold pass wrapv
  after_results_simp

theorem host3_v51 : (StableHlo.after hostOps3 W (Proc.devRef .tc main_v51) : S1x128.Idx → EReal)
    = shapeCast S1x128 (W (Proc.devRef .tc main_arg8) : S128.Idx → EReal) shapeCasts_S128_S1x128 := by
  after_results_simp
  rfl

theorem host3_keep (r : Ref sig .tc) (h : r ∉ hostOps3_W) :
    StableHlo.after hostOps3 W (Proc.devRef .tc r) = W (Proc.devRef .tc r) :=
  StableHlo.after_of_writes_sub hostOps3 _ hostOps3_writes h

/-! ## The stretch before the last region -/

theorem host4_v62 : (StableHlo.after hostOps4 W (Proc.devRef .tc main_v62) : S100000x128.Idx → EReal)
    = pass (W (Proc.devRef .tc main_v52)) (W (Proc.devRef .tc main_v3)) (W (Proc.devRef .tc main_v6)) := by
  unfold pass wrapv
  after_results_simp

theorem host4_v63 : (StableHlo.after hostOps4 W (Proc.devRef .tc main_v63) : S100000x1.Idx → BitVec 32)
    = shapeCast S100000x1 (W (Proc.devRef .tc main_arg2) : S100000.Idx → BitVec 32) shapeCasts_S100000_S100000x1 := by
  after_results_simp
  rfl

theorem host4_v64 : (StableHlo.after hostOps4 W (Proc.devRef .tc main_v64) : S1x128.Idx → EReal)
    = shapeCast S1x128 (W (Proc.devRef .tc main_arg10) : S128.Idx → EReal) shapeCasts_S128_S1x128 := by
  after_results_simp
  rfl

theorem host4_v65 : (StableHlo.after hostOps4 W (Proc.devRef .tc main_v65) : S1x4.Idx → EReal)
    = shapeCast S1x4 (W (Proc.devRef .tc main_arg12) : S4.Idx → EReal) shapeCasts_S4_S1x4 := by
  after_results_simp
  rfl

theorem host4_keep (r : Ref sig .tc) (h : r ∉ hostOps4_W) :
    StableHlo.after hostOps4 W (Proc.devRef .tc r) = W (Proc.devRef .tc r) :=
  StableHlo.after_of_writes_sub hostOps4 _ hostOps4_writes h

/-! ## The same arrays read at an index -/

section AtIndex

variable {α : Type}

/-- A number wrapped into the node range: a negative number gets 100000 added. -/
def wrapS (b : BitVec 32) : BitVec 32 := Scalar.select (IntOp.cmpi .slt b 0#32) (IntOp.addi b 100000#32) b

theorem wrapv_apply (r : S740000.Idx → BitVec 32) (j : S740000.Idx) : wrapv r j = wrapS (r j) := rfl

/-- A vector of 740000 entries spread over a unit second axis reads the vector's entry. -/
theorem bcast_col_apply (t : S740000.Idx → α) (k : Fin 740000) :
    broadcastInDim S740000x1 ![0] bcast_S740000_S740000x1_0 t (ix2 k 0) = t (ix1 k) :=
  broadcastInDim_apply _ bcast_S740000_S740000x1_0 t _ (ix1 k) (fun a => match a with
    | ⟨0, _⟩ => by show k.val = if (740000 : Nat) = 1 then 0 else k.val; rw [if_neg (by decide)])

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- Element (n, c) after one round of message passing: zero plus, over the messages whose target number is n, element c
    of the row numbered by the message's source number, wrapped and clamped. -/
theorem pass_apply (h : S100000x128.Idx → EReal) (r t : S740000.Idx → BitVec 32) (n : Fin 100000) (c : Fin 128) :
    pass h r t (ix2 n c)
      = 0 + ∑ k ∈ Finset.univ.filter (fun k : Fin 740000 => (t (ix1 k)).toInt = (n.val : ℤ)),
          h (ix2 (Cert.Val.Idx.clampN (wrapS (r (ix1 k)))) c) := by
  unfold pass
  rw [Cert.Val.Idx.scatterAdd_rows_KI, broadcastInDim_scalar_apply, constant_apply, Ideal.ofBits_zero_f32]
  have hf : ∀ k : Fin 740000, (broadcastInDim S740000x1 ![0] bcast_S740000_S740000x1_0 t (ix2 k 0)) = t (ix1 k) :=
    fun k => bcast_col_apply t k
  simp only [hf]
  refine congrArg (0 + ·) (Finset.sum_congr rfl fun k _ => ?_)
  rw [Cert.Val.Idx.gather_rows_KI, bcast_col_apply, wrapv_apply]

end AtIndex

end Cert.KernelIdeal.Val

end
-- ==== Proof.Val.KInts.lean ====
import proofs.«419651_j51711406244070_2_alg».proof.Proof.Gen.KernelIdeal.Launch
import proofs.«419651_j51711406244070_2_alg».proof.Proof.Gen.KernelIdeal.Regions
import proofs.«419651_j51711406244070_2_alg».proof.Proof.RefRead
import Idealize.ShloMosaic.Lib.Pipeline.Value
import Idealize.ShloMosaic.Lib.ValueIdx
import Idealize.ShloMosaic.PureOps.Ideal.Laws

noncomputable section

namespace Cert.KernelIdeal.Val

open Cert.KernelIdeal Cert.KernelIdeal.Gen
open Idealize.ShloMosaic Idealize.ShloMosaic.TcCoe Idealize.SL.Sem Idealize.ShloMosaic.StableHlo Idealize.ShloMosaic.ValueIdx

/-! # The integer vectors and the degree vector of the kernel program are the reference program's

Both programs begin with the same operations on the edge-index argument: the row and column vectors (a slice, a
reshape, a concatenation with the node numbers), the in-degree by a scatter-add of ones at the columns, its inverse
square root where the degree is positive. So what this program's first three host stretches leave in those buffers is
the reference's functions of that argument, for any contents `W` the stretches start from. Stated at every float
instance, then at the extended reals. -/

section AnyF
variable {F : FTy → Type} [FloatOps F]

/-- After the first host stretch the row vector is the reference's: the same slice, reshape and concatenation of the
    edge-index argument. -/
theorem after0_v3 (W : Valuation τ sig (Elt F)) :
    StableHlo.after hostOps0 W (Proc.devRef .tc main_v3) = Cert.ReferenceIdeal.Read.val_main_v3 (F := F) (W (Proc.devRef .tc main_arg1)) := by
  show StableHlo.after hostOps0 W (Proc.devRef .tc main_v3) = _
  after_results
  rfl

/-- Likewise the column vector. -/
theorem after0_v6 (W : Valuation τ sig (Elt F)) :
    StableHlo.after hostOps0 W (Proc.devRef .tc main_v6) = Cert.ReferenceIdeal.Read.val_main_v6 (F := F) (W (Proc.devRef .tc main_arg1)) := by
  show StableHlo.after hostOps0 W (Proc.devRef .tc main_v6) = _
  after_results
  rfl

/-- After the first host stretch: where the scatter-added in-degree is positive, -/
theorem after0_v12 (W : Valuation τ sig (Elt F)) :
    StableHlo.after hostOps0 W (Proc.devRef .tc main_v12) = Cert.ReferenceIdeal.Read.val_main_v12 (F := F) (W (Proc.devRef .tc main_arg1)) := by
  show StableHlo.after hostOps0 W (Proc.devRef .tc main_v12) = _
  after_results
  rfl
/-- its inverse square root, -/
theorem after0_v13 (W : Valuation τ sig (Elt F)) :
    StableHlo.after hostOps0 W (Proc.devRef .tc main_v13) = Cert.ReferenceIdeal.Read.val_main_v13 (F := F) (W (Proc.devRef .tc main_arg1)) := by
  show StableHlo.after hostOps0 W (Proc.devRef .tc main_v13) = _
  after_results
  rfl
/-- and the zero the `where` falls back to. -/
theorem after0_cst_2 (W : Valuation τ sig (Elt F)) :
    StableHlo.after hostOps0 W (Proc.devRef .tc main_cst_2) = Cert.ReferenceIdeal.Read.val_main_cst_2 (F := F) := by
  show StableHlo.after hostOps0 W (Proc.devRef .tc main_cst_2) = _
  after_results
  rfl

/-- The second host stretch (the `where`), from any contents `X`: the select of the two vectors on the condition. -/
theorem after1_v14 (X : Valuation τ sig (Elt F)) :
    StableHlo.after hostOps0_1 X (Proc.devRef .tc main_v14)
      = select (X (Proc.devRef .tc main_v12) : S100000.Idx → BitVec 1) (X (Proc.devRef .tc main_v13) : S100000.Idx → Elt F .f32)
          (broadcastInDim S100000 ![] bcast_S_S100000 (id (X (Proc.devRef .tc main_cst_2) : S_.Idx → Elt F .f32))) := by
  show StableHlo.after hostOps0_1 X (Proc.devRef .tc main_v14) = _
  after_results
  rfl

/-- After the second host stretch the degree vector is the reference's: the inverse square root of the scatter-added
    in-degree where that is positive, zero elsewhere. -/
theorem after01_v14 (W : Valuation τ sig (Elt F)) :
    StableHlo.after hostOps0_1 (StableHlo.after hostOps0 W) (Proc.devRef .tc main_v14)
      = Cert.ReferenceIdeal.Read.val_main_v14 (F := F) (W (Proc.devRef .tc main_arg1)) := by
  rw [after1_v14, after0_v12, after0_v13, after0_cst_2]
  rfl

/-- The third host stretch, from any contents `X`: the degree vector reshaped into a column. -/
theorem after2_v15 (X : Valuation τ sig (Elt F)) :
    (StableHlo.after hostOps0_2 X (Proc.devRef .tc main_v15) : S100000x1.Idx → Elt F .f32)
      = shapeCast S100000x1 (X (Proc.devRef .tc main_v14) : S100000.Idx → Elt F .f32) shapeCasts_S100000_S100000x1 := by
  show StableHlo.after hostOps0_2 X (Proc.devRef .tc main_v15) = _
  after_results
  rfl

/-- The third host stretch reshapes the degree vector into a column: read at row `n` it is the vector at `n`. -/
theorem after012_v15_apply (W : Valuation τ sig (Elt F)) (n : Fin 100000) :
    (StableHlo.after hostOps0_2 (StableHlo.after hostOps0_1 (StableHlo.after hostOps0 W)) (Proc.devRef .tc main_v15)
        : S100000x1.Idx → Elt F .f32) (ix2 n 0)
      = Cert.ReferenceIdeal.Read.val_main_v14 (F := F) (W (Proc.devRef .tc main_arg1)) (ix1 n) := by
  rw [after2_v15, after01_v14]
  exact shapeCast_apply _ shapeCasts_S100000_S100000x1 (ix2 n 0) (ix1 n)
    (by rewrite [Shape.rowMajor_val_two, Shape.rowMajor_val_one]; show n.val = n.val * 1 + 0; omega)

/-- The two later stretches leave the row and column vectors alone. -/
theorem entry_v3 (W : Valuation τ sig (Elt F)) :
    StableHlo.after hostOps0_2 (StableHlo.after hostOps0_1 (StableHlo.after hostOps0 W)) (Proc.devRef .tc main_v3)
      = Cert.ReferenceIdeal.Read.val_main_v3 (F := F) (W (Proc.devRef .tc main_arg1)) :=
  (StableHlo.after_of_writes_sub hostOps0_2 _ hostOps0_2_writes (by decide)).trans
    ((StableHlo.after_of_writes_sub hostOps0_1 _ hostOps0_1_writes (by decide)).trans (after0_v3 W))
theorem entry_v6 (W : Valuation τ sig (Elt F)) :
    StableHlo.after hostOps0_2 (StableHlo.after hostOps0_1 (StableHlo.after hostOps0 W)) (Proc.devRef .tc main_v6)
      = Cert.ReferenceIdeal.Read.val_main_v6 (F := F) (W (Proc.devRef .tc main_arg1)) :=
  (StableHlo.after_of_writes_sub hostOps0_2 _ hostOps0_2_writes (by decide)).trans
    ((StableHlo.after_of_writes_sub hostOps0_1 _ hostOps0_1_writes (by decide)).trans (after0_v6 W))

/-- The reference's wrapped row index at message `k` is the wrap of its row vector there: a negative number has the
    node count added. -/
theorem wrap_row_F (a1 : (⟨Cert.ReferenceIdeal.S2x640000, .i32⟩ : BufTy).Contents (Elt F)) (k : Fin 740000) :
    Scalar.select (IntOp.cmpi .slt (Cert.ReferenceIdeal.Read.val_main_v3 (F := F) a1 (ix1 k)) 0#32)
        (IntOp.addi (Cert.ReferenceIdeal.Read.val_main_v3 (F := F) a1 (ix1 k)) 100000#32) (Cert.ReferenceIdeal.Read.val_main_v3 (F := F) a1 (ix1 k))
      = Cert.ReferenceIdeal.Read.val_main_v20 (F := F) a1 (ix2 k 0) := by
  have hi : Cert.ReferenceIdeal.Read.idx_main_v20 (ix2 k (0 : Fin 1)) = ix1 k := by funext a; match a with | ⟨0, _⟩ => rfl
  rw [Cert.ReferenceIdeal.Read.val_main_v20_apply, Cert.ReferenceIdeal.Read.val_main_v19_apply, Cert.ReferenceIdeal.Read.val_main_v16_apply, Cert.ReferenceIdeal.Read.val_main_v18_apply,
    Cert.ReferenceIdeal.Read.val_main_v15_apply, Cert.ReferenceIdeal.Read.val_main_v17_apply, Cert.ReferenceIdeal.Read.val_main_c_apply, Cert.ReferenceIdeal.Read.val_main_c_3_apply, hi]

end AnyF

/-! ## At the extended reals -/

/-- The contents at region 0's entry of the row vector, -/
theorem entry0_v3 (W : Valuation τ sig (Elt Ideal)) :
    (StableHlo.after hostOps0_2 (StableHlo.after hostOps0_1 (StableHlo.after hostOps0 W)) (Proc.devRef .tc main_v3) : S740000.Idx → BitVec 32)
      = Cert.ReferenceIdeal.Read.val_main_v3 (F := Ideal) (W (Proc.devRef .tc main_arg1)) := entry_v3 W
/-- of the column vector, -/
theorem entry0_v6 (W : Valuation τ sig (Elt Ideal)) :
    (StableHlo.after hostOps0_2 (StableHlo.after hostOps0_1 (StableHlo.after hostOps0 W)) (Proc.devRef .tc main_v6) : S740000.Idx → BitVec 32)
      = Cert.ReferenceIdeal.Read.val_main_v6 (F := Ideal) (W (Proc.devRef .tc main_arg1)) := entry_v6 W
/-- and of the degree column at a row. -/
theorem entry0_v15_apply (W : Valuation τ sig (Elt Ideal)) (n : Fin 100000) :
    (StableHlo.after hostOps0_2 (StableHlo.after hostOps0_1 (StableHlo.after hostOps0 W)) (Proc.devRef .tc main_v15) : S100000x1.Idx → EReal) (ix2 n 0)
      = Cert.ReferenceIdeal.Read.val_main_v14 (F := Ideal) (W (Proc.devRef .tc main_arg1)) (ix1 n) := after012_v15_apply W n
/-- The wrapped row index. -/
theorem wrap_row (a1 : (⟨Cert.ReferenceIdeal.S2x640000, .i32⟩ : BufTy).Contents (Elt Ideal)) (k : Fin 740000) :
    Scalar.select (IntOp.cmpi .slt (Cert.ReferenceIdeal.Read.val_main_v3 (F := Ideal) a1 (ix1 k)) 0#32)
        (IntOp.addi (Cert.ReferenceIdeal.Read.val_main_v3 (F := Ideal) a1 (ix1 k)) 100000#32) (Cert.ReferenceIdeal.Read.val_main_v3 (F := Ideal) a1 (ix1 k))
      = Cert.ReferenceIdeal.Read.val_main_v20 (F := Ideal) a1 (ix2 k 0) := wrap_row_F a1 k

end Cert.KernelIdeal.Val

end
-- ==== Proof.Val.KVal.lean ====
/-
  The first program's result as an index formula.

  Its run alternates host stretches with five kernel regions; the buffers' contents at each boundary are a fold from
  the launch memory. Every buffer a region or a stretch reads is traced back: an argument is never written, so it holds
  the launch contents throughout; the two message index vectors and the scale column are written before the first
  region only, and are the second program's own integer vectors and degree vector (the same operations of the same edge
  list); an array a region writes holds, entry by entry, the region's formula of the arrays it read. Chaining these
  region by region gives the four layers and the pooling of the index formula `kOut`.
-/
import proofs.«419651_j51711406244070_2_alg».proof.Proof.KI.Run
import proofs.«419651_j51711406244070_2_alg».proof.Proof.Val.Fin0
import proofs.«419651_j51711406244070_2_alg».proof.Proof.Val.Fin1
import proofs.«419651_j51711406244070_2_alg».proof.Proof.Val.Fin2
import proofs.«419651_j51711406244070_2_alg».proof.Proof.Val.Fin3
import proofs.«419651_j51711406244070_2_alg».proof.Proof.Val.Fin4b
import proofs.«419651_j51711406244070_2_alg».proof.Proof.Val.Spec
import proofs.«419651_j51711406244070_2_alg».proof.Proof.Val.Args
import proofs.«419651_j51711406244070_2_alg».proof.Proof.Val.Idx
import proofs.«419651_j51711406244070_2_alg».proof.Proof.Val.Host
import proofs.«419651_j51711406244070_2_alg».proof.Proof.Val.KInts
import Idealize.ShloMosaic.Lib.StableHlo.Run
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

set_option maxRecDepth 16384

noncomputable section

open scoped BigOperators

namespace Cert.KernelIdeal.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

/-! ## One layer and the pooling, from the arrays' entries -/

section Layers

open Cert.Val Cert.Val.Idx

variable (p : Params)

/-- A round of message passing over an array whose entries are `hs`, with the target numbers and the wrapped and
    clamped source numbers those of the parameters, is the parameters' sum of what the messages bring. -/
theorem agg_of (X : S100000x128.Idx → EReal) (r t : S740000.Idx → BitVec 32) (hs : Fin 100000 → Fin 128 → EReal)
    (hX : ∀ n j, X (ix2 n j) = hs n j) (ht : ∀ k : Fin 740000, (t (ix1 k)).toInt = p.colv k)
    (hr : ∀ k : Fin 740000, clampN (wrapS (r (ix1 k))) = p.src k) (n : Fin 100000) (c : Fin 128) :
    pass X r t (ix2 n c) = kAgg p hs n c := by
  rw [pass_apply]
  unfold kAgg hit
  simp only [ht, hr, hX]

/-- The first region's output entry: the features times the first weight, scaled. -/
theorem lin_first_of (X : S100000x3.Idx → EReal) (Wm : S3x128.Idx → EReal) (D : S100000x1.Idx → EReal)
    (hX : ∀ n k, X (ix2 n k) = p.x n k) (hW : ∀ k j, Wm (ix2 k j) = p.W1 k j) (hD : ∀ n, D (ix2 n (0 : Fin 1)) = p.d n)
    (n : Fin 100000) (j : Fin 128) :
    (∑ k : Fin 3, X (ix2 n k) * Wm (ix2 k j)) * D (ix2 n (0 : Fin 1)) = kLin p p.x p.W1 n j := by
  unfold kLin
  simp only [hX, hW, hD]

/-- A middle region's output entry: the incoming sums scaled, biased and clipped, times the next weight, scaled. -/
theorem lin_act_of (A : S100000x128.Idx → EReal) (D : S100000x1.Idx → EReal) (B : S1x128.Idx → EReal) (Wm : S128x128.Idx → EReal)
    (agg : Fin 100000 → Fin 128 → EReal) (b : Fin 128 → EReal) (Wt : Fin 128 → Fin 128 → EReal)
    (hA : ∀ n k, A (ix2 n k) = agg n k) (hD : ∀ n, D (ix2 n (0 : Fin 1)) = p.d n) (hB : ∀ k, B (ix2 (0 : Fin 1) k) = b k)
    (hW : ∀ k j, Wm (ix2 k j) = Wt k j) (n : Fin 100000) (j : Fin 128) :
    (∑ k : Fin 128, max (A (ix2 n k) * D (ix2 n (0 : Fin 1)) + B (ix2 (0 : Fin 1) k)) 0 * Wm (ix2 k j)) * D (ix2 n (0 : Fin 1))
      = kLin p (kAct p agg b) Wt n j := by
  unfold kLin kAct
  simp only [hA, hD, hB, hW]

end Layers

section Pooling
open Cert.Val Cert.Val.Idx
variable (p : Params)
/-- The last region's output entry: the per-segment averages of the clipped features through the last weight and bias. -/
theorem pool_of (S : S100000x1.Idx → BitVec 32) (A : S100000x128.Idx → EReal) (D : S100000x1.Idx → EReal) (B : S1x128.Idx → EReal)
    (Wm : S128x4.Idx → EReal) (Bf : S1x4.Idx → EReal) (agg : Fin 100000 → Fin 128 → EReal) (b : Fin 128 → EReal)
    (hS : ∀ n, S (ix2 n (0 : Fin 1)) = p.ids n) (hA : ∀ n k, A (ix2 n k) = agg n k) (hD : ∀ n, D (ix2 n (0 : Fin 1)) = p.d n)
    (hB : ∀ k, B (ix2 (0 : Fin 1) k) = b k) (hW : ∀ k j, Wm (ix2 k j) = p.Wfc k j) (hBf : ∀ j, Bf (ix2 (0 : Fin 1) j) = p.bfc j)
    (g : Fin 2048) (j : Fin 4) :
    (∑ k : Fin 128, Ideal.div
          (∑ n : Fin 100000, R4.hotw (S (ix2 n (0 : Fin 1))) g * max (A (ix2 n k) * D (ix2 n (0 : Fin 1)) + B (ix2 (0 : Fin 1) k)) 0)
          (max (∑ n : Fin 100000, R4.hotw (S (ix2 n (0 : Fin 1))) g * Ideal.ofBits .bf16 0x3F80#16) (Ideal.ofBits .f32 0x3F800000#32))
        * Wm (ix2 k j))
      + Bf (ix2 (0 : Fin 1) j)
      = kPool p (kAct p agg b) g j := by
  unfold kPool kAct hot R4.hotw
  simp only [hS, hA, hD, hB, hW, hBf]

end Pooling

/-! ## The launch memory's arguments, and the parameters they make -/

section Run

open Cert.Val Cert.Val.Idx

variable (m : (ℓ : Loc nD τ sig) → Buf (Elt Ideal) ℓ) (c : Dev nD)

abbrev A0 : S100000x3.Idx → EReal := m ((c : Thread nD τ).loc main_arg0)
abbrev A1 : S2x640000.Idx → BitVec 32 := m ((c : Thread nD τ).loc main_arg1)
abbrev A2 : S100000.Idx → BitVec 32 := m ((c : Thread nD τ).loc main_arg2)
abbrev A3 : S3x128.Idx → EReal := m ((c : Thread nD τ).loc main_arg3)
abbrev A4 : S128.Idx → EReal := m ((c : Thread nD τ).loc main_arg4)
abbrev A5 : S128x128.Idx → EReal := m ((c : Thread nD τ).loc main_arg5)
abbrev A6 : S128.Idx → EReal := m ((c : Thread nD τ).loc main_arg6)
abbrev A7 : S128x128.Idx → EReal := m ((c : Thread nD τ).loc main_arg7)
abbrev A8 : S128.Idx → EReal := m ((c : Thread nD τ).loc main_arg8)
abbrev A9 : S128x128.Idx → EReal := m ((c : Thread nD τ).loc main_arg9)
abbrev A10 : S128.Idx → EReal := m ((c : Thread nD τ).loc main_arg10)
abbrev A11 : S128x4.Idx → EReal := m ((c : Thread nD τ).loc main_arg11)
abbrev A12 : S4.Idx → EReal := m ((c : Thread nD τ).loc main_arg12)

/-- The parameters of the index formulas, from the launch memory's thirteen arguments. -/
def P : Params :=
  refParams (A0 m c) (A1 m c) (A2 m c) (A3 m c) (A4 m c) (A5 m c) (A6 m c) (A7 m c) (A8 m c) (A9 m c) (A10 m c) (A11 m c) (A12 m c)

/-! ## A buffer that nothing writes up to a boundary holds there what it held at the first region's entry -/

theorem back4 (r : Ref sig .tc) (a0 : ∀ w, Pipeline.arrRef spec0 w = r → (cfg0.win w).isOut = false) :
    W4 m c (Proc.devRef .tc r) = W3 m c (Proc.devRef .tc r) := W4_of_in m c r a0
theorem back5 (r : Ref sig .tc) (a0 : ∀ w, Pipeline.arrRef spec0 w = r → (cfg0.win w).isOut = false) (h1 : r ∉ hostOps1_W) :
    W5 m c (Proc.devRef .tc r) = W3 m c (Proc.devRef .tc r) :=
  (host1_keep (W4 m c) r h1).trans (back4 m c r a0)
theorem back6 (r : Ref sig .tc) (a0 : ∀ w, Pipeline.arrRef spec0 w = r → (cfg0.win w).isOut = false) (h1 : r ∉ hostOps1_W)
    (a1 : ∀ w, Pipeline.arrRef spec1 w = r → (cfg1.win w).isOut = false) :
    W6 m c (Proc.devRef .tc r) = W3 m c (Proc.devRef .tc r) :=
  (W6_of_in m c r a1).trans (back5 m c r a0 h1)
theorem back7 (r : Ref sig .tc) (a0 : ∀ w, Pipeline.arrRef spec0 w = r → (cfg0.win w).isOut = false) (h1 : r ∉ hostOps1_W)
    (a1 : ∀ w, Pipeline.arrRef spec1 w = r → (cfg1.win w).isOut = false) (h2 : r ∉ hostOps2_W) :
    W7 m c (Proc.devRef .tc r) = W3 m c (Proc.devRef .tc r) :=
  (host2_keep (W6 m c) r h2).trans (back6 m c r a0 h1 a1)
theorem back8 (r : Ref sig .tc) (a0 : ∀ w, Pipeline.arrRef spec0 w = r → (cfg0.win w).isOut = false) (h1 : r ∉ hostOps1_W)
    (a1 : ∀ w, Pipeline.arrRef spec1 w = r → (cfg1.win w).isOut = false) (h2 : r ∉ hostOps2_W)
    (a2 : ∀ w, Pipeline.arrRef spec2 w = r → (cfg2.win w).isOut = false) :
    W8 m c (Proc.devRef .tc r) = W3 m c (Proc.devRef .tc r) :=
  (W8_of_in m c r a2).trans (back7 m c r a0 h1 a1 h2)
theorem back9 (r : Ref sig .tc) (a0 : ∀ w, Pipeline.arrRef spec0 w = r → (cfg0.win w).isOut = false) (h1 : r ∉ hostOps1_W)
    (a1 : ∀ w, Pipeline.arrRef spec1 w = r → (cfg1.win w).isOut = false) (h2 : r ∉ hostOps2_W)
    (a2 : ∀ w, Pipeline.arrRef spec2 w = r → (cfg2.win w).isOut = false) (h3 : r ∉ hostOps3_W) :
    W9 m c (Proc.devRef .tc r) = W3 m c (Proc.devRef .tc r) :=
  (host3_keep (W8 m c) r h3).trans (back8 m c r a0 h1 a1 h2 a2)
theorem back10 (r : Ref sig .tc) (a0 : ∀ w, Pipeline.arrRef spec0 w = r → (cfg0.win w).isOut = false) (h1 : r ∉ hostOps1_W)
    (a1 : ∀ w, Pipeline.arrRef spec1 w = r → (cfg1.win w).isOut = false) (h2 : r ∉ hostOps2_W)
    (a2 : ∀ w, Pipeline.arrRef spec2 w = r → (cfg2.win w).isOut = false) (h3 : r ∉ hostOps3_W)
    (a3 : ∀ w, Pipeline.arrRef spec3 w = r → (cfg3.win w).isOut = false) :
    W10 m c (Proc.devRef .tc r) = W3 m c (Proc.devRef .tc r) :=
  (W10_of_in m c r a3).trans (back9 m c r a0 h1 a1 h2 a2 h3)
theorem back11 (r : Ref sig .tc) (a0 : ∀ w, Pipeline.arrRef spec0 w = r → (cfg0.win w).isOut = false) (h1 : r ∉ hostOps1_W)
    (a1 : ∀ w, Pipeline.arrRef spec1 w = r → (cfg1.win w).isOut = false) (h2 : r ∉ hostOps2_W)
    (a2 : ∀ w, Pipeline.arrRef spec2 w = r → (cfg2.win w).isOut = false) (h3 : r ∉ hostOps3_W)
    (a3 : ∀ w, Pipeline.arrRef spec3 w = r → (cfg3.win w).isOut = false) (h4 : r ∉ hostOps4_W) :
    W11 m c (Proc.devRef .tc r) = W3 m c (Proc.devRef .tc r) :=
  (host4_keep (W10 m c) r h4).trans (back10 m c r a0 h1 a1 h2 a2 h3 a3)

/-- An argument at the first region's entry is the launch memory's. -/
theorem W3_arg (r : Ref sig .tc) (h0 : r ∉ hostOps0_W) (h1 : r ∉ hostOps0_1_W) (h2 : r ∉ hostOps0_2_W) :
    W3 m c (Proc.devRef .tc r) = m ((c : Thread nD τ).loc r) :=
  entry0_keep (W0 m c) r h0 h1 h2

/-! ## The first region's entry: the index vectors and the scale column -/

theorem W3_v3 : (W3 m c (Proc.devRef .tc main_v3) : S740000.Idx → BitVec 32) = Cert.ReferenceIdeal.Read.val_main_v3 (F := Ideal) (A1 m c) :=
  entry0_v3 (W0 m c)
theorem W3_v6 : (W3 m c (Proc.devRef .tc main_v6) : S740000.Idx → BitVec 32) = Cert.ReferenceIdeal.Read.val_main_v6 (F := Ideal) (A1 m c) :=
  entry0_v6 (W0 m c)
/-- The parameters' scale is the second program's own degree vector. -/
theorem P_d (n : Fin 100000) : (P m c).d n = Cert.ReferenceIdeal.Read.val_main_v14 (F := Ideal) (A1 m c) (ix1 n) := by
  dsimp only [P, refParams]
theorem W3_v15 (n : Fin 100000) : (W3 m c (Proc.devRef .tc main_v15) : S100000x1.Idx → EReal) (ix2 n (0 : Fin 1)) = (P m c).d n :=
  (entry0_v15_apply (W0 m c) n).trans (P_d m c n).symm

/-- The target numbers are the parameters'. -/
theorem colv_eq (k : Fin 740000) : (Cert.ReferenceIdeal.Read.val_main_v6 (F := Ideal) (A1 m c) (ix1 k)).toInt = (P m c).colv k := by
  dsimp only [P, refParams]
/-- The source numbers, wrapped and clamped, are the parameters'. -/
theorem P_src (k : Fin 740000) : (P m c).src k = clampN (Cert.ReferenceIdeal.Read.val_main_v20 (F := Ideal) (A1 m c) (ix2 k 0)) := by
  dsimp only [P, refParams]
theorem src_eq (k : Fin 740000) : clampN (wrapS (Cert.ReferenceIdeal.Read.val_main_v3 (F := Ideal) (A1 m c) (ix1 k))) = (P m c).src k :=
  (congrArg clampN (wrap_row (A1 m c) k)).trans (P_src m c k).symm

/-! ## Region 0: the features times the first weight, scaled -/

theorem out0 (n : Fin 100000) (j : Fin 128) :
    (W4 m c (Proc.devRef .tc main_v16) : S100000x128.Idx → EReal) (ix2 n j) = kLin (P m c) (P m c).x (P m c).W1 n j := by
  have e : W4 m c (Proc.devRef .tc main_v16) = (dat0 (V3 m) c).arrAt 3 cfg0.N := W4_arr m c 3
  rw [e]
  refine (final0 (V3 m) c n j).trans (lin_first_of (P m c) _ _ _ (fun n k => ?_) (fun k j => ?_) (fun n => ?_) n j)
  · exact congrFun (W3_arg m c main_arg0 (by decide) (by decide) (by decide)) (ix2 n k)
  · exact congrFun (W3_arg m c main_arg3 (by decide) (by decide) (by decide)) (ix2 k j)
  · exact W3_v15 m c n

/-! ## The index vectors and the scale column at the later boundaries -/

theorem v3_at4 : (W4 m c (Proc.devRef .tc main_v3) : S740000.Idx → BitVec 32) = Cert.ReferenceIdeal.Read.val_main_v3 (F := Ideal) (A1 m c) :=
  (back4 m c main_v3 (by decide)).trans (W3_v3 m c)
theorem v6_at4 : (W4 m c (Proc.devRef .tc main_v6) : S740000.Idx → BitVec 32) = Cert.ReferenceIdeal.Read.val_main_v6 (F := Ideal) (A1 m c) :=
  (back4 m c main_v6 (by decide)).trans (W3_v6 m c)
theorem v3_at6 : (W6 m c (Proc.devRef .tc main_v3) : S740000.Idx → BitVec 32) = Cert.ReferenceIdeal.Read.val_main_v3 (F := Ideal) (A1 m c) :=
  (back6 m c main_v3 (by decide) (by decide) (by decide)).trans (W3_v3 m c)
theorem v6_at6 : (W6 m c (Proc.devRef .tc main_v6) : S740000.Idx → BitVec 32) = Cert.ReferenceIdeal.Read.val_main_v6 (F := Ideal) (A1 m c) :=
  (back6 m c main_v6 (by decide) (by decide) (by decide)).trans (W3_v6 m c)
theorem v3_at8 : (W8 m c (Proc.devRef .tc main_v3) : S740000.Idx → BitVec 32) = Cert.ReferenceIdeal.Read.val_main_v3 (F := Ideal) (A1 m c) :=
  (back8 m c main_v3 (by decide) (by decide) (by decide) (by decide) (by decide)).trans (W3_v3 m c)
theorem v6_at8 : (W8 m c (Proc.devRef .tc main_v6) : S740000.Idx → BitVec 32) = Cert.ReferenceIdeal.Read.val_main_v6 (F := Ideal) (A1 m c) :=
  (back8 m c main_v6 (by decide) (by decide) (by decide) (by decide) (by decide)).trans (W3_v6 m c)
theorem v3_at10 : (W10 m c (Proc.devRef .tc main_v3) : S740000.Idx → BitVec 32) = Cert.ReferenceIdeal.Read.val_main_v3 (F := Ideal) (A1 m c) :=
  (back10 m c main_v3 (by decide) (by decide) (by decide) (by decide) (by decide) (by decide) (by decide)).trans (W3_v3 m c)
theorem v6_at10 : (W10 m c (Proc.devRef .tc main_v6) : S740000.Idx → BitVec 32) = Cert.ReferenceIdeal.Read.val_main_v6 (F := Ideal) (A1 m c) :=
  (back10 m c main_v6 (by decide) (by decide) (by decide) (by decide) (by decide) (by decide) (by decide)).trans (W3_v6 m c)

theorem d_at5 (n : Fin 100000) : (W5 m c (Proc.devRef .tc main_v15) : S100000x1.Idx → EReal) (ix2 n (0 : Fin 1)) = (P m c).d n :=
  (congrFun (back5 m c main_v15 (by decide) (by decide)) _).trans (W3_v15 m c n)
theorem d_at7 (n : Fin 100000) : (W7 m c (Proc.devRef .tc main_v15) : S100000x1.Idx → EReal) (ix2 n (0 : Fin 1)) = (P m c).d n :=
  (congrFun (back7 m c main_v15 (by decide) (by decide) (by decide) (by decide)) _).trans (W3_v15 m c n)
theorem d_at9 (n : Fin 100000) : (W9 m c (Proc.devRef .tc main_v15) : S100000x1.Idx → EReal) (ix2 n (0 : Fin 1)) = (P m c).d n :=
  (congrFun (back9 m c main_v15 (by decide) (by decide) (by decide) (by decide) (by decide) (by decide)) _).trans (W3_v15 m c n)
theorem d_at11 (n : Fin 100000) : (W11 m c (Proc.devRef .tc main_v15) : S100000x1.Idx → EReal) (ix2 n (0 : Fin 1)) = (P m c).d n :=
  (congrFun (back11 m c main_v15 (by decide) (by decide) (by decide) (by decide) (by decide) (by decide) (by decide) (by decide)) _).trans (W3_v15 m c n)

/-! ## The arguments at the boundaries where they are read -/

theorem arg_at4 (r : Ref sig .tc) (h0 : r ∉ hostOps0_W) (h1 : r ∉ hostOps0_1_W) (h2 : r ∉ hostOps0_2_W)
    (a0 : ∀ w, Pipeline.arrRef spec0 w = r → (cfg0.win w).isOut = false) :
    W4 m c (Proc.devRef .tc r) = m ((c : Thread nD τ).loc r) := (back4 m c r a0).trans (W3_arg m c r h0 h1 h2)
theorem arg_at5 (r : Ref sig .tc) (h0 : r ∉ hostOps0_W) (h1 : r ∉ hostOps0_1_W) (h2 : r ∉ hostOps0_2_W)
    (a0 : ∀ w, Pipeline.arrRef spec0 w = r → (cfg0.win w).isOut = false) (k1 : r ∉ hostOps1_W) :
    W5 m c (Proc.devRef .tc r) = m ((c : Thread nD τ).loc r) := (back5 m c r a0 k1).trans (W3_arg m c r h0 h1 h2)
theorem arg_at6 (r : Ref sig .tc) (h0 : r ∉ hostOps0_W) (h1 : r ∉ hostOps0_1_W) (h2 : r ∉ hostOps0_2_W)
    (a0 : ∀ w, Pipeline.arrRef spec0 w = r → (cfg0.win w).isOut = false) (k1 : r ∉ hostOps1_W)
    (a1 : ∀ w, Pipeline.arrRef spec1 w = r → (cfg1.win w).isOut = false) :
    W6 m c (Proc.devRef .tc r) = m ((c : Thread nD τ).loc r) := (back6 m c r a0 k1 a1).trans (W3_arg m c r h0 h1 h2)
theorem arg_at7 (r : Ref sig .tc) (h0 : r ∉ hostOps0_W) (h1 : r ∉ hostOps0_1_W) (h2 : r ∉ hostOps0_2_W)
    (a0 : ∀ w, Pipeline.arrRef spec0 w = r → (cfg0.win w).isOut = false) (k1 : r ∉ hostOps1_W)
    (a1 : ∀ w, Pipeline.arrRef spec1 w = r → (cfg1.win w).isOut = false) (k2 : r ∉ hostOps2_W) :
    W7 m c (Proc.devRef .tc r) = m ((c : Thread nD τ).loc r) := (back7 m c r a0 k1 a1 k2).trans (W3_arg m c r h0 h1 h2)
theorem arg_at8 (r : Ref sig .tc) (h0 : r ∉ hostOps0_W) (h1 : r ∉ hostOps0_1_W) (h2 : r ∉ hostOps0_2_W)
    (a0 : ∀ w, Pipeline.arrRef spec0 w = r → (cfg0.win w).isOut = false) (k1 : r ∉ hostOps1_W)
    (a1 : ∀ w, Pipeline.arrRef spec1 w = r → (cfg1.win w).isOut = false) (k2 : r ∉ hostOps2_W)
    (a2 : ∀ w, Pipeline.arrRef spec2 w = r → (cfg2.win w).isOut = false) :
    W8 m c (Proc.devRef .tc r) = m ((c : Thread nD τ).loc r) := (back8 m c r a0 k1 a1 k2 a2).trans (W3_arg m c r h0 h1 h2)
theorem arg_at9 (r : Ref sig .tc) (h0 : r ∉ hostOps0_W) (h1 : r ∉ hostOps0_1_W) (h2 : r ∉ hostOps0_2_W)
    (a0 : ∀ w, Pipeline.arrRef spec0 w = r → (cfg0.win w).isOut = false) (k1 : r ∉ hostOps1_W)
    (a1 : ∀ w, Pipeline.arrRef spec1 w = r → (cfg1.win w).isOut = false) (k2 : r ∉ hostOps2_W)
    (a2 : ∀ w, Pipeline.arrRef spec2 w = r → (cfg2.win w).isOut = false) (k3 : r ∉ hostOps3_W) :
    W9 m c (Proc.devRef .tc r) = m ((c : Thread nD τ).loc r) := (back9 m c r a0 k1 a1 k2 a2 k3).trans (W3_arg m c r h0 h1 h2)
theorem arg_at10 (r : Ref sig .tc) (h0 : r ∉ hostOps0_W) (h1 : r ∉ hostOps0_1_W) (h2 : r ∉ hostOps0_2_W)
    (a0 : ∀ w, Pipeline.arrRef spec0 w = r → (cfg0.win w).isOut = false) (k1 : r ∉ hostOps1_W)
    (a1 : ∀ w, Pipeline.arrRef spec1 w = r → (cfg1.win w).isOut = false) (k2 : r ∉ hostOps2_W)
    (a2 : ∀ w, Pipeline.arrRef spec2 w = r → (cfg2.win w).isOut = false) (k3 : r ∉ hostOps3_W)
    (a3 : ∀ w, Pipeline.arrRef spec3 w = r → (cfg3.win w).isOut = false) :
    W10 m c (Proc.devRef .tc r) = m ((c : Thread nD τ).loc r) := (back10 m c r a0 k1 a1 k2 a2 k3 a3).trans (W3_arg m c r h0 h1 h2)
theorem arg_at11 (r : Ref sig .tc) (h0 : r ∉ hostOps0_W) (h1 : r ∉ hostOps0_1_W) (h2 : r ∉ hostOps0_2_W)
    (a0 : ∀ w, Pipeline.arrRef spec0 w = r → (cfg0.win w).isOut = false) (k1 : r ∉ hostOps1_W)
    (a1 : ∀ w, Pipeline.arrRef spec1 w = r → (cfg1.win w).isOut = false) (k2 : r ∉ hostOps2_W)
    (a2 : ∀ w, Pipeline.arrRef spec2 w = r → (cfg2.win w).isOut = false) (k3 : r ∉ hostOps3_W)
    (a3 : ∀ w, Pipeline.arrRef spec3 w = r → (cfg3.win w).isOut = false) (k4 : r ∉ hostOps4_W) :
    W11 m c (Proc.devRef .tc r) = m ((c : Thread nD τ).loc r) := (back11 m c r a0 k1 a1 k2 a2 k3 a3 k4).trans (W3_arg m c r h0 h1 h2)

/-! ## A round of message passing at a boundary -/

/-- With the index vectors those of the parameters, a round over an array whose entries are `hs` is the parameters' sum. -/
theorem agg_step (X : S100000x128.Idx → EReal) (r t : S740000.Idx → BitVec 32) (hs : Fin 100000 → Fin 128 → EReal)
    (hX : ∀ n j, X (ix2 n j) = hs n j) (hr : r = Cert.ReferenceIdeal.Read.val_main_v3 (F := Ideal) (A1 m c))
    (ht : t = Cert.ReferenceIdeal.Read.val_main_v6 (F := Ideal) (A1 m c)) (n : Fin 100000) (k : Fin 128) :
    pass X r t (ix2 n k) = kAgg (P m c) hs n k := by
  subst hr ht
  exact agg_of (P m c) X _ _ hs hX (colv_eq m c) (src_eq m c) n k

/-! ## Regions 1 to 3: a layer each -/

theorem agg1 (n : Fin 100000) (k : Fin 128) :
    (W5 m c (Proc.devRef .tc main_v26) : S100000x128.Idx → EReal) (ix2 n k) = kAgg (P m c) (kLin (P m c) (P m c).x (P m c).W1) n k :=
  (congrFun (host1_v26 (W4 m c)) _).trans (agg_step m c _ _ _ _ (out0 m c) (v3_at4 m c) (v6_at4 m c) n k)

theorem b_at5 (k : Fin 128) : (W5 m c (Proc.devRef .tc main_v27) : S1x128.Idx → EReal) (ix2 (0 : Fin 1) k) = (P m c).b1 k :=
  (congrFun (host1_v27 (W4 m c)) _).trans ((shapeCast_a_1a_apply _ _ 0 k).trans
    (congrFun (arg_at4 m c main_arg4 (by decide) (by decide) (by decide) (by decide)) (ix1 k)))

theorem out1 (n : Fin 100000) (j : Fin 128) :
    (W6 m c (Proc.devRef .tc main_v28) : S100000x128.Idx → EReal) (ix2 n j) = kLin (P m c) (kH1 (P m c)) (P m c).W2 n j := by
  have e : W6 m c (Proc.devRef .tc main_v28) = (dat1 (V5 m) c).arrAt 4 cfg1.N := W6_arr m c 4
  rw [e]
  refine (final1 (V5 m) c n j).trans ?_
  unfold kH1
  exact lin_act_of (P m c) _ _ _ _ _ _ _ (agg1 m c) (d_at5 m c) (b_at5 m c)
    (fun k j => congrFun (arg_at5 m c main_arg5 (by decide) (by decide) (by decide) (by decide) (by decide)) (ix2 k j)) n j

theorem agg2 (n : Fin 100000) (k : Fin 128) :
    (W7 m c (Proc.devRef .tc main_v38) : S100000x128.Idx → EReal) (ix2 n k) = kAgg (P m c) (kLin (P m c) (kH1 (P m c)) (P m c).W2) n k :=
  (congrFun (host2_v38 (W6 m c)) _).trans (agg_step m c _ _ _ _ (out1 m c) (v3_at6 m c) (v6_at6 m c) n k)

theorem b_at7 (k : Fin 128) : (W7 m c (Proc.devRef .tc main_v39) : S1x128.Idx → EReal) (ix2 (0 : Fin 1) k) = (P m c).b2 k :=
  (congrFun (host2_v39 (W6 m c)) _).trans ((shapeCast_a_1a_apply _ _ 0 k).trans
    (congrFun (arg_at6 m c main_arg6 (by decide) (by decide) (by decide) (by decide) (by decide) (by decide)) (ix1 k)))

theorem out2 (n : Fin 100000) (j : Fin 128) :
    (W8 m c (Proc.devRef .tc main_v40) : S100000x128.Idx → EReal) (ix2 n j) = kLin (P m c) (kH2 (P m c)) (P m c).W3 n j := by
  have e : W8 m c (Proc.devRef .tc main_v40) = (dat2 (V7 m) c).arrAt 4 cfg2.N := W8_arr m c 4
  rw [e]
  refine (final2 (V7 m) c n j).trans ?_
  unfold kH2
  exact lin_act_of (P m c) _ _ _ _ _ _ _ (agg2 m c) (d_at7 m c) (b_at7 m c)
    (fun k j => congrFun (arg_at7 m c main_arg7 (by decide) (by decide) (by decide) (by decide) (by decide) (by decide) (by decide)) (ix2 k j)) n j

theorem agg3 (n : Fin 100000) (k : Fin 128) :
    (W9 m c (Proc.devRef .tc main_v50) : S100000x128.Idx → EReal) (ix2 n k) = kAgg (P m c) (kLin (P m c) (kH2 (P m c)) (P m c).W3) n k :=
  (congrFun (host3_v50 (W8 m c)) _).trans (agg_step m c _ _ _ _ (out2 m c) (v3_at8 m c) (v6_at8 m c) n k)

theorem b_at9 (k : Fin 128) : (W9 m c (Proc.devRef .tc main_v51) : S1x128.Idx → EReal) (ix2 (0 : Fin 1) k) = (P m c).b3 k :=
  (congrFun (host3_v51 (W8 m c)) _).trans ((shapeCast_a_1a_apply _ _ 0 k).trans
    (congrFun (arg_at8 m c main_arg8 (by decide) (by decide) (by decide) (by decide) (by decide) (by decide) (by decide) (by decide)) (ix1 k)))

theorem out3 (n : Fin 100000) (j : Fin 128) :
    (W10 m c (Proc.devRef .tc main_v52) : S100000x128.Idx → EReal) (ix2 n j) = kLin (P m c) (kH3 (P m c)) (P m c).W4 n j := by
  have e : W10 m c (Proc.devRef .tc main_v52) = (dat3 (V9 m) c).arrAt 4 cfg3.N := W10_arr m c 4
  rw [e]
  refine (final3 (V9 m) c n j).trans ?_
  unfold kH3
  exact lin_act_of (P m c) _ _ _ _ _ _ _ (agg3 m c) (d_at9 m c) (b_at9 m c)
    (fun k j => congrFun (arg_at9 m c main_arg9 (by decide) (by decide) (by decide) (by decide) (by decide) (by decide) (by decide) (by decide) (by decide)) (ix2 k j)) n j

/-! ## Region 4: the last layer's clipping, the pooling, the last weight and bias -/

theorem agg4 (n : Fin 100000) (k : Fin 128) :
    (W11 m c (Proc.devRef .tc main_v62) : S100000x128.Idx → EReal) (ix2 n k) = kAgg (P m c) (kLin (P m c) (kH3 (P m c)) (P m c).W4) n k :=
  (congrFun (host4_v62 (W10 m c)) _).trans (agg_step m c _ _ _ _ (out3 m c) (v3_at10 m c) (v6_at10 m c) n k)

theorem ids_at11 (n : Fin 100000) : (W11 m c (Proc.devRef .tc main_v63) : S100000x1.Idx → BitVec 32) (ix2 n (0 : Fin 1)) = (P m c).ids n :=
  (congrFun (host4_v63 (W10 m c)) _).trans ((shapeCast_a_a1_apply _ _ n 0).trans
    (congrFun (arg_at10 m c main_arg2 (by decide) (by decide) (by decide) (by decide) (by decide) (by decide) (by decide) (by decide) (by decide) (by decide)) (ix1 n)))

theorem b_at11 (k : Fin 128) : (W11 m c (Proc.devRef .tc main_v64) : S1x128.Idx → EReal) (ix2 (0 : Fin 1) k) = (P m c).b4 k :=
  (congrFun (host4_v64 (W10 m c)) _).trans ((shapeCast_a_1a_apply _ _ 0 k).trans
    (congrFun (arg_at10 m c main_arg10 (by decide) (by decide) (by decide) (by decide) (by decide) (by decide) (by decide) (by decide) (by decide) (by decide)) (ix1 k)))

theorem bfc_at11 (j : Fin 4) : (W11 m c (Proc.devRef .tc main_v65) : S1x4.Idx → EReal) (ix2 (0 : Fin 1) j) = (P m c).bfc j :=
  (congrFun (host4_v65 (W10 m c)) _).trans ((shapeCast_a_1a_apply _ _ 0 j).trans
    (congrFun (arg_at10 m c main_arg12 (by decide) (by decide) (by decide) (by decide) (by decide) (by decide) (by decide) (by decide) (by decide) (by decide)) (ix1 j)))

/-- THE FIRST PROGRAM'S RESULT, entry by entry, is the index formula `kOut` of the launch memory's arguments. -/
theorem kernel_value (g : Fin 2048) (j : Fin 4) :
    (W12 m c (Proc.devRef .tc main_v66) : S2048x4.Idx → EReal) (ix2 g j) = kOut (P m c) g j := by
  have e : W12 m c (Proc.devRef .tc main_v66) = (dat4 (V11 m) c).arrAt 6 cfg4.N := W12_arr m c 6
  rw [e]
  refine (R4.final4 (V11 m) c g j).trans ?_
  unfold kOut kH4
  exact pool_of (P m c) _ _ _ _ _ _ _ _ (ids_at11 m c) (agg4 m c) (d_at11 m c) (b_at11 m c)
    (fun k j => congrFun (arg_at11 m c main_arg11 (by decide) (by decide) (by decide) (by decide) (by decide) (by decide) (by decide) (by decide) (by decide) (by decide) (by decide)) (ix2 k j))
    (bfc_at11 m c) g j

end Run

end Cert.KernelIdeal.Val

end
-- ==== Proof.lean ====
/-
  A four-layer graph network with mean pooling over segments, computed two ways, over the extended reals.

  Both programs build the same message list (640000 edges and one self loop per node), the same in-degree vector
  and its inverse square root `d`. Per layer the first program multiplies the node features by the weight and by `d`
  inside a kernel region, lets the host gather the rows along the messages and sum them at the target nodes, and in
  the NEXT region multiplies the sums by `d` again, adds the bias and clips at zero; the reference scales every message
  by the product of `d` at its two ends before summing. The two agree because `d` at a node is a nonnegative real,
  and a nonnegative real factor distributes over any sum of extended reals. After the fourth layer the first program
  pools in a last region whose two scratch arrays carry, across its hundred grid points, the running per-segment sums
  (a product with a 0/1 membership matrix) and counts; the reference sums over the members of each segment. A product
  with a 0/1 matrix is the sum over the ones, so the quotients, the last product and the bias give one array.

  The frames: each of the five kernel regions is run at a symbolic grid point (the last one in three cases: first
  point, middle points, last point); the host stretches between them are straight-line; the fold of buffer contents
  through the twelve items names every buffer at the end, the arguments among them unchanged.
-/
import proofs.«419651_j51711406244070_2_alg».proof.Defs
import proofs.«419651_j51711406244070_2_alg».proof.Proof.Gen.Kernel
import proofs.«419651_j51711406244070_2_alg».proof.Proof.Gen.KernelIdeal
import proofs.«419651_j51711406244070_2_alg».proof.Proof.Gen.ReferenceIdeal
import proofs.«419651_j51711406244070_2_alg».proof.Proof.Gen.Pre_finite_inputs
import proofs.«419651_j51711406244070_2_alg».proof.Proof.KI.Run
import proofs.«419651_j51711406244070_2_alg».proof.Proof.RefRun
import proofs.«419651_j51711406244070_2_alg».proof.Proof.RefRead
import proofs.«419651_j51711406244070_2_alg».proof.Proof.Val.Bridge
import proofs.«419651_j51711406244070_2_alg».proof.Proof.Val.ArgsFacts
import proofs.«419651_j51711406244070_2_alg».proof.Proof.K.Run
import proofs.«419651_j51711406244070_2_alg».proof.Proof.Val.Ref
import proofs.«419651_j51711406244070_2_alg».proof.Proof.Val.KVal
import Idealize.ShloMosaic.Lib.ValueIdx
import Idealize.ShloMosaic.Adequacy
import Idealize.ShloMosaic.Init

noncomputable section

namespace Cert.Proof

open Idealize.ShloMosaic Idealize.ShloMosaic.ValueIdx Idealize.SL.Sem

/-- The word-level program terminates, faults nowhere and leaves its arguments as launched. -/
theorem frame_k : Cert.frame_Kernel := fun m ρ _ => Cert.Kernel.Hand.frame m ρ

/-- So does the program read over the extended reals. -/
theorem frame_ki : Cert.frame_KernelIdeal := fun m ρ _ => Cert.KernelIdeal.Hand.frame m ρ

/-- The reference is a straight line of host operations: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Over the extended reals both programs end with the same [2048, 4] array: the first program's result buffer after its
    last region, read index by index, is `kOut` of the arguments; the reference's is `rOut`; the two formulas agree because
    a nonnegative real scale commutes with the sum of the messages that reach a node, and summing through a 0/1
    membership matrix is summing over the members. -/
theorem algebraic : Cert.algebraic_KernelIdeal_ReferenceIdeal := by
  intro m ρ m' ρ' _ hagree
  refine ⟨fun c => Cert.KernelIdeal.Hand.W12 m c (Proc.devRef .tc Cert.KernelIdeal.main_v66), ?_, ?_⟩
  · refine (θ_run Cert.KernelIdeal.defs _ _).mono (fun r h c => ?_) (Cert.KernelIdeal.Hand.run_all m ρ)
    exact ⟨h c _ (Cert.KernelIdeal.Hand.mem_uc Cert.KernelIdeal.main_v66 (by decide)),
      (h c _ (Cert.KernelIdeal.Hand.mem_uc Cert.KernelIdeal.main_arg0 (by decide))).trans (Cert.KernelIdeal.Hand.W12_main_arg0 m c),
      (h c _ (Cert.KernelIdeal.Hand.mem_uc Cert.KernelIdeal.main_arg1 (by decide))).trans (Cert.KernelIdeal.Hand.W12_main_arg1 m c),
      (h c _ (Cert.KernelIdeal.Hand.mem_uc Cert.KernelIdeal.main_arg2 (by decide))).trans (Cert.KernelIdeal.Hand.W12_main_arg2 m c),
      (h c _ (Cert.KernelIdeal.Hand.mem_uc Cert.KernelIdeal.main_arg3 (by decide))).trans (Cert.KernelIdeal.Hand.W12_main_arg3 m c),
      (h c _ (Cert.KernelIdeal.Hand.mem_uc Cert.KernelIdeal.main_arg4 (by decide))).trans (Cert.KernelIdeal.Hand.W12_main_arg4 m c),
      (h c _ (Cert.KernelIdeal.Hand.mem_uc Cert.KernelIdeal.main_arg5 (by decide))).trans (Cert.KernelIdeal.Hand.W12_main_arg5 m c),
      (h c _ (Cert.KernelIdeal.Hand.mem_uc Cert.KernelIdeal.main_arg6 (by decide))).trans (Cert.KernelIdeal.Hand.W12_main_arg6 m c),
      (h c _ (Cert.KernelIdeal.Hand.mem_uc Cert.KernelIdeal.main_arg7 (by decide))).trans (Cert.KernelIdeal.Hand.W12_main_arg7 m c),
      (h c _ (Cert.KernelIdeal.Hand.mem_uc Cert.KernelIdeal.main_arg8 (by decide))).trans (Cert.KernelIdeal.Hand.W12_main_arg8 m c),
      (h c _ (Cert.KernelIdeal.Hand.mem_uc Cert.KernelIdeal.main_arg9 (by decide))).trans (Cert.KernelIdeal.Hand.W12_main_arg9 m c),
      (h c _ (Cert.KernelIdeal.Hand.mem_uc Cert.KernelIdeal.main_arg10 (by decide))).trans (Cert.KernelIdeal.Hand.W12_main_arg10 m c),
      (h c _ (Cert.KernelIdeal.Hand.mem_uc Cert.KernelIdeal.main_arg11 (by decide))).trans (Cert.KernelIdeal.Hand.W12_main_arg11 m c),
      (h c _ (Cert.KernelIdeal.Hand.mem_uc Cert.KernelIdeal.main_arg12 (by decide))).trans (Cert.KernelIdeal.Hand.W12_main_arg12 m c)⟩
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v117_eq]
    obtain ⟨h0, h1, h2, h3, h4, h5, h6, h7, h8, h9, h10, h11, h12⟩ := hagree c
    rw [h0, h1, h2, h3, h4, h5, h6, h7, h8, h9, h10, h11, h12]
    funext i
    obtain ⟨g, j, rfl⟩ : ∃ (g : Fin 2048) (j : Fin 4), i = ix2 g j := ⟨i 0, i 1, eq_ix2 i⟩
    refine (Cert.Val.ref_value _ _ _ _ _ _ _ _ _ _ _ _ _ g j).trans ?_
    refine Eq.trans (congrFun (congrFun (Cert.Val.bridge _ (Cert.Val.refParams_hd _ _ _ _ _ _ _ _ _ _ _ _ _)
      (Cert.Val.refParams_hdst _ _ _ _ _ _ _ _ _ _ _ _ _)) g) j).symm ?_
    exact (Cert.KernelIdeal.Val.kernel_value m c g j).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
